-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S200000x64 : Shape := ⟨2, ![200000, 64]⟩
abbrev S2x200000 : Shape := ⟨2, ![2, 200000]⟩
abbrev S128x128 : Shape := ⟨2, ![128, 128]⟩
abbrev S128 : Shape := ⟨1, ![128]⟩
abbrev S64x128 : Shape := ⟨2, ![64, 128]⟩
abbrev S768x512 : Shape := ⟨2, ![768, 512]⟩
abbrev S512 : Shape := ⟨1, ![512]⟩
abbrev S512x128 : Shape := ⟨2, ![512, 128]⟩
abbrev S384x128 : Shape := ⟨2, ![384, 128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S384x128 : S_.BroadcastsInDim S384x128 (![] : Fin 0 → Fin S384x128.rank)
  reducesTo_S384x128_S_d0_1 : S384x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x200000 : S_.BroadcastsInDim S2x200000 (![] : Fin 0 → Fin S2x200000.rank)
  reducesTo_S2x200000_S_d0_1 : S2x200000.ReducesTo [0, 1] S_

variable [Facts]

def fn_part7 {F : FTy → Type} [FloatOps F] (main_arg2 : IVec S2x200000 32) (main_arg26 : FVec F S1 .f32) (main_v118 : IVec S_ 1) (main_v119 : FVec F S128x1 .f32) : IVec S_ 1 :=
  let main_cst_46 : FVec F S_ .f32 := constant S_ .f32 0x7F800000#32
  let main_v120 : FVec F S128x1 .f32 := broadcastInDim S128x1 ![] bcast_S_S128x1 main_cst_46
  let main_v121 : IVec S128x1 1 := cmpf .olt main_v119 main_v120
  let main_c_47 : IVec S_ 1 := constantI S_ 1 1#1
  let main_v122 : IVec S_ 1 := (fun x v => Host.reduce IntOp.andi x v reducesTo_S128x1_S_d0_1 h_S_) main_v121 main_c_47
  let main_v123 : IVec S_ 1 := andi main_v118 main_v122
  let main_v124 : FVec F S1 .f32 := Host.absf main_arg26
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  let main_c_50 : IVec S_ 32 := constantI S_ 32 0#32
  let main_v129 : IVec S2x200000 32 := broadcastInDim S2x200000 ![] bcast_S_S2x200000 main_c_50
  let main_v130 : IVec S2x200000 1 := cmpi .sge main_arg2 main_v129
  let main_c_51 : IVec S_ 32 := constantI S_ 32 10000#32
  let main_v131 : IVec S2x200000 32 := broadcastInDim S2x200000 ![] bcast_S_S2x200000 main_c_51
  let main_v132 : IVec S2x200000 1 := cmpi .slt main_arg2 main_v131
  let main_v133 : IVec S2x200000 1 := andi main_v130 main_v132
  let main_c_52 : IVec S_ 1 := constantI S_ 1 1#1
  let main_v134 : IVec S_ 1 := (fun x v => Host.reduce IntOp.andi x v reducesTo_S2x200000_S_d0_1 h_S_) main_v133 main_c_52
  let main_v135 : IVec S_ 1 := andi main_v128 main_v134
  main_v135

def fn_part6 {F : FTy → Type} [FloatOps F] (main_arg2 : IVec S2x200000 32) (main_arg22 : FVec F S1 .f32) (main_arg23 : FVec F S128x128 .f32) (main_arg24 : FVec F S128 .f32) (main_arg25 : FVec F S128x1 .f32) (main_arg26 : FVec F S1 .f32) (main_v98 : IVec S_ 1) (main_v101 : IVec S128x1 1) (main_c_39 : IVec S_ 1) : IVec S_ 1 :=
  let main_v102 : IVec S_ 1 := (fun x v => Host.reduce IntOp.andi x v reducesTo_S128x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_v109 : FVec F S128x128 .f32 := Host.absf main_arg23
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x1 .f32 := Host.absf main_arg25
  fn_part7 (F := F) main_arg2 main_arg26 main_v118 main_v119

def fn_part5 {F : FTy → Type} [FloatOps F] (main_arg2 : IVec S2x200000 32) (main_arg19 : FVec F S128x128 .f32) (main_arg20 : FVec F S128 .f32) (main_arg21 : FVec F S128x1 .f32) (main_arg22 : FVec F S1 .f32) (main_arg23 : FVec F S128x128 .f32) (main_arg24 : FVec F S128 .f32) (main_arg25 : FVec F S128x1 .f32) (main_arg26 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg19
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x1 .f32 := Host.absf main_arg21
  let main_cst_38 : FVec F S_ .f32 := constant S_ .f32 0x7F800000#32
  let main_v100 : FVec F S128x1 .f32 := broadcastInDim S128x1 ![] bcast_S_S128x1 main_cst_38
  let main_v101 : IVec S128x1 1 := cmpf .olt main_v99 main_v100
  let main_c_39 : IVec S_ 1 := constantI S_ 1 1#1
  fn_part6 (F := F) main_arg2 main_arg22 main_arg23 main_arg24 main_arg25 main_arg26 main_v98 main_v101 main_c_39

def fn_part4 {F : FTy → Type} [FloatOps F] (main_arg2 : IVec S2x200000 32) (main_arg15 : FVec F S384x128 .f32) (main_arg16 : FVec F S128 .f32) (main_arg17 : FVec F S128x128 .f32) (main_arg18 : FVec F S128 .f32) (main_arg19 : FVec F S128x128 .f32) (main_arg20 : FVec F S128 .f32) (main_arg21 : FVec F S128x1 .f32) (main_arg22 : FVec F S1 .f32) (main_arg23 : FVec F S128x128 .f32) (main_arg24 : FVec F S128 .f32) (main_arg25 : FVec F S128x1 .f32) (main_arg26 : FVec F S1 .f32) (main_v63 : IVec S_ 1) (main_v67 : IVec S_ 1) : IVec S_ 1 :=
  let main_v68 : IVec S_ 1 := andi main_v63 main_v67
  let main_v69 : FVec F S384x128 .f32 := Host.absf main_arg15
  let main_cst_26 : FVec F S_ .f32 := constant S_ .f32 0x7F800000#32
  let main_v70 : FVec F S384x128 .f32 := broadcastInDim S384x128 ![] bcast_S_S384x128 main_cst_26
  let main_v71 : IVec S384x128 1 := cmpf .olt main_v69 main_v70
  let main_c_27 : IVec S_ 1 := constantI S_ 1 1#1
  let main_v72 : IVec S_ 1 := (fun x v => Host.reduce IntOp.andi x v reducesTo_S384x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg2 main_arg19 main_arg20 main_arg21 main_arg22 main_arg23 main_arg24 main_arg25 main_arg26 main_v83 main_v84 main_cst_32

def fn_part3 {F : FTy → Type} [FloatOps F] (main_arg2 : IVec S2x200000 32) (main_arg12 : FVec F S512 .f32) (main_arg13 : FVec F S512x128 .f32) (main_arg14 : FVec F S128 .f32) (main_arg15 : FVec F S384x128 .f32) (main_arg16 : FVec F S128 .f32) (main_arg17 : FVec F S128x128 .f32) (main_arg18 : FVec F S128 .f32) (main_arg19 : FVec F S128x128 .f32) (main_arg20 : FVec F S128 .f32) (main_arg21 : FVec F S128x1 .f32) (main_arg22 : FVec F S1 .f32) (main_arg23 : FVec F S128x128 .f32) (main_arg24 : FVec F S128 .f32) (main_arg25 : FVec F S128x1 .f32) (main_arg26 : FVec F S1 .f32) (main_v48 : IVec S_ 1) (main_v49 : FVec F S768x512 .f32) (main_v50 : FVec F S768x512 .f32) : IVec S_ 1 :=
  let main_v51 : IVec S768x512 1 := cmpf .olt main_v49 main_v50
  let main_c_19 : IVec S_ 1 := constantI S_ 1 1#1
  let main_v52 : IVec S_ 1 := (fun x v => Host.reduce IntOp.andi x v reducesTo_S768x512_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x128 .f32 := Host.absf main_arg13
  let main_cst_22 : FVec F S_ .f32 := constant S_ .f32 0x7F800000#32
  let main_v60 : FVec F S512x128 .f32 := broadcastInDim S512x128 ![] bcast_S_S512x128 main_cst_22
  let main_v61 : IVec S512x128 1 := cmpf .olt main_v59 main_v60
  let main_c_23 : IVec S_ 1 := constantI S_ 1 1#1
  let main_v62 : IVec S_ 1 := (fun x v => Host.reduce IntOp.andi x v reducesTo_S512x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_arg17 main_arg18 main_arg19 main_arg20 main_arg21 main_arg22 main_arg23 main_arg24 main_arg25 main_arg26 main_v63 main_v67

def fn_part2 {F : FTy → Type} [FloatOps F] (main_arg2 : IVec S2x200000 32) (main_arg8 : FVec F S128 .f32) (main_arg9 : FVec F S128x128 .f32) (main_arg10 : FVec F S128 .f32) (main_arg11 : FVec F S768x512 .f32) (main_arg12 : FVec F S512 .f32) (main_arg13 : FVec F S512x128 .f32) (main_arg14 : FVec F S128 .f32) (main_arg15 : FVec F S384x128 .f32) (main_arg16 : FVec F S128 .f32) (main_arg17 : FVec F S128x128 .f32) (main_arg18 : FVec F S128 .f32) (main_arg19 : FVec F S128x128 .f32) (main_arg20 : FVec F S128 .f32) (main_arg21 : FVec F S128x1 .f32) (main_arg22 : FVec F S1 .f32) (main_arg23 : FVec F S128x128 .f32) (main_arg24 : FVec F S128 .f32) (main_arg25 : FVec F S128x1 .f32) (main_arg26 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S768x512 .f32 := Host.absf main_arg11
  let main_cst_18 : FVec F S_ .f32 := constant S_ .f32 0x7F800000#32
  let main_v50 : FVec F S768x512 .f32 := broadcastInDim S768x512 ![] bcast_S_S768x512 main_cst_18
  fn_part3 (F := F) main_arg2 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg2 : IVec S2x200000 32) (main_arg5 : FVec F S128x128 .f32) (main_arg6 : FVec F S128 .f32) (main_arg7 : FVec F S64x128 .f32) (main_arg8 : FVec F S128 .f32) (main_arg9 : FVec F S128x128 .f32) (main_arg10 : FVec F S128 .f32) (main_arg11 : FVec F S768x512 .f32) (main_arg12 : FVec F S512 .f32) (main_arg13 : FVec F S512x128 .f32) (main_arg14 : FVec F S128 .f32) (main_arg15 : FVec F S384x128 .f32) (main_arg16 : FVec F S128 .f32) (main_arg17 : FVec F S128x128 .f32) (main_arg18 : FVec F S128 .f32) (main_arg19 : FVec F S128x128 .f32) (main_arg20 : FVec F S128 .f32) (main_arg21 : FVec F S128x1 .f32) (main_arg22 : FVec F S1 .f32) (main_arg23 : FVec F S128x128 .f32) (main_arg24 : FVec F S128 .f32) (main_arg25 : FVec F S128x1 .f32) (main_arg26 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S10000x128 .f32) (main_arg1 : FVec F S200000x64 .f32) (main_arg2 : IVec S2x200000 32) (main_arg3 : FVec F S128x128 .f32) (main_arg4 : FVec F S128 .f32) (main_arg5 : FVec F S128x128 .f32) (main_arg6 : FVec F S128 .f32) (main_arg7 : FVec F S64x128 .f32) (main_arg8 : FVec F S128 .f32) (main_arg9 : FVec F S128x128 .f32) (main_arg10 : FVec F S128 .f32) (main_arg11 : FVec F S768x512 .f32) (main_arg12 : FVec F S512 .f32) (main_arg13 : FVec F S512x128 .f32) (main_arg14 : FVec F S128 .f32) (main_arg15 : FVec F S384x128 .f32) (main_arg16 : FVec F S128 .f32) (main_arg17 : FVec F S128x128 .f32) (main_arg18 : FVec F S128 .f32) (main_arg19 : FVec F S128x128 .f32) (main_arg20 : FVec F S128 .f32) (main_arg21 : FVec F S128x1 .f32) (main_arg22 : FVec F S1 .f32) (main_arg23 : FVec F S128x128 .f32) (main_arg24 : FVec F S128 .f32) (main_arg25 : FVec F S128x1 .f32) (main_arg26 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S10000x128 : Shape := ⟨2, ![10000, 128]⟩
abbrev S200000x64 : Shape := ⟨2, ![200000, 64]⟩
abbrev S2x200000 : Shape := ⟨2, ![2, 200000]⟩
abbrev S128x128 : Shape := ⟨2, ![128, 128]⟩
abbrev S128 : Shape := ⟨1, ![128]⟩
abbrev S64x128 : Shape := ⟨2, ![64, 128]⟩
abbrev S768x512 : Shape := ⟨2, ![768, 512]⟩
abbrev S512 : Shape := ⟨1, ![512]⟩
abbrev S512x128 : Shape := ⟨2, ![512, 128]⟩
abbrev S384x128 : Shape := ⟨2, ![384, 128]⟩
abbrev S128x1 : Shape := ⟨2, ![128, 1]⟩
abbrev S1 : Shape := ⟨1, ![1]⟩
abbrev S1x200000 : Shape := ⟨2, ![1, 200000]⟩
abbrev S200000 : Shape := ⟨1, ![200000]⟩
abbrev S1x128 : Shape := ⟨2, ![1, 128]⟩
abbrev S200000x128 : Shape := ⟨2, ![200000, 128]⟩
abbrev S5000x64 : Shape := ⟨2, ![5000, 64]⟩
abbrev S5000x128 : Shape := ⟨2, ![5000, 128]⟩
abbrev S10000x256 : Shape := ⟨2, ![10000, 256]⟩
abbrev S200000x256 : Shape := ⟨2, ![200000, 256]⟩
abbrev S_ : Shape := ⟨0, ![]⟩
abbrev S200000x1 : Shape := ⟨2, ![200000, 1]⟩
abbrev S1x1 : Shape := ⟨2, ![1, 1]⟩
abbrev S2000x256 : Shape := ⟨2, ![2000, 256]⟩
abbrev S2000x128 : Shape := ⟨2, ![2000, 128]⟩
abbrev S2000x768 : Shape := ⟨2, ![2000, 768]⟩
abbrev S2000x512 : Shape := ⟨2, ![2000, 512]⟩
abbrev S1x512 : Shape := ⟨2, ![1, 512]⟩
abbrev S2000x384 : Shape := ⟨2, ![2000, 384]⟩
abbrev S10000x1 : Shape := ⟨2, ![10000, 1]⟩
abbrev S10000 : Shape := ⟨1, ![10000]⟩
abbrev S5000x1 : Shape := ⟨2, ![5000, 1]⟩

abbrev nBuf : Space → Nat
  | .hbm => 163
  | .vmem => 68
  | .smem => 0
  | _ => 0

abbrev hbmTy0_0 (i : Nat) : BufTy := match i % 128 with
  | 0 => ⟨S10000x128, .f32⟩
  | 1 => ⟨S200000x64, .f32⟩
  | 2 => ⟨S2x200000, .i32⟩
  | 3 => ⟨S128x128, .f32⟩
  | 4 => ⟨S128, .f32⟩
  | 5 => ⟨S128x128, .f32⟩
  | 6 => ⟨S128, .f32⟩
  | 7 => ⟨S64x128, .f32⟩
  | 8 => ⟨S128, .f32⟩
  | 9 => ⟨S128x128, .f32⟩
  | 10 => ⟨S128, .f32⟩
  | 11 => ⟨S768x512, .f32⟩
  | 12 => ⟨S512, .f32⟩
  | 13 => ⟨S512x128, .f32⟩
  | 14 => ⟨S128, .f32⟩
  | 15 => ⟨S384x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x1, .f32⟩
  | 22 => ⟨S1, .f32⟩
  | 23 => ⟨S128x128, .f32⟩
  | 24 => ⟨S128, .f32⟩
  | 25 => ⟨S128x1, .f32⟩
  | 26 => ⟨S1, .f32⟩
  | 27 => ⟨S1x200000, .i32⟩
  | 28 => ⟨S200000, .i32⟩
  | 29 => ⟨S1x200000, .i32⟩
  | 30 => ⟨S200000, .i32⟩
  | 31 => ⟨S128x128, .bf16⟩
  | 32 => ⟨S128x128, .bf16⟩
  | 33 => ⟨S10000x128, .f32⟩
  | 34 => ⟨S64x128, .bf16⟩
  | 35 => ⟨S128x128, .bf16⟩
  | 36 => ⟨S200000x128, .f32⟩
  | 37 => ⟨S10000x256, .f32⟩
  | 38 => ⟨S200000x256, .f32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S1, .i32⟩
  | 48 => ⟨S_, .i32⟩
  | 49 => ⟨S200000x1, .i32⟩
  | 50 => ⟨S200000x1, .i1⟩
  | 51 => ⟨S1x1, .i32⟩
  | 52 => ⟨S200000x1, .i32⟩
  | 53 => ⟨S200000x1, .i1⟩
  | 54 => ⟨S200000x1, .i1⟩
  | 55 => ⟨S_, .i1⟩
  | 56 => ⟨S200000, .i1⟩
  | 57 => ⟨S200000x256, .f32⟩
  | 58 => ⟨S200000x256, .i1⟩
  | 59 => ⟨S_, .f32⟩
  | 60 => ⟨S200000x256, .f32⟩
  | 61 => ⟨S200000x256, .f32⟩
  | 62 => ⟨S_, .i32⟩
  | 63 => ⟨S200000, .i32⟩
  | 64 => ⟨S200000, .i1⟩
  | 65 => ⟨S_, .i32⟩
  | 66 => ⟨S200000, .i32⟩
  | 67 => ⟨S200000, .i32⟩
  | 68 => ⟨S200000, .i32⟩
  | 69 => ⟨S200000x1, .i32⟩
  | 70 => ⟨S1, .i32⟩
  | 71 => ⟨S_, .i32⟩
  | 72 => ⟨S200000x1, .i32⟩
  | 73 => ⟨S200000x1, .i1⟩
  | 74 => ⟨S1x1, .i32⟩
  | 75 => ⟨S200000x1, .i32⟩
  | 76 => ⟨S200000x1, .i1⟩
  | 77 => ⟨S200000x1, .i1⟩
  | 78 => ⟨S_, .i1⟩
  | 79 => ⟨S200000, .i1⟩
  | 80 => ⟨S200000x256, .f32⟩
  | 81 => ⟨S200000x256, .i1⟩
  | 82 => ⟨S_, .f32⟩
  | 83 => ⟨S200000x256, .f32⟩
  | 84 => ⟨S200000x256, .f32⟩
  | 85 => ⟨S768x512, .bf16⟩
  | 86 => ⟨S512x128, .bf16⟩
  | 87 => ⟨S384x128, .bf16⟩
  | 88 => ⟨S200000x128, .f32⟩
  | 89 => ⟨S200000x128, .f32⟩
  | 90 => ⟨S_, .f32⟩
  | 91 => ⟨S10000x128, .f32⟩
  | 92 => ⟨S200000x1, .i32⟩
  | 93 => ⟨S10000x128, .f32⟩
  | 94 => ⟨S128x128, .bf16⟩
  | 95 => ⟨S10000x128, .f32⟩
  | 96 => ⟨S10000x256, .f32⟩
  | 97 => ⟨S200000x256, .f32⟩
  | 98 => ⟨S_, .i32⟩
  | 99 => ⟨S200000, .i32⟩
  | 100 => ⟨S200000, .i1⟩
  | 101 => ⟨S_, .i32⟩
  | 102 => ⟨S200000, .i32⟩
  | 103 => ⟨S200000, .i32⟩
  | 104 => ⟨S200000, .i32⟩
  | 105 => ⟨S200000x1, .i32⟩
  | 106 => ⟨S1, .i32⟩
  | 107 => ⟨S_, .i32⟩
  | 108 => ⟨S200000x1, .i32⟩
  | 109 => ⟨S200000x1, .i1⟩
  | 110 => ⟨S1x1, .i32⟩
  | 111 => ⟨S200000x1, .i32⟩
  | 112 => ⟨S200000x1, .i1⟩
  | 113 => ⟨S200000x1, .i1⟩
  | 114 => ⟨S_, .i1⟩
  | 115 => ⟨S200000, .i1⟩
  | 116 => ⟨S200000x256, .f32⟩
  | 117 => ⟨S200000x256, .i1⟩
  | 118 => ⟨S_, .f32⟩
  | 119 => ⟨S200000x256, .f32⟩
  | 120 => ⟨S200000x256, .f32⟩
  | 121 => ⟨S_, .i32⟩
  | 122 => ⟨S200000, .i32⟩
  | 123 => ⟨S200000, .i1⟩
  | 124 => ⟨S_, .i32⟩
  | 125 => ⟨S200000, .i32⟩
  | 126 => ⟨S200000, .i32⟩
  | 127 => ⟨S200000, .i32⟩
  | _ => ⟨S10000x128, .f32⟩

abbrev hbmTy0_1 (i : Nat) : BufTy := match i % 128 with
  | 0 => ⟨S200000x1, .i32⟩
  | 1 => ⟨S1, .i32⟩
  | 2 => ⟨S_, .i32⟩
  | 3 => ⟨S200000x1, .i32⟩
  | 4 => ⟨S200000x1, .i1⟩
  | 5 => ⟨S1x1, .i32⟩
  | 6 => ⟨S200000x1, .i32⟩
  | 7 => ⟨S200000x1, .i1⟩
  | 8 => ⟨S200000x1, .i1⟩
  | 9 => ⟨S_, .i1⟩
  | 10 => ⟨S200000, .i1⟩
  | 11 => ⟨S200000x256, .f32⟩
  | 12 => ⟨S200000x256, .i1⟩
  | 13 => ⟨S_, .f32⟩
  | 14 => ⟨S200000x256, .f32⟩
  | 15 => ⟨S200000x256, .f32⟩
  | 16 => ⟨S768x512, .bf16⟩
  | 17 => ⟨S512x128, .bf16⟩
  | 18 => ⟨S384x128, .bf16⟩
  | 19 => ⟨S200000x128, .f32⟩
  | 20 => ⟨S200000x128, .f32⟩
  | 21 => ⟨S_, .f32⟩
  | 22 => ⟨S10000x128, .f32⟩
  | 23 => ⟨S200000x1, .i32⟩
  | 24 => ⟨S10000x128, .f32⟩
  | 25 => ⟨S128x128, .bf16⟩
  | 26 => ⟨S10000x128, .f32⟩
  | 27 => ⟨S128x128, .bf16⟩
  | 28 => ⟨S128x1, .bf16⟩
  | 29 => ⟨S10000x1, .f32⟩
  | 30 => ⟨S10000, .f32⟩
  | 31 => ⟨S128x128, .bf16⟩
  | 32 => ⟨S128x1, .bf16⟩
  | 33 => ⟨S200000x1, .f32⟩
  | 34 => ⟨S200000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S128x128, .bf16⟩
  | .local _ .vmem, ⟨2, _⟩ => ⟨S128, .f32⟩
  | .local _ .vmem, ⟨3, _⟩ => ⟨S128x128, .bf16⟩
  | .local _ .vmem, ⟨4, _⟩ => ⟨S128, .f32⟩
  | .local _ .vmem, ⟨5, _⟩ => ⟨S10000x128, .f32⟩
  | .local _ .vmem, ⟨6, _⟩ => ⟨S5000x64, .f32⟩
  | .local _ .vmem, ⟨7, _⟩ => ⟨S5000x64, .f32⟩
  | .local _ .vmem, ⟨8, _⟩ => ⟨S64x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S768x512, .bf16⟩
  | .local _ .vmem, ⟨21, _⟩ => ⟨S512, .f32⟩
  | .local _ .vmem, ⟨22, _⟩ => ⟨S512x128, .bf16⟩
  | .local _ .vmem, ⟨23, _⟩ => ⟨S128, .f32⟩
  | .local _ .vmem, ⟨24, _⟩ => ⟨S384x128, .bf16⟩
  | .local _ .vmem, ⟨25, _⟩ => ⟨S128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S10000x128, .f32⟩
  | .local _ .vmem, ⟨31, _⟩ => ⟨S128x128, .bf16⟩
  | .local _ .vmem, ⟨32, _⟩ => ⟨S128, .f32⟩
  | .local _ .vmem, ⟨33, _⟩ => ⟨S10000x128, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S768x512, .bf16⟩
  | .local _ .vmem, ⟨41, _⟩ => ⟨S512, .f32⟩
  | .local _ .vmem, ⟨42, _⟩ => ⟨S512x128, .bf16⟩
  | .local _ .vmem, ⟨43, _⟩ => ⟨S128, .f32⟩
  | .local _ .vmem, ⟨44, _⟩ => ⟨S384x128, .bf16⟩
  | .local _ .vmem, ⟨45, _⟩ => ⟨S128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S10000x128, .f32⟩
  | .local _ .vmem, ⟨51, _⟩ => ⟨S128x128, .bf16⟩
  | .local _ .vmem, ⟨52, _⟩ => ⟨S128, .f32⟩
  | .local _ .vmem, ⟨53, _⟩ => ⟨S10000x128, .f32⟩
  | .local _ .vmem, ⟨54, _⟩ => ⟨S10000x128, .f32⟩
  | .local _ .vmem, ⟨55, _⟩ => ⟨S128x128, .bf16⟩
  | .local _ .vmem, ⟨56, _⟩ => ⟨S128, .f32⟩
  | .local _ .vmem, ⟨57, _⟩ => ⟨S128x1, .bf16⟩
  | .local _ .vmem, ⟨58, _⟩ => ⟨S1, .f32⟩
  | .local _ .vmem, ⟨59, _⟩ => ⟨S10000x1, .f32⟩
  | .local _ .vmem, ⟨60, _⟩ => ⟨S5000x128, .f32⟩
  | .local _ .vmem, ⟨61, _⟩ => ⟨S5000x128, .f32⟩
  | .local _ .vmem, ⟨62, _⟩ => ⟨S128x128, .bf16⟩
  | .local _ .vmem, ⟨63, _⟩ => ⟨S128, .f32⟩
  | .local _ .vmem, ⟨64, _⟩ => ⟨S128x1, .bf16⟩
  | .local _ .vmem, ⟨65, _⟩ => ⟨S1, .f32⟩
  | .local _ .vmem, ⟨66, _⟩ => ⟨S5000x1, .f32⟩
  | .local _ .vmem, ⟨67, _⟩ => ⟨S5000x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_cst : Ref sig .tc := ⟨.hbm, 59, rfl⟩
abbrev main_call0_v15 : Ref sig .tc := ⟨.hbm, 60, rfl⟩
abbrev main_v12 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v13 : Ref sig .tc := ⟨.hbm, 84, rfl⟩
abbrev main_v14 : Ref sig .tc := ⟨.hbm, 85, rfl⟩
abbrev main_v15 : Ref sig .tc := ⟨.hbm, 86, rfl⟩
abbrev main_v16 : Ref sig .tc := ⟨.hbm, 87, rfl⟩
abbrev main_v17_0 : Ref sig .tc := ⟨.hbm, 88, rfl⟩
abbrev main_v17_1 : Ref sig .tc := ⟨.hbm, 89, rfl⟩
abbrev main_cst : Ref sig .tc := ⟨.hbm, 90, rfl⟩
abbrev main_v18 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_v24 : Ref sig .tc := ⟨.hbm, 97, rfl⟩
abbrev main_call2_c : Ref sig .tc := ⟨.hbm, 98, rfl⟩
abbrev main_call2_v0 : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c_1 : Ref sig .tc := ⟨.hbm, 106, rfl⟩
abbrev main_call2_c_2 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_3 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_cst : Ref sig .tc := ⟨.hbm, 118, rfl⟩
abbrev main_call2_v15 : Ref sig .tc := ⟨.hbm, 119, rfl⟩
abbrev main_v25 : Ref sig .tc := ⟨.hbm, 120, rfl⟩
abbrev main_call3_c : Ref sig .tc := ⟨.hbm, 121, rfl⟩
abbrev main_call3_v0 : Ref sig .tc := ⟨.hbm, 122, rfl⟩
abbrev main_call3_v1 : Ref sig .tc := ⟨.hbm, 123, rfl⟩
abbrev main_call3_c_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_c_1 : Ref sig .tc := ⟨.hbm, 129, rfl⟩
abbrev main_call3_c_2 : Ref sig .tc := ⟨.hbm, 130, rfl⟩
abbrev main_call3_v6 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_c_3 : Ref sig .tc := ⟨.hbm, 137, rfl⟩
abbrev main_call3_v12 : Ref sig .tc := ⟨.hbm, 138, rfl⟩
abbrev main_call3_v13 : Ref sig .tc := ⟨.hbm, 139, rfl⟩
abbrev main_call3_v14 : Ref sig .tc := ⟨.hbm, 140, rfl⟩
abbrev main_call3_cst : Ref sig .tc := ⟨.hbm, 141, rfl⟩
abbrev main_call3_v15 : Ref sig .tc := ⟨.hbm, 142, rfl⟩
abbrev main_v26 : Ref sig .tc := ⟨.hbm, 143, rfl⟩
abbrev main_v27 : Ref sig .tc := ⟨.hbm, 144, rfl⟩
abbrev main_v28 : Ref sig .tc := ⟨.hbm, 145, rfl⟩
abbrev main_v29 : Ref sig .tc := ⟨.hbm, 146, rfl⟩
abbrev main_v30_0 : Ref sig .tc := ⟨.hbm, 147, rfl⟩
abbrev main_v30_1 : Ref sig .tc := ⟨.hbm, 148, rfl⟩
abbrev main_cst_0 : Ref sig .tc := ⟨.hbm, 149, rfl⟩
abbrev main_v31 : Ref sig .tc := ⟨.hbm, 150, rfl⟩
abbrev main_v32 : Ref sig .tc := ⟨.hbm, 151, rfl⟩
abbrev main_v33 : Ref sig .tc := ⟨.hbm, 152, rfl⟩
abbrev main_v34 : Ref sig .tc := ⟨.hbm, 153, rfl⟩
abbrev main_v35 : Ref sig .tc := ⟨.hbm, 154, rfl⟩
abbrev main_v36 : Ref sig .tc := ⟨.hbm, 155, rfl⟩
abbrev main_v37 : Ref sig .tc := ⟨.hbm, 156, rfl⟩
abbrev main_v38 : Ref sig .tc := ⟨.hbm, 157, rfl⟩
abbrev main_v39 : Ref sig .tc := ⟨.hbm, 158, rfl⟩
abbrev main_v40 : Ref sig .tc := ⟨.hbm, 159, rfl⟩
abbrev main_v41 : Ref sig .tc := ⟨.hbm, 160, rfl⟩
abbrev main_v42 : Ref sig .tc := ⟨.hbm, 161, rfl⟩
abbrev main_v43 : Ref sig .tc := ⟨.hbm, 162, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg9_1 : Ref sig .tc := ⟨.vmem, 27, rfl⟩
abbrev cc2_stg10_0 : Ref sig .tc := ⟨.vmem, 28, rfl⟩
abbrev cc2_stg10_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg7_0 : Ref sig .tc := ⟨.vmem, 44, rfl⟩
abbrev cc4_stg8_0 : Ref sig .tc := ⟨.vmem, 45, rfl⟩
abbrev cc4_stg9_0 : Ref sig .tc := ⟨.vmem, 46, rfl⟩
abbrev cc4_stg9_1 : Ref sig .tc := ⟨.vmem, 47, rfl⟩
abbrev cc4_stg10_0 : Ref sig .tc := ⟨.vmem, 48, rfl⟩
abbrev cc4_stg10_1 : Ref sig .tc := ⟨.vmem, 49, rfl⟩
abbrev cc5_stg0_0 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg4_0 : Ref sig .tc := ⟨.vmem, 65, rfl⟩
abbrev cc7_stg5_0 : Ref sig .tc := ⟨.vmem, 66, rfl⟩
abbrev cc7_stg5_1 : Ref sig .tc := ⟨.vmem, 67, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem9_1 : DmaSem sig := 27
abbrev cc2_sem10_0 : DmaSem sig := 28
abbrev cc2_sem10_1 : DmaSem sig := 29
abbrev cc3_sem0_0 : DmaSem sig := 30
abbrev cc3_sem1_0 : DmaSem sig := 31
abbrev cc3_sem2_0 : DmaSem sig := 32
abbrev cc3_sem3_0 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem7_0 : DmaSem sig := 44
abbrev cc4_sem8_0 : DmaSem sig := 45
abbrev cc4_sem9_0 : DmaSem sig := 46
abbrev cc4_sem9_1 : DmaSem sig := 47
abbrev cc4_sem10_0 : DmaSem sig := 48
abbrev cc4_sem10_1 : DmaSem sig := 49
abbrev cc5_sem0_0 : DmaSem sig := 50
abbrev cc5_sem1_0 : DmaSem sig := 51
abbrev cc5_sem2_0 : DmaSem sig := 52
abbrev cc5_sem3_0 : DmaSem sig := 53
abbrev cc6_sem0_0 : DmaSem sig := 54
abbrev cc6_sem1_0 : DmaSem sig := 55
abbrev cc6_sem2_0 : DmaSem sig := 56
abbrev cc6_sem3_0 : DmaSem sig := 57
abbrev cc6_sem4_0 : DmaSem sig := 58
abbrev cc6_sem5_0 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem4_0 : DmaSem sig := 65
abbrev cc7_sem5_0 : DmaSem sig := 66
abbrev cc7_sem5_1 : DmaSem sig := 67

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S768x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S384x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S10000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S10000x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S768x512 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S384x128 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S2000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S2000x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S10000x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S10000x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S10000x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S10000x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev grid7 : Pipeline.Grid := ⟨1, ![40], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x1 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S5000x64_S5000x64_0_0 : ∀ a, (![0, 0] : Fin 2 → Nat) a + S5000x64.size a ≤ S5000x64.size a
  h_S5000x64 : 0 < S5000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  concatenates_S10000x128_S10000x128_S10000x256_d1 : Shape.Concatenates [S10000x128, S10000x128] S10000x256 1
  concatenates_S200000x128_S200000x128_S200000x256_d1 : Shape.Concatenates [S200000x128, S200000x128] S200000x256 1
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x256_0 : S200000.BroadcastsInDim S200000x256 (![0] : Fin 1 → Fin S200000x256.rank)
  bcast_S_S200000x256 : S_.BroadcastsInDim S200000x256 (![] : Fin 0 → Fin S200000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  concatenates_S2000x256_S2000x256_S2000x256_S2000x768_d1 : Shape.Concatenates [S2000x256, S2000x256, S2000x256] S2000x768 1
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S2000x128 : S1x128.Broadcasts S2000x128
  concatenates_S2000x256_S2000x128_S2000x384_d1 : Shape.Concatenates [S2000x256, S2000x128] S2000x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S2000x128_S2000x128_0_0 : ∀ a, (![0, 0] : Fin 2 → Nat) a + S2000x128.size a ≤ S2000x128.size a
  h_S2000x128 : 0 < S2000x128.numel
  bcast_S_S10000x128 : S_.BroadcastsInDim S10000x128 (![] : Fin 0 → Fin S10000x128.rank)
  shapeCasts_S10000x128_S10000x128 : S10000x128.ShapeCasts S10000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S10000x1_S10000 : S10000x1.ShapeCasts S10000
  shapeCasts_S5000x128_S5000x128 : S5000x128.ShapeCasts S5000x128
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S200000x1_S200000 : S200000x1.ShapeCasts S200000
  dot_S10000x128_S128x128_S10000x128_1_0_0_1_n_n_wf : DotDims.WF S10000x128 S128x128 S10000x128 [1] [0] [0] [1] [] []
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S10000x256_S200000x1_S200000x256_1_0_n_n_0_1_1256_wf : GatherDims.WF S10000x256 S200000x1 S200000x256 [1] [0] [] [0] [] 1 ![1, 256]
  dot_S2000x768_S768x512_S2000x512_1_0_0_1_n_n_wf : DotDims.WF S2000x768 S768x512 S2000x512 [1] [0] [0] [1] [] []
  dot_S2000x512_S512x128_S2000x128_1_0_0_1_n_n_wf : DotDims.WF S2000x512 S512x128 S2000x128 [1] [0] [0] [1] [] []
  dot_S2000x384_S384x128_S2000x128_1_0_0_1_n_n_wf : DotDims.WF S2000x384 S384x128 S2000x128 [1] [0] [0] [1] [] []
  scatter_S10000x128_S200000x1_S200000x128_1_0_0_1_wf : ScatterDims.WF S10000x128 S200000x1 S200000x128 [1] [0] [0] 1
  dot_S10000x128_S128x1_S10000x1_1_0_0_1_n_n_wf : DotDims.WF S10000x128 S128x1 S10000x1 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S10000x128.size a
  hwx0_5 : ∀ i : grid0.Coords, EltTy.bits .f32 = 32 ∨ (Rect.block (s := S10000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .bf16 = 32 ∨ (Rect.block (s := S64x128) S64x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S200000x128.size a
  hwx1_5 : ∀ i : grid1.Coords, EltTy.bits .f32 = 32 ∨ (Rect.block (s := S200000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S200000x256.size a
  hwx2_0 : ∀ i : grid2.Coords, EltTy.bits .f32 = 32 ∨ (Rect.block (s := S200000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S200000x256.size a
  hwx2_1 : ∀ i : grid2.Coords, EltTy.bits .f32 = 32 ∨ (Rect.block (s := S200000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S200000x256.size a
  hwx2_2 : ∀ i : grid2.Coords, EltTy.bits .f32 = 32 ∨ (Rect.block (s := S200000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S768x512.size a ≤ S768x512.size a
  hwx2_3 : ∀ i : grid2.Coords, EltTy.bits .bf16 = 32 ∨ (Rect.block (s := S768x512) S768x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512.size a ≤ S512.size a
  hwx2_4 : ∀ i : grid2.Coords, EltTy.bits .f32 = 32 ∨ (Rect.block (s := S512) S512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S512x128.size a
  hwx2_5 : ∀ i : grid2.Coords, EltTy.bits .bf16 = 32 ∨ (Rect.block (s := S512x128) S512x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S384x128.size a ≤ S384x128.size a
  hwx2_7 : ∀ i : grid2.Coords, EltTy.bits .bf16 = 32 ∨ (Rect.block (s := S384x128) S384x128.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S200000x128.size a
  hwx2_9 : ∀ i : grid2.Coords, EltTy.bits .f32 = 32 ∨ (Rect.block (s := S200000x128) S2000x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S200000x128.size a
  hwx2_10 : ∀ i : grid2.Coords, EltTy.bits .f32 = 32 ∨ (Rect.block (s := S200000x128) S2000x128.size (cc2_transform_10 i) (hinb2_10 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S10000x128.size a
  hwx3_0 : ∀ i : grid3.Coords, EltTy.bits .f32 = 32 ∨ (Rect.block (s := S10000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S10000x128.size a
  hwx3_3 : ∀ i : grid3.Coords, EltTy.bits .f32 = 32 ∨ (Rect.block (s := S10000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S200000x256.size a
  hwx4_0 : ∀ i : grid4.Coords, EltTy.bits .f32 = 32 ∨ (Rect.block (s := S200000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S200000x256.size a
  hwx4_1 : ∀ i : grid4.Coords, EltTy.bits .f32 = 32 ∨ (Rect.block (s := S200000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S200000x256.size a
  hwx4_2 : ∀ i : grid4.Coords, EltTy.bits .f32 = 32 ∨ (Rect.block (s := S200000x256) S2000x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S768x512.size a ≤ S768x512.size a
  hwx4_3 : ∀ i : grid4.Coords, EltTy.bits .bf16 = 32 ∨ (Rect.block (s := S768x512) S768x512.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512.size a ≤ S512.size a
  hwx4_4 : ∀ i : grid4.Coords, EltTy.bits .f32 = 32 ∨ (Rect.block (s := S512) S512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x128.size a ≤ S512x128.size a
  hwx4_5 : ∀ i : grid4.Coords, EltTy.bits .bf16 = 32 ∨ (Rect.block (s := S512x128) S512x128.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S384x128.size a ≤ S384x128.size a
  hwx4_7 : ∀ i : grid4.Coords, EltTy.bits .bf16 = 32 ∨ (Rect.block (s := S384x128) S384x128.size (cc4_transform_7 i) (hinb4_7 i)).WholeWords (EltTy.packing .bf16)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128.size a ≤ S128.size a
  hwx4_8 : ∀ i : grid4.Coords, EltTy.bits .f32 = 32 ∨ (Rect.block (s := S128) S128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x128.size a ≤ S200000x128.size a
  hwx4_9 : ∀ i : grid4.Coords, EltTy.bits .f32 = 32 ∨ (Rect.block (s := S200000x128) S2000x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S2000x128.size a ≤ S200000x128.size a
  hwx4_10 : ∀ i : grid4.Coords, EltTy.bits .f32 = 32 ∨ (Rect.block (s := S200000x128) S2000x128.size (cc4_transform_10 i) (hinb4_10 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S10000x128.size a
  hwx5_0 : ∀ i : grid5.Coords, EltTy.bits .f32 = 32 ∨ (Rect.block (s := S10000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .bf16 = 32 ∨ (Rect.block (s := S128x128) S128x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S10000x128.size a
  hwx5_3 : ∀ i : grid5.Coords, EltTy.bits .f32 = 32 ∨ (Rect.block (s := S10000x128) S10000x128.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S10000x128.size a
  hwx6_0 : ∀ i : grid6.Coords, EltTy.bits .f32 = 32 ∨ (Rect.block (s := S10000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .bf16 = 32 ∨ (Rect.block (s := S128x128) S128x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .bf16 = 32 ∨ (Rect.block (s := S128x1) S128x1.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1.size a ≤ S1.size a
  hwx6_4 : ∀ i : grid6.Coords, EltTy.bits .f32 = 32 ∨ (Rect.block (s := S1) S1.size (cc6_transform_4 i) (hinb6_4 i)).WholeWords (EltTy.packing .f32)
  hstage6_5 : ∀ j, (stage6_5 j).IsWhole
  nbuf6_5 : grid6.bufCount reads6_5 false = 1
  hreads6_5 : ∀ i i' : grid6.Coords, (∀ a, reads6_5 a = true → i a = i' a) → cc6_transform_5 i = cc6_transform_5 i'
  hinb6_5 : ∀ (i : grid6.Coords) a, (cc6_transform_5 i a + 1) * S10000x1.size a ≤ S10000x1.size a
  hwx6_5 : ∀ i : grid6.Coords, EltTy.bits .f32 = 32 ∨ (Rect.block (s := S10000x1) S10000x1.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S200000x128.size a
  hwx7_0 : ∀ i : grid7.Coords, EltTy.bits .f32 = 32 ∨ (Rect.block (s := S200000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .bf16 = 32 ∨ (Rect.block (s := S128x128) S128x128.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x1.size a ≤ S128x1.size a
  hwx7_3 : ∀ i : grid7.Coords, EltTy.bits .bf16 = 32 ∨ (Rect.block (s := S128x1) S128x1.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1.size a ≤ S1.size a
  hwx7_4 : ∀ i : grid7.Coords, EltTy.bits .f32 = 32 ∨ (Rect.block (s := S1) S1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x1.size a ≤ S200000x1.size a
  hwx7_5 : ∀ i : grid7.Coords, EltTy.bits .f32 = 32 ∨ (Rect.block (s := S200000x1) S5000x1.size (cc7_transform_5 i) (hinb7_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S10000x256_S200000x1_S200000x256_1_0_n_n_0_1_1256 : GatherDims S10000x256 S200000x1 S200000x256 where
  offsetDims := [1]
  collapsedSliceDims := [0]
  operandBatchingDims := []
  startIndicesBatchingDims := []
  startIndexMap := [0]
  indexVectorDim := 1
  sliceSizes := ![1, 256]
  wf := gather_S10000x256_S200000x1_S200000x256_1_0_n_n_0_1_1256_wf
def dot_S2000x768_S768x512_S2000x512_1_0_0_1_n_n : DotDims S2000x768 S768x512 S2000x512 where
  lhsContracting := [1]
  rhsContracting := [0]
  lhsNonContracting := [0]
  rhsNonContracting := [1]
  lhsBatch := []
  rhsBatch := []
  wf := dot_S2000x768_S768x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S10000x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v12) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14) S768x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S512x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v16) S384x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg16) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v17_0) S2000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v17_1) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v20) S10000x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v21) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg18) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v22) S10000x128.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v25) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S2000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v27) S768x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v28) S512x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg14) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v29) S384x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg16) S128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v30_0) S2000x128.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v30_1) S2000x128.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v33) S10000x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v34) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg18) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v35) S10000x128.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v35) S10000x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v36) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg20) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v37) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg22) S1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v38) S10000x1.size cc6_transform_5 reads6_5 true false 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v30_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v40) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg24) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v41) S128x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg26) S1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v42) S5000x1.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S10000x128 : Shape := ⟨2, ![10000, 128]⟩
abbrev S200000x64 : Shape := ⟨2, ![200000, 64]⟩
abbrev S2x200000 : Shape := ⟨2, ![2, 200000]⟩
abbrev S128x128 : Shape := ⟨2, ![128, 128]⟩
abbrev S128 : Shape := ⟨1, ![128]⟩
abbrev S64x128 : Shape := ⟨2, ![64, 128]⟩
abbrev S768x512 : Shape := ⟨2, ![768, 512]⟩
abbrev S512 : Shape := ⟨1, ![512]⟩
abbrev S512x128 : Shape := ⟨2, ![512, 128]⟩
abbrev S384x128 : Shape := ⟨2, ![384, 128]⟩
abbrev S128x1 : Shape := ⟨2, ![128, 1]⟩
abbrev S1 : Shape := ⟨1, ![1]⟩
abbrev S1x200000 : Shape := ⟨2, ![1, 200000]⟩
abbrev S200000 : Shape := ⟨1, ![200000]⟩
abbrev S1x128 : Shape := ⟨2, ![1, 128]⟩
abbrev S_ : Shape := ⟨0, ![]⟩
abbrev S200000x128 : Shape := ⟨2, ![200000, 128]⟩
abbrev S10000x256 : Shape := ⟨2, ![10000, 256]⟩
abbrev S200000x256 : Shape := ⟨2, ![200000, 256]⟩
abbrev S200000x1 : Shape := ⟨2, ![200000, 1]⟩
abbrev S200000x768 : Shape := ⟨2, ![200000, 768]⟩
abbrev S200000x512 : Shape := ⟨2, ![200000, 512]⟩
abbrev S1x512 : Shape := ⟨2, ![1, 512]⟩
abbrev S200000x384 : Shape := ⟨2, ![200000, 384]⟩
abbrev S10000x1 : Shape := ⟨2, ![10000, 1]⟩
abbrev S1x1 : Shape := ⟨2, ![1, 1]⟩
abbrev S10000 : Shape := ⟨1, ![10000]⟩

abbrev nBuf : Space → Nat
  | .hbm => 191
  | .vmem => 0
  | .smem => 0
  | _ => 0

abbrev hbmTy0_0 (i : Nat) : BufTy := match i % 128 with
  | 0 => ⟨S10000x128, .f32⟩
  | 1 => ⟨S200000x64, .f32⟩
  | 2 => ⟨S2x200000, .i32⟩
  | 3 => ⟨S128x128, .f32⟩
  | 4 => ⟨S128, .f32⟩
  | 5 => ⟨S128x128, .f32⟩
  | 6 => ⟨S128, .f32⟩
  | 7 => ⟨S64x128, .f32⟩
  | 8 => ⟨S128, .f32⟩
  | 9 => ⟨S128x128, .f32⟩
  | 10 => ⟨S128, .f32⟩
  | 11 => ⟨S768x512, .f32⟩
  | 12 => ⟨S512, .f32⟩
  | 13 => ⟨S512x128, .f32⟩
  | 14 => ⟨S128, .f32⟩
  | 15 => ⟨S384x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x1, .f32⟩
  | 22 => ⟨S1, .f32⟩
  | 23 => ⟨S128x128, .f32⟩
  | 24 => ⟨S128, .f32⟩
  | 25 => ⟨S128x1, .f32⟩
  | 26 => ⟨S1, .f32⟩
  | 27 => ⟨S1x200000, .i32⟩
  | 28 => ⟨S200000, .i32⟩
  | 29 => ⟨S1x200000, .i32⟩
  | 30 => ⟨S200000, .i32⟩
  | 31 => ⟨S10000x128, .f32⟩
  | 32 => ⟨S1x128, .f32⟩
  | 33 => ⟨S10000x128, .f32⟩
  | 34 => ⟨S10000x128, .f32⟩
  | 35 => ⟨S_, .f32⟩
  | 36 => ⟨S10000x128, .f32⟩
  | 37 => ⟨S10000x128, .f32⟩
  | 38 => ⟨S10000x128, .f32⟩
  | 39 => ⟨S1x128, .f32⟩
  | 40 => ⟨S10000x128, .f32⟩
  | 41 => ⟨S10000x128, .f32⟩
  | 42 => ⟨S_, .f32⟩
  | 43 => ⟨S10000x128, .f32⟩
  | 44 => ⟨S10000x128, .f32⟩
  | 45 => ⟨S200000x128, .f32⟩
  | 46 => ⟨S1x128, .f32⟩
  | 47 => ⟨S200000x128, .f32⟩
  | 48 => ⟨S200000x128, .f32⟩
  | 49 => ⟨S_, .f32⟩
  | 50 => ⟨S200000x128, .f32⟩
  | 51 => ⟨S200000x128, .f32⟩
  | 52 => ⟨S200000x128, .f32⟩
  | 53 => ⟨S1x128, .f32⟩
  | 54 => ⟨S200000x128, .f32⟩
  | 55 => ⟨S200000x128, .f32⟩
  | 56 => ⟨S_, .f32⟩
  | 57 => ⟨S200000x128, .f32⟩
  | 58 => ⟨S200000x128, .f32⟩
  | 59 => ⟨S10000x256, .f32⟩
  | 60 => ⟨S200000x256, .f32⟩
  | 61 => ⟨S_, .i32⟩
  | 62 => ⟨S200000, .i32⟩
  | 63 => ⟨S200000, .i1⟩
  | 64 => ⟨S_, .i32⟩
  | 65 => ⟨S200000, .i32⟩
  | 66 => ⟨S200000, .i32⟩
  | 67 => ⟨S200000, .i32⟩
  | 68 => ⟨S200000x1, .i32⟩
  | 69 => ⟨S200000x256, .f32⟩
  | 70 => ⟨S_, .i32⟩
  | 71 => ⟨S200000, .i32⟩
  | 72 => ⟨S200000, .i1⟩
  | 73 => ⟨S_, .i32⟩
  | 74 => ⟨S200000, .i32⟩
  | 75 => ⟨S200000, .i32⟩
  | 76 => ⟨S200000, .i32⟩
  | 77 => ⟨S200000x1, .i32⟩
  | 78 => ⟨S200000x256, .f32⟩
  | 79 => ⟨S200000x768, .f32⟩
  | 80 => ⟨S200000x512, .f32⟩
  | 81 => ⟨S1x512, .f32⟩
  | 82 => ⟨S200000x512, .f32⟩
  | 83 => ⟨S200000x512, .f32⟩
  | 84 => ⟨S_, .f32⟩
  | 85 => ⟨S200000x512, .f32⟩
  | 86 => ⟨S200000x512, .f32⟩
  | 87 => ⟨S200000x128, .f32⟩
  | 88 => ⟨S1x128, .f32⟩
  | 89 => ⟨S200000x128, .f32⟩
  | 90 => ⟨S200000x128, .f32⟩
  | 91 => ⟨S_, .f32⟩
  | 92 => ⟨S200000x128, .f32⟩
  | 93 => ⟨S200000x128, .f32⟩
  | 94 => ⟨S200000x384, .f32⟩
  | 95 => ⟨S200000x128, .f32⟩
  | 96 => ⟨S1x128, .f32⟩
  | 97 => ⟨S200000x128, .f32⟩
  | 98 => ⟨S200000x128, .f32⟩
  | 99 => ⟨S_, .f32⟩
  | 100 => ⟨S200000x128, .f32⟩
  | 101 => ⟨S200000x128, .f32⟩
  | 102 => ⟨S_, .f32⟩
  | 103 => ⟨S10000x128, .f32⟩
  | 104 => ⟨S200000x1, .i32⟩
  | 105 => ⟨S10000x128, .f32⟩
  | 106 => ⟨S10000x128, .f32⟩
  | 107 => ⟨S1x128, .f32⟩
  | 108 => ⟨S10000x128, .f32⟩
  | 109 => ⟨S10000x128, .f32⟩
  | 110 => ⟨S_, .f32⟩
  | 111 => ⟨S10000x128, .f32⟩
  | 112 => ⟨S10000x128, .f32⟩
  | 113 => ⟨S10000x256, .f32⟩
  | 114 => ⟨S200000x256, .f32⟩
  | 115 => ⟨S_, .i32⟩
  | 116 => ⟨S200000, .i32⟩
  | 117 => ⟨S200000, .i1⟩
  | 118 => ⟨S_, .i32⟩
  | 119 => ⟨S200000, .i32⟩
  | 120 => ⟨S200000, .i32⟩
  | 121 => ⟨S200000, .i32⟩
  | 122 => ⟨S200000x1, .i32⟩
  | 123 => ⟨S200000x256, .f32⟩
  | 124 => ⟨S_, .i32⟩
  | 125 => ⟨S200000, .i32⟩
  | 126 => ⟨S200000, .i1⟩
  | 127 => ⟨S_, .i32⟩
  | _ => ⟨S10000x128, .f32⟩

abbrev hbmTy0_1 (i : Nat) : BufTy := match i % 128 with
  | 0 => ⟨S200000, .i32⟩
  | 1 => ⟨S200000, .i32⟩
  | 2 => ⟨S200000, .i32⟩
  | 3 => ⟨S200000x1, .i32⟩
  | 4 => ⟨S200000x256, .f32⟩
  | 5 => ⟨S200000x768, .f32⟩
  | 6 => ⟨S200000x512, .f32⟩
  | 7 => ⟨S1x512, .f32⟩
  | 8 => ⟨S200000x512, .f32⟩
  | 9 => ⟨S200000x512, .f32⟩
  | 10 => ⟨S_, .f32⟩
  | 11 => ⟨S200000x512, .f32⟩
  | 12 => ⟨S200000x512, .f32⟩
  | 13 => ⟨S200000x128, .f32⟩
  | 14 => ⟨S1x128, .f32⟩
  | 15 => ⟨S200000x128, .f32⟩
  | 16 => ⟨S200000x128, .f32⟩
  | 17 => ⟨S_, .f32⟩
  | 18 => ⟨S200000x128, .f32⟩
  | 19 => ⟨S200000x128, .f32⟩
  | 20 => ⟨S200000x384, .f32⟩
  | 21 => ⟨S200000x128, .f32⟩
  | 22 => ⟨S1x128, .f32⟩
  | 23 => ⟨S200000x128, .f32⟩
  | 24 => ⟨S200000x128, .f32⟩
  | 25 => ⟨S_, .f32⟩
  | 26 => ⟨S200000x128, .f32⟩
  | 27 => ⟨S200000x128, .f32⟩
  | 28 => ⟨S_, .f32⟩
  | 29 => ⟨S10000x128, .f32⟩
  | 30 => ⟨S200000x1, .i32⟩
  | 31 => ⟨S10000x128, .f32⟩
  | 32 => ⟨S10000x128, .f32⟩
  | 33 => ⟨S1x128, .f32⟩
  | 34 => ⟨S10000x128, .f32⟩
  | 35 => ⟨S10000x128, .f32⟩
  | 36 => ⟨S_, .f32⟩
  | 37 => ⟨S10000x128, .f32⟩
  | 38 => ⟨S10000x128, .f32⟩
  | 39 => ⟨S10000x128, .f32⟩
  | 40 => ⟨S1x128, .f32⟩
  | 41 => ⟨S10000x128, .f32⟩
  | 42 => ⟨S10000x128, .f32⟩
  | 43 => ⟨S_, .f32⟩
  | 44 => ⟨S10000x128, .f32⟩
  | 45 => ⟨S10000x128, .f32⟩
  | 46 => ⟨S10000x1, .f32⟩
  | 47 => ⟨S1x1, .f32⟩
  | 48 => ⟨S10000x1, .f32⟩
  | 49 => ⟨S10000x1, .f32⟩
  | 50 => ⟨S10000, .f32⟩
  | 51 => ⟨S200000x128, .f32⟩
  | 52 => ⟨S1x128, .f32⟩
  | 53 => ⟨S200000x128, .f32⟩
  | 54 => ⟨S200000x128, .f32⟩
  | 55 => ⟨S_, .f32⟩
  | 56 => ⟨S200000x128, .f32⟩
  | 57 => ⟨S200000x128, .f32⟩
  | 58 => ⟨S200000x1, .f32⟩
  | 59 => ⟨S1x1, .f32⟩
  | 60 => ⟨S200000x1, .f32⟩
  | 61 => ⟨S200000x1, .f32⟩
  | 62 => ⟨S200000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_call0_cst : Ref sig .tc := ⟨.hbm, 35, rfl⟩
abbrev main_call0_v0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_call1_cst : Ref sig .tc := ⟨.hbm, 42, rfl⟩
abbrev main_call1_v0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_call2_cst : Ref sig .tc := ⟨.hbm, 49, rfl⟩
abbrev main_call2_v0 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_call3_cst : Ref sig .tc := ⟨.hbm, 56, rfl⟩
abbrev main_call3_v0 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c : Ref sig .tc := ⟨.hbm, 61, rfl⟩
abbrev main_v26 : Ref sig .tc := ⟨.hbm, 62, rfl⟩
abbrev main_v27 : Ref sig .tc := ⟨.hbm, 63, rfl⟩
abbrev main_c_0 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_c_1 : Ref sig .tc := ⟨.hbm, 70, rfl⟩
abbrev main_v33 : Ref sig .tc := ⟨.hbm, 71, rfl⟩
abbrev main_v34 : Ref sig .tc := ⟨.hbm, 72, rfl⟩
abbrev main_c_2 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_call4_cst : Ref sig .tc := ⟨.hbm, 84, rfl⟩
abbrev main_call4_v0 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_call5_cst : Ref sig .tc := ⟨.hbm, 91, rfl⟩
abbrev main_call5_v0 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_call6_cst : Ref sig .tc := ⟨.hbm, 99, rfl⟩
abbrev main_call6_v0 : Ref sig .tc := ⟨.hbm, 100, rfl⟩
abbrev main_v56 : Ref sig .tc := ⟨.hbm, 101, rfl⟩
abbrev main_cst : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_call7_cst : Ref sig .tc := ⟨.hbm, 110, rfl⟩
abbrev main_call7_v0 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_c_3 : Ref sig .tc := ⟨.hbm, 115, rfl⟩
abbrev main_v67 : Ref sig .tc := ⟨.hbm, 116, rfl⟩
abbrev main_v68 : Ref sig .tc := ⟨.hbm, 117, rfl⟩
abbrev main_c_4 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_5 : Ref sig .tc := ⟨.hbm, 124, rfl⟩
abbrev main_v74 : Ref sig .tc := ⟨.hbm, 125, rfl⟩
abbrev main_v75 : Ref sig .tc := ⟨.hbm, 126, rfl⟩
abbrev main_c_6 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_call8_cst : Ref sig .tc := ⟨.hbm, 138, rfl⟩
abbrev main_call8_v0 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_call9_cst : Ref sig .tc := ⟨.hbm, 145, rfl⟩
abbrev main_call9_v0 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_call10_cst : Ref sig .tc := ⟨.hbm, 153, rfl⟩
abbrev main_call10_v0 : Ref sig .tc := ⟨.hbm, 154, rfl⟩
abbrev main_v97 : Ref sig .tc := ⟨.hbm, 155, rfl⟩
abbrev main_cst_7 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_call11_cst : Ref sig .tc := ⟨.hbm, 164, rfl⟩
abbrev main_call11_v0 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_call12_cst : Ref sig .tc := ⟨.hbm, 171, rfl⟩
abbrev main_call12_v0 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_call13_cst : Ref sig .tc := ⟨.hbm, 183, rfl⟩
abbrev main_call13_v0 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  concatenates_S10000x128_S10000x128_S10000x256_d1 : Shape.Concatenates [S10000x128, S10000x128] S10000x256 1
  concatenates_S200000x128_S200000x128_S200000x256_d1 : Shape.Concatenates [S200000x128, S200000x128] S200000x256 1
  bcast_S_S200000 : S_.BroadcastsInDim S200000 (![] : Fin 0 → Fin S200000.rank)
  bcast_S200000_S200000x1_0 : S200000.BroadcastsInDim S200000x1 (![0] : Fin 1 → Fin S200000x1.rank)
  concatenates_S200000x256_S200000x256_S200000x256_S200000x768_d1 : Shape.Concatenates [S200000x256, S200000x256, S200000x256] S200000x768 1
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  concatenates_S200000x256_S200000x128_S200000x384_d1 : Shape.Concatenates [S200000x256, S200000x128] S200000x384 1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S10000 : S10000x1.ShapeCasts S10000
  bcast_S1x1_S200000x1_0_1 : S1x1.BroadcastsInDim S200000x1 (![0, 1] : Fin 2 → Fin S200000x1.rank)
  shapeCasts_S200000x1_S200000 : S200000x1.ShapeCasts S200000
  dot_S10000x128_S128x128_S10000x128_1_0_0_1_n_n_wf : DotDims.WF S10000x128 S128x128 S10000x128 [1] [0] [0] [1] [] []
  dot_S200000x64_S64x128_S200000x128_1_0_0_1_n_n_wf : DotDims.WF S200000x64 S64x128 S200000x128 [1] [0] [0] [1] [] []
  dot_S200000x128_S128x128_S200000x128_1_0_0_1_n_n_wf : DotDims.WF S200000x128 S128x128 S200000x128 [1] [0] [0] [1] [] []
  gather_S10000x256_S200000x1_S200000x256_1_0_n_n_0_1_1256_wf : GatherDims.WF S10000x256 S200000x1 S200000x256 [1] [0] [] [0] [] 1 ![1, 256]
  dot_S200000x768_S768x512_S200000x512_1_0_0_1_n_n_wf : DotDims.WF S200000x768 S768x512 S200000x512 [1] [0] [0] [1] [] []
  dot_S200000x512_S512x128_S200000x128_1_0_0_1_n_n_wf : DotDims.WF S200000x512 S512x128 S200000x128 [1] [0] [0] [1] [] []
  dot_S200000x384_S384x128_S200000x128_1_0_0_1_n_n_wf : DotDims.WF S200000x384 S384x128 S200000x128 [1] [0] [0] [1] [] []
  scatter_S10000x128_S200000x1_S200000x128_1_0_0_1_wf : ScatterDims.WF S10000x128 S200000x1 S200000x128 [1] [0] [0] 1
  dot_S10000x128_S128x1_S10000x1_1_0_0_1_n_n_wf : DotDims.WF S10000x128 S128x1 S10000x1 [1] [0] [0] [1] [] []
  dot_S200000x128_S128x1_S200000x1_1_0_0_1_n_n_wf : DotDims.WF S200000x128 S128x1 S200000x1 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S10000x256_S200000x1_S200000x256_1_0_n_n_0_1_1256 : GatherDims S10000x256 S200000x1 S200000x256 where
  offsetDims := [1]
  collapsedSliceDims := [0]
  operandBatchingDims := []
  startIndicesBatchingDims := []
  startIndexMap := [0]
  indexVectorDim := 1
  sliceSizes := ![1, 256]
  wf := gather_S10000x256_S200000x1_S200000x256_1_0_n_n_0_1_1256_wf
def dot_S200000x768_S768x512_S200000x512_1_0_0_1_n_n : DotDims S200000x768 S768x512 S200000x512 where
  lhsContracting := [1]
  rhsContracting := [0]
  lhsNonContracting := [0]
  rhsNonContracting := [1]
  lhsBatch := []
  rhsBatch := []
  wf := dot_S200000x768_S768x512_S200000x512_1_0_0_1_n_n_wf
def dot_S200000x512_S512x128_S200000x128_1_0_0_1_n_n : DotDims S200000x512 S512x128 S200000x128 where
  lhsContracting := [1]
  rhsContracting := [0]
  lhsNonContracting := [0]
  rhsNonContracting := [1]
  lhsBatch := []
  rhsBatch := []
  wf := dot_S200000x512_S512x128_S200000x128_1_0_0_1_n_n_wf
def dot_S200000x384_S384x128_S200000x128_1_0_0_1_n_n : DotDims S200000x384 S384x128 S200000x128 where
  lhsContracting := [1]
  rhsContracting := [0]
  lhsNonContracting := [0]
  rhsNonContracting := [1]
  lhsBatch := []
  rhsBatch := []
  wf := dot_S200000x384_S384x128_S200000x128_1_0_0_1_n_n_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.Spec.lean ====
/-
  The mathematics both programs compute, stated once over plain arrays of extended reals.

  A dense layer acts on an array row by row: entry (r, c) of the result is the sum over k of X(r, k) * W(k, c),
  plus the bias b(c). The positive part acts entry by entry. Joining two arrays along their columns puts the
  columns of the second after the columns of the first, row by row. All three therefore commute with taking a
  block of consecutive rows: this is the one fact that lets a kernel which walks an array block of rows by block
  of rows be compared with a reference that treats the array whole.

  The message-passing network is a composition of these: two-layer perceptrons that embed nodes and edges, an
  edge update and a message built from joined rows, a one-layer node update, and a two-layer scoring head.
-/
import Idealize.ShloMosaic.PureOps.Ideal
import Idealize.ShloMosaic.Lib.ValueIdx

noncomputable section

open Idealize.ShloMosaic
open scoped BigOperators

namespace Cert.Spec

open ValueIdx

/-- Arrays of extended reals with `r` rows and `c` columns. -/
abbrev A2 (r c : ℕ) : Type := (⟨2, ![r, c]⟩ : Shape).Idx → EReal
/-- Vectors of extended reals of length `n`. -/
abbrev A1 (n : ℕ) : Type := (⟨1, ![n]⟩ : Shape).Idx → EReal

/-- The row coordinate of an index, at its literal bound. -/
abbrev rowOf {r c : ℕ} (i : (⟨2, ![r, c]⟩ : Shape).Idx) : Fin r := i 0
/-- The column coordinate of an index, at its literal bound. -/
abbrev colOf {r c : ℕ} (i : (⟨2, ![r, c]⟩ : Shape).Idx) : Fin c := i 1

/-- A dense layer, row by row: entry (r, c) is the sum over k of X(r, k) * W(k, c), plus b(c). -/
def dense (R K C : ℕ) (X : A2 R K) (W : A2 K C) (b : A1 C) : A2 R C :=
  fun i => (∑ k : Fin K, X (ix2 (rowOf i) k) * W (ix2 k (colOf i))) + b (ix1 (colOf i))

/-- The positive part, entry by entry. -/
def relu (R C : ℕ) (Y : A2 R C) : A2 R C := fun i => max (Y i) 0

/-- A dense layer followed by the positive part. -/
def denseRelu (R K C : ℕ) (X : A2 R K) (W : A2 K C) (b : A1 C) : A2 R C := relu R C (dense R K C X W b)

/-- Two arrays joined along their columns: row r of the result is row r of `X` followed by row r of `Y`. -/
def cat2 (R A B N : ℕ) (hN : A + B = N) (X : A2 R A) (Y : A2 R B) : A2 R N :=
  fun i => if h : (colOf i).val < A then X (ix2 (rowOf i) ⟨(colOf i).val, h⟩)
    else Y (ix2 (rowOf i) ⟨(colOf i).val - A, by have := (colOf i).isLt; omega⟩)

/-- Rows t * B, …, t * B + B - 1 of an array of R rows. -/
def rowsBlock (B R C : ℕ) (t : ℕ) (ht : t * B + B ≤ R) (X : A2 R C) : A2 B C :=
  fun j => X (ix2 ⟨t * B + (rowOf j).val, by have := (rowOf j).isLt; omega⟩ (colOf j))

/-- A dense layer of a block of rows is that block of rows of the dense layer. -/
theorem dense_rowsBlock (B R K C : ℕ) (t : ℕ) (ht : t * B + B ≤ R) (X : A2 R K) (W : A2 K C) (b : A1 C) :
    dense B K C (rowsBlock B R K t ht X) W b = rowsBlock B R C t ht (dense R K C X W b) := by
  -- both sides read row t * B + (j 0) of X against column (j 1) of W: the same sum, term by term
  funext j
  rfl

/-- The positive part of a block of rows is that block of rows of the positive part. -/
theorem relu_rowsBlock (B R C : ℕ) (t : ℕ) (ht : t * B + B ≤ R) (Y : A2 R C) :
    relu B C (rowsBlock B R C t ht Y) = rowsBlock B R C t ht (relu R C Y) := by
  -- the positive part is taken entry by entry, so it does not see which row it is in
  funext j
  rfl

theorem denseRelu_rowsBlock (B R K C : ℕ) (t : ℕ) (ht : t * B + B ≤ R) (X : A2 R K) (W : A2 K C) (b : A1 C) :
    denseRelu B K C (rowsBlock B R K t ht X) W b = rowsBlock B R C t ht (denseRelu R K C X W b) := by
  unfold denseRelu
  rw [dense_rowsBlock, relu_rowsBlock]

/-- Joining blocks of rows is the block of rows of the joined arrays. -/
theorem cat2_rowsBlock (B R A A' N : ℕ) (hN : A + A' = N) (t : ℕ) (ht : t * B + B ≤ R) (X : A2 R A) (Y : A2 R A') :
    cat2 B A A' N hN (rowsBlock B R A t ht X) (rowsBlock B R A' t ht Y) = rowsBlock B R N t ht (cat2 R A A' N hN X Y) := by
  -- the choice between the two arrays depends on the column only; the row is carried along
  funext j
  rfl

/-- The one block of all rows is the array. -/
theorem rowsBlock_all (R C : ℕ) (X : A2 R C) : rowsBlock R R C 0 (by omega) X = X := by
  -- with t = 0 and a block of all R rows the row read is 0 * R + (j 0) = j 0
  funext j
  have hrow : (⟨0 * R + (rowOf j).val, by have := (rowOf j).isLt; omega⟩ : Fin R) = j 0 :=
    Fin.ext (by simp)
  show X (ix2 ⟨0 * R + (rowOf j).val, _⟩ (colOf j)) = X j
  rw [hrow]
  exact congrArg X (eq_ix2 j).symm

/-! ## The network's stages -/

/-- A two-layer perceptron with the positive part after each layer (the node and edge embeddings). -/
def mlp2 (R K H C : ℕ) (X : A2 R K) (W1 : A2 K H) (b1 : A1 H) (W2 : A2 H C) (b2 : A1 C) : A2 R C :=
  denseRelu R H C (denseRelu R K H X W1 b1) W2 b2

/-- The edge update: the target's and the source's node features and the edge's features joined (768 columns),
    then 768 → 512 → 128 with the positive part after each layer. -/
def edgeNew (R : ℕ) (XI XJ EFC : A2 R 256) (We1 : A2 768 512) (be1 : A1 512) (We2 : A2 512 128) (be2 : A1 128) : A2 R 128 :=
  mlp2 R 768 512 128 (cat2 R 512 256 768 rfl (cat2 R 256 256 512 rfl XI XJ) EFC) We1 be1 We2 be2

/-- The message: the target's node features joined with the new edge features (384 columns), then 384 → 128. -/
def message (R : ℕ) (XI : A2 R 256) (E : A2 R 128) (Wn1 : A2 384 128) (bn1 : A1 128) : A2 R 128 :=
  denseRelu R 384 128 (cat2 R 256 128 384 rfl XI E) Wn1 bn1

/-- The scoring head: 128 → 128 with the positive part, then 128 → 1 without it. -/
def head (R : ℕ) (X : A2 R 128) (W1 : A2 128 128) (b1 : A1 128) (W2 : A2 128 1) (b2 : A1 1) : A2 R 1 :=
  dense R 128 1 (denseRelu R 128 128 X W1 b1) W2 b2

theorem mlp2_rowsBlock (B R K H C : ℕ) (t : ℕ) (ht : t * B + B ≤ R) (X : A2 R K) (W1 : A2 K H) (b1 : A1 H) (W2 : A2 H C) (b2 : A1 C) :
    mlp2 B K H C (rowsBlock B R K t ht X) W1 b1 W2 b2 = rowsBlock B R C t ht (mlp2 R K H C X W1 b1 W2 b2) := by
  unfold mlp2
  rw [denseRelu_rowsBlock, denseRelu_rowsBlock]

theorem edgeNew_rowsBlock (B R : ℕ) (t : ℕ) (ht : t * B + B ≤ R) (XI XJ EFC : A2 R 256) (We1 : A2 768 512) (be1 : A1 512) (We2 : A2 512 128) (be2 : A1 128) :
    edgeNew B (rowsBlock B R 256 t ht XI) (rowsBlock B R 256 t ht XJ) (rowsBlock B R 256 t ht EFC) We1 be1 We2 be2
      = rowsBlock B R 128 t ht (edgeNew R XI XJ EFC We1 be1 We2 be2) := by
  unfold edgeNew
  rw [cat2_rowsBlock, cat2_rowsBlock, mlp2_rowsBlock]

theorem message_rowsBlock (B R : ℕ) (t : ℕ) (ht : t * B + B ≤ R) (XI : A2 R 256) (E : A2 R 128) (Wn1 : A2 384 128) (bn1 : A1 128) :
    message B (rowsBlock B R 256 t ht XI) (rowsBlock B R 128 t ht E) Wn1 bn1 = rowsBlock B R 128 t ht (message R XI E Wn1 bn1) := by
  unfold message
  rw [cat2_rowsBlock, denseRelu_rowsBlock]

theorem head_rowsBlock (B R : ℕ) (t : ℕ) (ht : t * B + B ≤ R) (X : A2 R 128) (W1 : A2 128 128) (b1 : A1 128) (W2 : A2 128 1) (b2 : A1 1) :
    head B (rowsBlock B R 128 t ht X) W1 b1 W2 b2 = rowsBlock B R 1 t ht (head R X W1 b1 W2 b2) := by
  unfold head
  rw [denseRelu_rowsBlock, dense_rowsBlock]

end Cert.Spec

end
-- ==== Proof.Net.lean ====
/-
  The whole network as ONE function of its inputs and parameters, over a row-gathering function `G`.

  Node features and edge features are embedded by two-layer perceptrons. Each of two message-passing steps joins the
  embedded and the current features, gathers the joined node rows at every edge's target and source, computes the new
  edge features and the messages edge by edge, adds each message into its target node's row, and updates the node
  features by a dense layer. Two scoring heads read the final edge and node features.

  The kernel gathers rows with a fill: a row whose index falls outside the table is replaced by a constant. The
  reference gathers after wrapping negative indices only. For node ids inside the table the two agree.
-/
import proofs.«425812_j65979287601856_3_alg».proof.Proof.Gen.KernelIdeal
import proofs.«425812_j65979287601856_3_alg».proof.Proof.Spec

noncomputable section

open Idealize.ShloMosaic Idealize.ShloMosaic.TcCoe Idealize.SL.Sem

namespace Cert.KernelIdeal.Hand

open Cert.KernelIdeal Cert.KernelIdeal.Gen Cert.Spec

/-- The network's inputs and parameters. -/
structure Args where
  x : A2 10000 128
  ea : A2 200000 64
  ei : IVec S2x200000 32
  Wne1 : A2 128 128
  bne1 : A1 128
  Wne2 : A2 128 128
  bne2 : A1 128
  Wee1 : A2 64 128
  bee1 : A1 128
  Wee2 : A2 128 128
  bee2 : A1 128
  We1 : A2 768 512
  be1 : A1 512
  We2 : A2 512 128
  be2 : A1 128
  Wn1 : A2 384 128
  bn1 : A1 128
  Wu : A2 128 128
  bu : A1 128
  Wnc1 : A2 128 128
  bnc1 : A1 128
  Wnc2 : A2 128 1
  bnc2 : A1 1
  Wec1 : A2 128 128
  bec1 : A1 128
  Wec2 : A2 128 1
  bec2 : A1 1

/-- Every edge's source node id: row 0 of the edge index. -/
def src (a : Args) : IVec S200000 32 :=
  shapeCast S200000 (extractStridedSlice S1x200000 ![0, 0] a.ei slices_S2x200000_S1x200000_0_0) shapeCasts_S1x200000_S200000

/-- Every edge's target node id: row 1 of the edge index. -/
def tgt (a : Args) : IVec S200000 32 :=
  shapeCast S200000 (extractStridedSlice S1x200000 ![1, 0] a.ei slices_S2x200000_S1x200000_1_0) shapeCasts_S1x200000_S200000

/-- Every node id lies inside the node table. -/
def InRange (E : IVec S2x200000 32) : Prop := ∀ j : S2x200000.Idx, (0 : Int) ≤ (E j).toInt ∧ (E j).toInt < 10000

/-- Messages added into their target nodes' rows, from zero. -/
def aggregate (i : IVec S200000 32) (M : A2 200000 128) : A2 10000 128 :=
  Host.scatterAdd scatter_S10000x128_S200000x1_S200000x128_1_0_0_1
    (broadcastInDim S10000x128 ![] bcast_S_S10000x128 (constant (F := Ideal) S_ .f32 0x00000000#32))
    (broadcastInDim S200000x1 ![0] bcast_S200000_S200000x1_0 i) M

/-- Two node-feature arrays joined along their columns. -/
def catN (A B : A2 10000 128) : A2 10000 256 :=
  concatenate S10000x256 1 [⟨S10000x128, A⟩, ⟨S10000x128, B⟩] concatenates_S10000x128_S10000x128_S10000x256_d1

/-- Two edge-feature arrays joined along their columns. -/
def catE (A B : A2 200000 128) : A2 200000 256 :=
  concatenate S200000x256 1 [⟨S200000x128, A⟩, ⟨S200000x128, B⟩] concatenates_S200000x128_S200000x128_S200000x256_d1

/-- A node id with a negative value moved up by the table's height. -/
def wrapIdx (i : IVec S200000 32) : IVec S200000 32 :=
  select (cmpi .slt i (broadcastInDim S200000 ![] bcast_S_S200000 (constantI S_ 32 0#32)))
    (addi i (broadcastInDim S200000 ![] bcast_S_S200000 (constantI S_ 32 10000#32))) i

/-- Rows of the table at the wrapped ids: the reference's gather. -/
def gatherRows (T : A2 10000 256) (i : IVec S200000 32) : A2 200000 256 :=
  Host.gather gather_S10000x256_S200000x1_S200000x256_1_0_n_n_0_1_1256 T
    (broadcastInDim S200000x1 ![0] bcast_S200000_S200000x1_0 (wrapIdx i))

/-- Rows of the table at the wrapped ids, a row whose wrapped id is outside 0 … 9999 replaced by a fill constant:
    the kernel's gather. -/
def takeRows (T : A2 10000 256) (i : IVec S200000 32) : A2 200000 256 :=
  select
    (broadcastInDim S200000x256 ![0] bcast_S200000_S200000x256_0
      (Host.reduce IntOp.andi
        (andi
          (cmpi .sge (broadcastInDim S200000x1 ![0] bcast_S200000_S200000x1_0 (wrapIdx i))
            (broadcastInDim S200000x1 ![] bcast_S_S200000x1 (constantI S_ 32 0#32)))
          (cmpi .sle (broadcastInDim S200000x1 ![0] bcast_S200000_S200000x1_0 (wrapIdx i))
            (broadcastInDim S200000x1 ![0, 1] bcast_S1x1_S200000x1_0_1 (broadcastInDim S1x1 ![1] bcast_S1_S1x1_1 (constantI S1 32 9999#32)))))
        (constantI S_ 1 1#1) reducesTo_S200000x1_S200000_d1 h_S_))
    (gatherRows T i)
    (broadcastInDim S200000x256 ![] bcast_S_S200000x256 (constant (F := Ideal) S_ .f32 0x7FC00000#32))

section Net

variable (G : A2 10000 256 → IVec S200000 32 → A2 200000 256) (a : Args)

/-- The embedded node features. -/
def nf0 : A2 10000 128 := mlp2 10000 128 128 128 a.x a.Wne1 a.bne1 a.Wne2 a.bne2
/-- The embedded edge features. -/
def ef0 : A2 200000 128 := mlp2 200000 64 128 128 a.ea a.Wee1 a.bee1 a.Wee2 a.bee2

/-- One step's new edge features from the current node and edge features. -/
def stepE (nf : A2 10000 128) (ef : A2 200000 128) : A2 200000 128 :=
  edgeNew 200000 (G (catN (nf0 a) nf) (tgt a)) (G (catN (nf0 a) nf) (src a)) (catE (ef0 a) ef) a.We1 a.be1 a.We2 a.be2

/-- One step's messages. -/
def stepM (nf : A2 10000 128) (ef : A2 200000 128) : A2 200000 128 :=
  message 200000 (G (catN (nf0 a) nf) (tgt a)) (stepE G a nf ef) a.Wn1 a.bn1

/-- One step's new node features. -/
def stepN (nf : A2 10000 128) (ef : A2 200000 128) : A2 10000 128 :=
  denseRelu 10000 128 128 (aggregate (tgt a) (stepM G a nf ef)) a.Wu a.bu

def e1 : A2 200000 128 := stepE G a (nf0 a) (ef0 a)
def n1 : A2 10000 128 := stepN G a (nf0 a) (ef0 a)
def e2 : A2 200000 128 := stepE G a (n1 G a) (e1 G a)
def n2 : A2 10000 128 := stepN G a (n1 G a) (e1 G a)

/-- The edge scores. -/
def outEdge : FVec Ideal S200000 .f32 :=
  shapeCast S200000 (head 200000 (e2 G a) a.Wec1 a.bec1 a.Wec2 a.bec2 : FVec Ideal S200000x1 .f32) shapeCasts_S200000x1_S200000
/-- The node scores. -/
def outNode : FVec Ideal S10000 .f32 :=
  shapeCast S10000 (head 10000 (n2 G a) a.Wnc1 a.bnc1 a.Wnc2 a.bnc2 : FVec Ideal S10000x1 .f32) shapeCasts_S10000x1_S10000

end Net

/-- The network depends on the gathering function only through the rows gathered at the targets and at the sources. -/
theorem net_congr (G G' : A2 10000 256 → IVec S200000 32 → A2 200000 256) (a : Args)
    (ht : ∀ T, G T (tgt a) = G' T (tgt a)) (hs : ∀ T, G T (src a) = G' T (src a)) :
    outEdge G a = outEdge G' a ∧ outNode G a = outNode G' a := by
  have hE : ∀ nf ef, stepE G a nf ef = stepE G' a nf ef := fun nf ef => by unfold stepE; rw [ht, hs]
  have hM : ∀ nf ef, stepM G a nf ef = stepM G' a nf ef := fun nf ef => by unfold stepM; rw [ht, hE]
  have hN : ∀ nf ef, stepN G a nf ef = stepN G' a nf ef := fun nf ef => by unfold stepN; rw [hM]
  have h1e : e1 G a = e1 G' a := hE _ _
  have h1n : n1 G a = n1 G' a := hN _ _
  have h2e : e2 G a = e2 G' a := by unfold e2; rw [h1e, h1n, hE]
  have h2n : n2 G a = n2 G' a := by unfold n2; rw [h1e, h1n, hN]
  exact ⟨by unfold outEdge; rw [h2e], by unfold outNode; rw [h2n]⟩

/-- The kernel program's arguments, as launched on core `c`, as the network's inputs and parameters. -/
def argsOf (m : (ℓ : Loc nD τ sig) → Buf (Elt Ideal) ℓ) (c : Dev nD) : Args where
  x := m ((c.tc : Thread nD τ).loc main_arg0)
  ea := m ((c.tc : Thread nD τ).loc main_arg1)
  ei := m ((c.tc : Thread nD τ).loc main_arg2)
  Wne1 := m ((c.tc : Thread nD τ).loc main_arg3)
  bne1 := m ((c.tc : Thread nD τ).loc main_arg4)
  Wne2 := m ((c.tc : Thread nD τ).loc main_arg5)
  bne2 := m ((c.tc : Thread nD τ).loc main_arg6)
  Wee1 := m ((c.tc : Thread nD τ).loc main_arg7)
  bee1 := m ((c.tc : Thread nD τ).loc main_arg8)
  Wee2 := m ((c.tc : Thread nD τ).loc main_arg9)
  bee2 := m ((c.tc : Thread nD τ).loc main_arg10)
  We1 := m ((c.tc : Thread nD τ).loc main_arg11)
  be1 := m ((c.tc : Thread nD τ).loc main_arg12)
  We2 := m ((c.tc : Thread nD τ).loc main_arg13)
  be2 := m ((c.tc : Thread nD τ).loc main_arg14)
  Wn1 := m ((c.tc : Thread nD τ).loc main_arg15)
  bn1 := m ((c.tc : Thread nD τ).loc main_arg16)
  Wu := m ((c.tc : Thread nD τ).loc main_arg17)
  bu := m ((c.tc : Thread nD τ).loc main_arg18)
  Wnc1 := m ((c.tc : Thread nD τ).loc main_arg19)
  bnc1 := m ((c.tc : Thread nD τ).loc main_arg20)
  Wnc2 := m ((c.tc : Thread nD τ).loc main_arg21)
  bnc2 := m ((c.tc : Thread nD τ).loc main_arg22)
  Wec1 := m ((c.tc : Thread nD τ).loc main_arg23)
  bec1 := m ((c.tc : Thread nD τ).loc main_arg24)
  Wec2 := m ((c.tc : Thread nD τ).loc main_arg25)
  bec2 := m ((c.tc : Thread nD τ).loc main_arg26)

end Cert.KernelIdeal.Hand

end
-- ==== Proof.Carry.lean ====
/-
  A buffer that a stretch of host operations does not write, and that a pallas_call does not have among its arrays,
  holds after the stretch (after the call) what it held before. `keep_host` closes such a step for a stretch: each operation's written buffer differs from the buffer in
  question. `keep_reg` closes it for a call: no array of the call is the buffer in question.
-/
import proofs.«425812_j65979287601856_3_alg».proof.Proof.Gen.KernelIdeal.Frame

namespace Cert.KernelIdeal.Hand

open Idealize.ShloMosaic Cert.KernelIdeal Cert.KernelIdeal.Gen

/-- One stretch of host operations leaves a buffer none of them writes as it was. -/
macro "keep_host" : tactic => `(tactic| (
  refine StableHlo.after_of_forall_not_mem _ _ (List.forall_iff_forall_mem.mp ?_)
  simp only [hostOps0, hostOps1, hostOps2, hostOps2_1, hostOps2_2, hostOps2_3, hostOps3, hostOps4, hostOps4_1, hostOps4_2,
    hostOps4_3, hostOps5, hostOps6, hostOps7, hostOps8, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- One pallas_call leaves a buffer that is none of its arrays as it was: `keep_reg W9_of_ne` for the call whose exit
    boundary is `W9`, and so on (the caller names the call's lemma: trying another call's lemma against the goal would
    compare two boundaries' contents by unfolding them). -/
macro "keep_reg " n:ident : tactic => `(tactic| exact $n _ _ _ _ (by decide))

end Cert.KernelIdeal.Hand
-- ==== Proof.ArgsKeep.lean ====
/-
  No host operation and no pallas_call of @main writes an argument array: a call reads an argument through an input
  window, whose array ends as it was entered. So at every boundary between @main's segments each argument's buffer
  holds its launch contents. One theorem per boundary, each from the boundary before it by one step.
-/
import proofs.«425812_j65979287601856_3_alg».proof.Proof.Carry
import Idealize.ShloMosaic.PureOps.Ideal

set_option maxRecDepth 16384

noncomputable section

open Idealize.ShloMosaic Idealize.ShloMosaic.TcCoe Idealize.SL.Sem

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-- @main's argument arrays. -/
def argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

theorem args_W0 (c : Dev nD) : ∀ b ∈ argRefs, W0 m ρ c (Proc.devRef .tc b) = m ((c : Thread nD τ).loc b) := fun _ _ => rfl

theorem args_W1 (c : Dev nD) : ∀ b ∈ argRefs, W1 m ρ c (Proc.devRef .tc b) = m ((c : Thread nD τ).loc b) := by
  intro b hb
  refine Eq.trans ?_ (args_W0 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (keep_host)

theorem args_W2 (c : Dev nD) : ∀ b ∈ argRefs, W2 m ρ c (Proc.devRef .tc b) = m ((c : Thread nD τ).loc b) := by
  intro b hb
  refine Eq.trans ?_ (args_W1 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (first | keep_reg W2_of_ne | exact (W2_arr m ρ c 0).trans (((dat0 (V1 m ρ) c).arrAt_in 0 rfl _).trans (A_eq0 (V1 m ρ) c 0)) | exact (W2_arr m ρ c 2).trans (((dat0 (V1 m ρ) c).arrAt_in 2 rfl _).trans (A_eq0 (V1 m ρ) c 2)) | exact (W2_arr m ρ c 4).trans (((dat0 (V1 m ρ) c).arrAt_in 4 rfl _).trans (A_eq0 (V1 m ρ) c 4)))

theorem args_W3 (c : Dev nD) : ∀ b ∈ argRefs, W3 m ρ c (Proc.devRef .tc b) = m ((c : Thread nD τ).loc b) := by
  intro b hb
  refine Eq.trans ?_ (args_W2 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (keep_host)

theorem args_W4 (c : Dev nD) : ∀ b ∈ argRefs, W4 m ρ c (Proc.devRef .tc b) = m ((c : Thread nD τ).loc b) := by
  intro b hb
  refine Eq.trans ?_ (args_W3 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (first | keep_reg W4_of_ne | exact (W4_arr m ρ c 0).trans (((dat1 (V3 m ρ) c).arrAt_in 0 rfl _).trans (A_eq1 (V3 m ρ) c 0)) | exact (W4_arr m ρ c 2).trans (((dat1 (V3 m ρ) c).arrAt_in 2 rfl _).trans (A_eq1 (V3 m ρ) c 2)) | exact (W4_arr m ρ c 4).trans (((dat1 (V3 m ρ) c).arrAt_in 4 rfl _).trans (A_eq1 (V3 m ρ) c 4)))

theorem args_W5 (c : Dev nD) : ∀ b ∈ argRefs, W5 m ρ c (Proc.devRef .tc b) = m ((c : Thread nD τ).loc b) := by
  intro b hb
  refine Eq.trans ?_ (args_W4 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (keep_host)

theorem args_W6 (c : Dev nD) : ∀ b ∈ argRefs, W6 m ρ c (Proc.devRef .tc b) = m ((c : Thread nD τ).loc b) := by
  intro b hb
  refine Eq.trans ?_ (args_W5 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (keep_host)

theorem args_W7 (c : Dev nD) : ∀ b ∈ argRefs, W7 m ρ c (Proc.devRef .tc b) = m ((c : Thread nD τ).loc b) := by
  intro b hb
  refine Eq.trans ?_ (args_W6 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (keep_host)

theorem args_W8 (c : Dev nD) : ∀ b ∈ argRefs, W8 m ρ c (Proc.devRef .tc b) = m ((c : Thread nD τ).loc b) := by
  intro b hb
  refine Eq.trans ?_ (args_W7 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (keep_host)

theorem args_W9 (c : Dev nD) : ∀ b ∈ argRefs, W9 m ρ c (Proc.devRef .tc b) = m ((c : Thread nD τ).loc b) := by
  intro b hb
  refine Eq.trans ?_ (args_W8 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (first | keep_reg W9_of_ne | exact (W9_arr m ρ c 4).trans (((dat2 (V8 m ρ) c).arrAt_in 4 rfl _).trans (A_eq2 (V8 m ρ) c 4)) | exact (W9_arr m ρ c 6).trans (((dat2 (V8 m ρ) c).arrAt_in 6 rfl _).trans (A_eq2 (V8 m ρ) c 6)) | exact (W9_arr m ρ c 8).trans (((dat2 (V8 m ρ) c).arrAt_in 8 rfl _).trans (A_eq2 (V8 m ρ) c 8)))

theorem args_W10 (c : Dev nD) : ∀ b ∈ argRefs, W10 m ρ c (Proc.devRef .tc b) = m ((c : Thread nD τ).loc b) := by
  intro b hb
  refine Eq.trans ?_ (args_W9 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (keep_host)

theorem args_W11 (c : Dev nD) : ∀ b ∈ argRefs, W11 m ρ c (Proc.devRef .tc b) = m ((c : Thread nD τ).loc b) := by
  intro b hb
  refine Eq.trans ?_ (args_W10 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (first | keep_reg W11_of_ne | exact (W11_arr m ρ c 2).trans (((dat3 (V10 m ρ) c).arrAt_in 2 rfl _).trans (A_eq3 (V10 m ρ) c 2)))

theorem args_W12 (c : Dev nD) : ∀ b ∈ argRefs, W12 m ρ c (Proc.devRef .tc b) = m ((c : Thread nD τ).loc b) := by
  intro b hb
  refine Eq.trans ?_ (args_W11 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (keep_host)

theorem args_W13 (c : Dev nD) : ∀ b ∈ argRefs, W13 m ρ c (Proc.devRef .tc b) = m ((c : Thread nD τ).loc b) := by
  intro b hb
  refine Eq.trans ?_ (args_W12 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (keep_host)

theorem args_W14 (c : Dev nD) : ∀ b ∈ argRefs, W14 m ρ c (Proc.devRef .tc b) = m ((c : Thread nD τ).loc b) := by
  intro b hb
  refine Eq.trans ?_ (args_W13 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (keep_host)

theorem args_W15 (c : Dev nD) : ∀ b ∈ argRefs, W15 m ρ c (Proc.devRef .tc b) = m ((c : Thread nD τ).loc b) := by
  intro b hb
  refine Eq.trans ?_ (args_W14 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (keep_host)

theorem args_W16 (c : Dev nD) : ∀ b ∈ argRefs, W16 m ρ c (Proc.devRef .tc b) = m ((c : Thread nD τ).loc b) := by
  intro b hb
  refine Eq.trans ?_ (args_W15 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (first | keep_reg W16_of_ne | exact (W16_arr m ρ c 4).trans (((dat4 (V15 m ρ) c).arrAt_in 4 rfl _).trans (A_eq4 (V15 m ρ) c 4)) | exact (W16_arr m ρ c 6).trans (((dat4 (V15 m ρ) c).arrAt_in 6 rfl _).trans (A_eq4 (V15 m ρ) c 6)) | exact (W16_arr m ρ c 8).trans (((dat4 (V15 m ρ) c).arrAt_in 8 rfl _).trans (A_eq4 (V15 m ρ) c 8)))

theorem args_W17 (c : Dev nD) : ∀ b ∈ argRefs, W17 m ρ c (Proc.devRef .tc b) = m ((c : Thread nD τ).loc b) := by
  intro b hb
  refine Eq.trans ?_ (args_W16 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (keep_host)

theorem args_W18 (c : Dev nD) : ∀ b ∈ argRefs, W18 m ρ c (Proc.devRef .tc b) = m ((c : Thread nD τ).loc b) := by
  intro b hb
  refine Eq.trans ?_ (args_W17 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (first | keep_reg W18_of_ne | exact (W18_arr m ρ c 2).trans (((dat5 (V17 m ρ) c).arrAt_in 2 rfl _).trans (A_eq5 (V17 m ρ) c 2)))

theorem args_W19 (c : Dev nD) : ∀ b ∈ argRefs, W19 m ρ c (Proc.devRef .tc b) = m ((c : Thread nD τ).loc b) := by
  intro b hb
  refine Eq.trans ?_ (args_W18 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (keep_host)

theorem args_W20 (c : Dev nD) : ∀ b ∈ argRefs, W20 m ρ c (Proc.devRef .tc b) = m ((c : Thread nD τ).loc b) := by
  intro b hb
  refine Eq.trans ?_ (args_W19 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (first | keep_reg W20_of_ne | exact (W20_arr m ρ c 2).trans (((dat6 (V19 m ρ) c).arrAt_in 2 rfl _).trans (A_eq6 (V19 m ρ) c 2)) | exact (W20_arr m ρ c 4).trans (((dat6 (V19 m ρ) c).arrAt_in 4 rfl _).trans (A_eq6 (V19 m ρ) c 4)))

theorem args_W21 (c : Dev nD) : ∀ b ∈ argRefs, W21 m ρ c (Proc.devRef .tc b) = m ((c : Thread nD τ).loc b) := by
  intro b hb
  refine Eq.trans ?_ (args_W20 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (keep_host)

theorem args_W22 (c : Dev nD) : ∀ b ∈ argRefs, W22 m ρ c (Proc.devRef .tc b) = m ((c : Thread nD τ).loc b) := by
  intro b hb
  refine Eq.trans ?_ (args_W21 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (first | keep_reg W22_of_ne | exact (W22_arr m ρ c 2).trans (((dat7 (V21 m ρ) c).arrAt_in 2 rfl _).trans (A_eq7 (V21 m ρ) c 2)) | exact (W22_arr m ρ c 4).trans (((dat7 (V21 m ρ) c).arrAt_in 4 rfl _).trans (A_eq7 (V21 m ρ) c 4)))

theorem args_W23 (c : Dev nD) : ∀ b ∈ argRefs, W23 m ρ c (Proc.devRef .tc b) = m ((c : Thread nD τ).loc b) := by
  intro b hb
  refine Eq.trans ?_ (args_W22 m ρ c b hb)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> (keep_host)

end Cert.KernelIdeal.Hand

end
-- ==== Proof.Region5.lean ====
/-
  The second node update, in one block of all 10000 rows: a dense layer with the positive part of the aggregated messages.

  The body multiplies the 10000 x 128 array of aggregated messages by the 128 x 128 weights into a zero accumulator,
  adds the bias row to every row and takes the positive part. Entry (p, q) of the result is therefore
  max (sum over k of X(p, k) * W(k, q) + b(q)) 0. The grid has one point, whose blocks are the whole arrays (block
  index 0 on every axis, so every offset is zero), and that point's write-back covers the whole output array.
-/
import proofs.«425812_j65979287601856_3_alg».proof.Proof.Gen.KernelIdeal.Frame
import proofs.«425812_j65979287601856_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx

/-! ## The product at an entry -/

/-- The left operand is read at the output's row: axis 0 of its index is not contracted. -/
private theorem lhsAxis0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- The left operand is read at the summation index on its columns: axis 1 is the one contracted axis. -/
private theorem lhsAxis1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

/-- The right operand is read at the summation index on its rows: axis 0 is the one contracted axis. -/
private theorem rhsAxis0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

/-- The right operand is read at the output's column: axis 1 of its index is not contracted. -/
private theorem rhsAxis1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The product into a zero accumulator, at row p and column q, is the sum over k of X(p, k) * W(k, q): the sum over
    the one-axis contraction index is re-indexed by its one coordinate. -/
private theorem product_at (x : FVec Ideal S10000x128 .bf16) (w : FVec Ideal S128x128 .bf16) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhsAxis0 _ _
    | ⟨1, _⟩ => exact (lhsAxis1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhsAxis0 _ _).trans hk
    | ⟨1, _⟩ => exact rhsAxis1 _ _)
  rw [el, er]

/-! ## The bias at an entry -/

/-- The bias vector, made a one-row array and repeated over the rows, at row p and column q is b(q). -/
private theorem bias_at (b : FVec Ideal S128 .f32) (p : Fin 10000) (q : Fin 128) :
    broadcastTo S10000x128 (shapeCast S1x128 b shapeCasts_S128_S1x128) broadcasts_S1x128_S10000x128 (ix2 p q) = b (ix1 q) :=
  (broadcastTo_1b_ab_apply _ broadcasts_S1x128_S10000x128 p q).trans (shapeCast_a_1a_apply b shapeCasts_S128_S1x128 0 q)

/-! ## The body's arithmetic is the dense layer with the positive part -/

/-- On whole arrays: entry (p, q) is max (sum over k of X(p, k) * W(k, q) + b(q)) 0. The changes of format are the
    identity on the extended reals, the casts to the same shape are the identity, and the zero word denotes 0. -/
private theorem pay5_eq (x0 : FVec Ideal S10000x128 .f32) (w1 : FVec Ideal S128x128 .bf16) (b2 : FVec Ideal S128 .f32) :
    k5_pay1 (F := Ideal) x0 w1 b2 = Cert.Spec.denseRelu 10000 128 128 x0 w1 b2 := by
  funext i
  obtain ⟨p, q, rfl⟩ : ∃ (p : Fin 10000) (q : Fin 128), i = ix2 p q := ⟨i 0, i 1, eq_ix2 i⟩
  unfold k5_pay1
  simp only [shapeCast_self]
  refine (maximumf_apply _ _ _).trans ?_
  rw [broadcast_apply]
  show max _ (Ideal.ofBits .f32 0x00000000#32) = _
  rw [Ideal.ofBits_zero_f32]
  refine congrArg (fun z => max z (0 : EReal)) ?_
  refine (addf_apply _ _ _).trans ?_
  rw [product_at, bias_at]
  rfl

/-! ## The one point's blocks are the whole arrays -/

variable (V : (c : Dev nD) → (b : Ref sig .tc) → Buf (Elt Ideal) ((c : Thread nD τ).loc b))

/-- The block index of the aggregated messages is 0 on both axes, so the block starts at offset 0 on both. -/
private theorem off5_0 (t : Fin cfg5.N) : (fun a => win5_0.index t a * main_v33.ty.shape.size a) = fun _ => 0 :=
  funext fun a => by
    show win5_0.index t a * main_v33.ty.shape.size a = 0
    rw [show win5_0.index t a = 0 by fin_cases a <;> rfl, Nat.zero_mul]

/-- The same for the weights, -/
private theorem off5_1 (t : Fin cfg5.N) : (fun a => win5_1.index t a * main_v34.ty.shape.size a) = fun _ => 0 :=
  funext fun a => by
    show win5_1.index t a * main_v34.ty.shape.size a = 0
    rw [show win5_1.index t a = 0 by fin_cases a <;> rfl, Nat.zero_mul]

/-- for the bias, -/
private theorem off5_2 (t : Fin cfg5.N) : (fun a => win5_2.index t a * main_arg18.ty.shape.size a) = fun _ => 0 :=
  funext fun a => by
    show win5_2.index t a * main_arg18.ty.shape.size a = 0
    rw [show win5_2.index t a = 0 by fin_cases a <;> rfl, Nat.zero_mul]

/-- and for the output. -/
private theorem off5_3 (t : Fin cfg5.N) : (fun a => win5_3.index t a * main_v35.ty.shape.size a) = fun _ => 0 :=
  funext fun a => by
    show win5_3.index t a * main_v35.ty.shape.size a = 0
    rw [show win5_3.index t a = 0 by fin_cases a <;> rfl, Nat.zero_mul]

/-- The block of the aggregated messages is the whole array: all 10000 rows, all 128 columns, from offset 0. -/
private theorem iblk5_0_eq (c : Dev nD) (t : Fin cfg5.N) : iblk5 (F := Ideal) V c 0 t = V c main_v33 := by
  unfold iblk5
  exact Memref.read_access_unit_zero (Elt Ideal) main_v33 (off5_0 t) (fun a => by rw [congrFun (off5_0 t) a]; simp) (V c main_v33)

/-- The block of the weights is the whole 128 x 128 array. -/
private theorem iblk5_1_eq (c : Dev nD) (t : Fin cfg5.N) : iblk5 (F := Ideal) V c 1 t = V c main_v34 := by
  unfold iblk5
  exact Memref.read_access_unit_zero (Elt Ideal) main_v34 (off5_1 t) (fun a => by rw [congrFun (off5_1 t) a]; simp) (V c main_v34)

/-- The block of the bias is the whole vector. -/
private theorem iblk5_2_eq (c : Dev nD) (t : Fin cfg5.N) : iblk5 (F := Ideal) V c 2 t = V c main_arg18 := by
  unfold iblk5
  exact Memref.read_access_unit_zero (Elt Ideal) main_arg18 (off5_2 t) (fun a => by rw [congrFun (off5_2 t) a]; simp) (V c main_arg18)

/-! ## What the point writes back, and the array after the run -/

private theorem zero2 : (![0, 0] : Fin 2 → Nat) = fun _ => 0 := funext fun a => by fin_cases a <;> rfl
private theorem zero1 : (![0] : Fin 1 → Nat) = fun _ => 0 := funext fun a => by fin_cases a <;> rfl

/-- What the point writes back is the dense layer with the positive part of the whole input arrays, which is also what
    the output's one block, the whole array, reads of that array. The body loads each block whole and stores its one
    result over the whole output block. -/
private theorem flushed5_3_eq (c : Dev nD) (t : Fin cfg5.N) :
    (dat5 (F := Ideal) V c).flushed 3 t
      = ((cfg5.win 3).blk t).view.read (Elt Ideal) (Cert.Spec.denseRelu 10000 128 128 (V c main_v33) (V c main_v34) (V c main_arg18)) := by
  show (cfg5.win 3).cut (grid5.coords t) ((dat5 (F := Ideal) V c).after 3 t) = _
  rw [after5_3]
  unfold out5_3
  rw [View.canon_unit_zero zero2]
  simp only [View.ld_unit_zero (S := S10000x128) zero2, View.ld_unit_zero (S := S128x128) zero2, View.ld_unit_zero (S := S128) zero1]
  refine Eq.trans ?_ (Memref.read_access_unit_zero (Elt Ideal) main_v35 (off5_3 t) (fun a => by rw [congrFun (off5_3 t) a]; simp)
    (Cert.Spec.denseRelu 10000 128 128 (V c main_v33) (V c main_v34) (V c main_arg18))).symm
  show k5_pay1 (F := Ideal) (iblk5 V c 0 t) (iblk5 V c 1 t) (iblk5 V c 2 t) = _
  refine Eq.trans ?_ (pay5_eq (V c main_v33) (V c main_v34) (V c main_arg18))
  exact congr (congr (congrArg (k5_pay1 (F := Ideal)) (iblk5_0_eq V c t)) (iblk5_1_eq V c t)) (iblk5_2_eq V c t)

/-- Every entry of the output array lies in the one point's block: the block starts at offset 0 and has the array's
    extent on each axis. -/
private theorem cover5_3_all (i : S10000x128.Idx) : i ∈ ((cfg5.win 3).blk t5_0).view.set := by
  show i ∈ ((View.whole main_v35).slice (win5_3.rect t5_0)).set
  rw [View.set_slice_whole, Rect.mem_set_unit]
  intro a
  show win5_3.index t5_0 a * win5_3.size a ≤ (i a : Nat) ∧ (i a : Nat) < win5_3.index t5_0 a * win5_3.size a + win5_3.xsize (grid5.coords t5_0) a
  rw [show win5_3.index t5_0 a = 0 by fin_cases a <;> rfl, Nat.zero_mul, Nat.zero_add]
  exact ⟨Nat.zero_le _, (i a).isLt⟩

theorem region5_value (c : Dev nD) :
    (dat5 (F := Ideal) V c).arrAt 3 cfg5.N
      = Cert.Spec.denseRelu 10000 128 128 (V c main_v33) (V c main_v34) (V c main_arg18) := by
  exact (dat5 (F := Ideal) V c).arrAt_eq_of_cover 3 _ (fun t _ => flushed5_3_eq V c t)
    fun i => ⟨t5_0, flush5_3 t5_0, cover5_3_all i⟩

end Cert.KernelIdeal.Hand

end
-- ==== Proof.Region6.lean ====
/-
  The node scoring head, in one block of all 10000 rows.
-/
import proofs.«425812_j65979287601856_3_alg».proof.Proof.Gen.KernelIdeal.Frame
import proofs.«425812_j65979287601856_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

open Idealize.ShloMosaic.ValueIdx

/-! ## The two contractions, axis by axis

Both products contract the left operand's columns with the right operand's rows; the left operand's row and the
right operand's column are the result's. -/

/-- First layer, left operand: the row is the result's row. -/
private theorem dotH_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- First layer, left operand: the column is the summation index. -/
private theorem dotH_lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- First layer, right operand: the row is the summation index. -/
private theorem dotH_rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- First layer, right operand: the column is the result's column. -/
private theorem dotH_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- Second layer, left operand: the row is the result's row. -/
private theorem dotS_lhs_row (i : S10000x1.Idx) (q : dot_S10000x128_S128x1_S10000x1_1_0_0_1_n_n.contr.Idx) :
    (dot_S10000x128_S128x1_S10000x1_1_0_0_1_n_n.lhsIdx i q 0).val = (i 0).val := by
  unfold DotDims.lhsIdx
  rw [dif_neg (show ¬(0 : Fin S10000x128.rank) ∈ dot_S10000x128_S128x1_S10000x1_1_0_0_1_n_n.lhsBatch by decide),
    dif_pos (show (0 : Fin S10000x128.rank) ∈ dot_S10000x128_S128x1_S10000x1_1_0_0_1_n_n.lhsNonContracting by decide)]
  rfl
/-- Second layer, left operand: the column is the summation index. -/
private theorem dotS_lhs_col (i : S10000x1.Idx) (q : dot_S10000x128_S128x1_S10000x1_1_0_0_1_n_n.contr.Idx) :
    (dot_S10000x128_S128x1_S10000x1_1_0_0_1_n_n.lhsIdx i q 1).val = (q ⟨0, by decide⟩).val :=
  dot_S10000x128_S128x1_S10000x1_1_0_0_1_n_n.lhsIdx_val_of_single rfl i q
/-- Second layer, right operand: the row is the summation index. -/
private theorem dotS_rhs_row (i : S10000x1.Idx) (q : dot_S10000x128_S128x1_S10000x1_1_0_0_1_n_n.contr.Idx) :
    (dot_S10000x128_S128x1_S10000x1_1_0_0_1_n_n.rhsIdx i q 0).val = (q ⟨0, by decide⟩).val :=
  dot_S10000x128_S128x1_S10000x1_1_0_0_1_n_n.rhsIdx_val_of_single rfl i q
/-- Second layer, right operand: the column is the result's column. -/
private theorem dotS_rhs_col (i : S10000x1.Idx) (q : dot_S10000x128_S128x1_S10000x1_1_0_0_1_n_n.contr.Idx) :
    (dot_S10000x128_S128x1_S10000x1_1_0_0_1_n_n.rhsIdx i q 1).val = (i 1).val := by
  unfold DotDims.rhsIdx
  rw [dif_neg (show ¬(1 : Fin S128x1.rank) ∈ dot_S10000x128_S128x1_S10000x1_1_0_0_1_n_n.rhsBatch by decide),
    dif_pos (show (1 : Fin S128x1.rank) ∈ dot_S10000x128_S128x1_S10000x1_1_0_0_1_n_n.rhsNonContracting by decide)]
  rfl

/-! ## The two products at an entry -/

/-- The first layer's product into a zero accumulator, at entry (p, q): the sum over k of A(p, k) * B(k, q). -/
private theorem prodH_apply (A : FVec Ideal S10000x128 .bf16) (B : FVec Ideal S128x128 .bf16) (p : Fin 10000) (q : Fin 128) :
    matmul dot_S10000x128_S128x128_S10000x128_1_0_0_1_n_n none A B (constant (F := Ideal) S10000x128 .f32 0x00000000#32) (ix2 p q)
      = ∑ k : Fin 128, A (ix2 p k) * B (ix2 k q) := by
  refine (Ideal.matmul_constant_zero_apply dot_S10000x128_S128x128_S10000x128_1_0_0_1_n_n none A B (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun a => Fin.ext (by
      match a with
      | ⟨0, _⟩ => exact dotH_lhs_row _ _
      | ⟨1, _⟩ => exact (dotH_lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q :=
    funext fun a => Fin.ext (by
      match a with
      | ⟨0, _⟩ => exact (dotH_rhs_row _ _).trans hk
      | ⟨1, _⟩ => exact dotH_rhs_col _ _)
  rw [el, er]

/-- The second layer's product into a zero accumulator, at entry (p, q): the sum over k of A(p, k) * B(k, q). -/
private theorem prodS_apply (A : FVec Ideal S10000x128 .bf16) (B : FVec Ideal S128x1 .bf16) (p : Fin 10000) (q : Fin 1) :
    matmul dot_S10000x128_S128x1_S10000x1_1_0_0_1_n_n none A B (constant (F := Ideal) S10000x1 .f32 0x00000000#32) (ix2 p q)
      = ∑ k : Fin 128, A (ix2 p k) * B (ix2 k q) := by
  refine (Ideal.matmul_constant_zero_apply dot_S10000x128_S128x1_S10000x1_1_0_0_1_n_n none A B (ix2 p q)).trans ?_
  rw [← Equiv.sum_comp (contrEquiv1 dot_S10000x128_S128x1_S10000x1_1_0_0_1_n_n 128 rfl rfl).symm]
  refine Finset.sum_congr rfl fun k _ => ?_
  have hk := contrEquiv1_symm_val dot_S10000x128_S128x1_S10000x1_1_0_0_1_n_n 128 rfl rfl k
  have el : dot_S10000x128_S128x1_S10000x1_1_0_0_1_n_n.lhsIdx (ix2 p q) ((contrEquiv1 dot_S10000x128_S128x1_S10000x1_1_0_0_1_n_n 128 rfl rfl).symm k) = ix2 p k :=
    funext fun a => Fin.ext (by
      match a with
      | ⟨0, _⟩ => exact dotS_lhs_row _ _
      | ⟨1, _⟩ => exact (dotS_lhs_col _ _).trans hk)
  have er : dot_S10000x128_S128x1_S10000x1_1_0_0_1_n_n.rhsIdx (ix2 p q) ((contrEquiv1 dot_S10000x128_S128x1_S10000x1_1_0_0_1_n_n 128 rfl rfl).symm k) = ix2 k q :=
    funext fun a => Fin.ext (by
      match a with
      | ⟨0, _⟩ => exact (dotS_rhs_row _ _).trans hk
      | ⟨1, _⟩ => exact dotS_rhs_col _ _)
  rw [el, er]

/-! ## The biases, spread over the rows -/

/-- A vector of 128 entries as one row, repeated over 10000 rows: entry (p, q) is entry q. -/
private theorem biasH_apply (b : FVec Ideal S128 .f32) (p : Fin 10000) (q : Fin 128) :
    broadcastTo S10000x128 (shapeCast S1x128 b shapeCasts_S128_S1x128) broadcasts_S1x128_S10000x128 (ix2 p q) = b (ix1 q) :=
  (broadcastTo_1b_ab_apply (shapeCast S1x128 b shapeCasts_S128_S1x128) broadcasts_S1x128_S10000x128 p q).trans
    (shapeCast_a_1a_apply b shapeCasts_S128_S1x128 (0 : Fin 1) q)

/-- A vector of one entry as one row, repeated over 10000 rows: entry (p, q) is entry q. -/
private theorem biasS_apply (b : FVec Ideal S1 .f32) (p : Fin 10000) (q : Fin 1) :
    broadcastTo S10000x1 (shapeCast S1x1 b shapeCasts_S1_S1x1) broadcasts_S1x1_S10000x1 (ix2 p q) = b (ix1 q) :=
  (broadcastTo_1b_ab_apply (shapeCast S1x1 b shapeCasts_S1_S1x1) broadcasts_S1x1_S10000x1 p q).trans
    (shapeCast_a_1a_apply b shapeCasts_S1_S1x1 (0 : Fin 1) q)

/-! ## The block's arithmetic is the scoring head -/

/-- The hidden layer the body computes: the product plus the bias, then the positive part. -/
private theorem hidden_eq (x : FVec Ideal S10000x128 .f32) (w1 : FVec Ideal S128x128 .bf16) (b1 : FVec Ideal S128 .f32) :
    maximumf (addf (matmul dot_S10000x128_S128x128_S10000x128_1_0_0_1_n_n none
          (truncf .bf16 (shapeCast S10000x128 x shapeCasts_S10000x128_S10000x128) bitsLt_bf16_f32)
          (shapeCast S128x128 w1 shapeCasts_S128x128_S128x128) (constant (F := Ideal) S10000x128 .f32 0x00000000#32))
        (broadcastTo S10000x128 (shapeCast S1x128 b1 shapeCasts_S128_S1x128) broadcasts_S1x128_S10000x128))
      (broadcast S10000x128 (Scalar.ofBits (F := Ideal) .f32 0x00000000#32))
    = Cert.Spec.denseRelu 10000 128 128 x w1 b1 := by
  funext i
  obtain ⟨p, q, rfl⟩ : ∃ (p : Fin 10000) (q : Fin 128), i = ix2 p q := ⟨i 0, i 1, eq_ix2 i⟩
  rw [shapeCast_self, shapeCast_self]
  show max (matmul dot_S10000x128_S128x128_S10000x128_1_0_0_1_n_n none (truncf .bf16 x bitsLt_bf16_f32) w1
        (constant (F := Ideal) S10000x128 .f32 0x00000000#32) (ix2 p q)
      + broadcastTo S10000x128 (shapeCast S1x128 b1 shapeCasts_S128_S1x128) broadcasts_S1x128_S10000x128 (ix2 p q))
      (Ideal.ofBits .f32 0x00000000#32) = _
  rw [prodH_apply, biasH_apply, Ideal.ofBits_zero_f32]
  rfl

/-- The body's one stored value is the scoring head of its loaded blocks. -/
private theorem region6_pay_eq (x : FVec Ideal S10000x128 .f32) (w1 : FVec Ideal S128x128 .bf16) (b1 : FVec Ideal S128 .f32)
    (w2 : FVec Ideal S128x1 .bf16) (b2 : FVec Ideal S1 .f32) :
    k6_pay1 (F := Ideal) x w1 b1 w2 b2 = Cert.Spec.head 10000 x w1 b1 w2 b2 := by
  unfold k6_pay1
  dsimp only
  rw [hidden_eq]
  funext i
  obtain ⟨p, q, rfl⟩ : ∃ (p : Fin 10000) (q : Fin 1), i = ix2 p q := ⟨i 0, i 1, eq_ix2 i⟩
  rw [shapeCast_self]
  show matmul dot_S10000x128_S128x1_S10000x1_1_0_0_1_n_n none (truncf .bf16 (Cert.Spec.denseRelu 10000 128 128 x w1 b1) bitsLt_bf16_f32) w2
        (constant (F := Ideal) S10000x1 .f32 0x00000000#32) (ix2 p q)
      + broadcastTo S10000x1 (shapeCast S1x1 b2 shapeCasts_S1_S1x1) broadcasts_S1x1_S10000x1 (ix2 p q) = _
  rw [prodS_apply, biasS_apply]
  rfl

/-! ## Every block is its whole array

The grid has one point, and there every window's block index is zero on every axis: a block's entry at coordinates
y sits in the array at 0 * size + y, which is y. -/

private theorem zeros2 : (![0, 0] : Fin 2 → Nat) = fun _ => 0 := funext fun a => by fin_cases a <;> rfl
private theorem zeros1 : (![0] : Fin 1 → Nat) = fun _ => 0 := funext fun a => by fin_cases a <;> rfl

/-- The block indices at the grid's one point. -/
private theorem index_zero : ∀ t : Fin cfg6.N,
    (win6_0.index t (0 : Fin 2) = 0 ∧ win6_0.index t (1 : Fin 2) = 0)
    ∧ (win6_1.index t (0 : Fin 2) = 0 ∧ win6_1.index t (1 : Fin 2) = 0)
    ∧ win6_2.index t (0 : Fin 1) = 0
    ∧ (win6_3.index t (0 : Fin 2) = 0 ∧ win6_3.index t (1 : Fin 2) = 0)
    ∧ win6_4.index t (0 : Fin 1) = 0
    ∧ (win6_5.index t (0 : Fin 2) = 0 ∧ win6_5.index t (1 : Fin 2) = 0) :=
  (by decide +kernel : ∀ t : Fin grid6.N, _)

/-- The features' block is the features. -/
private theorem read_feat (t : Fin cfg6.N) (X : S10000x128.Idx → EReal) :
    ((cfg6.win 0).blk t).view.read (Elt Ideal) X = X := by
  obtain ⟨⟨h0, h1⟩, -⟩ := index_zero t
  funext y
  rw [View.read_apply]
  show X (((cfg6.win 0).blk t).view.emb y) = X y
  refine congrArg X (funext fun a => Fin.ext ?_)
  match a with
  | ⟨0, _⟩ => show win6_0.index t (0 : Fin 2) * 10000 + 1 * (y 0).val = (y 0).val; rw [h0]; omega
  | ⟨1, _⟩ => show win6_0.index t (1 : Fin 2) * 128 + 1 * (y 1).val = (y 1).val; rw [h1]; omega

/-- The first weights' block is the first weights. -/
private theorem read_w1 (t : Fin cfg6.N) (X : S128x128.Idx → EReal) :
    ((cfg6.win 1).blk t).view.read (Elt Ideal) X = X := by
  obtain ⟨-, ⟨h0, h1⟩, -⟩ := index_zero t
  funext y
  rw [View.read_apply]
  show X (((cfg6.win 1).blk t).view.emb y) = X y
  refine congrArg X (funext fun a => Fin.ext ?_)
  match a with
  | ⟨0, _⟩ => show win6_1.index t (0 : Fin 2) * 128 + 1 * (y 0).val = (y 0).val; rw [h0]; omega
  | ⟨1, _⟩ => show win6_1.index t (1 : Fin 2) * 128 + 1 * (y 1).val = (y 1).val; rw [h1]; omega

/-- The first bias's block is the first bias. -/
private theorem read_b1 (t : Fin cfg6.N) (X : S128.Idx → EReal) :
    ((cfg6.win 2).blk t).view.read (Elt Ideal) X = X := by
  obtain ⟨-, -, h0, -⟩ := index_zero t
  funext y
  rw [View.read_apply]
  show X (((cfg6.win 2).blk t).view.emb y) = X y
  refine congrArg X (funext fun a => Fin.ext ?_)
  match a with
  | ⟨0, _⟩ => show win6_2.index t (0 : Fin 1) * 128 + 1 * (y 0).val = (y 0).val; rw [h0]; omega

/-- The second weights' block is the second weights. -/
private theorem read_w2 (t : Fin cfg6.N) (X : S128x1.Idx → EReal) :
    ((cfg6.win 3).blk t).view.read (Elt Ideal) X = X := by
  obtain ⟨-, -, -, ⟨h0, h1⟩, -⟩ := index_zero t
  funext y
  rw [View.read_apply]
  show X (((cfg6.win 3).blk t).view.emb y) = X y
  refine congrArg X (funext fun a => Fin.ext ?_)
  match a with
  | ⟨0, _⟩ => show win6_3.index t (0 : Fin 2) * 128 + 1 * (y 0).val = (y 0).val; rw [h0]; omega
  | ⟨1, _⟩ => show win6_3.index t (1 : Fin 2) * 1 + 1 * (y 1).val = (y 1).val; rw [h1]; omega

/-- The second bias's block is the second bias. -/
private theorem read_b2 (t : Fin cfg6.N) (X : S1.Idx → EReal) :
    ((cfg6.win 4).blk t).view.read (Elt Ideal) X = X := by
  obtain ⟨-, -, -, -, h0, -⟩ := index_zero t
  funext y
  rw [View.read_apply]
  show X (((cfg6.win 4).blk t).view.emb y) = X y
  refine congrArg X (funext fun a => Fin.ext ?_)
  match a with
  | ⟨0, _⟩ => show win6_4.index t (0 : Fin 1) * 1 + 1 * (y 0).val = (y 0).val; rw [h0]; omega

/-- The scores' block is the scores. -/
private theorem read_score (t : Fin cfg6.N) (X : S10000x1.Idx → EReal) :
    ((cfg6.win 5).blk t).view.read (Elt Ideal) X = X := by
  obtain ⟨-, -, -, -, -, ⟨h0, h1⟩⟩ := index_zero t
  funext y
  rw [View.read_apply]
  show X (((cfg6.win 5).blk t).view.emb y) = X y
  refine congrArg X (funext fun a => Fin.ext ?_)
  match a with
  | ⟨0, _⟩ => show win6_5.index t (0 : Fin 2) * 10000 + 1 * (y 0).val = (y 0).val; rw [h0]; omega
  | ⟨1, _⟩ => show win6_5.index t (1 : Fin 2) * 1 + 1 * (y 1).val = (y 1).val; rw [h1]; omega

/-- What the body leaves in the scores' buffer is the scoring head of the five blocks it loaded. -/
private theorem left_eq (x : Vec Ideal S10000x128 .f32) (w1 : Vec Ideal S128x128 .bf16) (b1 : Vec Ideal S128 .f32)
    (w2 : Vec Ideal S128x1 .bf16) (b2 : Vec Ideal S1 .f32) :
    out6_5 (F := Ideal) x w1 b1 w2 b2 = Cert.Spec.head 10000 x w1 b1 w2 b2 := by
  unfold out6_5
  rw [View.canon_unit_zero zeros2]
  simp only [View.ld_unit_zero (S := S10000x128) zeros2, View.ld_unit_zero (S := S128x128) zeros2,
    View.ld_unit_zero (S := S128) zeros1, View.ld_unit_zero (S := S128x1) zeros2, View.ld_unit_zero (S := S1) zeros1]
  exact region6_pay_eq x w1 b1 w2 b2

/-- The write-back moves the whole buffer. -/
private theorem whole_moved (t : Fin cfg6.N) (X : S10000x1.Idx → EReal) :
    (cfg6.win 5).cut (grid6.coords t) X = X := rfl

/-- What the one point writes back is the scoring head of the arrays as the region finds them. -/
private theorem written_back (c : Dev nD) (t : Fin cfg6.N) (hf : (cfg6.win 5).flush t = true) :
    (dat6 (F := Ideal) V c).flushed 5 t = ((cfg6.win 5).blk t).view.read (Elt Ideal)
      (Cert.Spec.head 10000 (V c main_v35) (V c main_v36) (V c main_arg20) (V c main_v37) (V c main_arg22)) := by
  show (cfg6.win 5).cut (grid6.coords t) ((dat6 (F := Ideal) V c).after 5 t) = _
  rw [after6_5]
  unfold iblk6
  rw [read_feat t, read_w1 t, read_b1 t, read_w2 t, read_b2 t, read_score t, left_eq]
  rfl

theorem region6_value (c : Dev nD) :
    (dat6 (F := Ideal) V c).arrAt 5 cfg6.N
      = Cert.Spec.head 10000 (V c main_v35) (V c main_v36) (V c main_arg20) (V c main_v37) (V c main_arg22) :=
  (dat6 (F := Ideal) V c).arrAt_eq_of_cover 5 _ (written_back V c) fun i =>
    ⟨t6_0, flush6_5 t6_0, by
      show i ∈ ((View.whole main_v38).slice (win6_5.rect t6_0)).set
      rw [View.set_slice_whole, Rect.mem_set_unit]
      obtain ⟨-, -, -, -, -, ⟨h0, h1⟩⟩ := index_zero t6_0
      have r0 : (i 0 : Nat) < 10000 := (i 0).isLt
      have r1 : (i 1 : Nat) < 1 := (i 1).isLt
      intro a
      match a with
      | ⟨0, _⟩ =>
        show win6_5.index t6_0 (0 : Fin 2) * 10000 ≤ (i 0 : Nat) ∧ (i 0 : Nat) < win6_5.index t6_0 (0 : Fin 2) * 10000 + 10000
        rw [h0]; omega
      | ⟨1, _⟩ =>
        show win6_5.index t6_0 (1 : Fin 2) * 1 ≤ (i 1 : Nat) ∧ (i 1 : Nat) < win6_5.index t6_0 (1 : Fin 2) * 1 + 1
        rw [h1]; omega⟩

end Cert.KernelIdeal.Hand

end
-- ==== Proof.Region7.lean ====
/-
  The edge scoring head, 5000 edges at a time over 40 blocks.

  Each grid point takes 5000 consecutive rows of the edge features, applies the dense layer 128 → 128 with the
  positive part, then the dense layer 128 → 1, and writes the 5000 scores to the same rows of the result. Both
  layers act row by row, so the scores of a block of rows are that block of rows of the scores of all rows; the
  forty blocks tile the 200000 rows.
-/
import proofs.«425812_j65979287601856_3_alg».proof.Proof.Gen.KernelIdeal.Frame
import proofs.«425812_j65979287601856_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx
open scoped BigOperators

variable (V : (c : Dev nD) → (b : Ref sig .tc) → Buf (Elt Ideal) ((c : Thread nD τ).loc b))

/-! ## The two matrix products read at an entry

A product into a zero accumulator is, at entry (p, q), the sum over the one contracted axis k of the left
operand at (p, k) times the right operand at (k, q). -/

/-- First product, left operand: the row coordinate is the entry's row. -/
private theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- First product, left operand: the column coordinate is the contracted one. -/
private theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- First product, right operand: the row coordinate is the contracted one. -/
private theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- First product, right operand: the column coordinate is the entry's column. -/
private theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The first product at entry (p, q). -/
private theorem mmA_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- Second product, left operand: the row coordinate is the entry's row. -/
private theorem lhsB_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- Second product, left operand: the column coordinate is the contracted one. -/
private theorem lhsB_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
/-- Second product, right operand: the row coordinate is the contracted one. -/
private theorem rhsB_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
/-- Second product, right operand: the column coordinate is the entry's column. -/
private theorem rhsB_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- The second product at entry (p, q). -/
private theorem mmB_apply (a : FVec Ideal S5000x128 .bf16) (w : FVec Ideal S128x1 .bf16) (p : Fin 5000) (q : Fin 1) :
    matmul dot_S5000x128_S128x1_S5000x1_1_0_0_1_n_n none a w (constant (F := Ideal) S5000x1 .f32 0x00000000#32) (ix2 p q)
      = ∑ k : Fin 128, a (ix2 p k) * w (ix2 k q) := by
  refine (Ideal.matmul_constant_zero_apply dot_S5000x128_S128x1_S5000x1_1_0_0_1_n_n none a w (ix2 p q)).trans ?_
  rw [← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ix2 p q) ((ValueIdx.contrEquiv1 dot_S5000x128_S128x1_S5000x1_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x1_S5000x1_1_0_0_1_n_n.rhsIdx (ix2 p q) ((ValueIdx.contrEquiv1 dot_S5000x128_S128x1_S5000x1_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The body's arithmetic on a block is the scoring head of the block -/

/-- The first layer on a block: product plus the bias row repeated down the rows is the dense layer. -/
private theorem layerA_eq (x : FVec Ideal S5000x128 .f32) (w : FVec Ideal S128x128 .bf16) (b : FVec Ideal S128 .f32) :
    addf (matmul dot_S5000x128_S128x128_S5000x128_1_0_0_1_n_n none (truncf .bf16 x bitsLt_bf16_f32) w (constant (F := Ideal) S5000x128 .f32 0x00000000#32))
        (broadcastTo S5000x128 (shapeCast S1x128 b shapeCasts_S128_S1x128) broadcasts_S1x128_S5000x128)
      = Cert.Spec.dense 5000 128 128 x w b := by
  funext i
  obtain ⟨p, q, rfl⟩ : ∃ (p : Fin 5000) (q : Fin 128), i = ix2 p q := ⟨i 0, i 1, eq_ix2 i⟩
  refine (addf_apply _ _ (ix2 p q)).trans ?_
  refine congrArg₂ (· + ·) (mmA_apply (truncf .bf16 x bitsLt_bf16_f32) w p q) ?_
  exact (broadcastTo_1b_ab_apply _ broadcasts_S1x128_S5000x128 p q).trans (shapeCast_a_1a_apply b shapeCasts_S128_S1x128 0 q)

/-- The positive part on a block: the maximum with the zero word repeated everywhere. -/
private theorem reluA_eq (y : FVec Ideal S5000x128 .f32) :
    maximumf y (broadcast S5000x128 (Scalar.ofBits (F := Ideal) .f32 0x00000000#32)) = Cert.Spec.relu 5000 128 y := by
  funext i
  refine (maximumf_apply _ _ i).trans ?_
  show max (y i) (Ideal.ofBits .f32 0x00000000#32) = max (y i) 0
  rw [Ideal.ofBits_zero_f32]

/-- The second layer on a block: product plus the one bias repeated down the rows is the dense layer. -/
private theorem layerB_eq (x : FVec Ideal S5000x128 .f32) (w : FVec Ideal S128x1 .bf16) (b : FVec Ideal S1 .f32) :
    addf (matmul dot_S5000x128_S128x1_S5000x1_1_0_0_1_n_n none (truncf .bf16 x bitsLt_bf16_f32) w (constant (F := Ideal) S5000x1 .f32 0x00000000#32))
        (broadcastTo S5000x1 (shapeCast S1x1 b shapeCasts_S1_S1x1) broadcasts_S1x1_S5000x1)
      = Cert.Spec.dense 5000 128 1 x w b := by
  funext i
  obtain ⟨p, q, rfl⟩ : ∃ (p : Fin 5000) (q : Fin 1), i = ix2 p q := ⟨i 0, i 1, eq_ix2 i⟩
  refine (addf_apply _ _ (ix2 p q)).trans ?_
  refine congrArg₂ (· + ·) (mmB_apply (truncf .bf16 x bitsLt_bf16_f32) w p q) ?_
  exact (broadcastTo_1b_ab_apply _ broadcasts_S1x1_S5000x1 p q).trans (shapeCast_a_1a_apply b shapeCasts_S1_S1x1 0 q)

/-- The body's one stored value, from the five loaded blocks, is the scoring head of them. -/
private theorem pay_eq (x0 : Vec Ideal S5000x128 .f32) (w1 : Vec Ideal S128x128 .bf16) (b1 : Vec Ideal S128 .f32)
    (w2 : Vec Ideal S128x1 .bf16) (b2 : Vec Ideal S1 .f32) :
    k7_pay1 (F := Ideal) x0 w1 b1 w2 b2 = Cert.Spec.head 5000 x0 w1 b1 w2 b2 := by
  unfold k7_pay1
  dsimp only
  rw [shapeCast_self, shapeCast_self, shapeCast_self, layerA_eq, reluA_eq, layerB_eq]
  rfl

/-! ## The windows' blocks as rows of their arrays

A block's coordinate in its array is always the block index times the block's size plus the coordinate inside
the block. Windows 0 and 5 step through the rows, 5000 at a time; the weights and biases are whole at every
point. -/

private theorem zero2 : (![0, 0] : Fin 2 → Nat) = fun _ => 0 := funext fun a => by fin_cases a <;> rfl
private theorem zero1 : (![0] : Fin 1 → Nat) = fun _ => 0 := funext fun a => by fin_cases a <;> rfl

/-- The six index maps over the forty grid points. -/
private theorem index_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = 0 ∧ win7_3.index t (1 : Fin 2) = 0
    ∧ win7_4.index t (0 : Fin 1) = 0
    ∧ win7_5.index t (0 : Fin 2) = t.val ∧ win7_5.index t (1 : Fin 2) = 0 :=
  (by decide +kernel : ∀ t : Fin grid7.N, _)

/-- Every point's block of 5000 rows lies inside the 200000 rows. -/
private theorem rows_le (t : Fin cfg7.N) : t.val * 5000 + 5000 ≤ 200000 := by
  have h := t.isLt
  have hN : cfg7.N = 40 := N_7
  omega

/-- The edge features' block at point t is rows 5000 t … 5000 t + 4999 of the edge features. -/
private theorem iblk0_eq (c : Dev nD) (t : Fin cfg7.N) :
    (iblk7 (F := Ideal) V c 0 t : Vec Ideal S5000x128 .f32) = Cert.Spec.rowsBlock 5000 200000 128 t.val (rows_le t) (V c main_v30_0) := by
  obtain ⟨e0, e1, -⟩ := index_facts t
  funext x
  unfold iblk7
  rw [View.read_apply]
  show V c main_v30_0 _ = V c main_v30_0 _
  refine congrArg (V c main_v30_0) (funext fun a => Fin.ext ?_)
  match a with
  | ⟨0, _⟩ => show win7_0.index t (0 : Fin 2) * 5000 + 1 * (x 0).val = t.val * 5000 + (x 0).val; rw [e0]; omega
  | ⟨1, _⟩ => show win7_0.index t (1 : Fin 2) * 128 + 1 * (x 1).val = (x 1).val; rw [e1]; omega

/-- The first layer's weights are whole at every point. -/
private theorem iblk1_eq (c : Dev nD) (t : Fin cfg7.N) :
    (iblk7 (F := Ideal) V c 1 t : Vec Ideal S128x128 .bf16) = V c main_v40 := by
  obtain ⟨-, -, e0, e1, -⟩ := index_facts t
  funext x
  unfold iblk7
  rw [View.read_apply]
  show V c main_v40 _ = V c main_v40 x
  refine congrArg (V c main_v40) (funext fun a => Fin.ext ?_)
  match a with
  | ⟨0, _⟩ => show win7_1.index t (0 : Fin 2) * 128 + 1 * (x 0).val = (x 0).val; rw [e0]; omega
  | ⟨1, _⟩ => show win7_1.index t (1 : Fin 2) * 128 + 1 * (x 1).val = (x 1).val; rw [e1]; omega

/-- The first layer's bias is whole at every point. -/
private theorem iblk2_eq (c : Dev nD) (t : Fin cfg7.N) :
    (iblk7 (F := Ideal) V c 2 t : Vec Ideal S128 .f32) = V c main_arg24 := by
  obtain ⟨-, -, -, -, e0, -⟩ := index_facts t
  funext x
  unfold iblk7
  rw [View.read_apply]
  show V c main_arg24 _ = V c main_arg24 x
  refine congrArg (V c main_arg24) (funext fun a => Fin.ext ?_)
  match a with
  | ⟨0, _⟩ => show win7_2.index t (0 : Fin 1) * 128 + 1 * (x 0).val = (x 0).val; rw [e0]; omega

/-- The second layer's weights are whole at every point. -/
private theorem iblk3_eq (c : Dev nD) (t : Fin cfg7.N) :
    (iblk7 (F := Ideal) V c 3 t : Vec Ideal S128x1 .bf16) = V c main_v41 := by
  obtain ⟨-, -, -, -, -, e0, e1, -⟩ := index_facts t
  funext x
  unfold iblk7
  rw [View.read_apply]
  show V c main_v41 _ = V c main_v41 x
  refine congrArg (V c main_v41) (funext fun a => Fin.ext ?_)
  match a with
  | ⟨0, _⟩ => show win7_3.index t (0 : Fin 2) * 128 + 1 * (x 0).val = (x 0).val; rw [e0]; omega
  | ⟨1, _⟩ => show win7_3.index t (1 : Fin 2) * 1 + 1 * (x 1).val = (x 1).val; rw [e1]; omega

/-- The second layer's bias is whole at every point. -/
private theorem iblk4_eq (c : Dev nD) (t : Fin cfg7.N) :
    (iblk7 (F := Ideal) V c 4 t : Vec Ideal S1 .f32) = V c main_arg26 := by
  obtain ⟨-, -, -, -, -, -, -, e0, -⟩ := index_facts t
  funext x
  unfold iblk7
  rw [View.read_apply]
  show V c main_arg26 _ = V c main_arg26 x
  refine congrArg (V c main_arg26) (funext fun a => Fin.ext ?_)
  match a with
  | ⟨0, _⟩ => show win7_4.index t (0 : Fin 1) * 1 + 1 * (x 0).val = (x 0).val; rw [e0]; omega

/-- Reading an array of scores through the result window's block at point t takes its rows 5000 t … 5000 t + 4999. -/
private theorem blk5_read (t : Fin cfg7.N) (G : Cert.Spec.A2 200000 1) :
    (((cfg7.win 5).blk t).view.read (Elt Ideal) G : Vec Ideal S5000x1 .f32) = Cert.Spec.rowsBlock 5000 200000 1 t.val (rows_le t) G := by
  obtain ⟨-, -, -, -, -, -, -, -, e0, e1⟩ := index_facts t
  funext x
  rw [View.read_apply]
  show G _ = G _
  refine congrArg G (funext fun a => Fin.ext ?_)
  match a with
  | ⟨0, _⟩ => show win7_5.index t (0 : Fin 2) * 5000 + 1 * (x 0).val = t.val * 5000 + (x 0).val; rw [e0]; omega
  | ⟨1, _⟩ => show win7_5.index t (1 : Fin 2) * 1 + 1 * (x 1).val = (x 1).val; rw [e1]; omega

/-- The scoring head of equal arrays. -/
private theorem head_congr {R : ℕ} {X X' : Cert.Spec.A2 R 128} {W1 W1' : Cert.Spec.A2 128 128} {b1 b1' : Cert.Spec.A1 128}
    {W2 W2' : Cert.Spec.A2 128 1} {b2 b2' : Cert.Spec.A1 1}
    (h0 : X = X') (h1 : W1 = W1') (h2 : b1 = b1') (h3 : W2 = W2') (h4 : b2 = b2') :
    Cert.Spec.head R X W1 b1 W2 b2 = Cert.Spec.head R X' W1' b1' W2' b2' := by
  subst h0 h1 h2 h3 h4; rfl

/-! ## From blocks to the array -/

/-- What point t writes back is rows 5000 t … 5000 t + 4999 of the scoring head of all the edge features. -/
private theorem flushed_eq (c : Dev nD) (t : Fin cfg7.N) (hf : (cfg7.win 5).flush t = true) :
    (dat7 (F := Ideal) V c).flushed 5 t = ((cfg7.win 5).blk t).view.read (Elt Ideal)
      (Cert.Spec.head 200000 (V c main_v30_0) (V c main_v40) (V c main_arg24) (V c main_v41) (V c main_arg26)) := by
  show (cfg7.win 5).cut (grid7.coords t) ((dat7 V c).after 5 t) = _
  rw [after7_5]
  unfold out7_5
  rw [View.canon_unit_zero zero2]
  simp only [View.ld_unit_zero (S := S5000x128) zero2, View.ld_unit_zero (S := S128x128) zero2, View.ld_unit_zero (S := S128) zero1,
    View.ld_unit_zero (S := S128x1) zero2, View.ld_unit_zero (S := S1) zero1]
  refine Eq.trans ?_ (blk5_read t _).symm
  refine Eq.trans ?_ (Cert.Spec.head_rowsBlock 5000 200000 t.val (rows_le t) _ _ _ _ _)
  show k7_pay1 (F := Ideal) (iblk7 V c 0 t) (iblk7 V c 1 t) (iblk7 V c 2 t) (iblk7 V c 3 t) (iblk7 V c 4 t) = _
  refine (pay_eq (iblk7 V c 0 t) (iblk7 V c 1 t) (iblk7 V c 2 t) (iblk7 V c 3 t) (iblk7 V c 4 t)).trans ?_
  exact head_congr (iblk0_eq V c t) (iblk1_eq V c t) (iblk2_eq V c t) (iblk3_eq V c t) (iblk4_eq V c t)

/-- Row r of the result lies in the block of point r / 5000, and every point writes back. -/
private theorem cover (i : S200000x1.Idx) : ∃ t : Fin cfg7.N, (cfg7.win 5).flush t = true ∧ i ∈ ((cfg7.win 5).blk t).view.set := by
  have hi0 : (i 0).val < 200000 := (i 0).isLt
  have hi1 : (i 1).val < 1 := (i 1).isLt
  have hN : cfg7.N = 40 := N_7
  obtain ⟨t, ht⟩ : ∃ t : Fin cfg7.N, t.val = (i 0).val / 5000 := ⟨⟨(i 0).val / 5000, by rw [hN]; omega⟩, rfl⟩
  obtain ⟨-, -, -, -, -, -, -, -, e0, e1⟩ := index_facts t
  refine ⟨t, flush7_5 t, ?_⟩
  show i ∈ ((View.whole main_v42).slice (win7_5.rect t)).set
  rw [View.set_slice_whole, Rect.mem_set_unit]
  intro a
  match a with
  | ⟨0, _⟩ => show win7_5.index t (0 : Fin 2) * 5000 ≤ (i 0).val ∧ (i 0).val < win7_5.index t (0 : Fin 2) * 5000 + 5000; rw [e0, ht]; omega
  | ⟨1, _⟩ => show win7_5.index t (1 : Fin 2) * 1 ≤ (i 1).val ∧ (i 1).val < win7_5.index t (1 : Fin 2) * 1 + 1; rw [e1]; omega

theorem region7_value (c : Dev nD) :
    (dat7 (F := Ideal) V c).arrAt 5 cfg7.N
      = Cert.Spec.head 200000 (V c main_v30_0) (V c main_v40) (V c main_arg24) (V c main_v41) (V c main_arg26) := by
  exact (dat7 (F := Ideal) V c).arrAt_eq_of_cover 5 _ (flushed_eq V c) cover

end Cert.KernelIdeal.Hand

end
-- ==== Proof.Region4.lean ====
/-
  The second message-passing step's per-edge perceptrons, 2000 edges at a time over 100 blocks: one output array ends holding the new edge features, the other the messages.
-/
import proofs.«425812_j65979287601856_3_alg».proof.Proof.Gen.KernelIdeal.Frame
import proofs.«425812_j65979287601856_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## The 768 → 512 layer on a block of 2000 rows -/

/-- The left operand is read at the output's row … -/
private theorem lhs2_a_0 (i : S2000x512.Idx) (q : dot_S2000x768_S768x512_S2000x512_1_0_0_1_n_n.contr.Idx) :
    (dot_S2000x768_S768x512_S2000x512_1_0_0_1_n_n.lhsIdx i q 0).val = (i 0).val := by
  unfold DotDims.lhsIdx
  rw [dif_neg (show ¬(0 : Fin S2000x768.rank) ∈ dot_S2000x768_S768x512_S2000x512_1_0_0_1_n_n.lhsBatch by decide), dif_pos (show (0 : Fin S2000x768.rank) ∈ dot_S2000x768_S768x512_S2000x512_1_0_0_1_n_n.lhsNonContracting by decide)]
  rfl
/-- … and at the contracted position; -/
private theorem lhs2_a_1 (i : S2000x512.Idx) (q : dot_S2000x768_S768x512_S2000x512_1_0_0_1_n_n.contr.Idx) :
    (dot_S2000x768_S768x512_S2000x512_1_0_0_1_n_n.lhsIdx i q 1).val = (q ⟨0, by decide⟩).val :=
  dot_S2000x768_S768x512_S2000x512_1_0_0_1_n_n.lhsIdx_val_of_single rfl i q
/-- the right operand at the contracted position … -/
private theorem rhs2_a_0 (i : S2000x512.Idx) (q : dot_S2000x768_S768x512_S2000x512_1_0_0_1_n_n.contr.Idx) :
    (dot_S2000x768_S768x512_S2000x512_1_0_0_1_n_n.rhsIdx i q 0).val = (q ⟨0, by decide⟩).val :=
  dot_S2000x768_S768x512_S2000x512_1_0_0_1_n_n.rhsIdx_val_of_single rfl i q
/-- … and at the output's column. -/
private theorem rhs2_a_1 (i : S2000x512.Idx) (q : dot_S2000x768_S768x512_S2000x512_1_0_0_1_n_n.contr.Idx) :
    (dot_S2000x768_S768x512_S2000x512_1_0_0_1_n_n.rhsIdx i q 1).val = (i 1).val := by
  unfold DotDims.rhsIdx
  rw [dif_neg (show ¬(1 : Fin S768x512.rank) ∈ dot_S2000x768_S768x512_S2000x512_1_0_0_1_n_n.rhsBatch by decide), dif_pos (show (1 : Fin S768x512.rank) ∈ dot_S2000x768_S768x512_S2000x512_1_0_0_1_n_n.rhsNonContracting by decide)]
  rfl

/-- The product into a zero accumulator, at entry (p, q): the sum over k of a(p, k) * w(k, q). -/
private theorem matmul2_a_apply (a : FVec Ideal S2000x768 .bf16) (w : FVec Ideal S768x512 .bf16) (p : Fin 2000) (q : Fin 512) :
    matmul dot_S2000x768_S768x512_S2000x512_1_0_0_1_n_n none a w (constant (F := Ideal) S2000x512 .f32 0x00000000#32) (ValueIdx.ix2 p q)
      = ∑ k : Fin 768, a (ValueIdx.ix2 p k) * w (ValueIdx.ix2 k q) := by
  refine (Ideal.matmul_constant_zero_apply dot_S2000x768_S768x512_S2000x512_1_0_0_1_n_n none a w (ValueIdx.ix2 p q)).trans ?_
  rw [← Equiv.sum_comp (ValueIdx.contrEquiv1 dot_S2000x768_S768x512_S2000x512_1_0_0_1_n_n 768 rfl rfl).symm]
  refine Finset.sum_congr rfl fun k _ => ?_
  have hk := ValueIdx.contrEquiv1_symm_val dot_S2000x768_S768x512_S2000x512_1_0_0_1_n_n 768 rfl rfl k
  have el : dot_S2000x768_S768x512_S2000x512_1_0_0_1_n_n.lhsIdx (ValueIdx.ix2 p q) ((ValueIdx.contrEquiv1 dot_S2000x768_S768x512_S2000x512_1_0_0_1_n_n 768 rfl rfl).symm k) = ValueIdx.ix2 p k := funext fun a => Fin.ext (by
    match a with
    | ⟨0, _⟩ => exact lhs2_a_0 _ _
    | ⟨1, _⟩ => exact (lhs2_a_1 _ _).trans hk)
  have er : dot_S2000x768_S768x512_S2000x512_1_0_0_1_n_n.rhsIdx (ValueIdx.ix2 p q) ((ValueIdx.contrEquiv1 dot_S2000x768_S768x512_S2000x512_1_0_0_1_n_n 768 rfl rfl).symm k) = ValueIdx.ix2 k q := funext fun a => Fin.ext (by
    match a with
    | ⟨0, _⟩ => exact (rhs2_a_0 _ _).trans hk
    | ⟨1, _⟩ => exact rhs2_a_1 _ _)
  rw [el, er]

/-- The layer as the body computes it — the product into a zero accumulator, the bias row added to every row, the positive
    part — is the dense layer followed by the positive part. A change of format is the identity on extended reals. -/
private theorem layer4_a_eq (x : FVec Ideal S2000x768 .f32) (w : Vec Ideal S768x512 .bf16) (b : Vec Ideal S512 .f32) :
    (maximumf (addf (matmul dot_S2000x768_S768x512_S2000x512_1_0_0_1_n_n none (truncf .bf16 x bitsLt_bf16_f32) (shapeCast S768x512 w shapeCasts_S768x512_S768x512 : FVec Ideal S768x512 .bf16) (constant (F := Ideal) S2000x512 .f32 0x00000000#32))
        (broadcastTo S2000x512 (shapeCast S1x512 b shapeCasts_S512_S1x512) broadcasts_S1x512_S2000x512))
      (broadcast S2000x512 (Scalar.ofBits (F := Ideal) .f32 0x00000000#32)) : FVec Ideal S2000x512 .f32)
    = Cert.Spec.denseRelu 2000 768 512 x w b := by
  funext i
  obtain ⟨p, q, rfl⟩ : ∃ (p : Fin 2000) (q : Fin 512), i = ValueIdx.ix2 p q := ⟨i 0, i 1, ValueIdx.eq_ix2 i⟩
  rw [shapeCast_self]
  show max (matmul dot_S2000x768_S768x512_S2000x512_1_0_0_1_n_n none (truncf .bf16 x bitsLt_bf16_f32) (w : FVec Ideal S768x512 .bf16) (constant (F := Ideal) S2000x512 .f32 0x00000000#32) (ValueIdx.ix2 p q)
      + broadcastTo S2000x512 (shapeCast S1x512 b shapeCasts_S512_S1x512) broadcasts_S1x512_S2000x512 (ValueIdx.ix2 p q)) (Ideal.ofBits .f32 0x00000000#32)
    = max ((∑ k : Fin 768, x (ValueIdx.ix2 p k) * w (ValueIdx.ix2 k q)) + b (ValueIdx.ix1 q)) 0
  rw [matmul2_a_apply, ValueIdx.broadcastTo_1b_ab_apply, ValueIdx.shapeCast_a_1a_apply, Ideal.ofBits_zero_f32]
  rfl

/-! ## The 512 → 128 layer on a block of 2000 rows -/

/-- The left operand is read at the output's row … -/
private theorem lhs2_b_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
/-- … and at the contracted position; -/
private theorem lhs2_b_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
/-- the right operand at the contracted position … -/
private theorem rhs2_b_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
/-- … and at the output's column. -/
private theorem rhs2_b_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The product into a zero accumulator, at entry (p, q): the sum over k of a(p, k) * w(k, q). -/
private theorem matmul2_b_apply (a : FVec Ideal S2000x512 .bf16) (w : FVec Ideal S512x128 .bf16) (p : Fin 2000) (q : Fin 128) :
    matmul dot_S2000x512_S512x128_S2000x128_1_0_0_1_n_n none a w (constant (F := Ideal) S2000x128 .f32 0x00000000#32) (ValueIdx.ix2 p q)
      = ∑ k : Fin 512, a (ValueIdx.ix2 p k) * w (ValueIdx.ix2 k q) := by
  refine (Ideal.matmul_constant_zero_apply dot_S2000x512_S512x128_S2000x128_1_0_0_1_n_n none a w (ValueIdx.ix2 p q)).trans ?_
  rw [← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx (ValueIdx.ix2 p q) ((ValueIdx.contrEquiv1 dot_S2000x512_S512x128_S2000x128_1_0_0_1_n_n 512 rfl rfl).symm k) = ValueIdx.ix2 p k := funext fun a => Fin.ext (by
    match a with
    | ⟨0, _⟩ => exact lhs2_b_0 _ _
    | ⟨1, _⟩ => exact (lhs2_b_1 _ _).trans hk)
  have er : dot_S2000x512_S512x128_S2000x128_1_0_0_1_n_n.rhsIdx (ValueIdx.ix2 p q) ((ValueIdx.contrEquiv1 dot_S2000x512_S512x128_S2000x128_1_0_0_1_n_n 512 rfl rfl).symm k) = ValueIdx.ix2 k q := funext fun a => Fin.ext (by
    match a with
    | ⟨0, _⟩ => exact (rhs2_b_0 _ _).trans hk
    | ⟨1, _⟩ => exact rhs2_b_1 _ _)
  rw [el, er]

/-- The layer as the body computes it — the product into a zero accumulator, the bias row added to every row, the positive
    part — is the dense layer followed by the positive part. A change of format is the identity on extended reals. -/
private theorem layer4_b_eq (x : FVec Ideal S2000x512 .f32) (w : Vec Ideal S512x128 .bf16) (b : Vec Ideal S128 .f32) :
    (maximumf (addf (matmul dot_S2000x512_S512x128_S2000x128_1_0_0_1_n_n none (truncf .bf16 x bitsLt_bf16_f32) (shapeCast S512x128 w shapeCasts_S512x128_S512x128 : FVec Ideal S512x128 .bf16) (constant (F := Ideal) S2000x128 .f32 0x00000000#32))
        (broadcastTo S2000x128 (shapeCast S1x128 b shapeCasts_S128_S1x128) broadcasts_S1x128_S2000x128))
      (broadcast S2000x128 (Scalar.ofBits (F := Ideal) .f32 0x00000000#32)) : FVec Ideal S2000x128 .f32)
    = Cert.Spec.denseRelu 2000 512 128 x w b := by
  funext i
  obtain ⟨p, q, rfl⟩ : ∃ (p : Fin 2000) (q : Fin 128), i = ValueIdx.ix2 p q := ⟨i 0, i 1, ValueIdx.eq_ix2 i⟩
  rw [shapeCast_self]
  show max (matmul dot_S2000x512_S512x128_S2000x128_1_0_0_1_n_n none (truncf .bf16 x bitsLt_bf16_f32) (w : FVec Ideal S512x128 .bf16) (constant (F := Ideal) S2000x128 .f32 0x00000000#32) (ValueIdx.ix2 p q)
      + broadcastTo S2000x128 (shapeCast S1x128 b shapeCasts_S128_S1x128) broadcasts_S1x128_S2000x128 (ValueIdx.ix2 p q)) (Ideal.ofBits .f32 0x00000000#32)
    = max ((∑ k : Fin 512, x (ValueIdx.ix2 p k) * w (ValueIdx.ix2 k q)) + b (ValueIdx.ix1 q)) 0
  rw [matmul2_b_apply, ValueIdx.broadcastTo_1b_ab_apply, ValueIdx.shapeCast_a_1a_apply, Ideal.ofBits_zero_f32]
  rfl

/-! ## The 384 → 128 layer on a block of 2000 rows -/

/-- The left operand is read at the output's row … -/
private theorem lhs2_c_0 (i : S2000x128.Idx) (q : dot_S2000x384_S384x128_S2000x128_1_0_0_1_n_n.contr.Idx) :
    (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide), dif_pos (show (0 : Fin S2000x384.rank) ∈ dot_S2000x384_S384x128_S2000x128_1_0_0_1_n_n.lhsNonContracting by decide)]
  rfl
/-- … and at the contracted position; -/
private theorem lhs2_c_1 (i : S2000x128.Idx) (q : dot_S2000x384_S384x128_S2000x128_1_0_0_1_n_n.contr.Idx) :
    (dot_S2000x384_S384x128_S2000x128_1_0_0_1_n_n.lhsIdx i q 1).val = (q ⟨0, by decide⟩).val :=
  dot_S2000x384_S384x128_S2000x128_1_0_0_1_n_n.lhsIdx_val_of_single rfl i q
/-- the right operand at the contracted position … -/
private theorem rhs2_c_0 (i : S2000x128.Idx) (q : dot_S2000x384_S384x128_S2000x128_1_0_0_1_n_n.contr.Idx) :
    (dot_S2000x384_S384x128_S2000x128_1_0_0_1_n_n.rhsIdx i q 0).val = (q ⟨0, by decide⟩).val :=
  dot_S2000x384_S384x128_S2000x128_1_0_0_1_n_n.rhsIdx_val_of_single rfl i q
/-- … and at the output's column. -/
private theorem rhs2_c_1 (i : S2000x128.Idx) (q : dot_S2000x384_S384x128_S2000x128_1_0_0_1_n_n.contr.Idx) :
    (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide), dif_pos (show (1 : Fin S384x128.rank) ∈ dot_S2000x384_S384x128_S2000x128_1_0_0_1_n_n.rhsNonContracting by decide)]
  rfl

/-- The product into a zero accumulator, at entry (p, q): the sum over k of a(p, k) * w(k, q). -/
private theorem matmul2_c_apply (a : FVec Ideal S2000x384 .bf16) (w : FVec Ideal S384x128 .bf16) (p : Fin 2000) (q : Fin 128) :
    matmul dot_S2000x384_S384x128_S2000x128_1_0_0_1_n_n none a w (constant (F := Ideal) S2000x128 .f32 0x00000000#32) (ValueIdx.ix2 p q)
      = ∑ k : Fin 384, a (ValueIdx.ix2 p k) * w (ValueIdx.ix2 k q) := by
  refine (Ideal.matmul_constant_zero_apply dot_S2000x384_S384x128_S2000x128_1_0_0_1_n_n none a w (ValueIdx.ix2 p q)).trans ?_
  rw [← Equiv.sum_comp (ValueIdx.contrEquiv1 dot_S2000x384_S384x128_S2000x128_1_0_0_1_n_n 384 rfl rfl).symm]
  refine Finset.sum_congr rfl fun k _ => ?_
  have hk := ValueIdx.contrEquiv1_symm_val dot_S2000x384_S384x128_S2000x128_1_0_0_1_n_n 384 rfl rfl k
  have el : dot_S2000x384_S384x128_S2000x128_1_0_0_1_n_n.lhsIdx (ValueIdx.ix2 p q) ((ValueIdx.contrEquiv1 dot_S2000x384_S384x128_S2000x128_1_0_0_1_n_n 384 rfl rfl).symm k) = ValueIdx.ix2 p k := funext fun a => Fin.ext (by
    match a with
    | ⟨0, _⟩ => exact lhs2_c_0 _ _
    | ⟨1, _⟩ => exact (lhs2_c_1 _ _).trans hk)
  have er : dot_S2000x384_S384x128_S2000x128_1_0_0_1_n_n.rhsIdx (ValueIdx.ix2 p q) ((ValueIdx.contrEquiv1 dot_S2000x384_S384x128_S2000x128_1_0_0_1_n_n 384 rfl rfl).symm k) = ValueIdx.ix2 k q := funext fun a => Fin.ext (by
    match a with
    | ⟨0, _⟩ => exact (rhs2_c_0 _ _).trans hk
    | ⟨1, _⟩ => exact rhs2_c_1 _ _)
  rw [el, er]

/-- The layer as the body computes it — the product into a zero accumulator, the bias row added to every row, the positive
    part — is the dense layer followed by the positive part. A change of format is the identity on extended reals. -/
private theorem layer4_c_eq (x : FVec Ideal S2000x384 .f32) (w : Vec Ideal S384x128 .bf16) (b : Vec Ideal S128 .f32) :
    (maximumf (addf (matmul dot_S2000x384_S384x128_S2000x128_1_0_0_1_n_n none (truncf .bf16 x bitsLt_bf16_f32) (shapeCast S384x128 w shapeCasts_S384x128_S384x128 : FVec Ideal S384x128 .bf16) (constant (F := Ideal) S2000x128 .f32 0x00000000#32))
        (broadcastTo S2000x128 (shapeCast S1x128 b shapeCasts_S128_S1x128) broadcasts_S1x128_S2000x128))
      (broadcast S2000x128 (Scalar.ofBits (F := Ideal) .f32 0x00000000#32)) : FVec Ideal S2000x128 .f32)
    = Cert.Spec.denseRelu 2000 384 128 x w b := by
  funext i
  obtain ⟨p, q, rfl⟩ : ∃ (p : Fin 2000) (q : Fin 128), i = ValueIdx.ix2 p q := ⟨i 0, i 1, ValueIdx.eq_ix2 i⟩
  rw [shapeCast_self]
  show max (matmul dot_S2000x384_S384x128_S2000x128_1_0_0_1_n_n none (truncf .bf16 x bitsLt_bf16_f32) (w : FVec Ideal S384x128 .bf16) (constant (F := Ideal) S2000x128 .f32 0x00000000#32) (ValueIdx.ix2 p q)
      + broadcastTo S2000x128 (shapeCast S1x128 b shapeCasts_S128_S1x128) broadcasts_S1x128_S2000x128 (ValueIdx.ix2 p q)) (Ideal.ofBits .f32 0x00000000#32)
    = max ((∑ k : Fin 384, x (ValueIdx.ix2 p k) * w (ValueIdx.ix2 k q)) + b (ValueIdx.ix1 q)) 0
  rw [matmul2_c_apply, ValueIdx.broadcastTo_1b_ab_apply, ValueIdx.shapeCast_a_1a_apply, Ideal.ofBits_zero_f32]
  rfl

/-! ## Joining along the columns -/

/-- A join along the columns read at (p, q), when column q falls in piece k: that piece at (p, q less the columns before it). -/
private theorem concat2_piece {R N A : ℕ} (xs : List ((s : Shape) × (s.Idx → EReal)))
    (h : Shape.Concatenates (xs.map (·.1)) (⟨2, ![R, N]⟩ : Shape) 1) (k : ℕ) (hk : k < xs.length)
    (x : (⟨2, ![R, A]⟩ : Shape).Idx → EReal) (hxk : xs[k] = ⟨(⟨2, ![R, A]⟩ : Shape), x⟩) (pre : ℕ)
    (hpre : (((xs.take k).map (·.1)).map fun s => if h : s.rank = (⟨2, ![R, N]⟩ : Shape).rank then s.size ((1 : Fin (⟨2, ![R, N]⟩ : Shape).rank).cast h.symm) else 0).sum = pre)
    (p : Fin R) (q : Fin N) (q' : Fin A) (hq : pre + q'.val = q.val) :
    concatenate (⟨2, ![R, N]⟩ : Shape) 1 xs h (ValueIdx.ix2 p q) = x (ValueIdx.ix2 p q') := by
  refine concatenate_apply_piece (1 : Fin (⟨2, ![R, N]⟩ : Shape).rank) xs h (ValueIdx.ix2 p q) k hk (⟨2, ![R, A]⟩ : Shape) x hxk rfl pre hpre
    (ValueIdx.ix2 p q') (fun b hb => ?_) hq
  match b with
  | ⟨0, _⟩ => rfl
  | ⟨1, _⟩ => exact absurd rfl hb

/-- The body's three-way join is the two-way join of the first two, joined with the third. -/
private theorem concat2_three_eq (a b e : FVec Ideal S2000x256 .f32) :
    (concatenate S2000x768 1 [⟨S2000x256, a⟩, ⟨S2000x256, b⟩, ⟨S2000x256, e⟩] concatenates_S2000x256_S2000x256_S2000x256_S2000x768_d1 : FVec Ideal S2000x768 .f32)
      = Cert.Spec.cat2 2000 512 256 768 rfl (Cert.Spec.cat2 2000 256 256 512 rfl a b) e := by
  funext i
  obtain ⟨p, q, rfl⟩ : ∃ (p : Fin 2000) (q : Fin 768), i = ValueIdx.ix2 p q := ⟨i 0, i 1, ValueIdx.eq_ix2 i⟩
  have hq := q.isLt
  by_cases h1 : q.val < 256
  · have h2 : q.val < 512 := by omega
    refine (concat2_piece (R := 2000) (N := 768) (A := 256) [⟨S2000x256, a⟩, ⟨S2000x256, b⟩, ⟨S2000x256, e⟩] concatenates_S2000x256_S2000x256_S2000x256_S2000x768_d1 0 (by show 0 < 3; omega) a rfl 0 rfl p q ⟨q.val, h1⟩ (by simp)).trans ?_
    show _ = if h : q.val < 512 then (if h' : q.val < 256 then a (ValueIdx.ix2 p ⟨q.val, h'⟩) else b (ValueIdx.ix2 p ⟨q.val - 256, _⟩)) else e (ValueIdx.ix2 p ⟨q.val - 512, _⟩)
    rw [dif_pos h2, dif_pos h1]
  · by_cases h2 : q.val < 512
    · refine (concat2_piece (R := 2000) (N := 768) (A := 256) [⟨S2000x256, a⟩, ⟨S2000x256, b⟩, ⟨S2000x256, e⟩] concatenates_S2000x256_S2000x256_S2000x256_S2000x768_d1 1 (by show 1 < 3; omega) b rfl 256 rfl p q ⟨q.val - 256, by omega⟩ (by show 256 + (q.val - 256) = q.val; omega)).trans ?_
      show _ = if h : q.val < 512 then (if h' : q.val < 256 then a (ValueIdx.ix2 p ⟨q.val, h'⟩) else b (ValueIdx.ix2 p ⟨q.val - 256, _⟩)) else e (ValueIdx.ix2 p ⟨q.val - 512, _⟩)
      rw [dif_pos h2, dif_neg h1]
    · refine (concat2_piece (R := 2000) (N := 768) (A := 256) [⟨S2000x256, a⟩, ⟨S2000x256, b⟩, ⟨S2000x256, e⟩] concatenates_S2000x256_S2000x256_S2000x256_S2000x768_d1 2 (by show 2 < 3; omega) e rfl 512 rfl p q ⟨q.val - 512, by omega⟩ (by show 512 + (q.val - 512) = q.val; omega)).trans ?_
      show _ = if h : q.val < 512 then (if h' : q.val < 256 then a (ValueIdx.ix2 p ⟨q.val, h'⟩) else b (ValueIdx.ix2 p ⟨q.val - 256, _⟩)) else e (ValueIdx.ix2 p ⟨q.val - 512, _⟩)
      rw [dif_neg h2]

/-- The body's two-way join is the specification's. -/
private theorem concat2_two_eq (a : FVec Ideal S2000x256 .f32) (e : FVec Ideal S2000x128 .f32) :
    (concatenate S2000x384 1 [⟨S2000x256, a⟩, ⟨S2000x128, e⟩] concatenates_S2000x256_S2000x128_S2000x384_d1 : FVec Ideal S2000x384 .f32)
      = Cert.Spec.cat2 2000 256 128 384 rfl a e := by
  funext i
  obtain ⟨p, q, rfl⟩ : ∃ (p : Fin 2000) (q : Fin 384), i = ValueIdx.ix2 p q := ⟨i 0, i 1, ValueIdx.eq_ix2 i⟩
  have hq := q.isLt
  by_cases h1 : q.val < 256
  · refine (concat2_piece (R := 2000) (N := 384) (A := 256) [⟨S2000x256, a⟩, ⟨S2000x128, e⟩] concatenates_S2000x256_S2000x128_S2000x384_d1 0 (by show 0 < 2; omega) a rfl 0 rfl p q ⟨q.val, h1⟩ (by simp)).trans ?_
    show _ = if h : q.val < 256 then a (ValueIdx.ix2 p ⟨q.val, h⟩) else e (ValueIdx.ix2 p ⟨q.val - 256, _⟩)
    rw [dif_pos h1]
  · refine (concat2_piece (R := 2000) (N := 384) (A := 128) [⟨S2000x256, a⟩, ⟨S2000x128, e⟩] concatenates_S2000x256_S2000x128_S2000x384_d1 1 (by show 1 < 2; omega) e rfl 256 rfl p q ⟨q.val - 256, by omega⟩ (by show 256 + (q.val - 256) = q.val; omega)).trans ?_
    show _ = if h : q.val < 256 then a (ValueIdx.ix2 p ⟨q.val, h⟩) else e (ValueIdx.ix2 p ⟨q.val - 256, _⟩)
    rw [dif_neg h1]

/-! ## The body's two results on a block are the specification's stages of that block -/

/-- The first loaded block passes through a change of shape to its own shape. -/
private theorem k4_pay1_eq (x0 : Vec Ideal S2000x256 .f32) : k4_pay1 (F := Ideal) x0 = x0 := by
  unfold k4_pay1
  exact shapeCast_self _ _

/-- The new edge features of a block. -/
private theorem k4_pay2_eq (x0 x1 x2 : Vec Ideal S2000x256 .f32) (w1 : Vec Ideal S768x512 .bf16) (b1 : Vec Ideal S512 .f32)
    (w2 : Vec Ideal S512x128 .bf16) (b2 : Vec Ideal S128 .f32) :
    k4_pay2 (F := Ideal) x0 x1 x2 w1 b1 w2 b2 = Cert.Spec.edgeNew 2000 x0 x1 x2 w1 b1 w2 b2 := by
  unfold k4_pay2 Cert.Spec.edgeNew Cert.Spec.mlp2
  refine (layer4_b_eq _ w2 b2).trans ?_
  refine congrArg (fun z => Cert.Spec.denseRelu 2000 512 128 z w2 b2) ?_
  refine (layer4_a_eq _ w1 b1).trans ?_
  refine congrArg (fun z => Cert.Spec.denseRelu 2000 768 512 z w1 b1) ?_
  rw [k4_pay1_eq, shapeCast_self, shapeCast_self]
  exact concat2_three_eq x0 x1 x2

/-- The messages of a block. -/
private theorem k4_pay3_eq (x0 x1 x2 : Vec Ideal S2000x256 .f32) (w1 : Vec Ideal S768x512 .bf16) (b1 : Vec Ideal S512 .f32)
    (w2 : Vec Ideal S512x128 .bf16) (b2 : Vec Ideal S128 .f32) (w3 : Vec Ideal S384x128 .bf16) (b3 : Vec Ideal S128 .f32) :
    k4_pay3 (F := Ideal) x0 x1 x2 w1 b1 w2 b2 w3 b3
      = Cert.Spec.message 2000 x0 (Cert.Spec.edgeNew 2000 x0 x1 x2 w1 b1 w2 b2) w3 b3 := by
  unfold k4_pay3 Cert.Spec.message
  refine (layer4_c_eq _ w3 b3).trans ?_
  refine congrArg (fun z => Cert.Spec.denseRelu 2000 384 128 z w3 b3) ?_
  rw [k4_pay1_eq, k4_pay2_eq]
  exact concat2_two_eq x0 _

/-! ## The blocks the body reads and writes, as rows of the arrays -/

private theorem zero2_two : (![0, 0] : Fin 2 → Nat) = fun _ => 0 := funext fun a => by fin_cases a <;> rfl
private theorem zero2_one : (![0] : Fin 1 → Nat) = fun _ => 0 := funext fun a => by fin_cases a <;> rfl

/-- Every one of the 100 blocks of 2000 rows lies inside the 200000 rows. -/
private theorem rows2_le (t : Fin cfg4.N) : t.val * 2000 + 2000 ≤ 200000 := by
  have h := t.isLt
  have hN : cfg4.N = 100 := N_4
  omega

/-! The index maps, decided over the grid: a row-blocked window's block index is (t, 0); a whole window's is 0. -/

private theorem idx2_rows_0 : ∀ t : Fin cfg4.N, win4_0.index t (0 : Fin 2) = t.val ∧ win4_0.index t (1 : Fin 2) = 0 :=
  (by decide +kernel : ∀ t : Fin grid4.N, _)
private theorem idx2_rows_1 : ∀ t : Fin cfg4.N, win4_1.index t (0 : Fin 2) = t.val ∧ win4_1.index t (1 : Fin 2) = 0 :=
  (by decide +kernel : ∀ t : Fin grid4.N, _)
private theorem idx2_rows_2 : ∀ t : Fin cfg4.N, win4_2.index t (0 : Fin 2) = t.val ∧ win4_2.index t (1 : Fin 2) = 0 :=
  (by decide +kernel : ∀ t : Fin grid4.N, _)
private theorem idx2_rows_9 : ∀ t : Fin cfg4.N, win4_9.index t (0 : Fin 2) = t.val ∧ win4_9.index t (1 : Fin 2) = 0 :=
  (by decide +kernel : ∀ t : Fin grid4.N, _)
private theorem idx2_rows_10 : ∀ t : Fin cfg4.N, win4_10.index t (0 : Fin 2) = t.val ∧ win4_10.index t (1 : Fin 2) = 0 :=
  (by decide +kernel : ∀ t : Fin grid4.N, _)

private theorem idx2_whole_3 : ∀ t : Fin cfg4.N, win4_3.index t (0 : Fin 2) = 0 ∧ win4_3.index t (1 : Fin 2) = 0 :=
  (by decide +kernel : ∀ t : Fin grid4.N, _)
private theorem idx2_whole_5 : ∀ t : Fin cfg4.N, win4_5.index t (0 : Fin 2) = 0 ∧ win4_5.index t (1 : Fin 2) = 0 :=
  (by decide +kernel : ∀ t : Fin grid4.N, _)
private theorem idx2_whole_7 : ∀ t : Fin cfg4.N, win4_7.index t (0 : Fin 2) = 0 ∧ win4_7.index t (1 : Fin 2) = 0 :=
  (by decide +kernel : ∀ t : Fin grid4.N, _)

private theorem idx2_whole_4 : ∀ t : Fin cfg4.N, win4_4.index t (0 : Fin 1) = 0 :=
  (by decide +kernel : ∀ t : Fin grid4.N, _)
private theorem idx2_whole_6 : ∀ t : Fin cfg4.N, win4_6.index t (0 : Fin 1) = 0 :=
  (by decide +kernel : ∀ t : Fin grid4.N, _)
private theorem idx2_whole_8 : ∀ t : Fin cfg4.N, win4_8.index t (0 : Fin 1) = 0 :=
  (by decide +kernel : ∀ t : Fin grid4.N, _)

/-- Window 0's block at point t, read off any array of 200000 rows, is its rows 2000 t … 2000 t + 1999. -/
private theorem read4_blk_0 (t : Fin cfg4.N) (X : Cert.Spec.A2 200000 256) :
    @Eq (Cert.Spec.A2 2000 256) (((cfg4.win 0).blk t).view.read (Elt Ideal) X) (Cert.Spec.rowsBlock 2000 200000 256 t.val (rows2_le t) X) := by
  obtain ⟨h0, h1⟩ := idx2_rows_0 t
  funext y
  rw [View.read_apply]
  show X _ = X _
  refine congrArg X (funext fun a => Fin.ext ?_)
  match a with
  | ⟨0, _⟩ => show win4_0.index t (0 : Fin 2) * 2000 + 1 * (y 0).val = t.val * 2000 + (y 0).val; rw [h0]; omega
  | ⟨1, _⟩ => show win4_0.index t (1 : Fin 2) * 256 + 1 * (y 1).val = (y 1).val; rw [h1]; omega

/-- Window 1's block at point t, read off any array of 200000 rows, is its rows 2000 t … 2000 t + 1999. -/
private theorem read4_blk_1 (t : Fin cfg4.N) (X : Cert.Spec.A2 200000 256) :
    @Eq (Cert.Spec.A2 2000 256) (((cfg4.win 1).blk t).view.read (Elt Ideal) X) (Cert.Spec.rowsBlock 2000 200000 256 t.val (rows2_le t) X) := by
  obtain ⟨h0, h1⟩ := idx2_rows_1 t
  funext y
  rw [View.read_apply]
  show X _ = X _
  refine congrArg X (funext fun a => Fin.ext ?_)
  match a with
  | ⟨0, _⟩ => show win4_1.index t (0 : Fin 2) * 2000 + 1 * (y 0).val = t.val * 2000 + (y 0).val; rw [h0]; omega
  | ⟨1, _⟩ => show win4_1.index t (1 : Fin 2) * 256 + 1 * (y 1).val = (y 1).val; rw [h1]; omega

/-- Window 2's block at point t, read off any array of 200000 rows, is its rows 2000 t … 2000 t + 1999. -/
private theorem read4_blk_2 (t : Fin cfg4.N) (X : Cert.Spec.A2 200000 256) :
    @Eq (Cert.Spec.A2 2000 256) (((cfg4.win 2).blk t).view.read (Elt Ideal) X) (Cert.Spec.rowsBlock 2000 200000 256 t.val (rows2_le t) X) := by
  obtain ⟨h0, h1⟩ := idx2_rows_2 t
  funext y
  rw [View.read_apply]
  show X _ = X _
  refine congrArg X (funext fun a => Fin.ext ?_)
  match a with
  | ⟨0, _⟩ => show win4_2.index t (0 : Fin 2) * 2000 + 1 * (y 0).val = t.val * 2000 + (y 0).val; rw [h0]; omega
  | ⟨1, _⟩ => show win4_2.index t (1 : Fin 2) * 256 + 1 * (y 1).val = (y 1).val; rw [h1]; omega

/-- Window 9's block at point t, read off any array of 200000 rows, is its rows 2000 t … 2000 t + 1999. -/
private theorem read4_blk_9 (t : Fin cfg4.N) (X : Cert.Spec.A2 200000 128) :
    @Eq (Cert.Spec.A2 2000 128) (((cfg4.win 9).blk t).view.read (Elt Ideal) X) (Cert.Spec.rowsBlock 2000 200000 128 t.val (rows2_le t) X) := by
  obtain ⟨h0, h1⟩ := idx2_rows_9 t
  funext y
  rw [View.read_apply]
  show X _ = X _
  refine congrArg X (funext fun a => Fin.ext ?_)
  match a with
  | ⟨0, _⟩ => show win4_9.index t (0 : Fin 2) * 2000 + 1 * (y 0).val = t.val * 2000 + (y 0).val; rw [h0]; omega
  | ⟨1, _⟩ => show win4_9.index t (1 : Fin 2) * 128 + 1 * (y 1).val = (y 1).val; rw [h1]; omega

/-- Window 10's block at point t, read off any array of 200000 rows, is its rows 2000 t … 2000 t + 1999. -/
private theorem read4_blk_10 (t : Fin cfg4.N) (X : Cert.Spec.A2 200000 128) :
    @Eq (Cert.Spec.A2 2000 128) (((cfg4.win 10).blk t).view.read (Elt Ideal) X) (Cert.Spec.rowsBlock 2000 200000 128 t.val (rows2_le t) X) := by
  obtain ⟨h0, h1⟩ := idx2_rows_10 t
  funext y
  rw [View.read_apply]
  show X _ = X _
  refine congrArg X (funext fun a => Fin.ext ?_)
  match a with
  | ⟨0, _⟩ => show win4_10.index t (0 : Fin 2) * 2000 + 1 * (y 0).val = t.val * 2000 + (y 0).val; rw [h0]; omega
  | ⟨1, _⟩ => show win4_10.index t (1 : Fin 2) * 128 + 1 * (y 1).val = (y 1).val; rw [h1]; omega

private theorem iblk4_0_eq (c : Dev nD) (t : Fin cfg4.N) :
    @Eq (Cert.Spec.A2 2000 256) (iblk4 (F := Ideal) V c 0 t) (Cert.Spec.rowsBlock 2000 200000 256 t.val (rows2_le t) (V c main_v25)) := by
  unfold iblk4
  exact read4_blk_0 t (V c main_v25)

private theorem iblk4_1_eq (c : Dev nD) (t : Fin cfg4.N) :
    @Eq (Cert.Spec.A2 2000 256) (iblk4 (F := Ideal) V c 1 t) (Cert.Spec.rowsBlock 2000 200000 256 t.val (rows2_le t) (V c main_v26)) := by
  unfold iblk4
  exact read4_blk_1 t (V c main_v26)

private theorem iblk4_2_eq (c : Dev nD) (t : Fin cfg4.N) :
    @Eq (Cert.Spec.A2 2000 256) (iblk4 (F := Ideal) V c 2 t) (Cert.Spec.rowsBlock 2000 200000 256 t.val (rows2_le t) (V c main_v24)) := by
  unfold iblk4
  exact read4_blk_2 t (V c main_v24)

private theorem iblk4_3_eq (c : Dev nD) (t : Fin cfg4.N) :
    @Eq (Cert.Spec.A2 768 512) (iblk4 (F := Ideal) V c 3 t) (V c main_v27) := by
  obtain ⟨h0, h1⟩ := idx2_whole_3 t
  unfold iblk4
  funext y
  rw [View.read_apply]
  show V c main_v27 _ = V c main_v27 _
  refine congrArg (V c main_v27) (funext fun a => Fin.ext ?_)
  match a with
  | ⟨0, _⟩ => show win4_3.index t (0 : Fin 2) * 768 + 1 * (y 0).val = (y 0).val; rw [h0]; omega
  | ⟨1, _⟩ => show win4_3.index t (1 : Fin 2) * 512 + 1 * (y 1).val = (y 1).val; rw [h1]; omega

private theorem iblk4_4_eq (c : Dev nD) (t : Fin cfg4.N) :
    @Eq (Cert.Spec.A1 512) (iblk4 (F := Ideal) V c 4 t) (V c main_arg12) := by
  have h0 := idx2_whole_4 t
  unfold iblk4
  funext y
  rw [View.read_apply]
  show V c main_arg12 _ = V c main_arg12 _
  refine congrArg (V c main_arg12) (funext fun a => Fin.ext ?_)
  match a with
  | ⟨0, _⟩ => show win4_4.index t (0 : Fin 1) * 512 + 1 * (y 0).val = (y 0).val; rw [h0]; omega

private theorem iblk4_5_eq (c : Dev nD) (t : Fin cfg4.N) :
    @Eq (Cert.Spec.A2 512 128) (iblk4 (F := Ideal) V c 5 t) (V c main_v28) := by
  obtain ⟨h0, h1⟩ := idx2_whole_5 t
  unfold iblk4
  funext y
  rw [View.read_apply]
  show V c main_v28 _ = V c main_v28 _
  refine congrArg (V c main_v28) (funext fun a => Fin.ext ?_)
  match a with
  | ⟨0, _⟩ => show win4_5.index t (0 : Fin 2) * 512 + 1 * (y 0).val = (y 0).val; rw [h0]; omega
  | ⟨1, _⟩ => show win4_5.index t (1 : Fin 2) * 128 + 1 * (y 1).val = (y 1).val; rw [h1]; omega

private theorem iblk4_6_eq (c : Dev nD) (t : Fin cfg4.N) :
    @Eq (Cert.Spec.A1 128) (iblk4 (F := Ideal) V c 6 t) (V c main_arg14) := by
  have h0 := idx2_whole_6 t
  unfold iblk4
  funext y
  rw [View.read_apply]
  show V c main_arg14 _ = V c main_arg14 _
  refine congrArg (V c main_arg14) (funext fun a => Fin.ext ?_)
  match a with
  | ⟨0, _⟩ => show win4_6.index t (0 : Fin 1) * 128 + 1 * (y 0).val = (y 0).val; rw [h0]; omega

private theorem iblk4_7_eq (c : Dev nD) (t : Fin cfg4.N) :
    @Eq (Cert.Spec.A2 384 128) (iblk4 (F := Ideal) V c 7 t) (V c main_v29) := by
  obtain ⟨h0, h1⟩ := idx2_whole_7 t
  unfold iblk4
  funext y
  rw [View.read_apply]
  show V c main_v29 _ = V c main_v29 _
  refine congrArg (V c main_v29) (funext fun a => Fin.ext ?_)
  match a with
  | ⟨0, _⟩ => show win4_7.index t (0 : Fin 2) * 384 + 1 * (y 0).val = (y 0).val; rw [h0]; omega
  | ⟨1, _⟩ => show win4_7.index t (1 : Fin 2) * 128 + 1 * (y 1).val = (y 1).val; rw [h1]; omega

private theorem iblk4_8_eq (c : Dev nD) (t : Fin cfg4.N) :
    @Eq (Cert.Spec.A1 128) (iblk4 (F := Ideal) V c 8 t) (V c main_arg16) := by
  have h0 := idx2_whole_8 t
  unfold iblk4
  funext y
  rw [View.read_apply]
  show V c main_arg16 _ = V c main_arg16 _
  refine congrArg (V c main_arg16) (funext fun a => Fin.ext ?_)
  match a with
  | ⟨0, _⟩ => show win4_8.index t (0 : Fin 1) * 128 + 1 * (y 0).val = (y 0).val; rw [h0]; omega

/-! ## What each point writes back -/

private theorem edgeNew_congr {R : ℕ} {a a' b b' e e' : Cert.Spec.A2 R 256} {w1 w1' : Cert.Spec.A2 768 512} {c1 c1' : Cert.Spec.A1 512}
    {w2 w2' : Cert.Spec.A2 512 128} {c2 c2' : Cert.Spec.A1 128}
    (ha : a = a') (hb : b = b') (he : e = e') (hw1 : w1 = w1') (hc1 : c1 = c1') (hw2 : w2 = w2') (hc2 : c2 = c2') :
    Cert.Spec.edgeNew R a b e w1 c1 w2 c2 = Cert.Spec.edgeNew R a' b' e' w1' c1' w2' c2' := by
  subst ha hb he hw1 hc1 hw2 hc2; rfl

private theorem message_congr {R : ℕ} {a a' : Cert.Spec.A2 R 256} {e e' : Cert.Spec.A2 R 128} {w w' : Cert.Spec.A2 384 128} {b b' : Cert.Spec.A1 128}
    (ha : a = a') (he : e = e') (hw : w = w') (hb : b = b') :
    Cert.Spec.message R a e w b = Cert.Spec.message R a' e' w' b' := by
  subst ha he hw hb; rfl

/-- The edge update of the blocks at point t is rows 2000 t … 2000 t + 1999 of the edge update of the arrays. -/
private theorem edge2_blocks (c : Dev nD) (t : Fin cfg4.N) :
    Cert.Spec.edgeNew 2000 (iblk4 (F := Ideal) V c 0 t) (iblk4 (F := Ideal) V c 1 t) (iblk4 (F := Ideal) V c 2 t) (iblk4 (F := Ideal) V c 3 t)
        (iblk4 (F := Ideal) V c 4 t) (iblk4 (F := Ideal) V c 5 t) (iblk4 (F := Ideal) V c 6 t)
      = Cert.Spec.rowsBlock 2000 200000 128 t.val (rows2_le t)
          (Cert.Spec.edgeNew 200000 (V c main_v25) (V c main_v26) (V c main_v24) (V c main_v27) (V c main_arg12) (V c main_v28) (V c main_arg14)) :=
  (edgeNew_congr (iblk4_0_eq V c t) (iblk4_1_eq V c t) (iblk4_2_eq V c t) (iblk4_3_eq V c t) (iblk4_4_eq V c t) (iblk4_5_eq V c t) (iblk4_6_eq V c t)).trans
    (Cert.Spec.edgeNew_rowsBlock 2000 200000 t.val (rows2_le t) (V c main_v25) (V c main_v26) (V c main_v24) (V c main_v27) (V c main_arg12) (V c main_v28) (V c main_arg14))

/-- Point t writes back, to the new edge features, its block of the edge update of the arrays. -/
private theorem flushed4_9_eq (c : Dev nD) (t : Fin cfg4.N) :
    (dat4 (F := Ideal) V c).flushed 9 t = ((cfg4.win 9).blk t).view.read (Elt Ideal)
      (Cert.Spec.edgeNew 200000 (V c main_v25) (V c main_v26) (V c main_v24) (V c main_v27) (V c main_arg12) (V c main_v28) (V c main_arg14)) := by
  show (cfg4.win 9).cut (grid4.coords t) ((dat4 (F := Ideal) V c).after 9 t) = _
  rw [after4_9]
  unfold out4_9
  rw [View.canon_unit_zero zero2_two]
  simp only [View.ld_unit_zero (S := S2000x256) zero2_two, View.ld_unit_zero (S := S768x512) zero2_two, View.ld_unit_zero (S := S512) zero2_one,
    View.ld_unit_zero (S := S512x128) zero2_two, View.ld_unit_zero (S := S128) zero2_one]
  refine Eq.trans ?_ (read4_blk_9 t _).symm
  refine (k4_pay2_eq (iblk4 (F := Ideal) V c 0 t) (iblk4 (F := Ideal) V c 1 t) (iblk4 (F := Ideal) V c 2 t) (iblk4 (F := Ideal) V c 3 t)
    (iblk4 (F := Ideal) V c 4 t) (iblk4 (F := Ideal) V c 5 t) (iblk4 (F := Ideal) V c 6 t)).trans ?_
  exact edge2_blocks V c t

/-- Point t writes back, to the messages, its block of the messages of the arrays. -/
private theorem flushed4_10_eq (c : Dev nD) (t : Fin cfg4.N) :
    (dat4 (F := Ideal) V c).flushed 10 t = ((cfg4.win 10).blk t).view.read (Elt Ideal)
      (Cert.Spec.message 200000 (V c main_v25)
        (Cert.Spec.edgeNew 200000 (V c main_v25) (V c main_v26) (V c main_v24) (V c main_v27) (V c main_arg12) (V c main_v28) (V c main_arg14))
        (V c main_v29) (V c main_arg16)) := by
  show (cfg4.win 10).cut (grid4.coords t) ((dat4 (F := Ideal) V c).after 10 t) = _
  rw [after4_10]
  unfold out4_10
  rw [View.canon_unit_zero zero2_two]
  simp only [View.ld_unit_zero (S := S2000x256) zero2_two, View.ld_unit_zero (S := S768x512) zero2_two, View.ld_unit_zero (S := S512) zero2_one,
    View.ld_unit_zero (S := S512x128) zero2_two, View.ld_unit_zero (S := S128) zero2_one, View.ld_unit_zero (S := S384x128) zero2_two]
  refine Eq.trans ?_ (read4_blk_10 t _).symm
  refine (k4_pay3_eq (iblk4 (F := Ideal) V c 0 t) (iblk4 (F := Ideal) V c 1 t) (iblk4 (F := Ideal) V c 2 t) (iblk4 (F := Ideal) V c 3 t)
    (iblk4 (F := Ideal) V c 4 t) (iblk4 (F := Ideal) V c 5 t) (iblk4 (F := Ideal) V c 6 t) (iblk4 (F := Ideal) V c 7 t) (iblk4 (F := Ideal) V c 8 t)).trans ?_
  refine (message_congr (iblk4_0_eq V c t) (edge2_blocks V c t) (iblk4_7_eq V c t) (iblk4_8_eq V c t)).trans ?_
  exact Cert.Spec.message_rowsBlock 2000 200000 t.val (rows2_le t) (V c main_v25)
    (Cert.Spec.edgeNew 200000 (V c main_v25) (V c main_v26) (V c main_v24) (V c main_v27) (V c main_arg12) (V c main_v28) (V c main_arg14))
    (V c main_v29) (V c main_arg16)

/-! ## The arrays after the run -/

/-- An index of the array is in point t's block when each coordinate is in the block's range on its axis. -/
private theorem mem2_blk_9 (t : Fin cfg4.N) (i : S200000x128.Idx) :
    i ∈ ((cfg4.win 9).blk t).view.set ↔ ∀ a : Fin 2, win4_9.index t a * S2000x128.size a ≤ (i a).val ∧ (i a).val < win4_9.index t a * S2000x128.size a + S2000x128.size a := by
  show i ∈ ((View.whole main_v30_0).slice (win4_9.rect t)).set ↔ _
  rw [View.set_slice_whole, Rect.mem_set_unit]
  exact Iff.rfl

/-- Row r lies in the block of point r / 2000, and every point writes back. -/
private theorem covered2_9 (i : S200000x128.Idx) : ∃ t : Fin cfg4.N, (cfg4.win 9).flush t = true ∧ i ∈ ((cfg4.win 9).blk t).view.set := by
  have hi0 : (i 0).val < 200000 := (i 0).isLt
  have hi1 : (i 1).val < 128 := (i 1).isLt
  have hN : cfg4.N = 100 := N_4
  have ht : (i 0).val / 2000 < cfg4.N := by rw [hN]; omega
  obtain ⟨h0, h1⟩ := idx2_rows_9 ⟨(i 0).val / 2000, ht⟩
  refine ⟨⟨(i 0).val / 2000, ht⟩, flush4_9 _, ?_⟩
  rw [mem2_blk_9]
  intro a
  match a with
  | ⟨0, _⟩ =>
    show win4_9.index ⟨(i 0).val / 2000, ht⟩ (0 : Fin 2) * 2000 ≤ (i 0).val ∧ (i 0).val < win4_9.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win4_9.index ⟨(i 0).val / 2000, ht⟩ (1 : Fin 2) * 128 ≤ (i 1).val ∧ (i 1).val < win4_9.index ⟨(i 0).val / 2000, ht⟩ (1 : Fin 2) * 128 + 128
    rw [h1]; omega

/-- An index of the array is in point t's block when each coordinate is in the block's range on its axis. -/
private theorem mem2_blk_10 (t : Fin cfg4.N) (i : S200000x128.Idx) :
    i ∈ ((cfg4.win 10).blk t).view.set ↔ ∀ a : Fin 2, win4_10.index t a * S2000x128.size a ≤ (i a).val ∧ (i a).val < win4_10.index t a * S2000x128.size a + S2000x128.size a := by
  show i ∈ ((View.whole main_v30_1).slice (win4_10.rect t)).set ↔ _
  rw [View.set_slice_whole, Rect.mem_set_unit]
  exact Iff.rfl

/-- Row r lies in the block of point r / 2000, and every point writes back. -/
private theorem covered2_10 (i : S200000x128.Idx) : ∃ t : Fin cfg4.N, (cfg4.win 10).flush t = true ∧ i ∈ ((cfg4.win 10).blk t).view.set := by
  have hi0 : (i 0).val < 200000 := (i 0).isLt
  have hi1 : (i 1).val < 128 := (i 1).isLt
  have hN : cfg4.N = 100 := N_4
  have ht : (i 0).val / 2000 < cfg4.N := by rw [hN]; omega
  obtain ⟨h0, h1⟩ := idx2_rows_10 ⟨(i 0).val / 2000, ht⟩
  refine ⟨⟨(i 0).val / 2000, ht⟩, flush4_10 _, ?_⟩
  rw [mem2_blk_10]
  intro a
  match a with
  | ⟨0, _⟩ =>
    show win4_10.index ⟨(i 0).val / 2000, ht⟩ (0 : Fin 2) * 2000 ≤ (i 0).val ∧ (i 0).val < win4_10.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win4_10.index ⟨(i 0).val / 2000, ht⟩ (1 : Fin 2) * 128 ≤ (i 1).val ∧ (i 1).val < win4_10.index ⟨(i 0).val / 2000, ht⟩ (1 : Fin 2) * 128 + 128
    rw [h1]; omega

theorem region4_edge (c : Dev nD) :
    (dat4 (F := Ideal) V c).arrAt 9 cfg4.N
      = Cert.Spec.edgeNew 200000 (V c main_v25) (V c main_v26) (V c main_v24) (V c main_v27) (V c main_arg12) (V c main_v28) (V c main_arg14) :=
  (dat4 (F := Ideal) V c).arrAt_eq_of_cover 9 _ (fun t _ => flushed4_9_eq V c t) covered2_9

theorem region4_message (c : Dev nD) :
    (dat4 (F := Ideal) V c).arrAt 10 cfg4.N
      = Cert.Spec.message 200000 (V c main_v25)
          (Cert.Spec.edgeNew 200000 (V c main_v25) (V c main_v26) (V c main_v24) (V c main_v27) (V c main_arg12) (V c main_v28) (V c main_arg14))
          (V c main_v29) (V c main_arg16) :=
  (dat4 (F := Ideal) V c).arrAt_eq_of_cover 10 _ (fun t _ => flushed4_10_eq V c t) covered2_10

end Cert.KernelIdeal.Hand

end
-- ==== Proof.Region3.lean ====
/-
  The first node update, in one block of all 10000 rows: a dense layer with the positive part of the aggregated messages.

  The body multiplies the 10000 x 128 array of aggregated messages by the 128 x 128 weights into a zero accumulator,
  adds the bias row to every row and takes the positive part. Entry (p, q) of the result is therefore
  max (sum over k of X(p, k) * W(k, q) + b(q)) 0. The grid has one point, whose blocks are the whole arrays (block
  index 0 on every axis, so every offset is zero), and that point's write-back covers the whole output array.
-/
import proofs.«425812_j65979287601856_3_alg».proof.Proof.Gen.KernelIdeal.Frame
import proofs.«425812_j65979287601856_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx

/-! ## The product at an entry -/

/-- The left operand is read at the output's row: axis 0 of its index is not contracted. -/
private theorem lhsAxis0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- The left operand is read at the summation index on its columns: axis 1 is the one contracted axis. -/
private theorem lhsAxis1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

/-- The right operand is read at the summation index on its rows: axis 0 is the one contracted axis. -/
private theorem rhsAxis0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

/-- The right operand is read at the output's column: axis 1 of its index is not contracted. -/
private theorem rhsAxis1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The product into a zero accumulator, at row p and column q, is the sum over k of X(p, k) * W(k, q): the sum over
    the one-axis contraction index is re-indexed by its one coordinate. -/
private theorem product_at (x : FVec Ideal S10000x128 .bf16) (w : FVec Ideal S128x128 .bf16) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhsAxis0 _ _
    | ⟨1, _⟩ => exact (lhsAxis1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhsAxis0 _ _).trans hk
    | ⟨1, _⟩ => exact rhsAxis1 _ _)
  rw [el, er]

/-! ## The bias at an entry -/

/-- The bias vector, made a one-row array and repeated over the rows, at row p and column q is b(q). -/
private theorem bias_at (b : FVec Ideal S128 .f32) (p : Fin 10000) (q : Fin 128) :
    broadcastTo S10000x128 (shapeCast S1x128 b shapeCasts_S128_S1x128) broadcasts_S1x128_S10000x128 (ix2 p q) = b (ix1 q) :=
  (broadcastTo_1b_ab_apply _ broadcasts_S1x128_S10000x128 p q).trans (shapeCast_a_1a_apply b shapeCasts_S128_S1x128 0 q)

/-! ## The body's arithmetic is the dense layer with the positive part -/

/-- On whole arrays: entry (p, q) is max (sum over k of X(p, k) * W(k, q) + b(q)) 0. The changes of format are the
    identity on the extended reals, the casts to the same shape are the identity, and the zero word denotes 0. -/
private theorem pay3_eq (x0 : FVec Ideal S10000x128 .f32) (w1 : FVec Ideal S128x128 .bf16) (b2 : FVec Ideal S128 .f32) :
    k3_pay1 (F := Ideal) x0 w1 b2 = Cert.Spec.denseRelu 10000 128 128 x0 w1 b2 := by
  funext i
  obtain ⟨p, q, rfl⟩ : ∃ (p : Fin 10000) (q : Fin 128), i = ix2 p q := ⟨i 0, i 1, eq_ix2 i⟩
  unfold k3_pay1
  simp only [shapeCast_self]
  refine (maximumf_apply _ _ _).trans ?_
  rw [broadcast_apply]
  show max _ (Ideal.ofBits .f32 0x00000000#32) = _
  rw [Ideal.ofBits_zero_f32]
  refine congrArg (fun z => max z (0 : EReal)) ?_
  refine (addf_apply _ _ _).trans ?_
  rw [product_at, bias_at]
  rfl

/-! ## The one point's blocks are the whole arrays -/

variable (V : (c : Dev nD) → (b : Ref sig .tc) → Buf (Elt Ideal) ((c : Thread nD τ).loc b))

/-- The block index of the aggregated messages is 0 on both axes, so the block starts at offset 0 on both. -/
private theorem off3_0 (t : Fin cfg3.N) : (fun a => win3_0.index t a * main_v20.ty.shape.size a) = fun _ => 0 :=
  funext fun a => by
    show win3_0.index t a * main_v20.ty.shape.size a = 0
    rw [show win3_0.index t a = 0 by fin_cases a <;> rfl, Nat.zero_mul]

/-- The same for the weights, -/
private theorem off3_1 (t : Fin cfg3.N) : (fun a => win3_1.index t a * main_v21.ty.shape.size a) = fun _ => 0 :=
  funext fun a => by
    show win3_1.index t a * main_v21.ty.shape.size a = 0
    rw [show win3_1.index t a = 0 by fin_cases a <;> rfl, Nat.zero_mul]

/-- for the bias, -/
private theorem off3_2 (t : Fin cfg3.N) : (fun a => win3_2.index t a * main_arg18.ty.shape.size a) = fun _ => 0 :=
  funext fun a => by
    show win3_2.index t a * main_arg18.ty.shape.size a = 0
    rw [show win3_2.index t a = 0 by fin_cases a <;> rfl, Nat.zero_mul]

/-- and for the output. -/
private theorem off3_3 (t : Fin cfg3.N) : (fun a => win3_3.index t a * main_v22.ty.shape.size a) = fun _ => 0 :=
  funext fun a => by
    show win3_3.index t a * main_v22.ty.shape.size a = 0
    rw [show win3_3.index t a = 0 by fin_cases a <;> rfl, Nat.zero_mul]

/-- The block of the aggregated messages is the whole array: all 10000 rows, all 128 columns, from offset 0. -/
private theorem iblk3_0_eq (c : Dev nD) (t : Fin cfg3.N) : iblk3 (F := Ideal) V c 0 t = V c main_v20 := by
  unfold iblk3
  exact Memref.read_access_unit_zero (Elt Ideal) main_v20 (off3_0 t) (fun a => by rw [congrFun (off3_0 t) a]; simp) (V c main_v20)

/-- The block of the weights is the whole 128 x 128 array. -/
private theorem iblk3_1_eq (c : Dev nD) (t : Fin cfg3.N) : iblk3 (F := Ideal) V c 1 t = V c main_v21 := by
  unfold iblk3
  exact Memref.read_access_unit_zero (Elt Ideal) main_v21 (off3_1 t) (fun a => by rw [congrFun (off3_1 t) a]; simp) (V c main_v21)

/-- The block of the bias is the whole vector. -/
private theorem iblk3_2_eq (c : Dev nD) (t : Fin cfg3.N) : iblk3 (F := Ideal) V c 2 t = V c main_arg18 := by
  unfold iblk3
  exact Memref.read_access_unit_zero (Elt Ideal) main_arg18 (off3_2 t) (fun a => by rw [congrFun (off3_2 t) a]; simp) (V c main_arg18)

/-! ## What the point writes back, and the array after the run -/

private theorem zero2 : (![0, 0] : Fin 2 → Nat) = fun _ => 0 := funext fun a => by fin_cases a <;> rfl
private theorem zero1 : (![0] : Fin 1 → Nat) = fun _ => 0 := funext fun a => by fin_cases a <;> rfl

/-- What the point writes back is the dense layer with the positive part of the whole input arrays, which is also what
    the output's one block, the whole array, reads of that array. The body loads each block whole and stores its one
    result over the whole output block. -/
private theorem flushed3_3_eq (c : Dev nD) (t : Fin cfg3.N) :
    (dat3 (F := Ideal) V c).flushed 3 t
      = ((cfg3.win 3).blk t).view.read (Elt Ideal) (Cert.Spec.denseRelu 10000 128 128 (V c main_v20) (V c main_v21) (V c main_arg18)) := by
  show (cfg3.win 3).cut (grid3.coords t) ((dat3 (F := Ideal) V c).after 3 t) = _
  rw [after3_3]
  unfold out3_3
  rw [View.canon_unit_zero zero2]
  simp only [View.ld_unit_zero (S := S10000x128) zero2, View.ld_unit_zero (S := S128x128) zero2, View.ld_unit_zero (S := S128) zero1]
  refine Eq.trans ?_ (Memref.read_access_unit_zero (Elt Ideal) main_v22 (off3_3 t) (fun a => by rw [congrFun (off3_3 t) a]; simp)
    (Cert.Spec.denseRelu 10000 128 128 (V c main_v20) (V c main_v21) (V c main_arg18))).symm
  show k3_pay1 (F := Ideal) (iblk3 V c 0 t) (iblk3 V c 1 t) (iblk3 V c 2 t) = _
  refine Eq.trans ?_ (pay3_eq (V c main_v20) (V c main_v21) (V c main_arg18))
  exact congr (congr (congrArg (k3_pay1 (F := Ideal)) (iblk3_0_eq V c t)) (iblk3_1_eq V c t)) (iblk3_2_eq V c t)

/-- Every entry of the output array lies in the one point's block: the block starts at offset 0 and has the array's
    extent on each axis. -/
private theorem cover3_3_all (i : S10000x128.Idx) : i ∈ ((cfg3.win 3).blk t3_0).view.set := by
  show i ∈ ((View.whole main_v22).slice (win3_3.rect t3_0)).set
  rw [View.set_slice_whole, Rect.mem_set_unit]
  intro a
  show win3_3.index t3_0 a * win3_3.size a ≤ (i a : Nat) ∧ (i a : Nat) < win3_3.index t3_0 a * win3_3.size a + win3_3.xsize (grid3.coords t3_0) a
  rw [show win3_3.index t3_0 a = 0 by fin_cases a <;> rfl, Nat.zero_mul, Nat.zero_add]
  exact ⟨Nat.zero_le _, (i a).isLt⟩

theorem region3_value (c : Dev nD) :
    (dat3 (F := Ideal) V c).arrAt 3 cfg3.N
      = Cert.Spec.denseRelu 10000 128 128 (V c main_v20) (V c main_v21) (V c main_arg18) := by
  exact (dat3 (F := Ideal) V c).arrAt_eq_of_cover 3 _ (fun t _ => flushed3_3_eq V c t)
    fun i => ⟨t3_0, flush3_3 t3_0, cover3_3_all i⟩

end Cert.KernelIdeal.Hand

end
-- ==== Proof.Region2.lean ====
/-
  The first message-passing step's per-edge perceptrons, 2000 edges at a time over 100 blocks: one output array ends holding the new edge features, the other the messages.
-/
import proofs.«425812_j65979287601856_3_alg».proof.Proof.Gen.KernelIdeal.Frame
import proofs.«425812_j65979287601856_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## The 768 → 512 layer on a block of 2000 rows -/

/-- The left operand is read at the output's row … -/
private theorem lhs2_a_0 (i : S2000x512.Idx) (q : dot_S2000x768_S768x512_S2000x512_1_0_0_1_n_n.contr.Idx) :
    (dot_S2000x768_S768x512_S2000x512_1_0_0_1_n_n.lhsIdx i q 0).val = (i 0).val := by
  unfold DotDims.lhsIdx
  rw [dif_neg (show ¬(0 : Fin S2000x768.rank) ∈ dot_S2000x768_S768x512_S2000x512_1_0_0_1_n_n.lhsBatch by decide), dif_pos (show (0 : Fin S2000x768.rank) ∈ dot_S2000x768_S768x512_S2000x512_1_0_0_1_n_n.lhsNonContracting by decide)]
  rfl
/-- … and at the contracted position; -/
private theorem lhs2_a_1 (i : S2000x512.Idx) (q : dot_S2000x768_S768x512_S2000x512_1_0_0_1_n_n.contr.Idx) :
    (dot_S2000x768_S768x512_S2000x512_1_0_0_1_n_n.lhsIdx i q 1).val = (q ⟨0, by decide⟩).val :=
  dot_S2000x768_S768x512_S2000x512_1_0_0_1_n_n.lhsIdx_val_of_single rfl i q
/-- the right operand at the contracted position … -/
private theorem rhs2_a_0 (i : S2000x512.Idx) (q : dot_S2000x768_S768x512_S2000x512_1_0_0_1_n_n.contr.Idx) :
    (dot_S2000x768_S768x512_S2000x512_1_0_0_1_n_n.rhsIdx i q 0).val = (q ⟨0, by decide⟩).val :=
  dot_S2000x768_S768x512_S2000x512_1_0_0_1_n_n.rhsIdx_val_of_single rfl i q
/-- … and at the output's column. -/
private theorem rhs2_a_1 (i : S2000x512.Idx) (q : dot_S2000x768_S768x512_S2000x512_1_0_0_1_n_n.contr.Idx) :
    (dot_S2000x768_S768x512_S2000x512_1_0_0_1_n_n.rhsIdx i q 1).val = (i 1).val := by
  unfold DotDims.rhsIdx
  rw [dif_neg (show ¬(1 : Fin S768x512.rank) ∈ dot_S2000x768_S768x512_S2000x512_1_0_0_1_n_n.rhsBatch by decide), dif_pos (show (1 : Fin S768x512.rank) ∈ dot_S2000x768_S768x512_S2000x512_1_0_0_1_n_n.rhsNonContracting by decide)]
  rfl

/-- The product into a zero accumulator, at entry (p, q): the sum over k of a(p, k) * w(k, q). -/
private theorem matmul2_a_apply (a : FVec Ideal S2000x768 .bf16) (w : FVec Ideal S768x512 .bf16) (p : Fin 2000) (q : Fin 512) :
    matmul dot_S2000x768_S768x512_S2000x512_1_0_0_1_n_n none a w (constant (F := Ideal) S2000x512 .f32 0x00000000#32) (ValueIdx.ix2 p q)
      = ∑ k : Fin 768, a (ValueIdx.ix2 p k) * w (ValueIdx.ix2 k q) := by
  refine (Ideal.matmul_constant_zero_apply dot_S2000x768_S768x512_S2000x512_1_0_0_1_n_n none a w (ValueIdx.ix2 p q)).trans ?_
  rw [← Equiv.sum_comp (ValueIdx.contrEquiv1 dot_S2000x768_S768x512_S2000x512_1_0_0_1_n_n 768 rfl rfl).symm]
  refine Finset.sum_congr rfl fun k _ => ?_
  have hk := ValueIdx.contrEquiv1_symm_val dot_S2000x768_S768x512_S2000x512_1_0_0_1_n_n 768 rfl rfl k
  have el : dot_S2000x768_S768x512_S2000x512_1_0_0_1_n_n.lhsIdx (ValueIdx.ix2 p q) ((ValueIdx.contrEquiv1 dot_S2000x768_S768x512_S2000x512_1_0_0_1_n_n 768 rfl rfl).symm k) = ValueIdx.ix2 p k := funext fun a => Fin.ext (by
    match a with
    | ⟨0, _⟩ => exact lhs2_a_0 _ _
    | ⟨1, _⟩ => exact (lhs2_a_1 _ _).trans hk)
  have er : dot_S2000x768_S768x512_S2000x512_1_0_0_1_n_n.rhsIdx (ValueIdx.ix2 p q) ((ValueIdx.contrEquiv1 dot_S2000x768_S768x512_S2000x512_1_0_0_1_n_n 768 rfl rfl).symm k) = ValueIdx.ix2 k q := funext fun a => Fin.ext (by
    match a with
    | ⟨0, _⟩ => exact (rhs2_a_0 _ _).trans hk
    | ⟨1, _⟩ => exact rhs2_a_1 _ _)
  rw [el, er]

/-- The layer as the body computes it — the product into a zero accumulator, the bias row added to every row, the positive
    part — is the dense layer followed by the positive part. A change of format is the identity on extended reals. -/
private theorem layer2_a_eq (x : FVec Ideal S2000x768 .f32) (w : Vec Ideal S768x512 .bf16) (b : Vec Ideal S512 .f32) :
    (maximumf (addf (matmul dot_S2000x768_S768x512_S2000x512_1_0_0_1_n_n none (truncf .bf16 x bitsLt_bf16_f32) (shapeCast S768x512 w shapeCasts_S768x512_S768x512 : FVec Ideal S768x512 .bf16) (constant (F := Ideal) S2000x512 .f32 0x00000000#32))
        (broadcastTo S2000x512 (shapeCast S1x512 b shapeCasts_S512_S1x512) broadcasts_S1x512_S2000x512))
      (broadcast S2000x512 (Scalar.ofBits (F := Ideal) .f32 0x00000000#32)) : FVec Ideal S2000x512 .f32)
    = Cert.Spec.denseRelu 2000 768 512 x w b := by
  funext i
  obtain ⟨p, q, rfl⟩ : ∃ (p : Fin 2000) (q : Fin 512), i = ValueIdx.ix2 p q := ⟨i 0, i 1, ValueIdx.eq_ix2 i⟩
  rw [shapeCast_self]
  show max (matmul dot_S2000x768_S768x512_S2000x512_1_0_0_1_n_n none (truncf .bf16 x bitsLt_bf16_f32) (w : FVec Ideal S768x512 .bf16) (constant (F := Ideal) S2000x512 .f32 0x00000000#32) (ValueIdx.ix2 p q)
      + broadcastTo S2000x512 (shapeCast S1x512 b shapeCasts_S512_S1x512) broadcasts_S1x512_S2000x512 (ValueIdx.ix2 p q)) (Ideal.ofBits .f32 0x00000000#32)
    = max ((∑ k : Fin 768, x (ValueIdx.ix2 p k) * w (ValueIdx.ix2 k q)) + b (ValueIdx.ix1 q)) 0
  rw [matmul2_a_apply, ValueIdx.broadcastTo_1b_ab_apply, ValueIdx.shapeCast_a_1a_apply, Ideal.ofBits_zero_f32]
  rfl

/-! ## The 512 → 128 layer on a block of 2000 rows -/

/-- The left operand is read at the output's row … -/
private theorem lhs2_b_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
/-- … and at the contracted position; -/
private theorem lhs2_b_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
/-- the right operand at the contracted position … -/
private theorem rhs2_b_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
/-- … and at the output's column. -/
private theorem rhs2_b_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The product into a zero accumulator, at entry (p, q): the sum over k of a(p, k) * w(k, q). -/
private theorem matmul2_b_apply (a : FVec Ideal S2000x512 .bf16) (w : FVec Ideal S512x128 .bf16) (p : Fin 2000) (q : Fin 128) :
    matmul dot_S2000x512_S512x128_S2000x128_1_0_0_1_n_n none a w (constant (F := Ideal) S2000x128 .f32 0x00000000#32) (ValueIdx.ix2 p q)
      = ∑ k : Fin 512, a (ValueIdx.ix2 p k) * w (ValueIdx.ix2 k q) := by
  refine (Ideal.matmul_constant_zero_apply dot_S2000x512_S512x128_S2000x128_1_0_0_1_n_n none a w (ValueIdx.ix2 p q)).trans ?_
  rw [← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx (ValueIdx.ix2 p q) ((ValueIdx.contrEquiv1 dot_S2000x512_S512x128_S2000x128_1_0_0_1_n_n 512 rfl rfl).symm k) = ValueIdx.ix2 p k := funext fun a => Fin.ext (by
    match a with
    | ⟨0, _⟩ => exact lhs2_b_0 _ _
    | ⟨1, _⟩ => exact (lhs2_b_1 _ _).trans hk)
  have er : dot_S2000x512_S512x128_S2000x128_1_0_0_1_n_n.rhsIdx (ValueIdx.ix2 p q) ((ValueIdx.contrEquiv1 dot_S2000x512_S512x128_S2000x128_1_0_0_1_n_n 512 rfl rfl).symm k) = ValueIdx.ix2 k q := funext fun a => Fin.ext (by
    match a with
    | ⟨0, _⟩ => exact (rhs2_b_0 _ _).trans hk
    | ⟨1, _⟩ => exact rhs2_b_1 _ _)
  rw [el, er]

/-- The layer as the body computes it — the product into a zero accumulator, the bias row added to every row, the positive
    part — is the dense layer followed by the positive part. A change of format is the identity on extended reals. -/
private theorem layer2_b_eq (x : FVec Ideal S2000x512 .f32) (w : Vec Ideal S512x128 .bf16) (b : Vec Ideal S128 .f32) :
    (maximumf (addf (matmul dot_S2000x512_S512x128_S2000x128_1_0_0_1_n_n none (truncf .bf16 x bitsLt_bf16_f32) (shapeCast S512x128 w shapeCasts_S512x128_S512x128 : FVec Ideal S512x128 .bf16) (constant (F := Ideal) S2000x128 .f32 0x00000000#32))
        (broadcastTo S2000x128 (shapeCast S1x128 b shapeCasts_S128_S1x128) broadcasts_S1x128_S2000x128))
      (broadcast S2000x128 (Scalar.ofBits (F := Ideal) .f32 0x00000000#32)) : FVec Ideal S2000x128 .f32)
    = Cert.Spec.denseRelu 2000 512 128 x w b := by
  funext i
  obtain ⟨p, q, rfl⟩ : ∃ (p : Fin 2000) (q : Fin 128), i = ValueIdx.ix2 p q := ⟨i 0, i 1, ValueIdx.eq_ix2 i⟩
  rw [shapeCast_self]
  show max (matmul dot_S2000x512_S512x128_S2000x128_1_0_0_1_n_n none (truncf .bf16 x bitsLt_bf16_f32) (w : FVec Ideal S512x128 .bf16) (constant (F := Ideal) S2000x128 .f32 0x00000000#32) (ValueIdx.ix2 p q)
      + broadcastTo S2000x128 (shapeCast S1x128 b shapeCasts_S128_S1x128) broadcasts_S1x128_S2000x128 (ValueIdx.ix2 p q)) (Ideal.ofBits .f32 0x00000000#32)
    = max ((∑ k : Fin 512, x (ValueIdx.ix2 p k) * w (ValueIdx.ix2 k q)) + b (ValueIdx.ix1 q)) 0
  rw [matmul2_b_apply, ValueIdx.broadcastTo_1b_ab_apply, ValueIdx.shapeCast_a_1a_apply, Ideal.ofBits_zero_f32]
  rfl

/-! ## The 384 → 128 layer on a block of 2000 rows -/

/-- The left operand is read at the output's row … -/
private theorem lhs2_c_0 (i : S2000x128.Idx) (q : dot_S2000x384_S384x128_S2000x128_1_0_0_1_n_n.contr.Idx) :
    (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide), dif_pos (show (0 : Fin S2000x384.rank) ∈ dot_S2000x384_S384x128_S2000x128_1_0_0_1_n_n.lhsNonContracting by decide)]
  rfl
/-- … and at the contracted position; -/
private theorem lhs2_c_1 (i : S2000x128.Idx) (q : dot_S2000x384_S384x128_S2000x128_1_0_0_1_n_n.contr.Idx) :
    (dot_S2000x384_S384x128_S2000x128_1_0_0_1_n_n.lhsIdx i q 1).val = (q ⟨0, by decide⟩).val :=
  dot_S2000x384_S384x128_S2000x128_1_0_0_1_n_n.lhsIdx_val_of_single rfl i q
/-- the right operand at the contracted position … -/
private theorem rhs2_c_0 (i : S2000x128.Idx) (q : dot_S2000x384_S384x128_S2000x128_1_0_0_1_n_n.contr.Idx) :
    (dot_S2000x384_S384x128_S2000x128_1_0_0_1_n_n.rhsIdx i q 0).val = (q ⟨0, by decide⟩).val :=
  dot_S2000x384_S384x128_S2000x128_1_0_0_1_n_n.rhsIdx_val_of_single rfl i q
/-- … and at the output's column. -/
private theorem rhs2_c_1 (i : S2000x128.Idx) (q : dot_S2000x384_S384x128_S2000x128_1_0_0_1_n_n.contr.Idx) :
    (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide), dif_pos (show (1 : Fin S384x128.rank) ∈ dot_S2000x384_S384x128_S2000x128_1_0_0_1_n_n.rhsNonContracting by decide)]
  rfl

/-- The product into a zero accumulator, at entry (p, q): the sum over k of a(p, k) * w(k, q). -/
private theorem matmul2_c_apply (a : FVec Ideal S2000x384 .bf16) (w : FVec Ideal S384x128 .bf16) (p : Fin 2000) (q : Fin 128) :
    matmul dot_S2000x384_S384x128_S2000x128_1_0_0_1_n_n none a w (constant (F := Ideal) S2000x128 .f32 0x00000000#32) (ValueIdx.ix2 p q)
      = ∑ k : Fin 384, a (ValueIdx.ix2 p k) * w (ValueIdx.ix2 k q) := by
  refine (Ideal.matmul_constant_zero_apply dot_S2000x384_S384x128_S2000x128_1_0_0_1_n_n none a w (ValueIdx.ix2 p q)).trans ?_
  rw [← Equiv.sum_comp (ValueIdx.contrEquiv1 dot_S2000x384_S384x128_S2000x128_1_0_0_1_n_n 384 rfl rfl).symm]
  refine Finset.sum_congr rfl fun k _ => ?_
  have hk := ValueIdx.contrEquiv1_symm_val dot_S2000x384_S384x128_S2000x128_1_0_0_1_n_n 384 rfl rfl k
  have el : dot_S2000x384_S384x128_S2000x128_1_0_0_1_n_n.lhsIdx (ValueIdx.ix2 p q) ((ValueIdx.contrEquiv1 dot_S2000x384_S384x128_S2000x128_1_0_0_1_n_n 384 rfl rfl).symm k) = ValueIdx.ix2 p k := funext fun a => Fin.ext (by
    match a with
    | ⟨0, _⟩ => exact lhs2_c_0 _ _
    | ⟨1, _⟩ => exact (lhs2_c_1 _ _).trans hk)
  have er : dot_S2000x384_S384x128_S2000x128_1_0_0_1_n_n.rhsIdx (ValueIdx.ix2 p q) ((ValueIdx.contrEquiv1 dot_S2000x384_S384x128_S2000x128_1_0_0_1_n_n 384 rfl rfl).symm k) = ValueIdx.ix2 k q := funext fun a => Fin.ext (by
    match a with
    | ⟨0, _⟩ => exact (rhs2_c_0 _ _).trans hk
    | ⟨1, _⟩ => exact rhs2_c_1 _ _)
  rw [el, er]

/-- The layer as the body computes it — the product into a zero accumulator, the bias row added to every row, the positive
    part — is the dense layer followed by the positive part. A change of format is the identity on extended reals. -/
private theorem layer2_c_eq (x : FVec Ideal S2000x384 .f32) (w : Vec Ideal S384x128 .bf16) (b : Vec Ideal S128 .f32) :
    (maximumf (addf (matmul dot_S2000x384_S384x128_S2000x128_1_0_0_1_n_n none (truncf .bf16 x bitsLt_bf16_f32) (shapeCast S384x128 w shapeCasts_S384x128_S384x128 : FVec Ideal S384x128 .bf16) (constant (F := Ideal) S2000x128 .f32 0x00000000#32))
        (broadcastTo S2000x128 (shapeCast S1x128 b shapeCasts_S128_S1x128) broadcasts_S1x128_S2000x128))
      (broadcast S2000x128 (Scalar.ofBits (F := Ideal) .f32 0x00000000#32)) : FVec Ideal S2000x128 .f32)
    = Cert.Spec.denseRelu 2000 384 128 x w b := by
  funext i
  obtain ⟨p, q, rfl⟩ : ∃ (p : Fin 2000) (q : Fin 128), i = ValueIdx.ix2 p q := ⟨i 0, i 1, ValueIdx.eq_ix2 i⟩
  rw [shapeCast_self]
  show max (matmul dot_S2000x384_S384x128_S2000x128_1_0_0_1_n_n none (truncf .bf16 x bitsLt_bf16_f32) (w : FVec Ideal S384x128 .bf16) (constant (F := Ideal) S2000x128 .f32 0x00000000#32) (ValueIdx.ix2 p q)
      + broadcastTo S2000x128 (shapeCast S1x128 b shapeCasts_S128_S1x128) broadcasts_S1x128_S2000x128 (ValueIdx.ix2 p q)) (Ideal.ofBits .f32 0x00000000#32)
    = max ((∑ k : Fin 384, x (ValueIdx.ix2 p k) * w (ValueIdx.ix2 k q)) + b (ValueIdx.ix1 q)) 0
  rw [matmul2_c_apply, ValueIdx.broadcastTo_1b_ab_apply, ValueIdx.shapeCast_a_1a_apply, Ideal.ofBits_zero_f32]
  rfl

/-! ## Joining along the columns -/

/-- A join along the columns read at (p, q), when column q falls in piece k: that piece at (p, q less the columns before it). -/
private theorem concat2_piece {R N A : ℕ} (xs : List ((s : Shape) × (s.Idx → EReal)))
    (h : Shape.Concatenates (xs.map (·.1)) (⟨2, ![R, N]⟩ : Shape) 1) (k : ℕ) (hk : k < xs.length)
    (x : (⟨2, ![R, A]⟩ : Shape).Idx → EReal) (hxk : xs[k] = ⟨(⟨2, ![R, A]⟩ : Shape), x⟩) (pre : ℕ)
    (hpre : (((xs.take k).map (·.1)).map fun s => if h : s.rank = (⟨2, ![R, N]⟩ : Shape).rank then s.size ((1 : Fin (⟨2, ![R, N]⟩ : Shape).rank).cast h.symm) else 0).sum = pre)
    (p : Fin R) (q : Fin N) (q' : Fin A) (hq : pre + q'.val = q.val) :
    concatenate (⟨2, ![R, N]⟩ : Shape) 1 xs h (ValueIdx.ix2 p q) = x (ValueIdx.ix2 p q') := by
  refine concatenate_apply_piece (1 : Fin (⟨2, ![R, N]⟩ : Shape).rank) xs h (ValueIdx.ix2 p q) k hk (⟨2, ![R, A]⟩ : Shape) x hxk rfl pre hpre
    (ValueIdx.ix2 p q') (fun b hb => ?_) hq
  match b with
  | ⟨0, _⟩ => rfl
  | ⟨1, _⟩ => exact absurd rfl hb

/-- The body's three-way join is the two-way join of the first two, joined with the third. -/
private theorem concat2_three_eq (a b e : FVec Ideal S2000x256 .f32) :
    (concatenate S2000x768 1 [⟨S2000x256, a⟩, ⟨S2000x256, b⟩, ⟨S2000x256, e⟩] concatenates_S2000x256_S2000x256_S2000x256_S2000x768_d1 : FVec Ideal S2000x768 .f32)
      = Cert.Spec.cat2 2000 512 256 768 rfl (Cert.Spec.cat2 2000 256 256 512 rfl a b) e := by
  funext i
  obtain ⟨p, q, rfl⟩ : ∃ (p : Fin 2000) (q : Fin 768), i = ValueIdx.ix2 p q := ⟨i 0, i 1, ValueIdx.eq_ix2 i⟩
  have hq := q.isLt
  by_cases h1 : q.val < 256
  · have h2 : q.val < 512 := by omega
    refine (concat2_piece (R := 2000) (N := 768) (A := 256) [⟨S2000x256, a⟩, ⟨S2000x256, b⟩, ⟨S2000x256, e⟩] concatenates_S2000x256_S2000x256_S2000x256_S2000x768_d1 0 (by show 0 < 3; omega) a rfl 0 rfl p q ⟨q.val, h1⟩ (by simp)).trans ?_
    show _ = if h : q.val < 512 then (if h' : q.val < 256 then a (ValueIdx.ix2 p ⟨q.val, h'⟩) else b (ValueIdx.ix2 p ⟨q.val - 256, _⟩)) else e (ValueIdx.ix2 p ⟨q.val - 512, _⟩)
    rw [dif_pos h2, dif_pos h1]
  · by_cases h2 : q.val < 512
    · refine (concat2_piece (R := 2000) (N := 768) (A := 256) [⟨S2000x256, a⟩, ⟨S2000x256, b⟩, ⟨S2000x256, e⟩] concatenates_S2000x256_S2000x256_S2000x256_S2000x768_d1 1 (by show 1 < 3; omega) b rfl 256 rfl p q ⟨q.val - 256, by omega⟩ (by show 256 + (q.val - 256) = q.val; omega)).trans ?_
      show _ = if h : q.val < 512 then (if h' : q.val < 256 then a (ValueIdx.ix2 p ⟨q.val, h'⟩) else b (ValueIdx.ix2 p ⟨q.val - 256, _⟩)) else e (ValueIdx.ix2 p ⟨q.val - 512, _⟩)
      rw [dif_pos h2, dif_neg h1]
    · refine (concat2_piece (R := 2000) (N := 768) (A := 256) [⟨S2000x256, a⟩, ⟨S2000x256, b⟩, ⟨S2000x256, e⟩] concatenates_S2000x256_S2000x256_S2000x256_S2000x768_d1 2 (by show 2 < 3; omega) e rfl 512 rfl p q ⟨q.val - 512, by omega⟩ (by show 512 + (q.val - 512) = q.val; omega)).trans ?_
      show _ = if h : q.val < 512 then (if h' : q.val < 256 then a (ValueIdx.ix2 p ⟨q.val, h'⟩) else b (ValueIdx.ix2 p ⟨q.val - 256, _⟩)) else e (ValueIdx.ix2 p ⟨q.val - 512, _⟩)
      rw [dif_neg h2]

/-- The body's two-way join is the specification's. -/
private theorem concat2_two_eq (a : FVec Ideal S2000x256 .f32) (e : FVec Ideal S2000x128 .f32) :
    (concatenate S2000x384 1 [⟨S2000x256, a⟩, ⟨S2000x128, e⟩] concatenates_S2000x256_S2000x128_S2000x384_d1 : FVec Ideal S2000x384 .f32)
      = Cert.Spec.cat2 2000 256 128 384 rfl a e := by
  funext i
  obtain ⟨p, q, rfl⟩ : ∃ (p : Fin 2000) (q : Fin 384), i = ValueIdx.ix2 p q := ⟨i 0, i 1, ValueIdx.eq_ix2 i⟩
  have hq := q.isLt
  by_cases h1 : q.val < 256
  · refine (concat2_piece (R := 2000) (N := 384) (A := 256) [⟨S2000x256, a⟩, ⟨S2000x128, e⟩] concatenates_S2000x256_S2000x128_S2000x384_d1 0 (by show 0 < 2; omega) a rfl 0 rfl p q ⟨q.val, h1⟩ (by simp)).trans ?_
    show _ = if h : q.val < 256 then a (ValueIdx.ix2 p ⟨q.val, h⟩) else e (ValueIdx.ix2 p ⟨q.val - 256, _⟩)
    rw [dif_pos h1]
  · refine (concat2_piece (R := 2000) (N := 384) (A := 128) [⟨S2000x256, a⟩, ⟨S2000x128, e⟩] concatenates_S2000x256_S2000x128_S2000x384_d1 1 (by show 1 < 2; omega) e rfl 256 rfl p q ⟨q.val - 256, by omega⟩ (by show 256 + (q.val - 256) = q.val; omega)).trans ?_
    show _ = if h : q.val < 256 then a (ValueIdx.ix2 p ⟨q.val, h⟩) else e (ValueIdx.ix2 p ⟨q.val - 256, _⟩)
    rw [dif_neg h1]

/-! ## The body's two results on a block are the specification's stages of that block -/

/-- The first loaded block passes through a change of shape to its own shape. -/
private theorem k2_pay1_eq (x0 : Vec Ideal S2000x256 .f32) : k2_pay1 (F := Ideal) x0 = x0 := by
  unfold k2_pay1
  exact shapeCast_self _ _

/-- The new edge features of a block. -/
private theorem k2_pay2_eq (x0 x1 x2 : Vec Ideal S2000x256 .f32) (w1 : Vec Ideal S768x512 .bf16) (b1 : Vec Ideal S512 .f32)
    (w2 : Vec Ideal S512x128 .bf16) (b2 : Vec Ideal S128 .f32) :
    k2_pay2 (F := Ideal) x0 x1 x2 w1 b1 w2 b2 = Cert.Spec.edgeNew 2000 x0 x1 x2 w1 b1 w2 b2 := by
  unfold k2_pay2 Cert.Spec.edgeNew Cert.Spec.mlp2
  refine (layer2_b_eq _ w2 b2).trans ?_
  refine congrArg (fun z => Cert.Spec.denseRelu 2000 512 128 z w2 b2) ?_
  refine (layer2_a_eq _ w1 b1).trans ?_
  refine congrArg (fun z => Cert.Spec.denseRelu 2000 768 512 z w1 b1) ?_
  rw [k2_pay1_eq, shapeCast_self, shapeCast_self]
  exact concat2_three_eq x0 x1 x2

/-- The messages of a block. -/
private theorem k2_pay3_eq (x0 x1 x2 : Vec Ideal S2000x256 .f32) (w1 : Vec Ideal S768x512 .bf16) (b1 : Vec Ideal S512 .f32)
    (w2 : Vec Ideal S512x128 .bf16) (b2 : Vec Ideal S128 .f32) (w3 : Vec Ideal S384x128 .bf16) (b3 : Vec Ideal S128 .f32) :
    k2_pay3 (F := Ideal) x0 x1 x2 w1 b1 w2 b2 w3 b3
      = Cert.Spec.message 2000 x0 (Cert.Spec.edgeNew 2000 x0 x1 x2 w1 b1 w2 b2) w3 b3 := by
  unfold k2_pay3 Cert.Spec.message
  refine (layer2_c_eq _ w3 b3).trans ?_
  refine congrArg (fun z => Cert.Spec.denseRelu 2000 384 128 z w3 b3) ?_
  rw [k2_pay1_eq, k2_pay2_eq]
  exact concat2_two_eq x0 _

/-! ## The blocks the body reads and writes, as rows of the arrays -/

private theorem zero2_two : (![0, 0] : Fin 2 → Nat) = fun _ => 0 := funext fun a => by fin_cases a <;> rfl
private theorem zero2_one : (![0] : Fin 1 → Nat) = fun _ => 0 := funext fun a => by fin_cases a <;> rfl

/-- Every one of the 100 blocks of 2000 rows lies inside the 200000 rows. -/
private theorem rows2_le (t : Fin cfg2.N) : t.val * 2000 + 2000 ≤ 200000 := by
  have h := t.isLt
  have hN : cfg2.N = 100 := N_2
  omega

/-! The index maps, decided over the grid: a row-blocked window's block index is (t, 0); a whole window's is 0. -/

private theorem idx2_rows_0 : ∀ t : Fin cfg2.N, win2_0.index t (0 : Fin 2) = t.val ∧ win2_0.index t (1 : Fin 2) = 0 :=
  (by decide +kernel : ∀ t : Fin grid2.N, _)
private theorem idx2_rows_1 : ∀ t : Fin cfg2.N, win2_1.index t (0 : Fin 2) = t.val ∧ win2_1.index t (1 : Fin 2) = 0 :=
  (by decide +kernel : ∀ t : Fin grid2.N, _)
private theorem idx2_rows_2 : ∀ t : Fin cfg2.N, win2_2.index t (0 : Fin 2) = t.val ∧ win2_2.index t (1 : Fin 2) = 0 :=
  (by decide +kernel : ∀ t : Fin grid2.N, _)
private theorem idx2_rows_9 : ∀ t : Fin cfg2.N, win2_9.index t (0 : Fin 2) = t.val ∧ win2_9.index t (1 : Fin 2) = 0 :=
  (by decide +kernel : ∀ t : Fin grid2.N, _)
private theorem idx2_rows_10 : ∀ t : Fin cfg2.N, win2_10.index t (0 : Fin 2) = t.val ∧ win2_10.index t (1 : Fin 2) = 0 :=
  (by decide +kernel : ∀ t : Fin grid2.N, _)

private theorem idx2_whole_3 : ∀ t : Fin cfg2.N, win2_3.index t (0 : Fin 2) = 0 ∧ win2_3.index t (1 : Fin 2) = 0 :=
  (by decide +kernel : ∀ t : Fin grid2.N, _)
private theorem idx2_whole_5 : ∀ t : Fin cfg2.N, win2_5.index t (0 : Fin 2) = 0 ∧ win2_5.index t (1 : Fin 2) = 0 :=
  (by decide +kernel : ∀ t : Fin grid2.N, _)
private theorem idx2_whole_7 : ∀ t : Fin cfg2.N, win2_7.index t (0 : Fin 2) = 0 ∧ win2_7.index t (1 : Fin 2) = 0 :=
  (by decide +kernel : ∀ t : Fin grid2.N, _)

private theorem idx2_whole_4 : ∀ t : Fin cfg2.N, win2_4.index t (0 : Fin 1) = 0 :=
  (by decide +kernel : ∀ t : Fin grid2.N, _)
private theorem idx2_whole_6 : ∀ t : Fin cfg2.N, win2_6.index t (0 : Fin 1) = 0 :=
  (by decide +kernel : ∀ t : Fin grid2.N, _)
private theorem idx2_whole_8 : ∀ t : Fin cfg2.N, win2_8.index t (0 : Fin 1) = 0 :=
  (by decide +kernel : ∀ t : Fin grid2.N, _)

/-- Window 0's block at point t, read off any array of 200000 rows, is its rows 2000 t … 2000 t + 1999. -/
private theorem read2_blk_0 (t : Fin cfg2.N) (X : Cert.Spec.A2 200000 256) :
    @Eq (Cert.Spec.A2 2000 256) (((cfg2.win 0).blk t).view.read (Elt Ideal) X) (Cert.Spec.rowsBlock 2000 200000 256 t.val (rows2_le t) X) := by
  obtain ⟨h0, h1⟩ := idx2_rows_0 t
  funext y
  rw [View.read_apply]
  show X _ = X _
  refine congrArg X (funext fun a => Fin.ext ?_)
  match a with
  | ⟨0, _⟩ => show win2_0.index t (0 : Fin 2) * 2000 + 1 * (y 0).val = t.val * 2000 + (y 0).val; rw [h0]; omega
  | ⟨1, _⟩ => show win2_0.index t (1 : Fin 2) * 256 + 1 * (y 1).val = (y 1).val; rw [h1]; omega

/-- Window 1's block at point t, read off any array of 200000 rows, is its rows 2000 t … 2000 t + 1999. -/
private theorem read2_blk_1 (t : Fin cfg2.N) (X : Cert.Spec.A2 200000 256) :
    @Eq (Cert.Spec.A2 2000 256) (((cfg2.win 1).blk t).view.read (Elt Ideal) X) (Cert.Spec.rowsBlock 2000 200000 256 t.val (rows2_le t) X) := by
  obtain ⟨h0, h1⟩ := idx2_rows_1 t
  funext y
  rw [View.read_apply]
  show X _ = X _
  refine congrArg X (funext fun a => Fin.ext ?_)
  match a with
  | ⟨0, _⟩ => show win2_1.index t (0 : Fin 2) * 2000 + 1 * (y 0).val = t.val * 2000 + (y 0).val; rw [h0]; omega
  | ⟨1, _⟩ => show win2_1.index t (1 : Fin 2) * 256 + 1 * (y 1).val = (y 1).val; rw [h1]; omega

/-- Window 2's block at point t, read off any array of 200000 rows, is its rows 2000 t … 2000 t + 1999. -/
private theorem read2_blk_2 (t : Fin cfg2.N) (X : Cert.Spec.A2 200000 256) :
    @Eq (Cert.Spec.A2 2000 256) (((cfg2.win 2).blk t).view.read (Elt Ideal) X) (Cert.Spec.rowsBlock 2000 200000 256 t.val (rows2_le t) X) := by
  obtain ⟨h0, h1⟩ := idx2_rows_2 t
  funext y
  rw [View.read_apply]
  show X _ = X _
  refine congrArg X (funext fun a => Fin.ext ?_)
  match a with
  | ⟨0, _⟩ => show win2_2.index t (0 : Fin 2) * 2000 + 1 * (y 0).val = t.val * 2000 + (y 0).val; rw [h0]; omega
  | ⟨1, _⟩ => show win2_2.index t (1 : Fin 2) * 256 + 1 * (y 1).val = (y 1).val; rw [h1]; omega

/-- Window 9's block at point t, read off any array of 200000 rows, is its rows 2000 t … 2000 t + 1999. -/
private theorem read2_blk_9 (t : Fin cfg2.N) (X : Cert.Spec.A2 200000 128) :
    @Eq (Cert.Spec.A2 2000 128) (((cfg2.win 9).blk t).view.read (Elt Ideal) X) (Cert.Spec.rowsBlock 2000 200000 128 t.val (rows2_le t) X) := by
  obtain ⟨h0, h1⟩ := idx2_rows_9 t
  funext y
  rw [View.read_apply]
  show X _ = X _
  refine congrArg X (funext fun a => Fin.ext ?_)
  match a with
  | ⟨0, _⟩ => show win2_9.index t (0 : Fin 2) * 2000 + 1 * (y 0).val = t.val * 2000 + (y 0).val; rw [h0]; omega
  | ⟨1, _⟩ => show win2_9.index t (1 : Fin 2) * 128 + 1 * (y 1).val = (y 1).val; rw [h1]; omega

/-- Window 10's block at point t, read off any array of 200000 rows, is its rows 2000 t … 2000 t + 1999. -/
private theorem read2_blk_10 (t : Fin cfg2.N) (X : Cert.Spec.A2 200000 128) :
    @Eq (Cert.Spec.A2 2000 128) (((cfg2.win 10).blk t).view.read (Elt Ideal) X) (Cert.Spec.rowsBlock 2000 200000 128 t.val (rows2_le t) X) := by
  obtain ⟨h0, h1⟩ := idx2_rows_10 t
  funext y
  rw [View.read_apply]
  show X _ = X _
  refine congrArg X (funext fun a => Fin.ext ?_)
  match a with
  | ⟨0, _⟩ => show win2_10.index t (0 : Fin 2) * 2000 + 1 * (y 0).val = t.val * 2000 + (y 0).val; rw [h0]; omega
  | ⟨1, _⟩ => show win2_10.index t (1 : Fin 2) * 128 + 1 * (y 1).val = (y 1).val; rw [h1]; omega

private theorem iblk2_0_eq (c : Dev nD) (t : Fin cfg2.N) :
    @Eq (Cert.Spec.A2 2000 256) (iblk2 (F := Ideal) V c 0 t) (Cert.Spec.rowsBlock 2000 200000 256 t.val (rows2_le t) (V c main_v12)) := by
  unfold iblk2
  exact read2_blk_0 t (V c main_v12)

private theorem iblk2_1_eq (c : Dev nD) (t : Fin cfg2.N) :
    @Eq (Cert.Spec.A2 2000 256) (iblk2 (F := Ideal) V c 1 t) (Cert.Spec.rowsBlock 2000 200000 256 t.val (rows2_le t) (V c main_v13)) := by
  unfold iblk2
  exact read2_blk_1 t (V c main_v13)

private theorem iblk2_2_eq (c : Dev nD) (t : Fin cfg2.N) :
    @Eq (Cert.Spec.A2 2000 256) (iblk2 (F := Ideal) V c 2 t) (Cert.Spec.rowsBlock 2000 200000 256 t.val (rows2_le t) (V c main_v11)) := by
  unfold iblk2
  exact read2_blk_2 t (V c main_v11)

private theorem iblk2_3_eq (c : Dev nD) (t : Fin cfg2.N) :
    @Eq (Cert.Spec.A2 768 512) (iblk2 (F := Ideal) V c 3 t) (V c main_v14) := by
  obtain ⟨h0, h1⟩ := idx2_whole_3 t
  unfold iblk2
  funext y
  rw [View.read_apply]
  show V c main_v14 _ = V c main_v14 _
  refine congrArg (V c main_v14) (funext fun a => Fin.ext ?_)
  match a with
  | ⟨0, _⟩ => show win2_3.index t (0 : Fin 2) * 768 + 1 * (y 0).val = (y 0).val; rw [h0]; omega
  | ⟨1, _⟩ => show win2_3.index t (1 : Fin 2) * 512 + 1 * (y 1).val = (y 1).val; rw [h1]; omega

private theorem iblk2_4_eq (c : Dev nD) (t : Fin cfg2.N) :
    @Eq (Cert.Spec.A1 512) (iblk2 (F := Ideal) V c 4 t) (V c main_arg12) := by
  have h0 := idx2_whole_4 t
  unfold iblk2
  funext y
  rw [View.read_apply]
  show V c main_arg12 _ = V c main_arg12 _
  refine congrArg (V c main_arg12) (funext fun a => Fin.ext ?_)
  match a with
  | ⟨0, _⟩ => show win2_4.index t (0 : Fin 1) * 512 + 1 * (y 0).val = (y 0).val; rw [h0]; omega

private theorem iblk2_5_eq (c : Dev nD) (t : Fin cfg2.N) :
    @Eq (Cert.Spec.A2 512 128) (iblk2 (F := Ideal) V c 5 t) (V c main_v15) := by
  obtain ⟨h0, h1⟩ := idx2_whole_5 t
  unfold iblk2
  funext y
  rw [View.read_apply]
  show V c main_v15 _ = V c main_v15 _
  refine congrArg (V c main_v15) (funext fun a => Fin.ext ?_)
  match a with
  | ⟨0, _⟩ => show win2_5.index t (0 : Fin 2) * 512 + 1 * (y 0).val = (y 0).val; rw [h0]; omega
  | ⟨1, _⟩ => show win2_5.index t (1 : Fin 2) * 128 + 1 * (y 1).val = (y 1).val; rw [h1]; omega

private theorem iblk2_6_eq (c : Dev nD) (t : Fin cfg2.N) :
    @Eq (Cert.Spec.A1 128) (iblk2 (F := Ideal) V c 6 t) (V c main_arg14) := by
  have h0 := idx2_whole_6 t
  unfold iblk2
  funext y
  rw [View.read_apply]
  show V c main_arg14 _ = V c main_arg14 _
  refine congrArg (V c main_arg14) (funext fun a => Fin.ext ?_)
  match a with
  | ⟨0, _⟩ => show win2_6.index t (0 : Fin 1) * 128 + 1 * (y 0).val = (y 0).val; rw [h0]; omega

private theorem iblk2_7_eq (c : Dev nD) (t : Fin cfg2.N) :
    @Eq (Cert.Spec.A2 384 128) (iblk2 (F := Ideal) V c 7 t) (V c main_v16) := by
  obtain ⟨h0, h1⟩ := idx2_whole_7 t
  unfold iblk2
  funext y
  rw [View.read_apply]
  show V c main_v16 _ = V c main_v16 _
  refine congrArg (V c main_v16) (funext fun a => Fin.ext ?_)
  match a with
  | ⟨0, _⟩ => show win2_7.index t (0 : Fin 2) * 384 + 1 * (y 0).val = (y 0).val; rw [h0]; omega
  | ⟨1, _⟩ => show win2_7.index t (1 : Fin 2) * 128 + 1 * (y 1).val = (y 1).val; rw [h1]; omega

private theorem iblk2_8_eq (c : Dev nD) (t : Fin cfg2.N) :
    @Eq (Cert.Spec.A1 128) (iblk2 (F := Ideal) V c 8 t) (V c main_arg16) := by
  have h0 := idx2_whole_8 t
  unfold iblk2
  funext y
  rw [View.read_apply]
  show V c main_arg16 _ = V c main_arg16 _
  refine congrArg (V c main_arg16) (funext fun a => Fin.ext ?_)
  match a with
  | ⟨0, _⟩ => show win2_8.index t (0 : Fin 1) * 128 + 1 * (y 0).val = (y 0).val; rw [h0]; omega

/-! ## What each point writes back -/

private theorem edgeNew_congr {R : ℕ} {a a' b b' e e' : Cert.Spec.A2 R 256} {w1 w1' : Cert.Spec.A2 768 512} {c1 c1' : Cert.Spec.A1 512}
    {w2 w2' : Cert.Spec.A2 512 128} {c2 c2' : Cert.Spec.A1 128}
    (ha : a = a') (hb : b = b') (he : e = e') (hw1 : w1 = w1') (hc1 : c1 = c1') (hw2 : w2 = w2') (hc2 : c2 = c2') :
    Cert.Spec.edgeNew R a b e w1 c1 w2 c2 = Cert.Spec.edgeNew R a' b' e' w1' c1' w2' c2' := by
  subst ha hb he hw1 hc1 hw2 hc2; rfl

private theorem message_congr {R : ℕ} {a a' : Cert.Spec.A2 R 256} {e e' : Cert.Spec.A2 R 128} {w w' : Cert.Spec.A2 384 128} {b b' : Cert.Spec.A1 128}
    (ha : a = a') (he : e = e') (hw : w = w') (hb : b = b') :
    Cert.Spec.message R a e w b = Cert.Spec.message R a' e' w' b' := by
  subst ha he hw hb; rfl

/-- The edge update of the blocks at point t is rows 2000 t … 2000 t + 1999 of the edge update of the arrays. -/
private theorem edge2_blocks (c : Dev nD) (t : Fin cfg2.N) :
    Cert.Spec.edgeNew 2000 (iblk2 (F := Ideal) V c 0 t) (iblk2 (F := Ideal) V c 1 t) (iblk2 (F := Ideal) V c 2 t) (iblk2 (F := Ideal) V c 3 t)
        (iblk2 (F := Ideal) V c 4 t) (iblk2 (F := Ideal) V c 5 t) (iblk2 (F := Ideal) V c 6 t)
      = Cert.Spec.rowsBlock 2000 200000 128 t.val (rows2_le t)
          (Cert.Spec.edgeNew 200000 (V c main_v12) (V c main_v13) (V c main_v11) (V c main_v14) (V c main_arg12) (V c main_v15) (V c main_arg14)) :=
  (edgeNew_congr (iblk2_0_eq V c t) (iblk2_1_eq V c t) (iblk2_2_eq V c t) (iblk2_3_eq V c t) (iblk2_4_eq V c t) (iblk2_5_eq V c t) (iblk2_6_eq V c t)).trans
    (Cert.Spec.edgeNew_rowsBlock 2000 200000 t.val (rows2_le t) (V c main_v12) (V c main_v13) (V c main_v11) (V c main_v14) (V c main_arg12) (V c main_v15) (V c main_arg14))

/-- Point t writes back, to the new edge features, its block of the edge update of the arrays. -/
private theorem flushed2_9_eq (c : Dev nD) (t : Fin cfg2.N) :
    (dat2 (F := Ideal) V c).flushed 9 t = ((cfg2.win 9).blk t).view.read (Elt Ideal)
      (Cert.Spec.edgeNew 200000 (V c main_v12) (V c main_v13) (V c main_v11) (V c main_v14) (V c main_arg12) (V c main_v15) (V c main_arg14)) := by
  show (cfg2.win 9).cut (grid2.coords t) ((dat2 (F := Ideal) V c).after 9 t) = _
  rw [after2_9]
  unfold out2_9
  rw [View.canon_unit_zero zero2_two]
  simp only [View.ld_unit_zero (S := S2000x256) zero2_two, View.ld_unit_zero (S := S768x512) zero2_two, View.ld_unit_zero (S := S512) zero2_one,
    View.ld_unit_zero (S := S512x128) zero2_two, View.ld_unit_zero (S := S128) zero2_one]
  refine Eq.trans ?_ (read2_blk_9 t _).symm
  refine (k2_pay2_eq (iblk2 (F := Ideal) V c 0 t) (iblk2 (F := Ideal) V c 1 t) (iblk2 (F := Ideal) V c 2 t) (iblk2 (F := Ideal) V c 3 t)
    (iblk2 (F := Ideal) V c 4 t) (iblk2 (F := Ideal) V c 5 t) (iblk2 (F := Ideal) V c 6 t)).trans ?_
  exact edge2_blocks V c t

/-- Point t writes back, to the messages, its block of the messages of the arrays. -/
private theorem flushed2_10_eq (c : Dev nD) (t : Fin cfg2.N) :
    (dat2 (F := Ideal) V c).flushed 10 t = ((cfg2.win 10).blk t).view.read (Elt Ideal)
      (Cert.Spec.message 200000 (V c main_v12)
        (Cert.Spec.edgeNew 200000 (V c main_v12) (V c main_v13) (V c main_v11) (V c main_v14) (V c main_arg12) (V c main_v15) (V c main_arg14))
        (V c main_v16) (V c main_arg16)) := by
  show (cfg2.win 10).cut (grid2.coords t) ((dat2 (F := Ideal) V c).after 10 t) = _
  rw [after2_10]
  unfold out2_10
  rw [View.canon_unit_zero zero2_two]
  simp only [View.ld_unit_zero (S := S2000x256) zero2_two, View.ld_unit_zero (S := S768x512) zero2_two, View.ld_unit_zero (S := S512) zero2_one,
    View.ld_unit_zero (S := S512x128) zero2_two, View.ld_unit_zero (S := S128) zero2_one, View.ld_unit_zero (S := S384x128) zero2_two]
  refine Eq.trans ?_ (read2_blk_10 t _).symm
  refine (k2_pay3_eq (iblk2 (F := Ideal) V c 0 t) (iblk2 (F := Ideal) V c 1 t) (iblk2 (F := Ideal) V c 2 t) (iblk2 (F := Ideal) V c 3 t)
    (iblk2 (F := Ideal) V c 4 t) (iblk2 (F := Ideal) V c 5 t) (iblk2 (F := Ideal) V c 6 t) (iblk2 (F := Ideal) V c 7 t) (iblk2 (F := Ideal) V c 8 t)).trans ?_
  refine (message_congr (iblk2_0_eq V c t) (edge2_blocks V c t) (iblk2_7_eq V c t) (iblk2_8_eq V c t)).trans ?_
  exact Cert.Spec.message_rowsBlock 2000 200000 t.val (rows2_le t) (V c main_v12)
    (Cert.Spec.edgeNew 200000 (V c main_v12) (V c main_v13) (V c main_v11) (V c main_v14) (V c main_arg12) (V c main_v15) (V c main_arg14))
    (V c main_v16) (V c main_arg16)

/-! ## The arrays after the run -/

/-- An index of the array is in point t's block when each coordinate is in the block's range on its axis. -/
private theorem mem2_blk_9 (t : Fin cfg2.N) (i : S200000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v17_0).slice (win2_9.rect t)).set ↔ _
  rw [View.set_slice_whole, Rect.mem_set_unit]
  exact Iff.rfl

/-- Row r lies in the block of point r / 2000, and every point writes back. -/
private theorem covered2_9 (i : S200000x128.Idx) : ∃ t : Fin cfg2.N, (cfg2.win 9).flush t = true ∧ i ∈ ((cfg2.win 9).blk t).view.set := by
  have hi0 : (i 0).val < 200000 := (i 0).isLt
  have hi1 : (i 1).val < 128 := (i 1).isLt
  have hN : cfg2.N = 100 := N_2
  have ht : (i 0).val / 2000 < cfg2.N := by rw [hN]; omega
  obtain ⟨h0, h1⟩ := idx2_rows_9 ⟨(i 0).val / 2000, ht⟩
  refine ⟨⟨(i 0).val / 2000, ht⟩, flush2_9 _, ?_⟩
  rw [mem2_blk_9]
  intro a
  match a with
  | ⟨0, _⟩ =>
    show win2_9.index ⟨(i 0).val / 2000, ht⟩ (0 : Fin 2) * 2000 ≤ (i 0).val ∧ (i 0).val < win2_9.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win2_9.index ⟨(i 0).val / 2000, ht⟩ (1 : Fin 2) * 128 ≤ (i 1).val ∧ (i 1).val < win2_9.index ⟨(i 0).val / 2000, ht⟩ (1 : Fin 2) * 128 + 128
    rw [h1]; omega

/-- An index of the array is in point t's block when each coordinate is in the block's range on its axis. -/
private theorem mem2_blk_10 (t : Fin cfg2.N) (i : S200000x128.Idx) :
    i ∈ ((cfg2.win 10).blk t).view.set ↔ ∀ a : Fin 2, win2_10.index t a * S2000x128.size a ≤ (i a).val ∧ (i a).val < win2_10.index t a * S2000x128.size a + S2000x128.size a := by
  show i ∈ ((View.whole main_v17_1).slice (win2_10.rect t)).set ↔ _
  rw [View.set_slice_whole, Rect.mem_set_unit]
  exact Iff.rfl

/-- Row r lies in the block of point r / 2000, and every point writes back. -/
private theorem covered2_10 (i : S200000x128.Idx) : ∃ t : Fin cfg2.N, (cfg2.win 10).flush t = true ∧ i ∈ ((cfg2.win 10).blk t).view.set := by
  have hi0 : (i 0).val < 200000 := (i 0).isLt
  have hi1 : (i 1).val < 128 := (i 1).isLt
  have hN : cfg2.N = 100 := N_2
  have ht : (i 0).val / 2000 < cfg2.N := by rw [hN]; omega
  obtain ⟨h0, h1⟩ := idx2_rows_10 ⟨(i 0).val / 2000, ht⟩
  refine ⟨⟨(i 0).val / 2000, ht⟩, flush2_10 _, ?_⟩
  rw [mem2_blk_10]
  intro a
  match a with
  | ⟨0, _⟩ =>
    show win2_10.index ⟨(i 0).val / 2000, ht⟩ (0 : Fin 2) * 2000 ≤ (i 0).val ∧ (i 0).val < win2_10.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win2_10.index ⟨(i 0).val / 2000, ht⟩ (1 : Fin 2) * 128 ≤ (i 1).val ∧ (i 1).val < win2_10.index ⟨(i 0).val / 2000, ht⟩ (1 : Fin 2) * 128 + 128
    rw [h1]; omega

theorem region2_edge (c : Dev nD) :
    (dat2 (F := Ideal) V c).arrAt 9 cfg2.N
      = Cert.Spec.edgeNew 200000 (V c main_v12) (V c main_v13) (V c main_v11) (V c main_v14) (V c main_arg12) (V c main_v15) (V c main_arg14) :=
  (dat2 (F := Ideal) V c).arrAt_eq_of_cover 9 _ (fun t _ => flushed2_9_eq V c t) covered2_9

theorem region2_message (c : Dev nD) :
    (dat2 (F := Ideal) V c).arrAt 10 cfg2.N
      = Cert.Spec.message 200000 (V c main_v12)
          (Cert.Spec.edgeNew 200000 (V c main_v12) (V c main_v13) (V c main_v11) (V c main_v14) (V c main_arg12) (V c main_v15) (V c main_arg14))
          (V c main_v16) (V c main_arg16) :=
  (dat2 (F := Ideal) V c).arrAt_eq_of_cover 10 _ (fun t _ => flushed2_10_eq V c t) covered2_10

end Cert.KernelIdeal.Hand

end
-- ==== Proof.Region0.lean ====
/-
  The node embedding, computed in one block of all 10000 rows: the output array ends holding the two-layer perceptron of the node features.
-/
import proofs.«425812_j65979287601856_3_alg».proof.Proof.Gen.KernelIdeal.Frame
import proofs.«425812_j65979287601856_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

open Idealize.ShloMosaic.ValueIdx
open scoped BigOperators

/-! ## The contraction of the two matrix products: rows of the left operand against columns of the right -/

/-- The left operand's row coordinate is the output's row. -/
private theorem lhsRow (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- The left operand's column coordinate is the summation index. -/
private theorem lhsCol (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the summation index. -/
private theorem rhsRow (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the output's column. -/
private theorem rhsCol (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- A matrix product into a zero accumulator, at entry (p, q): the sum over k of x(p, k) * w(k, q). -/
private theorem matmul_at (x : FVec Ideal S10000x128 .bf16) (w : FVec Ideal S128x128 .bf16) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  refine (Ideal.matmul_constant_zero_apply dot_S10000x128_S128x128_S10000x128_1_0_0_1_n_n none x w (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun a => Fin.ext (by
      match a with
      | ⟨0, _⟩ => exact lhsRow _ _
      | ⟨1, _⟩ => exact (lhsCol _ _).trans hk)
  have er : dot_S10000x128_S128x128_S10000x128_1_0_0_1_n_n.rhsIdx (ix2 p q) ((contrEquiv1 dot_S10000x128_S128x128_S10000x128_1_0_0_1_n_n 128 rfl rfl).symm k) = ix2 k q :=
    funext fun a => Fin.ext (by
      match a with
      | ⟨0, _⟩ => exact (rhsRow _ _).trans hk
      | ⟨1, _⟩ => exact rhsCol _ _)
  rw [el, er]

/-- One layer on the block: the product plus the bias row, then the positive part, is the dense layer with the positive part. -/
private theorem layer_eq (x : FVec Ideal S10000x128 .bf16) (w : FVec Ideal S128x128 .bf16) (b : FVec Ideal S128 .f32)
    (h1 : S128x128.ShapeCasts S128x128) (h2 : S128.ShapeCasts S1x128) (h3 : S1x128.Broadcasts S10000x128) :
    maximumf (addf (matmul dot_S10000x128_S128x128_S10000x128_1_0_0_1_n_n none x (shapeCast S128x128 w h1) (constant (F := Ideal) S10000x128 .f32 0x00000000#32))
        (broadcastTo S10000x128 (shapeCast S1x128 b h2) h3))
      (broadcast S10000x128 (Scalar.ofBits (F := Ideal) .f32 0x00000000#32))
    = Cert.Spec.denseRelu 10000 128 128 x w b := by
  funext i
  obtain ⟨p, q, rfl⟩ : ∃ (p : Fin 10000) (q : Fin 128), i = ix2 p q := ⟨i 0, i 1, eq_ix2 i⟩
  rw [shapeCast_self]
  show max (matmul dot_S10000x128_S128x128_S10000x128_1_0_0_1_n_n none x w (constant (F := Ideal) S10000x128 .f32 0x00000000#32) (ix2 p q)
      + broadcastTo S10000x128 (shapeCast S1x128 b h2) h3 (ix2 p q)) (Ideal.ofBits .f32 0x00000000#32)
    = max ((∑ k : Fin 128, x (ix2 p k) * w (ix2 k q)) + b (ix1 q)) 0
  rw [matmul_at, broadcastTo_1b_ab_apply, shapeCast_a_1a_apply, Ideal.ofBits_zero_f32]

/-- The body's one stored value is the two-layer perceptron of the block. -/
private theorem pay_eq (x0 : FVec Ideal S10000x128 .f32) (w1 : FVec Ideal S128x128 .bf16) (b1 : FVec Ideal S128 .f32)
    (w2 : FVec Ideal S128x128 .bf16) (b2 : FVec Ideal S128 .f32) :
    k0_pay1 (F := Ideal) x0 w1 b1 w2 b2 = Cert.Spec.mlp2 10000 128 128 128 x0 w1 b1 w2 b2 := by
  unfold k0_pay1 Cert.Spec.mlp2
  dsimp only
  rw [layer_eq, layer_eq]
  rfl

/-! ## From the one block to the array: the grid has one point, and every window's block is its whole array -/

private theorem zeros2 : (![0, 0] : Fin 2 → Nat) = fun _ => 0 := funext fun a => by fin_cases a <;> rfl
private theorem zeros1 : (![0] : Fin 1 → Nat) = fun _ => 0 := funext fun a => by fin_cases a <;> rfl

/-- The node features' block is the whole array. -/
private theorem blk_x (c : Dev nD) (t : Fin cfg0.N) :
    (iblk0 (F := Ideal) V c 0 t : FVec Ideal S10000x128 .f32) = (V c main_arg0 : FVec Ideal S10000x128 .f32) := by
  obtain rfl := fin_N0 t
  have hz : (fun a => win0_0.index t0_0 a * main_arg0.ty.shape.size a) = fun _ => 0 := funext fun a => by fin_cases a <;> decide
  exact Memref.read_access_unit_zero (Elt Ideal) main_arg0 hz (fun a => by rw [congrFun hz a]; simp) (V c main_arg0)

/-- The first layer's weights' block is the whole array. -/
private theorem blk_w1 (c : Dev nD) (t : Fin cfg0.N) :
    (iblk0 (F := Ideal) V c 1 t : FVec Ideal S128x128 .bf16) = (V c main_v4 : FVec Ideal S128x128 .bf16) := by
  obtain rfl := fin_N0 t
  have hz : (fun a => win0_1.index t0_0 a * main_v4.ty.shape.size a) = fun _ => 0 := funext fun a => by fin_cases a <;> decide
  exact Memref.read_access_unit_zero (Elt Ideal) main_v4 hz (fun a => by rw [congrFun hz a]; simp) (V c main_v4)

/-- The first layer's bias' block is the whole vector. -/
private theorem blk_b1 (c : Dev nD) (t : Fin cfg0.N) :
    (iblk0 (F := Ideal) V c 2 t : FVec Ideal S128 .f32) = (V c main_arg4 : FVec Ideal S128 .f32) := by
  obtain rfl := fin_N0 t
  have hz : (fun a => win0_2.index t0_0 a * main_arg4.ty.shape.size a) = fun _ => 0 := funext fun a => by fin_cases a <;> decide
  exact Memref.read_access_unit_zero (Elt Ideal) main_arg4 hz (fun a => by rw [congrFun hz a]; simp) (V c main_arg4)

/-- The second layer's weights' block is the whole array. -/
private theorem blk_w2 (c : Dev nD) (t : Fin cfg0.N) :
    (iblk0 (F := Ideal) V c 3 t : FVec Ideal S128x128 .bf16) = (V c main_v5 : FVec Ideal S128x128 .bf16) := by
  obtain rfl := fin_N0 t
  have hz : (fun a => win0_3.index t0_0 a * main_v5.ty.shape.size a) = fun _ => 0 := funext fun a => by fin_cases a <;> decide
  exact Memref.read_access_unit_zero (Elt Ideal) main_v5 hz (fun a => by rw [congrFun hz a]; simp) (V c main_v5)

/-- The second layer's bias' block is the whole vector. -/
private theorem blk_b2 (c : Dev nD) (t : Fin cfg0.N) :
    (iblk0 (F := Ideal) V c 4 t : FVec Ideal S128 .f32) = (V c main_arg6 : FVec Ideal S128 .f32) := by
  obtain rfl := fin_N0 t
  have hz : (fun a => win0_4.index t0_0 a * main_arg6.ty.shape.size a) = fun _ => 0 := funext fun a => by fin_cases a <;> decide
  exact Memref.read_access_unit_zero (Elt Ideal) main_arg6 hz (fun a => by rw [congrFun hz a]; simp) (V c main_arg6)

/-- The perceptron of blocks equal to the arrays is the perceptron of the arrays. -/
private theorem pay_of_blocks (x0 : FVec Ideal S10000x128 .f32) (w1 : FVec Ideal S128x128 .bf16) (b1 : FVec Ideal S128 .f32)
    (w2 : FVec Ideal S128x128 .bf16) (b2 : FVec Ideal S128 .f32)
    (X : FVec Ideal S10000x128 .f32) (W1 : FVec Ideal S128x128 .bf16) (B1 : FVec Ideal S128 .f32)
    (W2 : FVec Ideal S128x128 .bf16) (B2 : FVec Ideal S128 .f32)
    (ex : x0 = X) (ew1 : w1 = W1) (eb1 : b1 = B1) (ew2 : w2 = W2) (eb2 : b2 = B2) :
    k0_pay1 (F := Ideal) x0 w1 b1 w2 b2 = Cert.Spec.mlp2 10000 128 128 128 X W1 B1 W2 B2 := by
  subst ex ew1 eb1 ew2 eb2
  exact pay_eq x0 w1 b1 w2 b2

/-- The perceptron of the whole arrays as the region finds them. -/
private abbrev embedded (c : Dev nD) : FVec Ideal S10000x128 .f32 :=
  Cert.Spec.mlp2 10000 128 128 128 (V c main_arg0) (V c main_v4) (V c main_arg4) (V c main_v5) (V c main_arg6)

/-- What the one point writes back is the one block, that is all, of the perceptron of the arrays. -/
private theorem flushed_eq (c : Dev nD) (t : Fin cfg0.N) (hf : (cfg0.win 5).flush t = true) :
    (dat0 (F := Ideal) V c).flushed 5 t = ((cfg0.win 5).blk t).view.read (Elt Ideal) (embedded V c) := by
  show (cfg0.win 5).cut (grid0.coords t) ((dat0 (F := Ideal) V c).after 5 t) = _
  rw [after0_5]
  unfold out0_5
  rw [View.canon_unit_zero zeros2]
  simp only [View.ld_unit_zero (S := S10000x128) zeros2, View.ld_unit_zero (S := S128x128) zeros2, View.ld_unit_zero (S := S128) zeros1]
  obtain rfl := fin_N0 t
  have hz : (fun a => win0_5.index t0_0 a * main_v6.ty.shape.size a) = fun _ => 0 := funext fun a => by fin_cases a <;> decide
  refine Eq.trans ?_ (Memref.read_access_unit_zero (Elt Ideal) main_v6 hz (fun a => by rw [congrFun hz a]; simp) (embedded V c)).symm
  exact pay_of_blocks (iblk0 V c 0 t0_0) (iblk0 V c 1 t0_0) (iblk0 V c 2 t0_0) (iblk0 V c 3 t0_0) (iblk0 V c 4 t0_0)
    (V c main_arg0) (V c main_v4) (V c main_arg4) (V c main_v5) (V c main_arg6)
    (blk_x V c t0_0) (blk_w1 V c t0_0) (blk_b1 V c t0_0) (blk_w2 V c t0_0) (blk_b2 V c t0_0)

/-- Every index of the output array lies in the one point's block. -/
private theorem covered (i : S10000x128.Idx) :
    ∃ t : Fin cfg0.N, (cfg0.win 5).flush t = true ∧ i ∈ ((cfg0.win 5).blk t).view.set := by
  refine ⟨t0_0, flush0_5 t0_0, ?_⟩
  show i ∈ ((View.whole main_v6).slice (win0_5.rect t0_0)).set
  rw [View.set_slice_whole, Rect.mem_set_unit]
  intro a
  have h0 : (i 0 : Nat) < 10000 := (i 0).isLt
  have h1 : (i 1 : Nat) < 128 := (i 1).isLt
  match a with
  | ⟨0, _⟩ =>
    show win0_5.index t0_0 0 * win0_5.size 0 ≤ (i 0 : Nat) ∧ (i 0 : Nat) < win0_5.index t0_0 0 * win0_5.size 0 + win0_5.xsize (grid0.coords t0_0) 0
    rw [show win0_5.index t0_0 0 * win0_5.size 0 = 0 from by decide +kernel, show win0_5.xsize (grid0.coords t0_0) 0 = 10000 from by decide +kernel]; omega
  | ⟨1, _⟩ =>
    show win0_5.index t0_0 1 * win0_5.size 1 ≤ (i 1 : Nat) ∧ (i 1 : Nat) < win0_5.index t0_0 1 * win0_5.size 1 + win0_5.xsize (grid0.coords t0_0) 1
    rw [show win0_5.index t0_0 1 * win0_5.size 1 = 0 from by decide +kernel, show win0_5.xsize (grid0.coords t0_0) 1 = 128 from by decide +kernel]; omega

theorem region0_value (c : Dev nD) :
    (dat0 (F := Ideal) V c).arrAt 5 cfg0.N
      = Cert.Spec.mlp2 10000 128 128 128 (V c main_arg0) (V c main_v4) (V c main_arg4) (V c main_v5) (V c main_arg6) :=
  (dat0 (F := Ideal) V c).arrAt_eq_of_cover 5 (embedded V c) (flushed_eq V c) covered

end Cert.KernelIdeal.Hand

end
-- ==== Proof.Region1.lean ====
/-
  The edge embedding, computed 5000 rows at a time over 40 blocks: the output array ends holding the two-layer perceptron of the edge attributes.
-/
import proofs.«425812_j65979287601856_3_alg».proof.Proof.Gen.KernelIdeal.Frame
import proofs.«425812_j65979287601856_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

open Idealize.ShloMosaic.ValueIdx

/-! ## Offsets of a whole block -/

private theorem zeroOff2 : (![0, 0] : Fin 2 → Nat) = fun _ => 0 := funext fun a => by fin_cases a <;> rfl
private theorem zeroOff1 : (![0] : Fin 1 → Nat) = fun _ => 0 := funext fun a => by fin_cases a <;> rfl

/-! ## The bias row, repeated down the block -/

private theorem biasRow_at (b : FVec Ideal S128 .f32) (p : Fin 5000) (q : Fin 128) :
    broadcastTo S5000x128 (shapeCast S1x128 b shapeCasts_S128_S1x128) broadcasts_S1x128_S5000x128 (ix2 p q) = b (ix1 q) := by
  refine (broadcastTo_apply _ broadcasts_S1x128_S5000x128 (ix2 p q) (ix2 (⟨0, Nat.one_pos⟩ : Fin 1) q) ?_).trans ?_
  · intro a
    match a with
    | ⟨0, _⟩ => rfl
    | ⟨1, _⟩ => rfl
  · refine (shapeCast_apply b shapeCasts_S128_S1x128 (ix2 (⟨0, Nat.one_pos⟩ : Fin 1) q) (ix1 q) ?_)
    rw [Shape.rowMajor_val_two, Shape.rowMajor_val_one]
    show q.val = 0 * 128 + q.val
    omega

/-! ## The [5000,64] × [64,128] product at an index -/

private theorem prodA_l0 (i : S5000x128.Idx) (u : dot_S5000x64_S64x128_S5000x128_1_0_0_1_n_n.contr.Idx) :
    (dot_S5000x64_S64x128_S5000x128_1_0_0_1_n_n.lhsIdx i u 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
private theorem prodA_l1 (i : S5000x128.Idx) (u : dot_S5000x64_S64x128_S5000x128_1_0_0_1_n_n.contr.Idx) :
    (dot_S5000x64_S64x128_S5000x128_1_0_0_1_n_n.lhsIdx i u 1).val = (u ⟨0, by decide⟩).val :=
  dot_S5000x64_S64x128_S5000x128_1_0_0_1_n_n.lhsIdx_val_of_single rfl i u
private theorem prodA_r0 (i : S5000x128.Idx) (u : dot_S5000x64_S64x128_S5000x128_1_0_0_1_n_n.contr.Idx) :
    (dot_S5000x64_S64x128_S5000x128_1_0_0_1_n_n.rhsIdx i u 0).val = (u ⟨0, by decide⟩).val :=
  dot_S5000x64_S64x128_S5000x128_1_0_0_1_n_n.rhsIdx_val_of_single rfl i u
private theorem prodA_r1 (i : S5000x128.Idx) (u : dot_S5000x64_S64x128_S5000x128_1_0_0_1_n_n.contr.Idx) :
    (dot_S5000x64_S64x128_S5000x128_1_0_0_1_n_n.rhsIdx i u 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- Into the zero accumulator, entry (p, q) of the product is the sum over k of x(p, k) * w(k, q). -/
private theorem prodA_at (x : FVec Ideal S5000x64 .bf16) (w : FVec Ideal S64x128 .bf16) (p : Fin 5000) (q : Fin 128) :
    matmul dot_S5000x64_S64x128_S5000x128_1_0_0_1_n_n none x w (constant (F := Ideal) S5000x128 .f32 0x00000000#32) (ix2 p q)
      = ∑ k : Fin 64, x (ix2 p k) * w (ix2 k q) := by
  refine (Ideal.matmul_constant_zero_apply dot_S5000x64_S64x128_S5000x128_1_0_0_1_n_n none x w (ix2 p q)).trans ?_
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact prodA_l0 _ _
    | ⟨1, _⟩ => exact (prodA_l1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (prodA_r0 _ _).trans hk
    | ⟨1, _⟩ => exact prodA_r1 _ _)
  rw [el, er]

/-! ## The [5000,128] × [128,128] product at an index -/

private theorem prodB_l0 (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem prodB_l1 (i : S5000x128.Idx) (u : dot_S5000x128_S128x128_S5000x128_1_0_0_1_n_n.contr.Idx) :
    (dot_S5000x128_S128x128_S5000x128_1_0_0_1_n_n.lhsIdx i u 1).val = (u ⟨0, by decide⟩).val :=
  dot_S5000x128_S128x128_S5000x128_1_0_0_1_n_n.lhsIdx_val_of_single rfl i u
private theorem prodB_r0 (i : S5000x128.Idx) (u : dot_S5000x128_S128x128_S5000x128_1_0_0_1_n_n.contr.Idx) :
    (dot_S5000x128_S128x128_S5000x128_1_0_0_1_n_n.rhsIdx i u 0).val = (u ⟨0, by decide⟩).val :=
  dot_S5000x128_S128x128_S5000x128_1_0_0_1_n_n.rhsIdx_val_of_single rfl i u
private theorem prodB_r1 (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Into the zero accumulator, entry (p, q) of the product is the sum over k of x(p, k) * w(k, q). -/
private theorem prodB_at (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact prodB_l0 _ _
    | ⟨1, _⟩ => exact (prodB_l1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (prodB_r0 _ _).trans hk
    | ⟨1, _⟩ => exact prodB_r1 _ _)
  rw [el, er]

/-- One layer on a block of 5000 rows — product into the zero accumulator, the bias row added, the positive part —
    is the dense layer with the positive part. -/
private theorem layerA_eq (x : FVec Ideal S5000x64 .bf16) (w : FVec Ideal S64x128 .bf16) (b : FVec Ideal S128 .f32) :
    maximumf (addf (matmul dot_S5000x64_S64x128_S5000x128_1_0_0_1_n_n none x (shapeCast S64x128 w shapeCasts_S64x128_S64x128) (constant (F := Ideal) S5000x128 .f32 0x00000000#32))
        (broadcastTo S5000x128 (shapeCast S1x128 b shapeCasts_S128_S1x128) broadcasts_S1x128_S5000x128))
      (broadcast S5000x128 (Scalar.ofBits (F := Ideal) .f32 0x00000000#32))
      = Cert.Spec.denseRelu 5000 64 128 x w b := by
  funext i
  obtain ⟨p, q, rfl⟩ : ∃ (p : Fin 5000) (q : Fin 128), i = ix2 p q := ⟨i 0, i 1, eq_ix2 i⟩
  rw [shapeCast_self]
  show max (matmul dot_S5000x64_S64x128_S5000x128_1_0_0_1_n_n none x w (constant (F := Ideal) S5000x128 .f32 0x00000000#32) (ix2 p q)
        + broadcastTo S5000x128 (shapeCast S1x128 b shapeCasts_S128_S1x128) broadcasts_S1x128_S5000x128 (ix2 p q))
      (Ideal.ofBits .f32 0x00000000#32)
    = max ((∑ k : Fin 64, x (ix2 p k) * w (ix2 k q)) + b (ix1 q)) 0
  rw [prodA_at, biasRow_at, Ideal.ofBits_zero_f32]

/-- One layer on a block of 5000 rows — product into the zero accumulator, the bias row added, the positive part —
    is the dense layer with the positive part. -/
private theorem layerB_eq (x : FVec Ideal S5000x128 .bf16) (w : FVec Ideal S128x128 .bf16) (b : FVec Ideal S128 .f32) :
    maximumf (addf (matmul dot_S5000x128_S128x128_S5000x128_1_0_0_1_n_n none x (shapeCast S128x128 w shapeCasts_S128x128_S128x128) (constant (F := Ideal) S5000x128 .f32 0x00000000#32))
        (broadcastTo S5000x128 (shapeCast S1x128 b shapeCasts_S128_S1x128) broadcasts_S1x128_S5000x128))
      (broadcast S5000x128 (Scalar.ofBits (F := Ideal) .f32 0x00000000#32))
      = Cert.Spec.denseRelu 5000 128 128 x w b := by
  funext i
  obtain ⟨p, q, rfl⟩ : ∃ (p : Fin 5000) (q : Fin 128), i = ix2 p q := ⟨i 0, i 1, eq_ix2 i⟩
  rw [shapeCast_self]
  show max (matmul dot_S5000x128_S128x128_S5000x128_1_0_0_1_n_n none x w (constant (F := Ideal) S5000x128 .f32 0x00000000#32) (ix2 p q)
        + broadcastTo S5000x128 (shapeCast S1x128 b shapeCasts_S128_S1x128) broadcasts_S1x128_S5000x128 (ix2 p q))
      (Ideal.ofBits .f32 0x00000000#32)
    = max ((∑ k : Fin 128, x (ix2 p k) * w (ix2 k q)) + b (ix1 q)) 0
  rw [prodB_at, biasRow_at, Ideal.ofBits_zero_f32]

/-- The body's stored value on a block of 5000 rows is the two-layer perceptron of that block: the format changes
    are the identity on extended reals, and each layer is a dense layer with the positive part. -/
private theorem pay_eq (x0 : Vec Ideal S5000x64 .f32) (w1 : Vec Ideal S64x128 .bf16) (b1 : Vec Ideal S128 .f32)
    (w2 : Vec Ideal S128x128 .bf16) (b2 : Vec Ideal S128 .f32) :
    k1_pay1 (F := Ideal) x0 w1 b1 w2 b2 = Cert.Spec.mlp2 5000 64 128 128 x0 w1 b1 w2 b2 := by
  unfold k1_pay1
  exact (layerB_eq _ w2 b2).trans
    (congrArg (fun y => Cert.Spec.denseRelu 5000 128 128 y w2 b2) (layerA_eq x0 w1 b1))

/-! ## The windows' blocks as rows of the arrays -/

/-- The index maps over the 40 grid points: the edge attributes and the output move one block of rows per point,
    the weights and biases stay at block 0. -/
private theorem indexMaps : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0 :=
  (by decide +kernel : ∀ t : Fin grid1.N, _)

private theorem point_lt (t : Fin cfg1.N) : t.val * 5000 + 5000 ≤ 200000 := by
  have h : t.val < 40 := lt_of_lt_of_eq t.isLt (show cfg1.N = 40 from N_1)
  omega

/-- The edge attributes' block at point t is rows 5000 t, …, 5000 t + 4999 of the array. -/
private theorem attrBlock (c : Dev nD) (t : Fin cfg1.N) :
    (iblk1 (F := Ideal) V c 0 t : Vec Ideal S5000x64 .f32)
      = Cert.Spec.rowsBlock 5000 200000 64 t.val (point_lt t) (V c main_arg1) := by
  obtain ⟨e0, e1, -⟩ := indexMaps t
  funext y
  unfold iblk1
  rw [View.read_apply]
  show V c main_arg1 _ = V c main_arg1 _
  congr 1
  funext a
  apply Fin.ext
  match a with
  | ⟨0, _⟩ => show win1_0.index t (0 : Fin 2) * 5000 + 1 * (y 0).val = t.val * 5000 + (y 0).val; rw [e0]; omega
  | ⟨1, _⟩ => show win1_0.index t (1 : Fin 2) * 64 + 1 * (y 1).val = (y 1).val; rw [e1]; omega

/-- A window whose block is the whole array, at block index 0, reads the array. -/
private theorem weight1Block (c : Dev nD) (t : Fin cfg1.N) :
    (iblk1 (F := Ideal) V c 1 t : Vec Ideal S64x128 .bf16) = V c main_v7 := by
  obtain ⟨-, -, -, -, e0, e1, -⟩ := indexMaps t
  funext y
  unfold iblk1
  rw [View.read_apply]
  show V c main_v7 _ = V c main_v7 y
  congr 1
  funext a
  apply Fin.ext
  match a with
  | ⟨0, _⟩ => show win1_1.index t (0 : Fin 2) * 64 + 1 * (y 0).val = (y 0).val; rw [e0]; omega
  | ⟨1, _⟩ => show win1_1.index t (1 : Fin 2) * 128 + 1 * (y 1).val = (y 1).val; rw [e1]; omega

private theorem bias1Block (c : Dev nD) (t : Fin cfg1.N) :
    (iblk1 (F := Ideal) V c 2 t : Vec Ideal S128 .f32) = V c main_arg8 := by
  obtain ⟨-, -, -, -, -, -, e0, -⟩ := indexMaps t
  funext y
  unfold iblk1
  rw [View.read_apply]
  show V c main_arg8 _ = V c main_arg8 y
  congr 1
  funext a
  apply Fin.ext
  match a with
  | ⟨0, _⟩ => show win1_2.index t (0 : Fin 1) * 128 + 1 * (y 0).val = (y 0).val; rw [e0]; omega

private theorem weight2Block (c : Dev nD) (t : Fin cfg1.N) :
    (iblk1 (F := Ideal) V c 3 t : Vec Ideal S128x128 .bf16) = V c main_v8 := by
  obtain ⟨-, -, -, -, -, -, -, e0, e1, -⟩ := indexMaps t
  funext y
  unfold iblk1
  rw [View.read_apply]
  show V c main_v8 _ = V c main_v8 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

private theorem bias2Block (c : Dev nD) (t : Fin cfg1.N) :
    (iblk1 (F := Ideal) V c 4 t : Vec Ideal S128 .f32) = V c main_arg10 := by
  obtain ⟨-, -, -, -, -, -, -, -, -, e0⟩ := indexMaps t
  funext y
  unfold iblk1
  rw [View.read_apply]
  show V c main_arg10 _ = V c main_arg10 y
  congr 1
  funext a
  apply Fin.ext
  match a with
  | ⟨0, _⟩ => show win1_4.index t (0 : Fin 1) * 128 + 1 * (y 0).val = (y 0).val; rw [e0]; omega

/-! ## What a point writes back, and the whole array -/

/-- What the body leaves in the output's buffer is the two-layer perceptron of the blocks it read. -/
private theorem bodyOut (x0 : Vec Ideal S5000x64 .f32) (w1 : Vec Ideal S64x128 .bf16) (b1 : Vec Ideal S128 .f32)
    (w2 : Vec Ideal S128x128 .bf16) (b2 : Vec Ideal S128 .f32) :
    out1_5 (F := Ideal) x0 w1 b1 w2 b2 = Cert.Spec.mlp2 5000 64 128 128 x0 w1 b1 w2 b2 := by
  unfold out1_5
  rw [View.canon_unit_zero zeroOff2]
  simp only [View.ld_unit_zero (S := S5000x64) zeroOff2, View.ld_unit_zero (S := S64x128) zeroOff2,
    View.ld_unit_zero (S := S128) zeroOff1, View.ld_unit_zero (S := S128x128) zeroOff2]
  exact pay_eq x0 w1 b1 w2 b2

/-- Point t writes back rows 5000 t, …, 5000 t + 4999 of the perceptron of the whole arrays: the perceptron of a
    block of rows is that block of rows of the perceptron. -/
private theorem flushedBlock (c : Dev nD) (t : Fin cfg1.N) :
    (dat1 (F := Ideal) V c).flushed 5 t = ((cfg1.win 5).blk t).view.read (Elt Ideal)
      (Cert.Spec.mlp2 200000 64 128 128 (V c main_arg1) (V c main_v7) (V c main_arg8) (V c main_v8) (V c main_arg10)) := by
  show (cfg1.win 5).cut (grid1.coords t) ((dat1 V c).after 5 t) = _
  rw [after1_5, bodyOut, attrBlock V c t, weight1Block V c t, bias1Block V c t, weight2Block V c t, bias2Block V c t,
    Cert.Spec.mlp2_rowsBlock]
  obtain ⟨-, -, e0, e1, -⟩ := indexMaps t
  funext y
  rw [View.read_apply]
  show (Cert.Spec.mlp2 200000 64 128 128 (V c main_arg1) (V c main_v7) (V c main_arg8) (V c main_v8) (V c main_arg10)) _ = (Cert.Spec.mlp2 200000 64 128 128 (V c main_arg1) (V c main_v7) (V c main_arg8) (V c main_v8) (V c main_arg10)) _
  congr 1
  funext a
  apply Fin.ext
  match a with
  | ⟨0, _⟩ => show t.val * 5000 + (y 0).val = win1_5.index t (0 : Fin 2) * 5000 + 1 * (y 0).val; rw [e0]; omega
  | ⟨1, _⟩ => show (y 1).val = win1_5.index t (1 : Fin 2) * 128 + 1 * (y 1).val; rw [e1]; omega

/-- An index of the output array is in point t's block iff each coordinate is in the block's range on its axis. -/
private theorem mem_outBlock (t : Fin cfg1.N) (i : S200000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v9).slice (win1_5.rect t)).set ↔ _
  rw [View.set_slice_whole, Rect.mem_set_unit]
  exact Iff.rfl

/-- Row r of the output lies in the block of point ⌊r / 5000⌋, and every point writes back. -/
private theorem covered (i : S200000x128.Idx) :
    ∃ t : Fin cfg1.N, (cfg1.win 5).flush t = true ∧ i ∈ ((cfg1.win 5).blk t).view.set := by
  have hi0 : (i 0).val < 200000 := (i 0).isLt
  have hi1 : (i 1).val < 128 := (i 1).isLt
  obtain ⟨t, ht⟩ : ∃ t : Fin cfg1.N, t.val = (i 0).val / 5000 :=
    ⟨⟨(i 0).val / 5000, by rw [show cfg1.N = 40 from N_1]; omega⟩, rfl⟩
  obtain ⟨-, -, e0, e1, -⟩ := indexMaps t
  refine ⟨t, flush1_5 t, ?_⟩
  rw [mem_outBlock]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

theorem region1_value (c : Dev nD) :
    (dat1 (F := Ideal) V c).arrAt 5 cfg1.N
      = Cert.Spec.mlp2 200000 64 128 128 (V c main_arg1) (V c main_v7) (V c main_arg8) (V c main_v8) (V c main_arg10) := by
  exact (dat1 (F := Ideal) V c).arrAt_eq_of_cover 5
    (Cert.Spec.mlp2 200000 64 128 128 (V c main_arg1) (V c main_v7) (V c main_arg8) (V c main_v8) (V c main_arg10))
    (fun t _ => flushedBlock V c t) covered

end Cert.KernelIdeal.Hand

end
-- ==== Proof.ChainA1.lean ====
/-
  The contents of the kernel program's buffers after the two embeddings: the embedded node features, the embedded edge features, and the target and source ids, at the boundary where the first message-passing step begins.
-/
import proofs.«425812_j65979287601856_3_alg».proof.Proof.Gen.KernelIdeal.Frame
import proofs.«425812_j65979287601856_3_alg».proof.Proof.Net
import proofs.«425812_j65979287601856_3_alg».proof.Proof.Carry
import proofs.«425812_j65979287601856_3_alg».proof.Proof.ArgsKeep
import proofs.«425812_j65979287601856_3_alg».proof.Proof.Region0
import proofs.«425812_j65979287601856_3_alg».proof.Proof.Region1
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Cert.Spec

variable (m : (ℓ : Loc nD τ sig) → Buf (Elt Ideal) ℓ) (ρ : Dev nD → PrngReg)

/-! ## What the first host stretch writes -/

/-- The first host stretch writes the half-width copy of the node embedding's first weight matrix. -/
private theorem w1_v4 (c : Dev nD) :
    W1 (F := Ideal) m ρ c (Proc.devRef .tc main_v4) = (m ((c : Thread nD τ).loc main_arg3) : A2 128 128) := by
  show StableHlo.after hostOps0 _ (Proc.devRef .tc main_v4) = _
  simp only [hostOps0]
  after_results
  rfl

/-- The first host stretch writes the half-width copy of the node embedding's second weight matrix. -/
private theorem w1_v5 (c : Dev nD) :
    W1 (F := Ideal) m ρ c (Proc.devRef .tc main_v5) = (m ((c : Thread nD τ).loc main_arg5) : A2 128 128) := by
  show StableHlo.after hostOps0 _ (Proc.devRef .tc main_v5) = _
  simp only [hostOps0]
  after_results
  rfl

/-- The first host stretch writes the target ids: row 1 of the edge index, as a vector. -/
private theorem w1_v3 (c : Dev nD) : W1 (F := Ideal) m ρ c (Proc.devRef .tc main_v3) = tgt (argsOf m c) := by
  show StableHlo.after hostOps0 _ (Proc.devRef .tc main_v3) = _
  simp only [hostOps0]
  after_results
  rfl

/-- The first host stretch writes the source ids: row 0 of the edge index, as a vector. -/
private theorem w1_v1 (c : Dev nD) : W1 (F := Ideal) m ρ c (Proc.devRef .tc main_v1) = src (argsOf m c) := by
  show StableHlo.after hostOps0 _ (Proc.devRef .tc main_v1) = _
  simp only [hostOps0]
  after_results
  rfl

/-! ## The node embedding -/

/-- At the node embedding's exit its output holds the two-layer perceptron of the node features. -/
private theorem w2_v6 (c : Dev nD) : W2 (F := Ideal) m ρ c (Proc.devRef .tc main_v6) = nf0 (argsOf m c) := by
  refine (W2_arr m ρ c 5).trans ?_
  refine (region0_value (V1 m ρ) c).trans ?_
  rw [show V1 m ρ c main_v4 = _ from w1_v4 m ρ c, show V1 m ρ c main_v5 = _ from w1_v5 m ρ c,
    show V1 m ρ c main_arg0 = _ from args_W1 m ρ c main_arg0 (by decide),
    show V1 m ρ c main_arg4 = _ from args_W1 m ρ c main_arg4 (by decide),
    show V1 m ρ c main_arg6 = _ from args_W1 m ρ c main_arg6 (by decide)]
  rfl

/-! ## What the second host stretch writes -/

/-- The second host stretch writes the half-width copy of the edge embedding's first weight matrix. -/
private theorem w3_v7 (c : Dev nD) :
    W3 (F := Ideal) m ρ c (Proc.devRef .tc main_v7) = (m ((c : Thread nD τ).loc main_arg7) : A2 64 128) := by
  show StableHlo.after hostOps1 _ (Proc.devRef .tc main_v7) = _
  simp only [hostOps1]
  after_results
  rw [show W2 (F := Ideal) m ρ c (Proc.devRef .tc main_arg7) = _ from args_W2 m ρ c main_arg7 (by decide)]
  rfl

/-- The second host stretch writes the half-width copy of the edge embedding's second weight matrix. -/
private theorem w3_v8 (c : Dev nD) :
    W3 (F := Ideal) m ρ c (Proc.devRef .tc main_v8) = (m ((c : Thread nD τ).loc main_arg9) : A2 128 128) := by
  show StableHlo.after hostOps1 _ (Proc.devRef .tc main_v8) = _
  simp only [hostOps1]
  after_results
  rw [show W2 (F := Ideal) m ρ c (Proc.devRef .tc main_arg9) = _ from args_W2 m ρ c main_arg9 (by decide)]
  rfl

/-! ## The edge embedding -/

/-- At the edge embedding's exit its output holds the two-layer perceptron of the edge features. -/
private theorem w4_v9 (c : Dev nD) : W4 (F := Ideal) m ρ c (Proc.devRef .tc main_v9) = ef0 (argsOf m c) := by
  refine (W4_arr m ρ c 5).trans ?_
  refine (region1_value (V3 m ρ) c).trans ?_
  rw [show V3 m ρ c main_v7 = _ from w3_v7 m ρ c, show V3 m ρ c main_v8 = _ from w3_v8 m ρ c,
    show V3 m ρ c main_arg1 = _ from args_W3 m ρ c main_arg1 (by decide),
    show V3 m ρ c main_arg8 = _ from args_W3 m ρ c main_arg8 (by decide),
    show V3 m ρ c main_arg10 = _ from args_W3 m ρ c main_arg10 (by decide)]
  rfl

/-! ## The four facts at the boundary where message passing begins -/

/-- After the two embedding calls the node-embedding's output holds the embedded node features. -/
theorem w4_nf0 (c : Dev nD) : W4 (F := Ideal) m ρ c (Proc.devRef .tc main_v6) = nf0 (argsOf m c) :=
  calc W4 (F := Ideal) m ρ c (Proc.devRef .tc main_v6)
    _ = W3 m ρ c (Proc.devRef .tc main_v6) := by keep_reg W4_of_ne
    _ = W2 m ρ c (Proc.devRef .tc main_v6) := by keep_host
    _ = nf0 (argsOf m c) := w2_v6 m ρ c

/-- After the two embedding calls the edge-embedding's output holds the embedded edge features. -/
theorem w4_ef0 (c : Dev nD) : W4 (F := Ideal) m ρ c (Proc.devRef .tc main_v9) = ef0 (argsOf m c) :=
  w4_v9 m ρ c

/-- The target ids, sliced from the edge index before the first call. -/
theorem w4_tgt (c : Dev nD) : W4 (F := Ideal) m ρ c (Proc.devRef .tc main_v3) = tgt (argsOf m c) :=
  calc W4 (F := Ideal) m ρ c (Proc.devRef .tc main_v3)
    _ = W3 m ρ c (Proc.devRef .tc main_v3) := by keep_reg W4_of_ne
    _ = W2 m ρ c (Proc.devRef .tc main_v3) := by keep_host
    _ = W1 m ρ c (Proc.devRef .tc main_v3) := by keep_reg W2_of_ne
    _ = tgt (argsOf m c) := w1_v3 m ρ c

/-- The source ids, sliced from the edge index before the first call. -/
theorem w4_src (c : Dev nD) : W4 (F := Ideal) m ρ c (Proc.devRef .tc main_v1) = src (argsOf m c) :=
  calc W4 (F := Ideal) m ρ c (Proc.devRef .tc main_v1)
    _ = W3 m ρ c (Proc.devRef .tc main_v1) := by keep_reg W4_of_ne
    _ = W2 m ρ c (Proc.devRef .tc main_v1) := by keep_host
    _ = W1 m ρ c (Proc.devRef .tc main_v1) := by keep_reg W2_of_ne
    _ = src (argsOf m c) := w1_v1 m ρ c

end Cert.KernelIdeal.Hand

end
-- ==== Proof.ChainA2.lean ====
/-
  The first message-passing step's per-edge part: the joined features, the rows gathered at the targets and at the sources, and the call that computes the new edge features and the messages.
-/
import proofs.«425812_j65979287601856_3_alg».proof.Proof.Gen.KernelIdeal.Frame
import proofs.«425812_j65979287601856_3_alg».proof.Proof.Net
import proofs.«425812_j65979287601856_3_alg».proof.Proof.Carry
import proofs.«425812_j65979287601856_3_alg».proof.Proof.ArgsKeep
import proofs.«425812_j65979287601856_3_alg».proof.Proof.Region2
import proofs.«425812_j65979287601856_3_alg».proof.Proof.ChainA1
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Cert.Spec

variable (m : (ℓ : Loc nD τ sig) → Buf (Elt Ideal) ℓ) (ρ : Dev nD → PrngReg)

/-! ## The embedded features and the ids, carried to the call's entry -/

private theorem w5_v6 (c : Dev nD) : W5 (F := Ideal) m ρ c (Proc.devRef .tc main_v6) = nf0 (argsOf m c) :=
  calc W5 (F := Ideal) m ρ c (Proc.devRef .tc main_v6)
    _ = W4 m ρ c (Proc.devRef .tc main_v6) := by keep_host
    _ = nf0 (argsOf m c) := w4_nf0 m ρ c

private theorem w5_v9 (c : Dev nD) : W5 (F := Ideal) m ρ c (Proc.devRef .tc main_v9) = ef0 (argsOf m c) :=
  calc W5 (F := Ideal) m ρ c (Proc.devRef .tc main_v9)
    _ = W4 m ρ c (Proc.devRef .tc main_v9) := by keep_host
    _ = ef0 (argsOf m c) := w4_ef0 m ρ c

private theorem w5_v3 (c : Dev nD) : W5 (F := Ideal) m ρ c (Proc.devRef .tc main_v3) = tgt (argsOf m c) :=
  calc W5 (F := Ideal) m ρ c (Proc.devRef .tc main_v3)
    _ = W4 m ρ c (Proc.devRef .tc main_v3) := by keep_host
    _ = tgt (argsOf m c) := w4_tgt m ρ c

private theorem w5_v1 (c : Dev nD) : W5 (F := Ideal) m ρ c (Proc.devRef .tc main_v1) = src (argsOf m c) :=
  calc W5 (F := Ideal) m ρ c (Proc.devRef .tc main_v1)
    _ = W4 m ρ c (Proc.devRef .tc main_v1) := by keep_host
    _ = src (argsOf m c) := w4_src m ρ c

/-! ## The joined features -/

/-- The embedded node features joined with themselves. -/
private theorem w5_v10 (c : Dev nD) :
    W5 (F := Ideal) m ρ c (Proc.devRef .tc main_v10) = catN (nf0 (argsOf m c)) (nf0 (argsOf m c)) := by
  show StableHlo.after hostOps2 _ (Proc.devRef .tc main_v10) = _
  simp only [hostOps2]
  after_results
  rw [show W4 (F := Ideal) m ρ c (Proc.devRef .tc main_v6) = _ from w4_nf0 m ρ c]
  rfl

/-- The embedded edge features joined with themselves. -/
private theorem w5_v11 (c : Dev nD) :
    W5 (F := Ideal) m ρ c (Proc.devRef .tc main_v11) = catE (ef0 (argsOf m c)) (ef0 (argsOf m c)) := by
  show StableHlo.after hostOps2 _ (Proc.devRef .tc main_v11) = _
  simp only [hostOps2]
  after_results
  rw [show W4 (F := Ideal) m ρ c (Proc.devRef .tc main_v9) = _ from w4_ef0 m ρ c]
  rfl

/-! ## Contents at a reference's own type

A value of a module-local function is read and written at its buffer's type through a transport along the equation
between that type and the value's; the two types are one, so the transport changes nothing. -/

/-- Contents carried to a reference's own type and back are unchanged. -/
private theorem ofBuf_toBuf_id {T : BufTy} (x : StableHlo.TRef sig T) (v : T.Contents (Elt Ideal)) :
    x.ofBuf (x.toBuf v) = v := by
  show cast _ (cast _ v) = v
  rw [cast_cast, cast_eq]

private theorem ofBuf_v3 (p1 p2 p3) (v : (main_v3 : Ref sig .tc).ty.Contents (Elt Ideal)) :
    (StableHlo.TRef.of main_v3 p1 p2 p3 : StableHlo.TRef sig ⟨S200000, .i32⟩).ofBuf v = v := rfl

private theorem ofBuf_v1 (p1 p2 p3) (v : (main_v1 : Ref sig .tc).ty.Contents (Elt Ideal)) :
    (StableHlo.TRef.of main_v1 p1 p2 p3 : StableHlo.TRef sig ⟨S200000, .i32⟩).ofBuf v = v := rfl

private theorem ofBuf_v10 (p1 p2 p3) (v : (main_v10 : Ref sig .tc).ty.Contents (Elt Ideal)) :
    (StableHlo.TRef.of main_v10 p1 p2 p3 : StableHlo.TRef sig ⟨S10000x256, .f32⟩).ofBuf v = v := rfl

private theorem toBuf_v12 (p1 p2 p3) (v : (⟨S200000x256, .f32⟩ : BufTy).Contents (Elt Ideal)) :
    (StableHlo.TRef.of main_v12 p1 p2 p3 : StableHlo.TRef sig ⟨S200000x256, .f32⟩).toBuf v = v := rfl

private theorem toBuf_v13 (p1 p2 p3) (v : (⟨S200000x256, .f32⟩ : BufTy).Contents (Elt Ideal)) :
    (StableHlo.TRef.of main_v13 p1 p2 p3 : StableHlo.TRef sig ⟨S200000x256, .f32⟩).toBuf v = v := rfl

/-! ## The rows gathered at the targets -/

/-- The joined node rows at the target ids. -/
private theorem w6_v12 (c : Dev nD) :
    W6 (F := Ideal) m ρ c (Proc.devRef .tc main_v12)
      = takeRows (catN (nf0 (argsOf m c)) (nf0 (argsOf m c))) (tgt (argsOf m c)) := by
  show StableHlo.after hostOps2_1 _ (Proc.devRef .tc main_v12) = _
  simp only [hostOps2_1]
  after_results_simp
  rw [show W4 (F := Ideal) m ρ c (Proc.devRef .tc main_v6) = _ from w4_nf0 m ρ c,
    show W4 (F := Ideal) m ρ c (Proc.devRef .tc main_v3) = _ from w4_tgt m ρ c]
  simp only [ofBuf_toBuf_id, ofBuf_v3, ofBuf_v10, toBuf_v12]
  rfl

private theorem w6_v10 (c : Dev nD) :
    W6 (F := Ideal) m ρ c (Proc.devRef .tc main_v10) = catN (nf0 (argsOf m c)) (nf0 (argsOf m c)) :=
  calc W6 (F := Ideal) m ρ c (Proc.devRef .tc main_v10)
    _ = W5 m ρ c (Proc.devRef .tc main_v10) := by keep_host
    _ = _ := w5_v10 m ρ c

private theorem w6_v1 (c : Dev nD) : W6 (F := Ideal) m ρ c (Proc.devRef .tc main_v1) = src (argsOf m c) :=
  calc W6 (F := Ideal) m ρ c (Proc.devRef .tc main_v1)
    _ = W5 m ρ c (Proc.devRef .tc main_v1) := by keep_host
    _ = _ := w5_v1 m ρ c

/-! ## The rows gathered at the sources -/

/-- The joined node rows at the source ids. -/
private theorem w7_v13 (c : Dev nD) :
    W7 (F := Ideal) m ρ c (Proc.devRef .tc main_v13)
      = takeRows (catN (nf0 (argsOf m c)) (nf0 (argsOf m c))) (src (argsOf m c)) := by
  show StableHlo.after hostOps2_2 _ (Proc.devRef .tc main_v13) = _
  simp only [hostOps2_2]
  after_results_simp
  rw [show W4 (F := Ideal) m ρ c (Proc.devRef .tc main_v6) = _ from w4_nf0 m ρ c,
    show W4 (F := Ideal) m ρ c (Proc.devRef .tc main_v1) = _ from w4_src m ρ c]
  simp only [ofBuf_toBuf_id, ofBuf_v1, ofBuf_v10, toBuf_v13]
  rfl

/-! ## The call's operands at its entry -/

private theorem w8_v12 (c : Dev nD) :
    W8 (F := Ideal) m ρ c (Proc.devRef .tc main_v12)
      = takeRows (catN (nf0 (argsOf m c)) (nf0 (argsOf m c))) (tgt (argsOf m c)) :=
  calc W8 (F := Ideal) m ρ c (Proc.devRef .tc main_v12)
    _ = W7 m ρ c (Proc.devRef .tc main_v12) := by keep_host
    _ = W6 m ρ c (Proc.devRef .tc main_v12) := by keep_host
    _ = _ := w6_v12 m ρ c

private theorem w8_v13 (c : Dev nD) :
    W8 (F := Ideal) m ρ c (Proc.devRef .tc main_v13)
      = takeRows (catN (nf0 (argsOf m c)) (nf0 (argsOf m c))) (src (argsOf m c)) :=
  calc W8 (F := Ideal) m ρ c (Proc.devRef .tc main_v13)
    _ = W7 m ρ c (Proc.devRef .tc main_v13) := by keep_host
    _ = _ := w7_v13 m ρ c

private theorem w8_v11 (c : Dev nD) :
    W8 (F := Ideal) m ρ c (Proc.devRef .tc main_v11) = catE (ef0 (argsOf m c)) (ef0 (argsOf m c)) :=
  calc W8 (F := Ideal) m ρ c (Proc.devRef .tc main_v11)
    _ = W7 m ρ c (Proc.devRef .tc main_v11) := by keep_host
    _ = W6 m ρ c (Proc.devRef .tc main_v11) := by keep_host
    _ = W5 m ρ c (Proc.devRef .tc main_v11) := by keep_host
    _ = _ := w5_v11 m ρ c

/-- The first edge layer's weights: a change of format, the identity on extended reals. -/
private theorem w8_v14 (c : Dev nD) :
    W8 (F := Ideal) m ρ c (Proc.devRef .tc main_v14) = ((argsOf m c).We1 : A2 768 512) := by
  show StableHlo.after hostOps2_3 _ (Proc.devRef .tc main_v14) = _
  simp only [hostOps2_3]
  after_results
  rw [show W4 (F := Ideal) m ρ c (Proc.devRef .tc main_arg11) = _ from args_W4 m ρ c main_arg11 (by decide)]
  rfl

/-- The second edge layer's weights. -/
private theorem w8_v15 (c : Dev nD) :
    W8 (F := Ideal) m ρ c (Proc.devRef .tc main_v15) = ((argsOf m c).We2 : A2 512 128) := by
  show StableHlo.after hostOps2_3 _ (Proc.devRef .tc main_v15) = _
  simp only [hostOps2_3]
  after_results
  rw [show W4 (F := Ideal) m ρ c (Proc.devRef .tc main_arg13) = _ from args_W4 m ρ c main_arg13 (by decide)]
  rfl

/-- The message layer's weights. -/
private theorem w8_v16 (c : Dev nD) :
    W8 (F := Ideal) m ρ c (Proc.devRef .tc main_v16) = ((argsOf m c).Wn1 : A2 384 128) := by
  show StableHlo.after hostOps2_3 _ (Proc.devRef .tc main_v16) = _
  simp only [hostOps2_3]
  after_results
  rw [show W4 (F := Ideal) m ρ c (Proc.devRef .tc main_arg15) = _ from args_W4 m ρ c main_arg15 (by decide)]
  rfl

/-! ## The call's two outputs -/

/-- The first step's new edge features. -/
theorem w9_e1 (c : Dev nD) : W9 (F := Ideal) m ρ c (Proc.devRef .tc main_v17_0) = e1 takeRows (argsOf m c) := by
  refine (W9_arr m ρ c 9).trans ?_
  refine (region2_edge (V8 m ρ) c).trans ?_
  rw [show V8 m ρ c main_v12 = _ from w8_v12 m ρ c, show V8 m ρ c main_v13 = _ from w8_v13 m ρ c,
    show V8 m ρ c main_v11 = _ from w8_v11 m ρ c, show V8 m ρ c main_v14 = _ from w8_v14 m ρ c,
    show V8 m ρ c main_v15 = _ from w8_v15 m ρ c,
    show V8 m ρ c main_arg12 = _ from args_W8 m ρ c main_arg12 (by decide),
    show V8 m ρ c main_arg14 = _ from args_W8 m ρ c main_arg14 (by decide)]
  rfl

/-- The first step's messages. -/
theorem w9_m1 (c : Dev nD) : W9 (F := Ideal) m ρ c (Proc.devRef .tc main_v17_1) = stepM takeRows (argsOf m c) (nf0 (argsOf m c)) (ef0 (argsOf m c)) := by
  refine (W9_arr m ρ c 10).trans ?_
  refine (region2_message (V8 m ρ) c).trans ?_
  rw [show V8 m ρ c main_v12 = _ from w8_v12 m ρ c, show V8 m ρ c main_v13 = _ from w8_v13 m ρ c,
    show V8 m ρ c main_v11 = _ from w8_v11 m ρ c, show V8 m ρ c main_v14 = _ from w8_v14 m ρ c,
    show V8 m ρ c main_v15 = _ from w8_v15 m ρ c, show V8 m ρ c main_v16 = _ from w8_v16 m ρ c,
    show V8 m ρ c main_arg12 = _ from args_W8 m ρ c main_arg12 (by decide),
    show V8 m ρ c main_arg14 = _ from args_W8 m ρ c main_arg14 (by decide),
    show V8 m ρ c main_arg16 = _ from args_W8 m ρ c main_arg16 (by decide)]
  rfl

theorem w9_nf0 (c : Dev nD) : W9 (F := Ideal) m ρ c (Proc.devRef .tc main_v6) = nf0 (argsOf m c) :=
  calc W9 (F := Ideal) m ρ c (Proc.devRef .tc main_v6)
    _ = W8 m ρ c (Proc.devRef .tc main_v6) := by keep_reg W9_of_ne
    _ = W7 m ρ c (Proc.devRef .tc main_v6) := by keep_host
    _ = W6 m ρ c (Proc.devRef .tc main_v6) := by keep_host
    _ = W5 m ρ c (Proc.devRef .tc main_v6) := by keep_host
    _ = nf0 (argsOf m c) := w5_v6 m ρ c

theorem w9_ef0 (c : Dev nD) : W9 (F := Ideal) m ρ c (Proc.devRef .tc main_v9) = ef0 (argsOf m c) :=
  calc W9 (F := Ideal) m ρ c (Proc.devRef .tc main_v9)
    _ = W8 m ρ c (Proc.devRef .tc main_v9) := by keep_reg W9_of_ne
    _ = W7 m ρ c (Proc.devRef .tc main_v9) := by keep_host
    _ = W6 m ρ c (Proc.devRef .tc main_v9) := by keep_host
    _ = W5 m ρ c (Proc.devRef .tc main_v9) := by keep_host
    _ = ef0 (argsOf m c) := w5_v9 m ρ c

theorem w9_tgt (c : Dev nD) : W9 (F := Ideal) m ρ c (Proc.devRef .tc main_v3) = tgt (argsOf m c) :=
  calc W9 (F := Ideal) m ρ c (Proc.devRef .tc main_v3)
    _ = W8 m ρ c (Proc.devRef .tc main_v3) := by keep_reg W9_of_ne
    _ = W7 m ρ c (Proc.devRef .tc main_v3) := by keep_host
    _ = W6 m ρ c (Proc.devRef .tc main_v3) := by keep_host
    _ = W5 m ρ c (Proc.devRef .tc main_v3) := by keep_host
    _ = tgt (argsOf m c) := w5_v3 m ρ c

theorem w9_src (c : Dev nD) : W9 (F := Ideal) m ρ c (Proc.devRef .tc main_v1) = src (argsOf m c) :=
  calc W9 (F := Ideal) m ρ c (Proc.devRef .tc main_v1)
    _ = W8 m ρ c (Proc.devRef .tc main_v1) := by keep_reg W9_of_ne
    _ = W7 m ρ c (Proc.devRef .tc main_v1) := by keep_host
    _ = W6 m ρ c (Proc.devRef .tc main_v1) := by keep_host
    _ = W5 m ρ c (Proc.devRef .tc main_v1) := by keep_host
    _ = src (argsOf m c) := w5_v1 m ρ c

end Cert.KernelIdeal.Hand

end
-- ==== Proof.ChainB.lean ====
/-
  The first node update: the messages added into their target rows from zero, then the update call.
-/
import proofs.«425812_j65979287601856_3_alg».proof.Proof.Gen.KernelIdeal.Frame
import proofs.«425812_j65979287601856_3_alg».proof.Proof.Net
import proofs.«425812_j65979287601856_3_alg».proof.Proof.Carry
import proofs.«425812_j65979287601856_3_alg».proof.Proof.ArgsKeep
import proofs.«425812_j65979287601856_3_alg».proof.Proof.Region3
import proofs.«425812_j65979287601856_3_alg».proof.Proof.ChainA2
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Cert.Spec

variable (m : (ℓ : Loc nD τ sig) → Buf (Elt Ideal) ℓ) (ρ : Dev nD → PrngReg)

/-- The messages added into their target rows from zero: the scatter-add of the host stretch before the update call,
    on a zero table, at the target ids as one column, with the first step's messages. -/
private theorem w10_v20 (c : Dev nD) : W10 (F := Ideal) m ρ c (Proc.devRef .tc main_v20) =
    aggregate (tgt (argsOf m c)) (stepM takeRows (argsOf m c) (nf0 (argsOf m c)) (ef0 (argsOf m c))) := by
  show StableHlo.after hostOps3 _ (Proc.devRef .tc main_v20) = _
  simp only [hostOps3]
  after_results
  rw [show W9 (F := Ideal) m ρ c (Proc.devRef .tc main_v3) = _ from w9_tgt m ρ c,
    show W9 (F := Ideal) m ρ c (Proc.devRef .tc main_v17_1) = _ from w9_m1 m ρ c]
  rfl

/-- The update weights: a copy of the argument (a format change is the identity on extended reals). -/
private theorem w10_v21 (c : Dev nD) : W10 (F := Ideal) m ρ c (Proc.devRef .tc main_v21) = (argsOf m c).Wu := by
  show StableHlo.after hostOps3 _ (Proc.devRef .tc main_v21) = _
  simp only [hostOps3]
  after_results
  rw [show W9 (F := Ideal) m ρ c (Proc.devRef .tc main_arg17) = _ from args_W9 m ρ c main_arg17 (by decide)]
  rfl

/-- The update bias at the update call's entry: the argument as launched. -/
private theorem w10_arg18 (c : Dev nD) : W10 (F := Ideal) m ρ c (Proc.devRef .tc main_arg18) = (argsOf m c).bu :=
  args_W10 m ρ c main_arg18 (by decide)

/-- The node features after the first step. -/
theorem w11_n1 (c : Dev nD) : W11 (F := Ideal) m ρ c (Proc.devRef .tc main_v22) = n1 takeRows (argsOf m c) := by
  refine (W11_arr m ρ c 3).trans ?_
  refine (region3_value (V10 m ρ) c).trans ?_
  rw [show V10 m ρ c main_v20 = _ from w10_v20 m ρ c, show V10 m ρ c main_v21 = _ from w10_v21 m ρ c,
    show V10 m ρ c main_arg18 = _ from w10_arg18 m ρ c]
  rfl

/-- The first step's edge features, carried over the host stretch and the update call. -/
theorem w11_e1 (c : Dev nD) : W11 (F := Ideal) m ρ c (Proc.devRef .tc main_v17_0) = e1 takeRows (argsOf m c) :=
  calc W11 (F := Ideal) m ρ c (Proc.devRef .tc main_v17_0)
    _ = W10 m ρ c (Proc.devRef .tc main_v17_0) := by keep_reg W11_of_ne
    _ = W9 m ρ c (Proc.devRef .tc main_v17_0) := by keep_host
    _ = e1 takeRows (argsOf m c) := w9_e1 m ρ c

/-- The embedded node features, carried. -/
theorem w11_nf0 (c : Dev nD) : W11 (F := Ideal) m ρ c (Proc.devRef .tc main_v6) = nf0 (argsOf m c) :=
  calc W11 (F := Ideal) m ρ c (Proc.devRef .tc main_v6)
    _ = W10 m ρ c (Proc.devRef .tc main_v6) := by keep_reg W11_of_ne
    _ = W9 m ρ c (Proc.devRef .tc main_v6) := by keep_host
    _ = nf0 (argsOf m c) := w9_nf0 m ρ c

/-- The embedded edge features, carried. -/
theorem w11_ef0 (c : Dev nD) : W11 (F := Ideal) m ρ c (Proc.devRef .tc main_v9) = ef0 (argsOf m c) :=
  calc W11 (F := Ideal) m ρ c (Proc.devRef .tc main_v9)
    _ = W10 m ρ c (Proc.devRef .tc main_v9) := by keep_reg W11_of_ne
    _ = W9 m ρ c (Proc.devRef .tc main_v9) := by keep_host
    _ = ef0 (argsOf m c) := w9_ef0 m ρ c

/-- The target ids, carried. -/
theorem w11_tgt (c : Dev nD) : W11 (F := Ideal) m ρ c (Proc.devRef .tc main_v3) = tgt (argsOf m c) :=
  calc W11 (F := Ideal) m ρ c (Proc.devRef .tc main_v3)
    _ = W10 m ρ c (Proc.devRef .tc main_v3) := by keep_reg W11_of_ne
    _ = W9 m ρ c (Proc.devRef .tc main_v3) := by keep_host
    _ = tgt (argsOf m c) := w9_tgt m ρ c

/-- The source ids, carried. -/
theorem w11_src (c : Dev nD) : W11 (F := Ideal) m ρ c (Proc.devRef .tc main_v1) = src (argsOf m c) :=
  calc W11 (F := Ideal) m ρ c (Proc.devRef .tc main_v1)
    _ = W10 m ρ c (Proc.devRef .tc main_v1) := by keep_reg W11_of_ne
    _ = W9 m ρ c (Proc.devRef .tc main_v1) := by keep_host
    _ = src (argsOf m c) := w9_src m ρ c

end Cert.KernelIdeal.Hand

end
-- ==== Proof.ChainC.lean ====
/-
  The second message-passing step's per-edge part, from the first step's node and edge features.
-/
import proofs.«425812_j65979287601856_3_alg».proof.Proof.Gen.KernelIdeal.Frame
import proofs.«425812_j65979287601856_3_alg».proof.Proof.Net
import proofs.«425812_j65979287601856_3_alg».proof.Proof.Carry
import proofs.«425812_j65979287601856_3_alg».proof.Proof.ArgsKeep
import proofs.«425812_j65979287601856_3_alg».proof.Proof.Region4
import proofs.«425812_j65979287601856_3_alg».proof.Proof.ChainB
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Cert.Spec

variable (m : (ℓ : Loc nD τ sig) → Buf (Elt Ideal) ℓ) (ρ : Dev nD → PrngReg)

/-- The node table the second step gathers from: the embedded node features joined with the first step's. -/
private theorem w12_v23 (c : Dev nD) :
    W12 (F := Ideal) m ρ c (Proc.devRef .tc main_v23) = catN (nf0 (argsOf m c)) (n1 takeRows (argsOf m c)) := by
  show StableHlo.after hostOps4 _ (Proc.devRef .tc main_v23) = _
  simp only [hostOps4]
  after_results
  rw [show W11 (F := Ideal) m ρ c (Proc.devRef .tc main_v6) = _ from w11_nf0 m ρ c,
    show W11 (F := Ideal) m ρ c (Proc.devRef .tc main_v22) = _ from w11_n1 m ρ c]
  rfl

/-- The edge features the second step reads: the embedded edge features joined with the first step's. -/
private theorem w12_v24 (c : Dev nD) :
    W12 (F := Ideal) m ρ c (Proc.devRef .tc main_v24) = catE (ef0 (argsOf m c)) (e1 takeRows (argsOf m c)) := by
  show StableHlo.after hostOps4 _ (Proc.devRef .tc main_v24) = _
  simp only [hostOps4]
  after_results
  rw [show W11 (F := Ideal) m ρ c (Proc.devRef .tc main_v9) = _ from w11_ef0 m ρ c,
    show W11 (F := Ideal) m ρ c (Proc.devRef .tc main_v17_0) = _ from w11_e1 m ρ c]
  rfl

/-- The joined node rows gathered at the targets: the wrapped ids, the range test, the gather and the fill are the
    gathering function's own operations, read at the joined table and the target ids. -/
private theorem w13_v25 (c : Dev nD) :
    W13 (F := Ideal) m ρ c (Proc.devRef .tc main_v25)
      = takeRows (catN (nf0 (argsOf m c)) (n1 takeRows (argsOf m c))) (tgt (argsOf m c)) := by
  show StableHlo.after hostOps4_1 _ (Proc.devRef .tc main_v25) = _
  simp only [hostOps4_1]
  after_results_simp
  rw [show W11 (F := Ideal) m ρ c (Proc.devRef .tc main_v3) = _ from w11_tgt m ρ c,
    show W11 (F := Ideal) m ρ c (Proc.devRef .tc main_v6) = _ from w11_nf0 m ρ c,
    show W11 (F := Ideal) m ρ c (Proc.devRef .tc main_v22) = _ from w11_n1 m ρ c]
  simp only [TRef.ofBuf, TRef.toBuf, cast_eq]
  rfl

/-- The joined node rows gathered at the sources. -/
private theorem w14_v26 (c : Dev nD) :
    W14 (F := Ideal) m ρ c (Proc.devRef .tc main_v26)
      = takeRows (catN (nf0 (argsOf m c)) (n1 takeRows (argsOf m c))) (src (argsOf m c)) := by
  show StableHlo.after hostOps4_2 _ (Proc.devRef .tc main_v26) = _
  simp only [hostOps4_2]
  after_results_simp
  rw [show W11 (F := Ideal) m ρ c (Proc.devRef .tc main_v1) = _ from w11_src m ρ c,
    show W11 (F := Ideal) m ρ c (Proc.devRef .tc main_v6) = _ from w11_nf0 m ρ c,
    show W11 (F := Ideal) m ρ c (Proc.devRef .tc main_v22) = _ from w11_n1 m ρ c]
  simp only [TRef.ofBuf, TRef.toBuf, cast_eq]
  rfl

/-- The rows gathered at the targets are carried to the call's entry. -/
private theorem w15_v25 (c : Dev nD) :
    W15 (F := Ideal) m ρ c (Proc.devRef .tc main_v25)
      = takeRows (catN (nf0 (argsOf m c)) (n1 takeRows (argsOf m c))) (tgt (argsOf m c)) :=
  calc W15 (F := Ideal) m ρ c (Proc.devRef .tc main_v25)
    _ = W14 m ρ c (Proc.devRef .tc main_v25) := by keep_host
    _ = W13 m ρ c (Proc.devRef .tc main_v25) := by keep_host
    _ = _ := w13_v25 m ρ c

/-- The rows gathered at the sources are carried to the call's entry. -/
private theorem w15_v26 (c : Dev nD) :
    W15 (F := Ideal) m ρ c (Proc.devRef .tc main_v26)
      = takeRows (catN (nf0 (argsOf m c)) (n1 takeRows (argsOf m c))) (src (argsOf m c)) :=
  calc W15 (F := Ideal) m ρ c (Proc.devRef .tc main_v26)
    _ = W14 m ρ c (Proc.devRef .tc main_v26) := by keep_host
    _ = _ := w14_v26 m ρ c

/-- The joined edge features are carried to the call's entry. -/
private theorem w15_v24 (c : Dev nD) :
    W15 (F := Ideal) m ρ c (Proc.devRef .tc main_v24) = catE (ef0 (argsOf m c)) (e1 takeRows (argsOf m c)) :=
  calc W15 (F := Ideal) m ρ c (Proc.devRef .tc main_v24)
    _ = W14 m ρ c (Proc.devRef .tc main_v24) := by keep_host
    _ = W13 m ρ c (Proc.devRef .tc main_v24) := by keep_host
    _ = W12 m ρ c (Proc.devRef .tc main_v24) := by keep_host
    _ = _ := w12_v24 m ρ c

/-- The first edge layer's weights: a change of format only, the identity on extended reals. -/
private theorem w15_v27 (c : Dev nD) :
    (W15 (F := Ideal) m ρ c (Proc.devRef .tc main_v27) : A2 768 512) = (argsOf m c).We1 := by
  show StableHlo.after hostOps4_3 _ (Proc.devRef .tc main_v27) = _
  simp only [hostOps4_3]
  after_results
  rw [show W11 (F := Ideal) m ρ c (Proc.devRef .tc main_arg11) = _ from args_W11 m ρ c main_arg11 (by decide)]
  rfl

/-- The second edge layer's weights. -/
private theorem w15_v28 (c : Dev nD) :
    (W15 (F := Ideal) m ρ c (Proc.devRef .tc main_v28) : A2 512 128) = (argsOf m c).We2 := by
  show StableHlo.after hostOps4_3 _ (Proc.devRef .tc main_v28) = _
  simp only [hostOps4_3]
  after_results
  rw [show W11 (F := Ideal) m ρ c (Proc.devRef .tc main_arg13) = _ from args_W11 m ρ c main_arg13 (by decide)]
  rfl

/-- The message layer's weights. -/
private theorem w15_v29 (c : Dev nD) :
    (W15 (F := Ideal) m ρ c (Proc.devRef .tc main_v29) : A2 384 128) = (argsOf m c).Wn1 := by
  show StableHlo.after hostOps4_3 _ (Proc.devRef .tc main_v29) = _
  simp only [hostOps4_3]
  after_results
  rw [show W11 (F := Ideal) m ρ c (Proc.devRef .tc main_arg15) = _ from args_W11 m ρ c main_arg15 (by decide)]
  rfl

/-- The three biases at the call's entry are the launch's. -/
private theorem w15_arg12 (c : Dev nD) : (W15 (F := Ideal) m ρ c (Proc.devRef .tc main_arg12) : A1 512) = (argsOf m c).be1 :=
  args_W15 m ρ c main_arg12 (by decide)
private theorem w15_arg14 (c : Dev nD) : (W15 (F := Ideal) m ρ c (Proc.devRef .tc main_arg14) : A1 128) = (argsOf m c).be2 :=
  args_W15 m ρ c main_arg14 (by decide)
private theorem w15_arg16 (c : Dev nD) : (W15 (F := Ideal) m ρ c (Proc.devRef .tc main_arg16) : A1 128) = (argsOf m c).bn1 :=
  args_W15 m ρ c main_arg16 (by decide)

/-- The second step's new edge features. -/
theorem w16_e2 (c : Dev nD) : W16 (F := Ideal) m ρ c (Proc.devRef .tc main_v30_0) = e2 takeRows (argsOf m c) := by
  refine (W16_arr m ρ c 9).trans ?_
  refine (region4_edge (V15 m ρ) c).trans ?_
  rw [show V15 m ρ c main_v25 = _ from w15_v25 m ρ c, show V15 m ρ c main_v26 = _ from w15_v26 m ρ c,
    show V15 m ρ c main_v24 = _ from w15_v24 m ρ c, show V15 m ρ c main_v27 = _ from w15_v27 m ρ c,
    show V15 m ρ c main_v28 = _ from w15_v28 m ρ c, show V15 m ρ c main_arg12 = _ from w15_arg12 m ρ c,
    show V15 m ρ c main_arg14 = _ from w15_arg14 m ρ c]
  rfl

/-- The second step's messages. -/
theorem w16_m2 (c : Dev nD) : W16 (F := Ideal) m ρ c (Proc.devRef .tc main_v30_1) = stepM takeRows (argsOf m c) (n1 takeRows (argsOf m c)) (e1 takeRows (argsOf m c)) := by
  refine (W16_arr m ρ c 10).trans ?_
  refine (region4_message (V15 m ρ) c).trans ?_
  rw [show V15 m ρ c main_v25 = _ from w15_v25 m ρ c, show V15 m ρ c main_v26 = _ from w15_v26 m ρ c,
    show V15 m ρ c main_v24 = _ from w15_v24 m ρ c, show V15 m ρ c main_v27 = _ from w15_v27 m ρ c,
    show V15 m ρ c main_v28 = _ from w15_v28 m ρ c, show V15 m ρ c main_arg12 = _ from w15_arg12 m ρ c,
    show V15 m ρ c main_arg14 = _ from w15_arg14 m ρ c, show V15 m ρ c main_v29 = _ from w15_v29 m ρ c,
    show V15 m ρ c main_arg16 = _ from w15_arg16 m ρ c]
  rfl

theorem w16_tgt (c : Dev nD) : W16 (F := Ideal) m ρ c (Proc.devRef .tc main_v3) = tgt (argsOf m c) :=
  calc W16 (F := Ideal) m ρ c (Proc.devRef .tc main_v3)
    _ = W15 m ρ c (Proc.devRef .tc main_v3) := by keep_reg W16_of_ne
    _ = W14 m ρ c (Proc.devRef .tc main_v3) := by keep_host
    _ = W13 m ρ c (Proc.devRef .tc main_v3) := by keep_host
    _ = W12 m ρ c (Proc.devRef .tc main_v3) := by keep_host
    _ = W11 m ρ c (Proc.devRef .tc main_v3) := by keep_host
    _ = tgt (argsOf m c) := w11_tgt m ρ c

end Cert.KernelIdeal.Hand

end
-- ==== Proof.ChainD.lean ====
/-
  The second node update, the two scoring heads and the final reshapes: the two result buffers at @main's end hold the network's edge scores and node scores over the kernel's gather.
-/
import proofs.«425812_j65979287601856_3_alg».proof.Proof.Gen.KernelIdeal.Frame
import proofs.«425812_j65979287601856_3_alg».proof.Proof.Net
import proofs.«425812_j65979287601856_3_alg».proof.Proof.Carry
import proofs.«425812_j65979287601856_3_alg».proof.Proof.ArgsKeep
import proofs.«425812_j65979287601856_3_alg».proof.Proof.Region5
import proofs.«425812_j65979287601856_3_alg».proof.Proof.Region6
import proofs.«425812_j65979287601856_3_alg».proof.Proof.Region7
import proofs.«425812_j65979287601856_3_alg».proof.Proof.ChainC
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Cert.Spec

variable (m : (ℓ : Loc nD τ sig) → Buf (Elt Ideal) ℓ) (ρ : Dev nD → PrngReg)

/-- Before the second node update: the second step's messages added into their target nodes' rows. -/
private theorem w17_v33 (c : Dev nD) : W17 (F := Ideal) m ρ c (Proc.devRef .tc main_v33) =
    aggregate (tgt (argsOf m c)) (stepM takeRows (argsOf m c) (n1 takeRows (argsOf m c)) (e1 takeRows (argsOf m c))) := by
  show StableHlo.after hostOps5 _ (Proc.devRef .tc main_v33) = _
  simp only [hostOps5]
  after_results
  rw [show W16 (F := Ideal) m ρ c (Proc.devRef .tc main_v3) = _ from w16_tgt m ρ c,
    show W16 (F := Ideal) m ρ c (Proc.devRef .tc main_v30_1) = _ from w16_m2 m ρ c]
  rfl

/-- The node update's weight, copied to the narrower format (the identity on extended reals). -/
private theorem w17_v34 (c : Dev nD) : W17 (F := Ideal) m ρ c (Proc.devRef .tc main_v34) = (argsOf m c).Wu := by
  show StableHlo.after hostOps5 _ (Proc.devRef .tc main_v34) = _
  simp only [hostOps5]
  after_results
  rw [show W16 (F := Ideal) m ρ c (Proc.devRef .tc main_arg17) = _ from args_W16 m ρ c main_arg17 (by decide)]
  rfl

private theorem w17_bu (c : Dev nD) : W17 (F := Ideal) m ρ c (Proc.devRef .tc main_arg18) = (argsOf m c).bu :=
  args_W17 m ρ c main_arg18 (by decide)

/-- The node features after the second step. -/
theorem w18_n2 (c : Dev nD) : W18 (F := Ideal) m ρ c (Proc.devRef .tc main_v35) = n2 takeRows (argsOf m c) := by
  refine (W18_arr m ρ c 3).trans ?_
  refine (region5_value (V17 m ρ) c).trans ?_
  rw [show V17 m ρ c main_v33 = _ from w17_v33 m ρ c, show V17 m ρ c main_v34 = _ from w17_v34 m ρ c,
    show V17 m ρ c main_arg18 = _ from w17_bu m ρ c]
  rfl

theorem w18_e2 (c : Dev nD) : W18 (F := Ideal) m ρ c (Proc.devRef .tc main_v30_0) = e2 takeRows (argsOf m c) :=
  calc W18 (F := Ideal) m ρ c (Proc.devRef .tc main_v30_0)
    _ = W17 m ρ c (Proc.devRef .tc main_v30_0) := by keep_reg W18_of_ne
    _ = W16 m ρ c (Proc.devRef .tc main_v30_0) := by keep_host
    _ = e2 takeRows (argsOf m c) := w16_e2 m ρ c

/-! The node scoring head's operands at its entry. -/

private theorem w19_v35 (c : Dev nD) : W19 (F := Ideal) m ρ c (Proc.devRef .tc main_v35) = n2 takeRows (argsOf m c) :=
  calc W19 (F := Ideal) m ρ c (Proc.devRef .tc main_v35)
    _ = W18 m ρ c (Proc.devRef .tc main_v35) := by keep_host
    _ = n2 takeRows (argsOf m c) := w18_n2 m ρ c

private theorem w19_v36 (c : Dev nD) : W19 (F := Ideal) m ρ c (Proc.devRef .tc main_v36) = (argsOf m c).Wnc1 := by
  show StableHlo.after hostOps6 _ (Proc.devRef .tc main_v36) = _
  simp only [hostOps6]
  after_results
  rw [show W18 (F := Ideal) m ρ c (Proc.devRef .tc main_arg19) = _ from args_W18 m ρ c main_arg19 (by decide)]
  rfl

private theorem w19_v37 (c : Dev nD) : W19 (F := Ideal) m ρ c (Proc.devRef .tc main_v37) = (argsOf m c).Wnc2 := by
  show StableHlo.after hostOps6 _ (Proc.devRef .tc main_v37) = _
  simp only [hostOps6]
  after_results
  rw [show W18 (F := Ideal) m ρ c (Proc.devRef .tc main_arg21) = _ from args_W18 m ρ c main_arg21 (by decide)]
  rfl

private theorem w19_bnc1 (c : Dev nD) : W19 (F := Ideal) m ρ c (Proc.devRef .tc main_arg20) = (argsOf m c).bnc1 :=
  args_W19 m ρ c main_arg20 (by decide)

private theorem w19_bnc2 (c : Dev nD) : W19 (F := Ideal) m ρ c (Proc.devRef .tc main_arg22) = (argsOf m c).bnc2 :=
  args_W19 m ρ c main_arg22 (by decide)

/-- The node scores as a one-column array, at the node head's exit. -/
private theorem w20_v38 (c : Dev nD) : W20 (F := Ideal) m ρ c (Proc.devRef .tc main_v38) =
    head 10000 (n2 takeRows (argsOf m c)) (argsOf m c).Wnc1 (argsOf m c).bnc1 (argsOf m c).Wnc2 (argsOf m c).bnc2 := by
  refine (W20_arr m ρ c 5).trans ?_
  refine (region6_value (V19 m ρ) c).trans ?_
  rw [show V19 m ρ c main_v35 = _ from w19_v35 m ρ c, show V19 m ρ c main_v36 = _ from w19_v36 m ρ c,
    show V19 m ρ c main_arg20 = _ from w19_bnc1 m ρ c, show V19 m ρ c main_v37 = _ from w19_v37 m ρ c,
    show V19 m ρ c main_arg22 = _ from w19_bnc2 m ρ c]

/-- The node scores with the unit column dropped. -/
private theorem w21_v39 (c : Dev nD) : W21 (F := Ideal) m ρ c (Proc.devRef .tc main_v39) = outNode takeRows (argsOf m c) := by
  show StableHlo.after hostOps7 _ (Proc.devRef .tc main_v39) = _
  simp only [hostOps7]
  after_results
  rw [show W20 (F := Ideal) m ρ c (Proc.devRef .tc main_v38) = _ from w20_v38 m ρ c]
  rfl

/-- The node scores, at @main's end. -/
theorem final_node (c : Dev nD) : W23 (F := Ideal) m ρ c (Proc.devRef .tc main_v39) = outNode takeRows (argsOf m c) :=
  calc W23 (F := Ideal) m ρ c (Proc.devRef .tc main_v39)
    _ = W22 m ρ c (Proc.devRef .tc main_v39) := by keep_host
    _ = W21 m ρ c (Proc.devRef .tc main_v39) := by keep_reg W22_of_ne
    _ = outNode takeRows (argsOf m c) := w21_v39 m ρ c

/-! The edge scoring head's operands at its entry. -/

private theorem w21_v30_0 (c : Dev nD) : W21 (F := Ideal) m ρ c (Proc.devRef .tc main_v30_0) = e2 takeRows (argsOf m c) :=
  calc W21 (F := Ideal) m ρ c (Proc.devRef .tc main_v30_0)
    _ = W20 m ρ c (Proc.devRef .tc main_v30_0) := by keep_host
    _ = W19 m ρ c (Proc.devRef .tc main_v30_0) := by keep_reg W20_of_ne
    _ = W18 m ρ c (Proc.devRef .tc main_v30_0) := by keep_host
    _ = e2 takeRows (argsOf m c) := w18_e2 m ρ c

private theorem w21_v40 (c : Dev nD) : W21 (F := Ideal) m ρ c (Proc.devRef .tc main_v40) = (argsOf m c).Wec1 := by
  show StableHlo.after hostOps7 _ (Proc.devRef .tc main_v40) = _
  simp only [hostOps7]
  after_results
  rw [show W20 (F := Ideal) m ρ c (Proc.devRef .tc main_arg23) = _ from args_W20 m ρ c main_arg23 (by decide)]
  rfl

private theorem w21_v41 (c : Dev nD) : W21 (F := Ideal) m ρ c (Proc.devRef .tc main_v41) = (argsOf m c).Wec2 := by
  show StableHlo.after hostOps7 _ (Proc.devRef .tc main_v41) = _
  simp only [hostOps7]
  after_results
  rw [show W20 (F := Ideal) m ρ c (Proc.devRef .tc main_arg25) = _ from args_W20 m ρ c main_arg25 (by decide)]
  rfl

private theorem w21_bec1 (c : Dev nD) : W21 (F := Ideal) m ρ c (Proc.devRef .tc main_arg24) = (argsOf m c).bec1 :=
  args_W21 m ρ c main_arg24 (by decide)

private theorem w21_bec2 (c : Dev nD) : W21 (F := Ideal) m ρ c (Proc.devRef .tc main_arg26) = (argsOf m c).bec2 :=
  args_W21 m ρ c main_arg26 (by decide)

/-- The edge scores as a one-column array, at the edge head's exit. -/
private theorem w22_v42 (c : Dev nD) : W22 (F := Ideal) m ρ c (Proc.devRef .tc main_v42) =
    head 200000 (e2 takeRows (argsOf m c)) (argsOf m c).Wec1 (argsOf m c).bec1 (argsOf m c).Wec2 (argsOf m c).bec2 := by
  refine (W22_arr m ρ c 5).trans ?_
  refine (region7_value (V21 m ρ) c).trans ?_
  rw [show V21 m ρ c main_v30_0 = _ from w21_v30_0 m ρ c, show V21 m ρ c main_v40 = _ from w21_v40 m ρ c,
    show V21 m ρ c main_arg24 = _ from w21_bec1 m ρ c, show V21 m ρ c main_v41 = _ from w21_v41 m ρ c,
    show V21 m ρ c main_arg26 = _ from w21_bec2 m ρ c]

/-- The edge scores, at @main's end. -/
theorem final_edge (c : Dev nD) : W23 (F := Ideal) m ρ c (Proc.devRef .tc main_v43) = outEdge takeRows (argsOf m c) := by
  show StableHlo.after hostOps8 _ (Proc.devRef .tc main_v43) = _
  simp only [hostOps8]
  after_results
  rw [show W22 (F := Ideal) m ρ c (Proc.devRef .tc main_v42) = _ from w22_v42 m ρ c]
  rfl

end Cert.KernelIdeal.Hand

end
-- ==== Proof.Take.lean ====
/-
  Node ids inside the node table: the kernel's filled gather and the reference's gather are one function.

  Both programs first move a negative id up by the table's height. The kernel then tests the moved id against
  0 … 9999 and replaces a row whose id fails the test by a fill constant; the reference takes the row at the moved id
  whatever it is. For an id between 0 and 9999 nothing is moved, the test holds on every lane, and the kernel's
  selection returns the gathered row. The precondition's last conjunct says every entry of the edge index is such
  an id; the target ids and the source ids are its two rows.
-/
import proofs.«425812_j65979287601856_3_alg».proof.Defs
import proofs.«425812_j65979287601856_3_alg».proof.Proof.Gen.Pre_finite_inputs
import proofs.«425812_j65979287601856_3_alg».proof.Proof.Net
import Idealize.ShloMosaic.Lib.StableHlo.Predicate
import Idealize.ShloMosaic.Lib.ReduceAll
import Idealize.ShloMosaic.Lib.ValueIdx
import Idealize.ShloMosaic.Lib.Pipeline.Value

noncomputable section

open Idealize.ShloMosaic Idealize.ShloMosaic.TcCoe Idealize.SL.Sem

namespace Cert.KernelIdeal.Hand

open Cert.KernelIdeal Cert.KernelIdeal.Gen Cert.Spec

/-- An id between 0 and 9999 is not negative, so it is not moved. -/
private theorem wrapIdx_eq (i : IVec S200000 32)
    (hi : ∀ e : S200000.Idx, (0 : Int) ≤ (i e).toInt ∧ (i e).toInt < 10000) : wrapIdx i = i := by
  funext e
  have h0 : (0#32 : BitVec 32).toInt = 0 := by decide
  have hc : ¬ IntOp.cmpi .slt (i e) (0#32) = 1#1 := by
    rw [IntOp.cmpi_slt, h0]; exact not_lt.2 (hi e).1
  show Scalar.select (IntOp.cmpi .slt (i e) (0#32)) _ (i e) = i e
  rw [Scalar.select]
  exact if_neg hc

/-- Below 10000 is at most 9999. -/
private theorem le_of_inRange (x : BitVec 32) (h : (0 : Int) ≤ x.toInt ∧ x.toInt < 10000) : x.toInt ≤ 9999 := by
  omega

/-- A reduction by "and" from 1 over words that are all 1 is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- Both lane tests hold on every lane, so their conjunction is 1. -/
private theorem laneTest_one (i : IVec S200000 32)
    (hi : ∀ e : S200000.Idx, (0 : Int) ≤ (i e).toInt ∧ (i e).toInt < 10000) (k : S200000x1.Idx) :
    andi
      (cmpi .sge (broadcastInDim S200000x1 ![0] bcast_S200000_S200000x1_0 (wrapIdx i))
        (broadcastInDim S200000x1 ![] bcast_S_S200000x1 (constantI S_ 32 0#32)))
      (cmpi .sle (broadcastInDim S200000x1 ![0] bcast_S200000_S200000x1_0 (wrapIdx i))
        (broadcastInDim S200000x1 ![0, 1] bcast_S1x1_S200000x1_0_1 (broadcastInDim S1x1 ![1] bcast_S1_S1x1_1 (constantI S1 32 9999#32)))) k = 1#1 := by
  rw [wrapIdx_eq i hi]
  have h0 : (0#32 : BitVec 32).toInt = 0 := by decide
  have h9 : (9999#32 : BitVec 32).toInt = 9999 := by decide
  refine IntOp.andi_eq_one.2 ⟨IntOp.cmpi_sge.2 ?_, IntOp.cmpi_sle.2 ?_⟩
  · show (0#32 : BitVec 32).toInt ≤ (i _).toInt
    rw [h0]; exact (hi _).1
  · show (i _).toInt ≤ (9999#32 : BitVec 32).toInt
    rw [h9]; exact le_of_inRange _ (hi _)

/-- The row mask is 1 on every row. -/
private theorem rowMask_one (i : IVec S200000 32)
    (hi : ∀ e : S200000.Idx, (0 : Int) ≤ (i e).toInt ∧ (i e).toInt < 10000) (r : S200000.Idx) :
    Host.reduce IntOp.andi
      (andi
        (cmpi .sge (broadcastInDim S200000x1 ![0] bcast_S200000_S200000x1_0 (wrapIdx i))
          (broadcastInDim S200000x1 ![] bcast_S_S200000x1 (constantI S_ 32 0#32)))
        (cmpi .sle (broadcastInDim S200000x1 ![0] bcast_S200000_S200000x1_0 (wrapIdx i))
          (broadcastInDim S200000x1 ![0, 1] bcast_S1x1_S200000x1_0_1 (broadcastInDim S1x1 ![1] bcast_S1_S1x1_1 (constantI S1 32 9999#32)))))
      (constantI S_ 1 1#1) reducesTo_S200000x1_S200000_d1 h_S_ r = 1#1 := by
  rw [Host.reduce_eq_foldl]
  exact foldl_andi_ones _ (laneTest_one i hi) _

/-- For ids between 0 and 9999 the kernel's filled gather returns the gathered rows. -/
theorem takeRows_eq_gatherRows (T : A2 10000 256) (i : IVec S200000 32)
    (hi : ∀ e : S200000.Idx, (0 : Int) ≤ (i e).toInt ∧ (i e).toInt < 10000) : takeRows T i = gatherRows T i := by
  funext j
  unfold takeRows
  show Scalar.select _ (gatherRows T i j) _ = gatherRows T i j
  rw [Scalar.select]
  exact if_pos (rowMask_one i hi _)

/-- The target ids are entries of the edge index. -/
theorem tgt_inRange (a : Args) (h : InRange a.ei) : ∀ e : S200000.Idx, (0 : Int) ≤ (tgt a e).toInt ∧ (tgt a e).toInt < 10000 := by
  intro e
  unfold tgt shapeCast extractStridedSlice
  exact h _

/-- The source ids are entries of the edge index. -/
theorem src_inRange (a : Args) (h : InRange a.ei) : ∀ e : S200000.Idx, (0 : Int) ≤ (src a e).toInt ∧ (src a e).toInt < 10000 := by
  intro e
  unfold src shapeCast extractStridedSlice
  exact h _

/-- The last conjunct of the finiteness predicate's final part says every entry of the edge index is between 0 and 9999. -/
private theorem part7_last [Cert.Pre_finite_inputs.Facts] (E : IVec Cert.Pre_finite_inputs.S2x200000 32) (a26 : FVec Ideal Cert.Pre_finite_inputs.S1 .f32)
    (v118 : IVec Cert.Pre_finite_inputs.S_ 1) (v119 : FVec Ideal Cert.Pre_finite_inputs.S128x1 .f32)
    (k : Cert.Pre_finite_inputs.S_.Idx)
    (h : Cert.Pre_finite_inputs.fn_part7 (F := Ideal) E a26 v118 v119 k = 1#1)
    (j : Cert.Pre_finite_inputs.S2x200000.Idx) : (0 : Int) ≤ (E j).toInt ∧ (E j).toInt < 10000 := by
  haveI : Subsingleton Cert.Pre_finite_inputs.S_.Idx := ⟨fun a b => funext fun d => d.elim0⟩
  unfold Cert.Pre_finite_inputs.fn_part7 at h
  dsimp only at h
  -- the result is the conjunction of everything before with the all-reduction of the two range tests
  have hr := (IntOp.andi_eq_one.1 h).2
  -- the all-reduction is 1, so the tests' conjunction is 1 at every entry
  have hj := Host.reduce_andi_all _ _ _ _ k hr j
  obtain ⟨h1, h2⟩ := IntOp.andi_eq_one.1 hj
  have h0 : (0#32 : BitVec 32).toInt = 0 := by decide
  have hN : (10000#32 : BitVec 32).toInt = 10000 := by decide
  have g1 : (0#32 : BitVec 32).toInt ≤ (E j).toInt := IntOp.cmpi_sge.1 h1
  have g2 : (E j).toInt < (10000#32 : BitVec 32).toInt := IntOp.cmpi_slt.1 h2
  rw [h0] at g1
  rw [hN] at g2
  exact ⟨g1, g2⟩

/-- The precondition's last conjunct: every entry of the edge index is a node id between 0 and 9999. -/
theorem inRange_of_pre (m : (ℓ : Loc nD τ sig) → Buf (Elt Ideal) ℓ) (h : Cert.Pre_KernelIdeal m) (c : Dev nD) :
    InRange (m ((c.tc : Thread nD τ).loc main_arg2)) := by
  -- the predicate's one element is 1 on this core
  have h1 := congrFun (h c) ValueIdx.ix0
  -- the parts are one chain of definitions: open it down to the final part
  unfold Cert.Pre_finite_inputs.fn Cert.Pre_finite_inputs.fn_part1 Cert.Pre_finite_inputs.fn_part2 Cert.Pre_finite_inputs.fn_part3 Cert.Pre_finite_inputs.fn_part4 Cert.Pre_finite_inputs.fn_part5 Cert.Pre_finite_inputs.fn_part6 at h1
  dsimp only at h1
  unfold InRange
  intro j
  exact part7_last _ _ _ _ _ h1 j

end Cert.KernelIdeal.Hand

end
-- ==== Proof.RefBase.lean ====
/-
  The reference program's arguments as the network's inputs and parameters; and: no operation of the reference's @main
  writes an argument array, so after every chunk of its operations each argument's buffer holds its launch contents.
  A buffer that a chunk of operations does not write holds after the chunk what it held before: each operation's
  written buffer differs from the buffer in question.
-/
import proofs.«425812_j65979287601856_3_alg».proof.Proof.RefRun
import proofs.«425812_j65979287601856_3_alg».proof.Proof.Net

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen Cert.ReferenceIdeal.ValueP
open Cert.KernelIdeal.Hand (Args)

/-- One chunk of the reference's operations leaves a buffer none of them writes as it was (use after `rw [Uk_def]`). -/
macro "keep_chunk" : tactic => `(tactic| (
  refine StableHlo.after_of_forall_not_mem _ _ (List.forall_iff_forall_mem.mp ?_)
  simp only [opsC1, opsC2, opsC3, opsC4, opsC5, opsC6, opsC7, opsC8, List.Forall, StableHlo.nullary_writes, StableHlo.unary_writes,
    StableHlo.binary_writes, StableHlo.ternary_writes, StableHlo.quaternary_writes, StableHlo.reshape_writes,
    StableHlo.binaryIndexed_writes, StableHlo.nary_writes, Finset.mem_singleton]
  repeat' apply And.intro
  all_goals exact StableHlo.devRef_ne_of_ne (by decide)))

/-- The reference's arguments, as launched on core `c`, as the network's inputs and parameters. -/
def argsOfRef (m : (ℓ : Loc nD τ sig) → Buf (Elt Ideal) ℓ) (c : Dev nD) : Args where
  x := m ((c.tc : Thread nD τ).loc main_arg0)
  ea := m ((c.tc : Thread nD τ).loc main_arg1)
  ei := m ((c.tc : Thread nD τ).loc main_arg2)
  Wne1 := m ((c.tc : Thread nD τ).loc main_arg3)
  bne1 := m ((c.tc : Thread nD τ).loc main_arg4)
  Wne2 := m ((c.tc : Thread nD τ).loc main_arg5)
  bne2 := m ((c.tc : Thread nD τ).loc main_arg6)
  Wee1 := m ((c.tc : Thread nD τ).loc main_arg7)
  bee1 := m ((c.tc : Thread nD τ).loc main_arg8)
  Wee2 := m ((c.tc : Thread nD τ).loc main_arg9)
  bee2 := m ((c.tc : Thread nD τ).loc main_arg10)
  We1 := m ((c.tc : Thread nD τ).loc main_arg11)
  be1 := m ((c.tc : Thread nD τ).loc main_arg12)
  We2 := m ((c.tc : Thread nD τ).loc main_arg13)
  be2 := m ((c.tc : Thread nD τ).loc main_arg14)
  Wn1 := m ((c.tc : Thread nD τ).loc main_arg15)
  bn1 := m ((c.tc : Thread nD τ).loc main_arg16)
  Wu := m ((c.tc : Thread nD τ).loc main_arg17)
  bu := m ((c.tc : Thread nD τ).loc main_arg18)
  Wnc1 := m ((c.tc : Thread nD τ).loc main_arg19)
  bnc1 := m ((c.tc : Thread nD τ).loc main_arg20)
  Wnc2 := m ((c.tc : Thread nD τ).loc main_arg21)
  bnc2 := m ((c.tc : Thread nD τ).loc main_arg22)
  Wec1 := m ((c.tc : Thread nD τ).loc main_arg23)
  bec1 := m ((c.tc : Thread nD τ).loc main_arg24)
  Wec2 := m ((c.tc : Thread nD τ).loc main_arg25)
  bec2 := m ((c.tc : Thread nD τ).loc main_arg26)

variable {F : FTy → Type} [FloatOps F]
variable (m : (ℓ : Loc nD τ sig) → Buf (Elt F) ℓ)

/-- The reference's argument arrays. -/
def argRefsR : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

theorem args_U0 (d : Dev nD) : ∀ b ∈ argRefsR, launchContents m d (Proc.devRef .tc b) = m ((d.tc : Thread nD τ).loc b) := fun _ _ => rfl

theorem args_U1 (d : Dev nD) : ∀ b ∈ argRefsR, U1 m d (Proc.devRef .tc b) = m ((d.tc : Thread nD τ).loc b) := by
  intro b hb
  refine Eq.trans ?_ (args_U0 m d b hb)
  rw [U1_def]
  simp only [argRefsR, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> keep_chunk

theorem args_U2 (d : Dev nD) : ∀ b ∈ argRefsR, U2 m d (Proc.devRef .tc b) = m ((d.tc : Thread nD τ).loc b) := by
  intro b hb
  refine Eq.trans ?_ (args_U1 m d b hb)
  rw [U2_def]
  simp only [argRefsR, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> keep_chunk

theorem args_U3 (d : Dev nD) : ∀ b ∈ argRefsR, U3 m d (Proc.devRef .tc b) = m ((d.tc : Thread nD τ).loc b) := by
  intro b hb
  refine Eq.trans ?_ (args_U2 m d b hb)
  rw [U3_def]
  simp only [argRefsR, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> keep_chunk

theorem args_U4 (d : Dev nD) : ∀ b ∈ argRefsR, U4 m d (Proc.devRef .tc b) = m ((d.tc : Thread nD τ).loc b) := by
  intro b hb
  refine Eq.trans ?_ (args_U3 m d b hb)
  rw [U4_def]
  simp only [argRefsR, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> keep_chunk

theorem args_U5 (d : Dev nD) : ∀ b ∈ argRefsR, U5 m d (Proc.devRef .tc b) = m ((d.tc : Thread nD τ).loc b) := by
  intro b hb
  refine Eq.trans ?_ (args_U4 m d b hb)
  rw [U5_def]
  simp only [argRefsR, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> keep_chunk

theorem args_U6 (d : Dev nD) : ∀ b ∈ argRefsR, U6 m d (Proc.devRef .tc b) = m ((d.tc : Thread nD τ).loc b) := by
  intro b hb
  refine Eq.trans ?_ (args_U5 m d b hb)
  rw [U6_def]
  simp only [argRefsR, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> keep_chunk

theorem args_U7 (d : Dev nD) : ∀ b ∈ argRefsR, U7 m d (Proc.devRef .tc b) = m ((d.tc : Thread nD τ).loc b) := by
  intro b hb
  refine Eq.trans ?_ (args_U6 m d b hb)
  rw [U7_def]
  simp only [argRefsR, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> keep_chunk

theorem args_U8 (d : Dev nD) : ∀ b ∈ argRefsR, U8 m d (Proc.devRef .tc b) = m ((d.tc : Thread nD τ).loc b) := by
  intro b hb
  refine Eq.trans ?_ (args_U7 m d b hb)
  rw [U8_def]
  simp only [argRefsR, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;> keep_chunk

end Cert.ReferenceIdeal.Hand

end
-- ==== Proof.RefLayers.lean ====
/-
  The reference's layers, read as the row-wise dense layer.

  The reference writes a dense layer as a `dot_general` contracting the one shared axis, the bias broadcast along the
  rows, their sum, and the maximum with an array of zeros. Entry (r, c) of the `dot_general` is the sum over k of
  X(r, k) * W(k, c); the broadcast bias at (r, c) is b(c); the maximum with zero is the positive part. A join of arrays
  along the columns reads, in each row, the first array's columns and then the next one's.
-/
import proofs.«425812_j65979287601856_3_alg».proof.Proof.Gen.ReferenceIdeal
import proofs.«425812_j65979287601856_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic
open scoped BigOperators

namespace Cert.ReferenceIdeal.Hand

open Cert.ReferenceIdeal Cert.ReferenceIdeal.Gen
open Idealize.ShloMosaic.ValueIdx

/-- A vector of 128 entries laid as one row and repeated over 10000 rows: entry (p, q) is entry q. -/
private theorem bias_10000_128 (b : FVec Ideal S128 .f32) (p : Fin 10000) (q : Fin 128) :
    broadcastInDim S10000x128 ![0, 1] bcast_S1x128_S10000x128_0_1 (broadcastInDim S1x128 ![1] bcast_S128_S1x128_1 b) (ix2 p q)
      = b (ix1 q) := by
  have hq : q.val < 128 := q.isLt
  refine (broadcastInDim_apply _ bcast_S1x128_S10000x128_0_1 _ (ix2 p q) (ix2 (0 : Fin 1) q) fun a => ?_).trans
    (broadcastInDim_apply _ bcast_S128_S1x128_1 b (ix2 (0 : Fin 1) q) (ix1 q) fun a => ?_)
  · match a with
    | ⟨0, _⟩ => show 0 = if (1 : Nat) = 1 then 0 else p.val; rw [if_pos rfl]
    | ⟨1, _⟩ => show q.val = if (128 : Nat) = 1 then 0 else q.val; split <;> omega
  · match a with
    | ⟨0, _⟩ => show q.val = if (128 : Nat) = 1 then 0 else q.val; split <;> omega

/-- The zero spread over [10000, 128] is zero at every entry. -/
private theorem zeros_10000_128 (i : S10000x128.Idx) :
    broadcastInDim S10000x128 ![] bcast_S_S10000x128 (constant (F := Ideal) S_ .f32 0x00000000#32) i = 0 :=
  (broadcastInDim_apply _ bcast_S_S10000x128 (constant (F := Ideal) S_ .f32 0x00000000#32) i (fun a => a.elim0) (fun a => a.elim0)).trans
    Ideal.ofBits_zero_f32

/-! ### The product [10000, 128] by [128, 128] -/

/-- Left operand: the row is the result's row. -/
private theorem lrow_10000x128_128 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- Left operand: the column is the summation index. -/
private theorem lcol_10000x128_128 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- Right operand: the row is the summation index. -/
private theorem rrow_10000x128_128 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- Right operand: the column is the result's column. -/
private theorem rcol_10000x128_128 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- Entry (p, q) of the product is the sum over k of X(p, k) * W(k, q). -/
private theorem prod_10000x128_128 (X : FVec Ideal S10000x128 .f32) (W : FVec Ideal S128x128 .f32) (p : Fin 10000) (q : Fin 128) :
    Host.dotGeneral (F := Ideal) dot_S10000x128_S128x128_S10000x128_1_0_0_1_n_n none X W (ix2 p q) = ∑ k : Fin 128, X (ix2 p k) * W (ix2 k q) := by
  simp only [Host.dotGeneral]
  rw [Ideal.dotGeneral_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun a => Fin.ext (by
      match a with
      | ⟨0, _⟩ => exact lrow_10000x128_128 _ _
      | ⟨1, _⟩ => exact (lcol_10000x128_128 _ _).trans hk)
  have er : dot_S10000x128_S128x128_S10000x128_1_0_0_1_n_n.rhsIdx (ix2 p q) ((contrEquiv1 dot_S10000x128_S128x128_S10000x128_1_0_0_1_n_n 128 rfl rfl).symm k) = ix2 k q :=
    funext fun a => Fin.ext (by
      match a with
      | ⟨0, _⟩ => exact (rrow_10000x128_128 _ _).trans hk
      | ⟨1, _⟩ => exact rcol_10000x128_128 _ _)
  rw [el, er]

/-- The reference's dense layer with the positive part, [10000, 128] by [128, 128]. -/
theorem denseRelu_10000x128_128 (X : FVec Ideal S10000x128 .f32) (W : FVec Ideal S128x128 .f32) (b : FVec Ideal S128 .f32) :
    maximumf (addf (Host.dotGeneral (F := Ideal) dot_S10000x128_S128x128_S10000x128_1_0_0_1_n_n none X W)
        (broadcastInDim S10000x128 ![0, 1] bcast_S1x128_S10000x128_0_1 (broadcastInDim S1x128 ![1] bcast_S128_S1x128_1 b)))
      (broadcastInDim S10000x128 ![] bcast_S_S10000x128 (constant (F := Ideal) S_ .f32 0x00000000#32))
      = Cert.Spec.denseRelu 10000 128 128 X W b := by
  funext i
  obtain ⟨p, q, rfl⟩ : ∃ (p : Fin 10000) (q : Fin 128), i = ix2 p q := ⟨i 0, i 1, eq_ix2 i⟩
  show max (Host.dotGeneral (F := Ideal) dot_S10000x128_S128x128_S10000x128_1_0_0_1_n_n none X W (ix2 p q)
        + broadcastInDim S10000x128 ![0, 1] bcast_S1x128_S10000x128_0_1 (broadcastInDim S1x128 ![1] bcast_S128_S1x128_1 b) (ix2 p q))
      (broadcastInDim S10000x128 ![] bcast_S_S10000x128 (constant (F := Ideal) S_ .f32 0x00000000#32) (ix2 p q)) = _
  rw [prod_10000x128_128, bias_10000_128, zeros_10000_128]
  rfl

/-- A vector of 128 entries laid as one row and repeated over 200000 rows: entry (p, q) is entry q. -/
private theorem bias_200000_128 (b : FVec Ideal S128 .f32) (p : Fin 200000) (q : Fin 128) :
    broadcastInDim S200000x128 ![0, 1] bcast_S1x128_S200000x128_0_1 (broadcastInDim S1x128 ![1] bcast_S128_S1x128_1 b) (ix2 p q)
      = b (ix1 q) := by
  have hq : q.val < 128 := q.isLt
  refine (broadcastInDim_apply _ bcast_S1x128_S200000x128_0_1 _ (ix2 p q) (ix2 (0 : Fin 1) q) fun a => ?_).trans
    (broadcastInDim_apply _ bcast_S128_S1x128_1 b (ix2 (0 : Fin 1) q) (ix1 q) fun a => ?_)
  · match a with
    | ⟨0, _⟩ => show 0 = if (1 : Nat) = 1 then 0 else p.val; rw [if_pos rfl]
    | ⟨1, _⟩ => show q.val = if (128 : Nat) = 1 then 0 else q.val; split <;> omega
  · match a with
    | ⟨0, _⟩ => show q.val = if (128 : Nat) = 1 then 0 else q.val; split <;> omega

/-- The zero spread over [200000, 128] is zero at every entry. -/
private theorem zeros_200000_128 (i : S200000x128.Idx) :
    broadcastInDim S200000x128 ![] bcast_S_S200000x128 (constant (F := Ideal) S_ .f32 0x00000000#32) i = 0 :=
  (broadcastInDim_apply _ bcast_S_S200000x128 (constant (F := Ideal) S_ .f32 0x00000000#32) i (fun a => a.elim0) (fun a => a.elim0)).trans
    Ideal.ofBits_zero_f32

/-! ### The product [200000, 64] by [64, 128] -/

/-- Left operand: the row is the result's row. -/
private theorem lrow_200000x64_128 (i : S200000x128.Idx) (q : dot_S200000x64_S64x128_S200000x128_1_0_0_1_n_n.contr.Idx) :
    (dot_S200000x64_S64x128_S200000x128_1_0_0_1_n_n.lhsIdx i q 0).val = (i 0).val := by
  unfold DotDims.lhsIdx
  rw [dif_neg (show ¬(0 : Fin S200000x64.rank) ∈ dot_S200000x64_S64x128_S200000x128_1_0_0_1_n_n.lhsBatch by decide),
    dif_pos (show (0 : Fin S200000x64.rank) ∈ dot_S200000x64_S64x128_S200000x128_1_0_0_1_n_n.lhsNonContracting by decide)]
  rfl
/-- Left operand: the column is the summation index. -/
private theorem lcol_200000x64_128 (i : S200000x128.Idx) (q : dot_S200000x64_S64x128_S200000x128_1_0_0_1_n_n.contr.Idx) :
    (dot_S200000x64_S64x128_S200000x128_1_0_0_1_n_n.lhsIdx i q 1).val = (q ⟨0, by decide⟩).val :=
  dot_S200000x64_S64x128_S200000x128_1_0_0_1_n_n.lhsIdx_val_of_single rfl i q
/-- Right operand: the row is the summation index. -/
private theorem rrow_200000x64_128 (i : S200000x128.Idx) (q : dot_S200000x64_S64x128_S200000x128_1_0_0_1_n_n.contr.Idx) :
    (dot_S200000x64_S64x128_S200000x128_1_0_0_1_n_n.rhsIdx i q 0).val = (q ⟨0, by decide⟩).val :=
  dot_S200000x64_S64x128_S200000x128_1_0_0_1_n_n.rhsIdx_val_of_single rfl i q
/-- Right operand: the column is the result's column. -/
private theorem rcol_200000x64_128 (i : S200000x128.Idx) (q : dot_S200000x64_S64x128_S200000x128_1_0_0_1_n_n.contr.Idx) :
    (dot_S200000x64_S64x128_S200000x128_1_0_0_1_n_n.rhsIdx i q 1).val = (i 1).val := by
  unfold DotDims.rhsIdx
  rw [dif_neg (show ¬(1 : Fin S64x128.rank) ∈ dot_S200000x64_S64x128_S200000x128_1_0_0_1_n_n.rhsBatch by decide),
    dif_pos (show (1 : Fin S64x128.rank) ∈ dot_S200000x64_S64x128_S200000x128_1_0_0_1_n_n.rhsNonContracting by decide)]
  rfl

/-- Entry (p, q) of the product is the sum over k of X(p, k) * W(k, q). -/
private theorem prod_200000x64_128 (X : FVec Ideal S200000x64 .f32) (W : FVec Ideal S64x128 .f32) (p : Fin 200000) (q : Fin 128) :
    Host.dotGeneral (F := Ideal) dot_S200000x64_S64x128_S200000x128_1_0_0_1_n_n none X W (ix2 p q) = ∑ k : Fin 64, X (ix2 p k) * W (ix2 k q) := by
  simp only [Host.dotGeneral]
  rw [Ideal.dotGeneral_apply, ← Equiv.sum_comp (contrEquiv1 dot_S200000x64_S64x128_S200000x128_1_0_0_1_n_n 64 rfl rfl).symm]
  refine Finset.sum_congr rfl fun k _ => ?_
  have hk := contrEquiv1_symm_val dot_S200000x64_S64x128_S200000x128_1_0_0_1_n_n 64 rfl rfl k
  have el : dot_S200000x64_S64x128_S200000x128_1_0_0_1_n_n.lhsIdx (ix2 p q) ((contrEquiv1 dot_S200000x64_S64x128_S200000x128_1_0_0_1_n_n 64 rfl rfl).symm k) = ix2 p k :=
    funext fun a => Fin.ext (by
      match a with
      | ⟨0, _⟩ => exact lrow_200000x64_128 _ _
      | ⟨1, _⟩ => exact (lcol_200000x64_128 _ _).trans hk)
  have er : dot_S200000x64_S64x128_S200000x128_1_0_0_1_n_n.rhsIdx (ix2 p q) ((contrEquiv1 dot_S200000x64_S64x128_S200000x128_1_0_0_1_n_n 64 rfl rfl).symm k) = ix2 k q :=
    funext fun a => Fin.ext (by
      match a with
      | ⟨0, _⟩ => exact (rrow_200000x64_128 _ _).trans hk
      | ⟨1, _⟩ => exact rcol_200000x64_128 _ _)
  rw [el, er]

/-- The reference's dense layer with the positive part, [200000, 64] by [64, 128]. -/
theorem denseRelu_200000x64_128 (X : FVec Ideal S200000x64 .f32) (W : FVec Ideal S64x128 .f32) (b : FVec Ideal S128 .f32) :
    maximumf (addf (Host.dotGeneral (F := Ideal) dot_S200000x64_S64x128_S200000x128_1_0_0_1_n_n none X W)
        (broadcastInDim S200000x128 ![0, 1] bcast_S1x128_S200000x128_0_1 (broadcastInDim S1x128 ![1] bcast_S128_S1x128_1 b)))
      (broadcastInDim S200000x128 ![] bcast_S_S200000x128 (constant (F := Ideal) S_ .f32 0x00000000#32))
      = Cert.Spec.denseRelu 200000 64 128 X W b := by
  funext i
  obtain ⟨p, q, rfl⟩ : ∃ (p : Fin 200000) (q : Fin 128), i = ix2 p q := ⟨i 0, i 1, eq_ix2 i⟩
  show max (Host.dotGeneral (F := Ideal) dot_S200000x64_S64x128_S200000x128_1_0_0_1_n_n none X W (ix2 p q)
        + broadcastInDim S200000x128 ![0, 1] bcast_S1x128_S200000x128_0_1 (broadcastInDim S1x128 ![1] bcast_S128_S1x128_1 b) (ix2 p q))
      (broadcastInDim S200000x128 ![] bcast_S_S200000x128 (constant (F := Ideal) S_ .f32 0x00000000#32) (ix2 p q)) = _
  rw [prod_200000x64_128, bias_200000_128, zeros_200000_128]
  rfl

/-! ### The product [200000, 128] by [128, 128] -/

/-- Left operand: the row is the result's row. -/
private theorem lrow_200000x128_128 (i : S200000x128.Idx) (q : dot_S200000x128_S128x128_S200000x128_1_0_0_1_n_n.contr.Idx) :
    (dot_S200000x128_S128x128_S200000x128_1_0_0_1_n_n.lhsIdx i q 0).val = (i 0).val := by
  unfold DotDims.lhsIdx
  rw [dif_neg (show ¬(0 : Fin S200000x128.rank) ∈ dot_S200000x128_S128x128_S200000x128_1_0_0_1_n_n.lhsBatch by decide),
    dif_pos (show (0 : Fin S200000x128.rank) ∈ dot_S200000x128_S128x128_S200000x128_1_0_0_1_n_n.lhsNonContracting by decide)]
  rfl
/-- Left operand: the column is the summation index. -/
private theorem lcol_200000x128_128 (i : S200000x128.Idx) (q : dot_S200000x128_S128x128_S200000x128_1_0_0_1_n_n.contr.Idx) :
    (dot_S200000x128_S128x128_S200000x128_1_0_0_1_n_n.lhsIdx i q 1).val = (q ⟨0, by decide⟩).val :=
  dot_S200000x128_S128x128_S200000x128_1_0_0_1_n_n.lhsIdx_val_of_single rfl i q
/-- Right operand: the row is the summation index. -/
private theorem rrow_200000x128_128 (i : S200000x128.Idx) (q : dot_S200000x128_S128x128_S200000x128_1_0_0_1_n_n.contr.Idx) :
    (dot_S200000x128_S128x128_S200000x128_1_0_0_1_n_n.rhsIdx i q 0).val = (q ⟨0, by decide⟩).val :=
  dot_S200000x128_S128x128_S200000x128_1_0_0_1_n_n.rhsIdx_val_of_single rfl i q
/-- Right operand: the column is the result's column. -/
private theorem rcol_200000x128_128 (i : S200000x128.Idx) (q : dot_S200000x128_S128x128_S200000x128_1_0_0_1_n_n.contr.Idx) :
    (dot_S200000x128_S128x128_S200000x128_1_0_0_1_n_n.rhsIdx i q 1).val = (i 1).val := by
  unfold DotDims.rhsIdx
  rw [dif_neg (show ¬(1 : Fin S128x128.rank) ∈ dot_S200000x128_S128x128_S200000x128_1_0_0_1_n_n.rhsBatch by decide),
    dif_pos (show (1 : Fin S128x128.rank) ∈ dot_S200000x128_S128x128_S200000x128_1_0_0_1_n_n.rhsNonContracting by decide)]
  rfl

/-- Entry (p, q) of the product is the sum over k of X(p, k) * W(k, q). -/
private theorem prod_200000x128_128 (X : FVec Ideal S200000x128 .f32) (W : FVec Ideal S128x128 .f32) (p : Fin 200000) (q : Fin 128) :
    Host.dotGeneral (F := Ideal) dot_S200000x128_S128x128_S200000x128_1_0_0_1_n_n none X W (ix2 p q) = ∑ k : Fin 128, X (ix2 p k) * W (ix2 k q) := by
  simp only [Host.dotGeneral]
  rw [Ideal.dotGeneral_apply, ← Equiv.sum_comp (contrEquiv1 dot_S200000x128_S128x128_S200000x128_1_0_0_1_n_n 128 rfl rfl).symm]
  refine Finset.sum_congr rfl fun k _ => ?_
  have hk := contrEquiv1_symm_val dot_S200000x128_S128x128_S200000x128_1_0_0_1_n_n 128 rfl rfl k
  have el : dot_S200000x128_S128x128_S200000x128_1_0_0_1_n_n.lhsIdx (ix2 p q) ((contrEquiv1 dot_S200000x128_S128x128_S200000x128_1_0_0_1_n_n 128 rfl rfl).symm k) = ix2 p k :=
    funext fun a => Fin.ext (by
      match a with
      | ⟨0, _⟩ => exact lrow_200000x128_128 _ _
      | ⟨1, _⟩ => exact (lcol_200000x128_128 _ _).trans hk)
  have er : dot_S200000x128_S128x128_S200000x128_1_0_0_1_n_n.rhsIdx (ix2 p q) ((contrEquiv1 dot_S200000x128_S128x128_S200000x128_1_0_0_1_n_n 128 rfl rfl).symm k) = ix2 k q :=
    funext fun a => Fin.ext (by
      match a with
      | ⟨0, _⟩ => exact (rrow_200000x128_128 _ _).trans hk
      | ⟨1, _⟩ => exact rcol_200000x128_128 _ _)
  rw [el, er]

/-- The reference's dense layer with the positive part, [200000, 128] by [128, 128]. -/
theorem denseRelu_200000x128_128 (X : FVec Ideal S200000x128 .f32) (W : FVec Ideal S128x128 .f32) (b : FVec Ideal S128 .f32) :
    maximumf (addf (Host.dotGeneral (F := Ideal) dot_S200000x128_S128x128_S200000x128_1_0_0_1_n_n none X W)
        (broadcastInDim S200000x128 ![0, 1] bcast_S1x128_S200000x128_0_1 (broadcastInDim S1x128 ![1] bcast_S128_S1x128_1 b)))
      (broadcastInDim S200000x128 ![] bcast_S_S200000x128 (constant (F := Ideal) S_ .f32 0x00000000#32))
      = Cert.Spec.denseRelu 200000 128 128 X W b := by
  funext i
  obtain ⟨p, q, rfl⟩ : ∃ (p : Fin 200000) (q : Fin 128), i = ix2 p q := ⟨i 0, i 1, eq_ix2 i⟩
  show max (Host.dotGeneral (F := Ideal) dot_S200000x128_S128x128_S200000x128_1_0_0_1_n_n none X W (ix2 p q)
        + broadcastInDim S200000x128 ![0, 1] bcast_S1x128_S200000x128_0_1 (broadcastInDim S1x128 ![1] bcast_S128_S1x128_1 b) (ix2 p q))
      (broadcastInDim S200000x128 ![] bcast_S_S200000x128 (constant (F := Ideal) S_ .f32 0x00000000#32) (ix2 p q)) = _
  rw [prod_200000x128_128, bias_200000_128, zeros_200000_128]
  rfl

/-- A vector of 512 entries laid as one row and repeated over 200000 rows: entry (p, q) is entry q. -/
private theorem bias_200000_512 (b : FVec Ideal S512 .f32) (p : Fin 200000) (q : Fin 512) :
    broadcastInDim S200000x512 ![0, 1] bcast_S1x512_S200000x512_0_1 (broadcastInDim S1x512 ![1] bcast_S512_S1x512_1 b) (ix2 p q)
      = b (ix1 q) := by
  have hq : q.val < 512 := q.isLt
  refine (broadcastInDim_apply _ bcast_S1x512_S200000x512_0_1 _ (ix2 p q) (ix2 (0 : Fin 1) q) fun a => ?_).trans
    (broadcastInDim_apply _ bcast_S512_S1x512_1 b (ix2 (0 : Fin 1) q) (ix1 q) fun a => ?_)
  · match a with
    | ⟨0, _⟩ => show 0 = if (1 : Nat) = 1 then 0 else p.val; rw [if_pos rfl]
    | ⟨1, _⟩ => show q.val = if (512 : Nat) = 1 then 0 else q.val; split <;> omega
  · match a with
    | ⟨0, _⟩ => show q.val = if (512 : Nat) = 1 then 0 else q.val; split <;> omega

/-- The zero spread over [200000, 512] is zero at every entry. -/
private theorem zeros_200000_512 (i : S200000x512.Idx) :
    broadcastInDim S200000x512 ![] bcast_S_S200000x512 (constant (F := Ideal) S_ .f32 0x00000000#32) i = 0 :=
  (broadcastInDim_apply _ bcast_S_S200000x512 (constant (F := Ideal) S_ .f32 0x00000000#32) i (fun a => a.elim0) (fun a => a.elim0)).trans
    Ideal.ofBits_zero_f32

/-! ### The product [200000, 768] by [768, 512] -/

/-- Left operand: the row is the result's row. -/
private theorem lrow_200000x768_512 (i : S200000x512.Idx) (q : dot_S200000x768_S768x512_S200000x512_1_0_0_1_n_n.contr.Idx) :
    (dot_S200000x768_S768x512_S200000x512_1_0_0_1_n_n.lhsIdx i q 0).val = (i 0).val := by
  unfold DotDims.lhsIdx
  rw [dif_neg (show ¬(0 : Fin S200000x768.rank) ∈ dot_S200000x768_S768x512_S200000x512_1_0_0_1_n_n.lhsBatch by decide),
    dif_pos (show (0 : Fin S200000x768.rank) ∈ dot_S200000x768_S768x512_S200000x512_1_0_0_1_n_n.lhsNonContracting by decide)]
  rfl
/-- Left operand: the column is the summation index. -/
private theorem lcol_200000x768_512 (i : S200000x512.Idx) (q : dot_S200000x768_S768x512_S200000x512_1_0_0_1_n_n.contr.Idx) :
    (dot_S200000x768_S768x512_S200000x512_1_0_0_1_n_n.lhsIdx i q 1).val = (q ⟨0, by decide⟩).val :=
  dot_S200000x768_S768x512_S200000x512_1_0_0_1_n_n.lhsIdx_val_of_single rfl i q
/-- Right operand: the row is the summation index. -/
private theorem rrow_200000x768_512 (i : S200000x512.Idx) (q : dot_S200000x768_S768x512_S200000x512_1_0_0_1_n_n.contr.Idx) :
    (dot_S200000x768_S768x512_S200000x512_1_0_0_1_n_n.rhsIdx i q 0).val = (q ⟨0, by decide⟩).val :=
  dot_S200000x768_S768x512_S200000x512_1_0_0_1_n_n.rhsIdx_val_of_single rfl i q
/-- Right operand: the column is the result's column. -/
private theorem rcol_200000x768_512 (i : S200000x512.Idx) (q : dot_S200000x768_S768x512_S200000x512_1_0_0_1_n_n.contr.Idx) :
    (dot_S200000x768_S768x512_S200000x512_1_0_0_1_n_n.rhsIdx i q 1).val = (i 1).val := by
  unfold DotDims.rhsIdx
  rw [dif_neg (show ¬(1 : Fin S768x512.rank) ∈ dot_S200000x768_S768x512_S200000x512_1_0_0_1_n_n.rhsBatch by decide),
    dif_pos (show (1 : Fin S768x512.rank) ∈ dot_S200000x768_S768x512_S200000x512_1_0_0_1_n_n.rhsNonContracting by decide)]
  rfl

/-- Entry (p, q) of the product is the sum over k of X(p, k) * W(k, q). -/
private theorem prod_200000x768_512 (X : FVec Ideal S200000x768 .f32) (W : FVec Ideal S768x512 .f32) (p : Fin 200000) (q : Fin 512) :
    Host.dotGeneral (F := Ideal) dot_S200000x768_S768x512_S200000x512_1_0_0_1_n_n none X W (ix2 p q) = ∑ k : Fin 768, X (ix2 p k) * W (ix2 k q) := by
  simp only [Host.dotGeneral]
  rw [Ideal.dotGeneral_apply, ← Equiv.sum_comp (contrEquiv1 dot_S200000x768_S768x512_S200000x512_1_0_0_1_n_n 768 rfl rfl).symm]
  refine Finset.sum_congr rfl fun k _ => ?_
  have hk := contrEquiv1_symm_val dot_S200000x768_S768x512_S200000x512_1_0_0_1_n_n 768 rfl rfl k
  have el : dot_S200000x768_S768x512_S200000x512_1_0_0_1_n_n.lhsIdx (ix2 p q) ((contrEquiv1 dot_S200000x768_S768x512_S200000x512_1_0_0_1_n_n 768 rfl rfl).symm k) = ix2 p k :=
    funext fun a => Fin.ext (by
      match a with
      | ⟨0, _⟩ => exact lrow_200000x768_512 _ _
      | ⟨1, _⟩ => exact (lcol_200000x768_512 _ _).trans hk)
  have er : dot_S200000x768_S768x512_S200000x512_1_0_0_1_n_n.rhsIdx (ix2 p q) ((contrEquiv1 dot_S200000x768_S768x512_S200000x512_1_0_0_1_n_n 768 rfl rfl).symm k) = ix2 k q :=
    funext fun a => Fin.ext (by
      match a with
      | ⟨0, _⟩ => exact (rrow_200000x768_512 _ _).trans hk
      | ⟨1, _⟩ => exact rcol_200000x768_512 _ _)
  rw [el, er]

/-- The reference's dense layer with the positive part, [200000, 768] by [768, 512]. -/
theorem denseRelu_200000x768_512 (X : FVec Ideal S200000x768 .f32) (W : FVec Ideal S768x512 .f32) (b : FVec Ideal S512 .f32) :
    maximumf (addf (Host.dotGeneral (F := Ideal) dot_S200000x768_S768x512_S200000x512_1_0_0_1_n_n none X W)
        (broadcastInDim S200000x512 ![0, 1] bcast_S1x512_S200000x512_0_1 (broadcastInDim S1x512 ![1] bcast_S512_S1x512_1 b)))
      (broadcastInDim S200000x512 ![] bcast_S_S200000x512 (constant (F := Ideal) S_ .f32 0x00000000#32))
      = Cert.Spec.denseRelu 200000 768 512 X W b := by
  funext i
  obtain ⟨p, q, rfl⟩ : ∃ (p : Fin 200000) (q : Fin 512), i = ix2 p q := ⟨i 0, i 1, eq_ix2 i⟩
  show max (Host.dotGeneral (F := Ideal) dot_S200000x768_S768x512_S200000x512_1_0_0_1_n_n none X W (ix2 p q)
        + broadcastInDim S200000x512 ![0, 1] bcast_S1x512_S200000x512_0_1 (broadcastInDim S1x512 ![1] bcast_S512_S1x512_1 b) (ix2 p q))
      (broadcastInDim S200000x512 ![] bcast_S_S200000x512 (constant (F := Ideal) S_ .f32 0x00000000#32) (ix2 p q)) = _
  rw [prod_200000x768_512, bias_200000_512, zeros_200000_512]
  rfl

/-! ### The product [200000, 512] by [512, 128] -/

/-- Left operand: the row is the result's row. -/
private theorem lrow_200000x512_128 (i : S200000x128.Idx) (q : dot_S200000x512_S512x128_S200000x128_1_0_0_1_n_n.contr.Idx) :
    (dot_S200000x512_S512x128_S200000x128_1_0_0_1_n_n.lhsIdx i q 0).val = (i 0).val := by
  unfold DotDims.lhsIdx
  rw [dif_neg (show ¬(0 : Fin S200000x512.rank) ∈ dot_S200000x512_S512x128_S200000x128_1_0_0_1_n_n.lhsBatch by decide),
    dif_pos (show (0 : Fin S200000x512.rank) ∈ dot_S200000x512_S512x128_S200000x128_1_0_0_1_n_n.lhsNonContracting by decide)]
  rfl
/-- Left operand: the column is the summation index. -/
private theorem lcol_200000x512_128 (i : S200000x128.Idx) (q : dot_S200000x512_S512x128_S200000x128_1_0_0_1_n_n.contr.Idx) :
    (dot_S200000x512_S512x128_S200000x128_1_0_0_1_n_n.lhsIdx i q 1).val = (q ⟨0, by decide⟩).val :=
  dot_S200000x512_S512x128_S200000x128_1_0_0_1_n_n.lhsIdx_val_of_single rfl i q
/-- Right operand: the row is the summation index. -/
private theorem rrow_200000x512_128 (i : S200000x128.Idx) (q : dot_S200000x512_S512x128_S200000x128_1_0_0_1_n_n.contr.Idx) :
    (dot_S200000x512_S512x128_S200000x128_1_0_0_1_n_n.rhsIdx i q 0).val = (q ⟨0, by decide⟩).val :=
  dot_S200000x512_S512x128_S200000x128_1_0_0_1_n_n.rhsIdx_val_of_single rfl i q
/-- Right operand: the column is the result's column. -/
private theorem rcol_200000x512_128 (i : S200000x128.Idx) (q : dot_S200000x512_S512x128_S200000x128_1_0_0_1_n_n.contr.Idx) :
    (dot_S200000x512_S512x128_S200000x128_1_0_0_1_n_n.rhsIdx i q 1).val = (i 1).val := by
  unfold DotDims.rhsIdx
  rw [dif_neg (show ¬(1 : Fin S512x128.rank) ∈ dot_S200000x512_S512x128_S200000x128_1_0_0_1_n_n.rhsBatch by decide),
    dif_pos (show (1 : Fin S512x128.rank) ∈ dot_S200000x512_S512x128_S200000x128_1_0_0_1_n_n.rhsNonContracting by decide)]
  rfl

/-- Entry (p, q) of the product is the sum over k of X(p, k) * W(k, q). -/
private theorem prod_200000x512_128 (X : FVec Ideal S200000x512 .f32) (W : FVec Ideal S512x128 .f32) (p : Fin 200000) (q : Fin 128) :
    Host.dotGeneral (F := Ideal) dot_S200000x512_S512x128_S200000x128_1_0_0_1_n_n none X W (ix2 p q) = ∑ k : Fin 512, X (ix2 p k) * W (ix2 k q) := by
  simp only [Host.dotGeneral]
  rw [Ideal.dotGeneral_apply, ← Equiv.sum_comp (contrEquiv1 dot_S200000x512_S512x128_S200000x128_1_0_0_1_n_n 512 rfl rfl).symm]
  refine Finset.sum_congr rfl fun k _ => ?_
  have hk := contrEquiv1_symm_val dot_S200000x512_S512x128_S200000x128_1_0_0_1_n_n 512 rfl rfl k
  have el : dot_S200000x512_S512x128_S200000x128_1_0_0_1_n_n.lhsIdx (ix2 p q) ((contrEquiv1 dot_S200000x512_S512x128_S200000x128_1_0_0_1_n_n 512 rfl rfl).symm k) = ix2 p k :=
    funext fun a => Fin.ext (by
      match a with
      | ⟨0, _⟩ => exact lrow_200000x512_128 _ _
      | ⟨1, _⟩ => exact (lcol_200000x512_128 _ _).trans hk)
  have er : dot_S200000x512_S512x128_S200000x128_1_0_0_1_n_n.rhsIdx (ix2 p q) ((contrEquiv1 dot_S200000x512_S512x128_S200000x128_1_0_0_1_n_n 512 rfl rfl).symm k) = ix2 k q :=
    funext fun a => Fin.ext (by
      match a with
      | ⟨0, _⟩ => exact (rrow_200000x512_128 _ _).trans hk
      | ⟨1, _⟩ => exact rcol_200000x512_128 _ _)
  rw [el, er]

/-- The reference's dense layer with the positive part, [200000, 512] by [512, 128]. -/
theorem denseRelu_200000x512_128 (X : FVec Ideal S200000x512 .f32) (W : FVec Ideal S512x128 .f32) (b : FVec Ideal S128 .f32) :
    maximumf (addf (Host.dotGeneral (F := Ideal) dot_S200000x512_S512x128_S200000x128_1_0_0_1_n_n none X W)
        (broadcastInDim S200000x128 ![0, 1] bcast_S1x128_S200000x128_0_1 (broadcastInDim S1x128 ![1] bcast_S128_S1x128_1 b)))
      (broadcastInDim S200000x128 ![] bcast_S_S200000x128 (constant (F := Ideal) S_ .f32 0x00000000#32))
      = Cert.Spec.denseRelu 200000 512 128 X W b := by
  funext i
  obtain ⟨p, q, rfl⟩ : ∃ (p : Fin 200000) (q : Fin 128), i = ix2 p q := ⟨i 0, i 1, eq_ix2 i⟩
  show max (Host.dotGeneral (F := Ideal) dot_S200000x512_S512x128_S200000x128_1_0_0_1_n_n none X W (ix2 p q)
        + broadcastInDim S200000x128 ![0, 1] bcast_S1x128_S200000x128_0_1 (broadcastInDim S1x128 ![1] bcast_S128_S1x128_1 b) (ix2 p q))
      (broadcastInDim S200000x128 ![] bcast_S_S200000x128 (constant (F := Ideal) S_ .f32 0x00000000#32) (ix2 p q)) = _
  rw [prod_200000x512_128, bias_200000_128, zeros_200000_128]
  rfl

/-! ### The product [200000, 384] by [384, 128] -/

/-- Left operand: the row is the result's row. -/
private theorem lrow_200000x384_128 (i : S200000x128.Idx) (q : dot_S200000x384_S384x128_S200000x128_1_0_0_1_n_n.contr.Idx) :
    (dot_S200000x384_S384x128_S200000x128_1_0_0_1_n_n.lhsIdx i q 0).val = (i 0).val := by
  unfold DotDims.lhsIdx
  rw [dif_neg (show ¬(0 : Fin S200000x384.rank) ∈ dot_S200000x384_S384x128_S200000x128_1_0_0_1_n_n.lhsBatch by decide),
    dif_pos (show (0 : Fin S200000x384.rank) ∈ dot_S200000x384_S384x128_S200000x128_1_0_0_1_n_n.lhsNonContracting by decide)]
  rfl
/-- Left operand: the column is the summation index. -/
private theorem lcol_200000x384_128 (i : S200000x128.Idx) (q : dot_S200000x384_S384x128_S200000x128_1_0_0_1_n_n.contr.Idx) :
    (dot_S200000x384_S384x128_S200000x128_1_0_0_1_n_n.lhsIdx i q 1).val = (q ⟨0, by decide⟩).val :=
  dot_S200000x384_S384x128_S200000x128_1_0_0_1_n_n.lhsIdx_val_of_single rfl i q
/-- Right operand: the row is the summation index. -/
private theorem rrow_200000x384_128 (i : S200000x128.Idx) (q : dot_S200000x384_S384x128_S200000x128_1_0_0_1_n_n.contr.Idx) :
    (dot_S200000x384_S384x128_S200000x128_1_0_0_1_n_n.rhsIdx i q 0).val = (q ⟨0, by decide⟩).val :=
  dot_S200000x384_S384x128_S200000x128_1_0_0_1_n_n.rhsIdx_val_of_single rfl i q
/-- Right operand: the column is the result's column. -/
private theorem rcol_200000x384_128 (i : S200000x128.Idx) (q : dot_S200000x384_S384x128_S200000x128_1_0_0_1_n_n.contr.Idx) :
    (dot_S200000x384_S384x128_S200000x128_1_0_0_1_n_n.rhsIdx i q 1).val = (i 1).val := by
  unfold DotDims.rhsIdx
  rw [dif_neg (show ¬(1 : Fin S384x128.rank) ∈ dot_S200000x384_S384x128_S200000x128_1_0_0_1_n_n.rhsBatch by decide),
    dif_pos (show (1 : Fin S384x128.rank) ∈ dot_S200000x384_S384x128_S200000x128_1_0_0_1_n_n.rhsNonContracting by decide)]
  rfl

/-- Entry (p, q) of the product is the sum over k of X(p, k) * W(k, q). -/
private theorem prod_200000x384_128 (X : FVec Ideal S200000x384 .f32) (W : FVec Ideal S384x128 .f32) (p : Fin 200000) (q : Fin 128) :
    Host.dotGeneral (F := Ideal) dot_S200000x384_S384x128_S200000x128_1_0_0_1_n_n none X W (ix2 p q) = ∑ k : Fin 384, X (ix2 p k) * W (ix2 k q) := by
  simp only [Host.dotGeneral]
  rw [Ideal.dotGeneral_apply, ← Equiv.sum_comp (contrEquiv1 dot_S200000x384_S384x128_S200000x128_1_0_0_1_n_n 384 rfl rfl).symm]
  refine Finset.sum_congr rfl fun k _ => ?_
  have hk := contrEquiv1_symm_val dot_S200000x384_S384x128_S200000x128_1_0_0_1_n_n 384 rfl rfl k
  have el : dot_S200000x384_S384x128_S200000x128_1_0_0_1_n_n.lhsIdx (ix2 p q) ((contrEquiv1 dot_S200000x384_S384x128_S200000x128_1_0_0_1_n_n 384 rfl rfl).symm k) = ix2 p k :=
    funext fun a => Fin.ext (by
      match a with
      | ⟨0, _⟩ => exact lrow_200000x384_128 _ _
      | ⟨1, _⟩ => exact (lcol_200000x384_128 _ _).trans hk)
  have er : dot_S200000x384_S384x128_S200000x128_1_0_0_1_n_n.rhsIdx (ix2 p q) ((contrEquiv1 dot_S200000x384_S384x128_S200000x128_1_0_0_1_n_n 384 rfl rfl).symm k) = ix2 k q :=
    funext fun a => Fin.ext (by
      match a with
      | ⟨0, _⟩ => exact (rrow_200000x384_128 _ _).trans hk
      | ⟨1, _⟩ => exact rcol_200000x384_128 _ _)
  rw [el, er]

/-- The reference's dense layer with the positive part, [200000, 384] by [384, 128]. -/
theorem denseRelu_200000x384_128 (X : FVec Ideal S200000x384 .f32) (W : FVec Ideal S384x128 .f32) (b : FVec Ideal S128 .f32) :
    maximumf (addf (Host.dotGeneral (F := Ideal) dot_S200000x384_S384x128_S200000x128_1_0_0_1_n_n none X W)
        (broadcastInDim S200000x128 ![0, 1] bcast_S1x128_S200000x128_0_1 (broadcastInDim S1x128 ![1] bcast_S128_S1x128_1 b)))
      (broadcastInDim S200000x128 ![] bcast_S_S200000x128 (constant (F := Ideal) S_ .f32 0x00000000#32))
      = Cert.Spec.denseRelu 200000 384 128 X W b := by
  funext i
  obtain ⟨p, q, rfl⟩ : ∃ (p : Fin 200000) (q : Fin 128), i = ix2 p q := ⟨i 0, i 1, eq_ix2 i⟩
  show max (Host.dotGeneral (F := Ideal) dot_S200000x384_S384x128_S200000x128_1_0_0_1_n_n none X W (ix2 p q)
        + broadcastInDim S200000x128 ![0, 1] bcast_S1x128_S200000x128_0_1 (broadcastInDim S1x128 ![1] bcast_S128_S1x128_1 b) (ix2 p q))
      (broadcastInDim S200000x128 ![] bcast_S_S200000x128 (constant (F := Ideal) S_ .f32 0x00000000#32) (ix2 p q)) = _
  rw [prod_200000x384_128, bias_200000_128, zeros_200000_128]
  rfl

/-- A vector of 1 entries laid as one row and repeated over 10000 rows: entry (p, q) is entry q. -/
private theorem bias_10000_1 (b : FVec Ideal S1 .f32) (p : Fin 10000) (q : Fin 1) :
    broadcastInDim S10000x1 ![0, 1] bcast_S1x1_S10000x1_0_1 (broadcastInDim S1x1 ![1] bcast_S1_S1x1_1 b) (ix2 p q)
      = b (ix1 q) := by
  have hq : q.val < 1 := q.isLt
  refine (broadcastInDim_apply _ bcast_S1x1_S10000x1_0_1 _ (ix2 p q) (ix2 (0 : Fin 1) q) fun a => ?_).trans
    (broadcastInDim_apply _ bcast_S1_S1x1_1 b (ix2 (0 : Fin 1) q) (ix1 q) fun a => ?_)
  · match a with
    | ⟨0, _⟩ => show 0 = if (1 : Nat) = 1 then 0 else p.val; rw [if_pos rfl]
    | ⟨1, _⟩ => show q.val = if (1 : Nat) = 1 then 0 else q.val; split <;> omega
  · match a with
    | ⟨0, _⟩ => show q.val = if (1 : Nat) = 1 then 0 else q.val; split <;> omega

/-! ### The product [10000, 128] by [128, 1] -/

/-- Left operand: the row is the result's row. -/
private theorem lrow_10000x128_1 (i : S10000x1.Idx) (q : dot_S10000x128_S128x1_S10000x1_1_0_0_1_n_n.contr.Idx) :
    (dot_S10000x128_S128x1_S10000x1_1_0_0_1_n_n.lhsIdx i q 0).val = (i 0).val := by
  unfold DotDims.lhsIdx
  rw [dif_neg (show ¬(0 : Fin S10000x128.rank) ∈ dot_S10000x128_S128x1_S10000x1_1_0_0_1_n_n.lhsBatch by decide),
    dif_pos (show (0 : Fin S10000x128.rank) ∈ dot_S10000x128_S128x1_S10000x1_1_0_0_1_n_n.lhsNonContracting by decide)]
  rfl
/-- Left operand: the column is the summation index. -/
private theorem lcol_10000x128_1 (i : S10000x1.Idx) (q : dot_S10000x128_S128x1_S10000x1_1_0_0_1_n_n.contr.Idx) :
    (dot_S10000x128_S128x1_S10000x1_1_0_0_1_n_n.lhsIdx i q 1).val = (q ⟨0, by decide⟩).val :=
  dot_S10000x128_S128x1_S10000x1_1_0_0_1_n_n.lhsIdx_val_of_single rfl i q
/-- Right operand: the row is the summation index. -/
private theorem rrow_10000x128_1 (i : S10000x1.Idx) (q : dot_S10000x128_S128x1_S10000x1_1_0_0_1_n_n.contr.Idx) :
    (dot_S10000x128_S128x1_S10000x1_1_0_0_1_n_n.rhsIdx i q 0).val = (q ⟨0, by decide⟩).val :=
  dot_S10000x128_S128x1_S10000x1_1_0_0_1_n_n.rhsIdx_val_of_single rfl i q
/-- Right operand: the column is the result's column. -/
private theorem rcol_10000x128_1 (i : S10000x1.Idx) (q : dot_S10000x128_S128x1_S10000x1_1_0_0_1_n_n.contr.Idx) :
    (dot_S10000x128_S128x1_S10000x1_1_0_0_1_n_n.rhsIdx i q 1).val = (i 1).val := by
  unfold DotDims.rhsIdx
  rw [dif_neg (show ¬(1 : Fin S128x1.rank) ∈ dot_S10000x128_S128x1_S10000x1_1_0_0_1_n_n.rhsBatch by decide),
    dif_pos (show (1 : Fin S128x1.rank) ∈ dot_S10000x128_S128x1_S10000x1_1_0_0_1_n_n.rhsNonContracting by decide)]
  rfl

/-- Entry (p, q) of the product is the sum over k of X(p, k) * W(k, q). -/
private theorem prod_10000x128_1 (X : FVec Ideal S10000x128 .f32) (W : FVec Ideal S128x1 .f32) (p : Fin 10000) (q : Fin 1) :
    Host.dotGeneral (F := Ideal) dot_S10000x128_S128x1_S10000x1_1_0_0_1_n_n none X W (ix2 p q) = ∑ k : Fin 128, X (ix2 p k) * W (ix2 k q) := by
  simp only [Host.dotGeneral]
  rw [Ideal.dotGeneral_apply, ← Equiv.sum_comp (contrEquiv1 dot_S10000x128_S128x1_S10000x1_1_0_0_1_n_n 128 rfl rfl).symm]
  refine Finset.sum_congr rfl fun k _ => ?_
  have hk := contrEquiv1_symm_val dot_S10000x128_S128x1_S10000x1_1_0_0_1_n_n 128 rfl rfl k
  have el : dot_S10000x128_S128x1_S10000x1_1_0_0_1_n_n.lhsIdx (ix2 p q) ((contrEquiv1 dot_S10000x128_S128x1_S10000x1_1_0_0_1_n_n 128 rfl rfl).symm k) = ix2 p k :=
    funext fun a => Fin.ext (by
      match a with
      | ⟨0, _⟩ => exact lrow_10000x128_1 _ _
      | ⟨1, _⟩ => exact (lcol_10000x128_1 _ _).trans hk)
  have er : dot_S10000x128_S128x1_S10000x1_1_0_0_1_n_n.rhsIdx (ix2 p q) ((contrEquiv1 dot_S10000x128_S128x1_S10000x1_1_0_0_1_n_n 128 rfl rfl).symm k) = ix2 k q :=
    funext fun a => Fin.ext (by
      match a with
      | ⟨0, _⟩ => exact (rrow_10000x128_1 _ _).trans hk
      | ⟨1, _⟩ => exact rcol_10000x128_1 _ _)
  rw [el, er]

/-- The reference's last layer of a scoring head, [10000, 128] by [128, 1], without the positive part. -/
theorem dense_10000x128_1 (X : FVec Ideal S10000x128 .f32) (W : FVec Ideal S128x1 .f32) (b : FVec Ideal S1 .f32) :
    addf (Host.dotGeneral (F := Ideal) dot_S10000x128_S128x1_S10000x1_1_0_0_1_n_n none X W)
        (broadcastInDim S10000x1 ![0, 1] bcast_S1x1_S10000x1_0_1 (broadcastInDim S1x1 ![1] bcast_S1_S1x1_1 b))
      = Cert.Spec.dense 10000 128 1 X W b := by
  funext i
  obtain ⟨p, q, rfl⟩ : ∃ (p : Fin 10000) (q : Fin 1), i = ix2 p q := ⟨i 0, i 1, eq_ix2 i⟩
  show Host.dotGeneral (F := Ideal) dot_S10000x128_S128x1_S10000x1_1_0_0_1_n_n none X W (ix2 p q)
      + broadcastInDim S10000x1 ![0, 1] bcast_S1x1_S10000x1_0_1 (broadcastInDim S1x1 ![1] bcast_S1_S1x1_1 b) (ix2 p q) = _
  rw [prod_10000x128_1, bias_10000_1]
  rfl

/-- A vector of 1 entries laid as one row and repeated over 200000 rows: entry (p, q) is entry q. -/
private theorem bias_200000_1 (b : FVec Ideal S1 .f32) (p : Fin 200000) (q : Fin 1) :
    broadcastInDim S200000x1 ![0, 1] bcast_S1x1_S200000x1_0_1 (broadcastInDim S1x1 ![1] bcast_S1_S1x1_1 b) (ix2 p q)
      = b (ix1 q) := by
  have hq : q.val < 1 := q.isLt
  refine (broadcastInDim_apply _ bcast_S1x1_S200000x1_0_1 _ (ix2 p q) (ix2 (0 : Fin 1) q) fun a => ?_).trans
    (broadcastInDim_apply _ bcast_S1_S1x1_1 b (ix2 (0 : Fin 1) q) (ix1 q) fun a => ?_)
  · match a with
    | ⟨0, _⟩ => show 0 = if (1 : Nat) = 1 then 0 else p.val; rw [if_pos rfl]
    | ⟨1, _⟩ => show q.val = if (1 : Nat) = 1 then 0 else q.val; split <;> omega
  · match a with
    | ⟨0, _⟩ => show q.val = if (1 : Nat) = 1 then 0 else q.val; split <;> omega

/-! ### The product [200000, 128] by [128, 1] -/

/-- Left operand: the row is the result's row. -/
private theorem lrow_200000x128_1 (i : S200000x1.Idx) (q : dot_S200000x128_S128x1_S200000x1_1_0_0_1_n_n.contr.Idx) :
    (dot_S200000x128_S128x1_S200000x1_1_0_0_1_n_n.lhsIdx i q 0).val = (i 0).val := by
  unfold DotDims.lhsIdx
  rw [dif_neg (show ¬(0 : Fin S200000x128.rank) ∈ dot_S200000x128_S128x1_S200000x1_1_0_0_1_n_n.lhsBatch by decide),
    dif_pos (show (0 : Fin S200000x128.rank) ∈ dot_S200000x128_S128x1_S200000x1_1_0_0_1_n_n.lhsNonContracting by decide)]
  rfl
/-- Left operand: the column is the summation index. -/
private theorem lcol_200000x128_1 (i : S200000x1.Idx) (q : dot_S200000x128_S128x1_S200000x1_1_0_0_1_n_n.contr.Idx) :
    (dot_S200000x128_S128x1_S200000x1_1_0_0_1_n_n.lhsIdx i q 1).val = (q ⟨0, by decide⟩).val :=
  dot_S200000x128_S128x1_S200000x1_1_0_0_1_n_n.lhsIdx_val_of_single rfl i q
/-- Right operand: the row is the summation index. -/
private theorem rrow_200000x128_1 (i : S200000x1.Idx) (q : dot_S200000x128_S128x1_S200000x1_1_0_0_1_n_n.contr.Idx) :
    (dot_S200000x128_S128x1_S200000x1_1_0_0_1_n_n.rhsIdx i q 0).val = (q ⟨0, by decide⟩).val :=
  dot_S200000x128_S128x1_S200000x1_1_0_0_1_n_n.rhsIdx_val_of_single rfl i q
/-- Right operand: the column is the result's column. -/
private theorem rcol_200000x128_1 (i : S200000x1.Idx) (q : dot_S200000x128_S128x1_S200000x1_1_0_0_1_n_n.contr.Idx) :
    (dot_S200000x128_S128x1_S200000x1_1_0_0_1_n_n.rhsIdx i q 1).val = (i 1).val := by
  unfold DotDims.rhsIdx
  rw [dif_neg (show ¬(1 : Fin S128x1.rank) ∈ dot_S200000x128_S128x1_S200000x1_1_0_0_1_n_n.rhsBatch by decide),
    dif_pos (show (1 : Fin S128x1.rank) ∈ dot_S200000x128_S128x1_S200000x1_1_0_0_1_n_n.rhsNonContracting by decide)]
  rfl

/-- Entry (p, q) of the product is the sum over k of X(p, k) * W(k, q). -/
private theorem prod_200000x128_1 (X : FVec Ideal S200000x128 .f32) (W : FVec Ideal S128x1 .f32) (p : Fin 200000) (q : Fin 1) :
    Host.dotGeneral (F := Ideal) dot_S200000x128_S128x1_S200000x1_1_0_0_1_n_n none X W (ix2 p q) = ∑ k : Fin 128, X (ix2 p k) * W (ix2 k q) := by
  simp only [Host.dotGeneral]
  rw [Ideal.dotGeneral_apply, ← Equiv.sum_comp (contrEquiv1 dot_S200000x128_S128x1_S200000x1_1_0_0_1_n_n 128 rfl rfl).symm]
  refine Finset.sum_congr rfl fun k _ => ?_
  have hk := contrEquiv1_symm_val dot_S200000x128_S128x1_S200000x1_1_0_0_1_n_n 128 rfl rfl k
  have el : dot_S200000x128_S128x1_S200000x1_1_0_0_1_n_n.lhsIdx (ix2 p q) ((contrEquiv1 dot_S200000x128_S128x1_S200000x1_1_0_0_1_n_n 128 rfl rfl).symm k) = ix2 p k :=
    funext fun a => Fin.ext (by
      match a with
      | ⟨0, _⟩ => exact lrow_200000x128_1 _ _
      | ⟨1, _⟩ => exact (lcol_200000x128_1 _ _).trans hk)
  have er : dot_S200000x128_S128x1_S200000x1_1_0_0_1_n_n.rhsIdx (ix2 p q) ((contrEquiv1 dot_S200000x128_S128x1_S200000x1_1_0_0_1_n_n 128 rfl rfl).symm k) = ix2 k q :=
    funext fun a => Fin.ext (by
      match a with
      | ⟨0, _⟩ => exact (rrow_200000x128_1 _ _).trans hk
      | ⟨1, _⟩ => exact rcol_200000x128_1 _ _)
  rw [el, er]

/-- The reference's last layer of a scoring head, [200000, 128] by [128, 1], without the positive part. -/
theorem dense_200000x128_1 (X : FVec Ideal S200000x128 .f32) (W : FVec Ideal S128x1 .f32) (b : FVec Ideal S1 .f32) :
    addf (Host.dotGeneral (F := Ideal) dot_S200000x128_S128x1_S200000x1_1_0_0_1_n_n none X W)
        (broadcastInDim S200000x1 ![0, 1] bcast_S1x1_S200000x1_0_1 (broadcastInDim S1x1 ![1] bcast_S1_S1x1_1 b))
      = Cert.Spec.dense 200000 128 1 X W b := by
  funext i
  obtain ⟨p, q, rfl⟩ : ∃ (p : Fin 200000) (q : Fin 1), i = ix2 p q := ⟨i 0, i 1, eq_ix2 i⟩
  show Host.dotGeneral (F := Ideal) dot_S200000x128_S128x1_S200000x1_1_0_0_1_n_n none X W (ix2 p q)
      + broadcastInDim S200000x1 ![0, 1] bcast_S1x1_S200000x1_0_1 (broadcastInDim S1x1 ![1] bcast_S1_S1x1_1 b) (ix2 p q) = _
  rw [prod_200000x128_1, bias_200000_1]
  rfl

end Cert.ReferenceIdeal.Hand

end
-- ==== Proof.RefJoins.lean ====
/-
  The reference's joins of arrays along their columns, read row by row: in each row the first array's columns come
  first, then the next array's. A three-way join is the join of the first two followed by the third.
-/
import proofs.«425812_j65979287601856_3_alg».proof.Proof.Gen.ReferenceIdeal
import proofs.«425812_j65979287601856_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic
open scoped BigOperators

namespace Cert.ReferenceIdeal.Hand

open Cert.ReferenceIdeal Cert.ReferenceIdeal.Gen

/-- A join along the columns read at (p, q), when column q falls in piece k: that piece at (p, q less the columns before it). -/
private theorem concat_piece {R N A : ℕ} (xs : List ((s : Shape) × (s.Idx → EReal)))
    (h : Shape.Concatenates (xs.map (·.1)) (⟨2, ![R, N]⟩ : Shape) 1) (k : ℕ) (hk : k < xs.length)
    (x : (⟨2, ![R, A]⟩ : Shape).Idx → EReal) (hxk : xs[k] = ⟨(⟨2, ![R, A]⟩ : Shape), x⟩) (pre : ℕ)
    (hpre : (((xs.take k).map (·.1)).map fun s => if h : s.rank = (⟨2, ![R, N]⟩ : Shape).rank then s.size ((1 : Fin (⟨2, ![R, N]⟩ : Shape).rank).cast h.symm) else 0).sum = pre)
    (p : Fin R) (q : Fin N) (q' : Fin A) (hq : pre + q'.val = q.val) :
    concatenate (⟨2, ![R, N]⟩ : Shape) 1 xs h (ValueIdx.ix2 p q) = x (ValueIdx.ix2 p q') := by
  refine concatenate_apply_piece (1 : Fin (⟨2, ![R, N]⟩ : Shape).rank) xs h (ValueIdx.ix2 p q) k hk (⟨2, ![R, A]⟩ : Shape) x hxk rfl pre hpre
    (ValueIdx.ix2 p q') (fun b hb => ?_) hq
  match b with
  | ⟨0, _⟩ => rfl
  | ⟨1, _⟩ => exact absurd rfl hb

/-- The three-way join of the gathered target rows, the gathered source rows and the joined edge features. -/
theorem cat3_eq (XI XJ EFC : FVec Ideal S200000x256 .f32) :
    concatenate S200000x768 1 [⟨S200000x256, XI⟩, ⟨S200000x256, XJ⟩, ⟨S200000x256, EFC⟩] concatenates_S200000x256_S200000x256_S200000x256_S200000x768_d1
      = Cert.Spec.cat2 200000 512 256 768 rfl (Cert.Spec.cat2 200000 256 256 512 rfl XI XJ) EFC := by
  funext i
  obtain ⟨p, q, rfl⟩ : ∃ (p : Fin 200000) (q : Fin 768), i = ValueIdx.ix2 p q := ⟨i 0, i 1, ValueIdx.eq_ix2 i⟩
  have hq := q.isLt
  by_cases h1 : q.val < 256
  · have h2 : q.val < 512 := by omega
    refine (concat_piece (R := 200000) (N := 768) (A := 256) [⟨S200000x256, XI⟩, ⟨S200000x256, XJ⟩, ⟨S200000x256, EFC⟩] concatenates_S200000x256_S200000x256_S200000x256_S200000x768_d1 0 (by show 0 < 3; omega) XI rfl 0 rfl p q ⟨q.val, h1⟩ (by simp)).trans ?_
    show _ = if h : q.val < 512 then (if h' : q.val < 256 then XI (ValueIdx.ix2 p ⟨q.val, h'⟩) else XJ (ValueIdx.ix2 p ⟨q.val - 256, _⟩)) else EFC (ValueIdx.ix2 p ⟨q.val - 512, _⟩)
    rw [dif_pos h2, dif_pos h1]
  · by_cases h2 : q.val < 512
    · refine (concat_piece (R := 200000) (N := 768) (A := 256) [⟨S200000x256, XI⟩, ⟨S200000x256, XJ⟩, ⟨S200000x256, EFC⟩] concatenates_S200000x256_S200000x256_S200000x256_S200000x768_d1 1 (by show 1 < 3; omega) XJ rfl 256 rfl p q ⟨q.val - 256, by omega⟩ (by show 256 + (q.val - 256) = q.val; omega)).trans ?_
      show _ = if h : q.val < 512 then (if h' : q.val < 256 then XI (ValueIdx.ix2 p ⟨q.val, h'⟩) else XJ (ValueIdx.ix2 p ⟨q.val - 256, _⟩)) else EFC (ValueIdx.ix2 p ⟨q.val - 512, _⟩)
      rw [dif_pos h2, dif_neg h1]
    · refine (concat_piece (R := 200000) (N := 768) (A := 256) [⟨S200000x256, XI⟩, ⟨S200000x256, XJ⟩, ⟨S200000x256, EFC⟩] concatenates_S200000x256_S200000x256_S200000x256_S200000x768_d1 2 (by show 2 < 3; omega) EFC rfl 512 rfl p q ⟨q.val - 512, by omega⟩ (by show 512 + (q.val - 512) = q.val; omega)).trans ?_
      show _ = if h : q.val < 512 then (if h' : q.val < 256 then XI (ValueIdx.ix2 p ⟨q.val, h'⟩) else XJ (ValueIdx.ix2 p ⟨q.val - 256, _⟩)) else EFC (ValueIdx.ix2 p ⟨q.val - 512, _⟩)
      rw [dif_neg h2]

/-- The join of the gathered target rows and the new edge features. -/
theorem cat2_eq (XI : FVec Ideal S200000x256 .f32) (E : FVec Ideal S200000x128 .f32) :
    concatenate S200000x384 1 [⟨S200000x256, XI⟩, ⟨S200000x128, E⟩] concatenates_S200000x256_S200000x128_S200000x384_d1
      = Cert.Spec.cat2 200000 256 128 384 rfl XI E := by
  funext i
  obtain ⟨p, q, rfl⟩ : ∃ (p : Fin 200000) (q : Fin 384), i = ValueIdx.ix2 p q := ⟨i 0, i 1, ValueIdx.eq_ix2 i⟩
  have hq := q.isLt
  by_cases h1 : q.val < 256
  · refine (concat_piece (R := 200000) (N := 384) (A := 256) [⟨S200000x256, XI⟩, ⟨S200000x128, E⟩] concatenates_S200000x256_S200000x128_S200000x384_d1 0 (by show 0 < 2; omega) XI rfl 0 rfl p q ⟨q.val, h1⟩ (by simp)).trans ?_
    show _ = if h : q.val < 256 then XI (ValueIdx.ix2 p ⟨q.val, h⟩) else E (ValueIdx.ix2 p ⟨q.val - 256, _⟩)
    rw [dif_pos h1]
  · refine (concat_piece (R := 200000) (N := 384) (A := 128) [⟨S200000x256, XI⟩, ⟨S200000x128, E⟩] concatenates_S200000x256_S200000x128_S200000x384_d1 1 (by show 1 < 2; omega) E rfl 256 rfl p q ⟨q.val - 256, by omega⟩ (by show 256 + (q.val - 256) = q.val; omega)).trans ?_
    show _ = if h : q.val < 256 then XI (ValueIdx.ix2 p ⟨q.val, h⟩) else E (ValueIdx.ix2 p ⟨q.val - 256, _⟩)
    rw [dif_neg h1]

end Cert.ReferenceIdeal.Hand

end
-- ==== Proof.RefC1.lean ====
/-
  The reference's first 32 operations: the ids sliced from the edge index and the two embeddings.
-/
import proofs.«425812_j65979287601856_3_alg».proof.Proof.RefBase
import proofs.«425812_j65979287601856_3_alg».proof.Proof.RefLayers
import proofs.«425812_j65979287601856_3_alg».proof.Proof.RefJoins

import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen Cert.ReferenceIdeal.ValueP Cert.Spec
open Cert.KernelIdeal.Hand (Args outEdge outNode gatherRows nf0 ef0 e1 n1 e2 n2 stepE stepM stepN tgt src catN catE aggregate wrapIdx)

variable (m : (ℓ : Loc nD τ sig) → Buf (Elt Ideal) ℓ)

/-- The embedded node features. The buffer is the positive part of a dense layer applied to the positive part of a
    dense layer of the node inputs: two 128-to-128 layers over 10000 rows, each read as the row-wise dense layer. -/
theorem u1_nf0 (d : Dev nD) : U1 (F := Ideal) m d (Proc.devRef .tc main_v13) = nf0 (argsOfRef m d) := by
  -- the buffer's contents as the operations' functions applied to the launch contents of the arguments
  rw [U1_def]
  simp only [opsC1]
  after_results_simp
  -- the positive part's operands carry their array type along an identity transport
  simp only [TRef.ofBuf, TRef.toBuf, cast_eq]
  -- each product, plus the bias spread over the rows, maximum with zeros, is the dense layer with the positive part
  rw [denseRelu_10000x128_128, denseRelu_10000x128_128]
  -- the two-layer perceptron is by definition the composition of the two layers
  rfl

/-- The embedded edge features: a 64-to-128 layer and then a 128-to-128 layer over 200000 rows, the positive part
    after each. -/
theorem u1_ef0 (d : Dev nD) : U1 (F := Ideal) m d (Proc.devRef .tc main_v23) = ef0 (argsOfRef m d) := by
  rw [U1_def]
  simp only [opsC1]
  after_results_simp
  simp only [TRef.ofBuf, TRef.toBuf, cast_eq]
  -- the outer layer contracts 128 columns, the inner one the 64 columns of the edge inputs
  rw [denseRelu_200000x128_128, denseRelu_200000x64_128]
  rfl

/-- Every edge's target node id: row 1 of the edge index, sliced out and flattened to a vector. -/
theorem u1_tgt (d : Dev nD) : U1 (F := Ideal) m d (Proc.devRef .tc main_v3) = tgt (argsOfRef m d) := by
  rw [U1_def]
  simp only [opsC1]
  after_results_simp
  -- the slice of the edge index and its change of shape are the definition's own two operations
  rfl

/-- Every edge's source node id: row 0 of the edge index, sliced out and flattened to a vector. -/
theorem u1_src (d : Dev nD) : U1 (F := Ideal) m d (Proc.devRef .tc main_v1) = src (argsOfRef m d) := by
  rw [U1_def]
  simp only [opsC1]
  after_results_simp
  rfl

end Cert.ReferenceIdeal.Hand

end
-- ==== Proof.RefC2.lean ====
/-
  The first step's joins and gathers: the rows gathered at the targets, and the three-way join the edge update reads.
-/
import proofs.«425812_j65979287601856_3_alg».proof.Proof.RefBase
import proofs.«425812_j65979287601856_3_alg».proof.Proof.RefLayers
import proofs.«425812_j65979287601856_3_alg».proof.Proof.RefJoins
import proofs.«425812_j65979287601856_3_alg».proof.Proof.RefC1
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen Cert.ReferenceIdeal.ValueP Cert.Spec
open Cert.KernelIdeal.Hand (Args outEdge outNode gatherRows nf0 ef0 e1 n1 e2 n2 stepE stepM stepN tgt src catN catE aggregate wrapIdx)

variable (m : (ℓ : Loc nD τ sig) → Buf (Elt Ideal) ℓ)

/-- A three-operand operation's result at its own result buffer, each operand's contents read at its own buffer. -/
private theorem nary3_result {x a b y : Ref sig .tc}
    (f : ((k : Fin 3) → ((![x, a, b] : Fin 3 → Ref sig .tc) k).ty.Contents (Elt Ideal)) → y.ty.Contents (Elt Ideal)) (hxs hy)
    (V : Valuation τ sig (Elt Ideal)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  -- the operation applies its function to the family of its operands' contents; that family, index by index, is the three
  rw [nary_result]
  congr 1
  funext k
  fin_cases k <;> rfl

/-- The rows gathered at the targets: the embedded node features joined with themselves, read at the wrapped target ids. -/
theorem u2_xi (d : Dev nD) : U2 (F := Ideal) m d (Proc.devRef .tc main_v32) = gatherRows (catN (nf0 (argsOfRef m d)) (nf0 (argsOfRef m d))) (tgt (argsOfRef m d)) := by
  rw [U2_def]
  simp only [opsC2]
  after_results
  -- the chunk reads the embedded node features and the target ids as they stood at its entry
  rw [show U1 (F := Ideal) m d (Proc.devRef .tc main_v13) = _ from u1_nf0 m d]
  rw [show U1 (F := Ideal) m d (Proc.devRef .tc main_v3) = _ from u1_tgt m d]
  rfl

/-- The rows gathered at the sources: the same joined table, read at the wrapped source ids. -/
private theorem u2_xj (d : Dev nD) : U2 (F := Ideal) m d (Proc.devRef .tc main_v39) = gatherRows (catN (nf0 (argsOfRef m d)) (nf0 (argsOfRef m d))) (src (argsOfRef m d)) := by
  rw [U2_def]
  simp only [opsC2]
  after_results_simp
  rw [show U1 (F := Ideal) m d (Proc.devRef .tc main_v13) = _ from u1_nf0 m d]
  rw [show U1 (F := Ideal) m d (Proc.devRef .tc main_v1) = _ from u1_src m d]
  rfl

/-- The embedded edge features joined with themselves. -/
private theorem u2_efc (d : Dev nD) : U2 (F := Ideal) m d (Proc.devRef .tc main_v25) = catE (ef0 (argsOfRef m d)) (ef0 (argsOfRef m d)) := by
  rw [U2_def]
  simp only [opsC2]
  after_results_simp
  -- the two operands of the join are still read through the one earlier operation, which does not write them
  repeat (first
    | rw [binary_result]
    | (rw [binary_result_ne]; rotate_left; decide))
  rw [show U1 (F := Ideal) m d (Proc.devRef .tc main_v23) = _ from u1_ef0 m d]
  rfl

/-- The last operation of the chunk joins three buffers it does not write: its result is the join of what they hold
    at the end of the chunk. -/
private theorem u2_join (d : Dev nD) : U2 (F := Ideal) m d (Proc.devRef .tc main_v40)
    = concatenate S200000x768 1 [⟨S200000x256, (U2 (F := Ideal) m d (Proc.devRef .tc main_v32) : FVec Ideal S200000x256 .f32)⟩,
        ⟨S200000x256, (U2 (F := Ideal) m d (Proc.devRef .tc main_v39) : FVec Ideal S200000x256 .f32)⟩,
        ⟨S200000x256, (U2 (F := Ideal) m d (Proc.devRef .tc main_v25) : FVec Ideal S200000x256 .f32)⟩]
        concatenates_S200000x256_S200000x256_S200000x256_S200000x768_d1 := by
  rw [U2_def]
  simp only [opsC2, after_cons, after_nil]
  rw [nary3_result, nary_result_ne, nary_result_ne, nary_result_ne]
  · rfl
  all_goals decide

/-- The edge update's input: the rows gathered at the targets, the rows gathered at the sources and the joined edge
    features, joined along their columns. -/
theorem u2_in (d : Dev nD) : U2 (F := Ideal) m d (Proc.devRef .tc main_v40) = Cert.Spec.cat2 200000 512 256 768 rfl (Cert.Spec.cat2 200000 256 256 512 rfl (gatherRows (catN (nf0 (argsOfRef m d)) (nf0 (argsOfRef m d))) (tgt (argsOfRef m d))) (gatherRows (catN (nf0 (argsOfRef m d)) (nf0 (argsOfRef m d))) (src (argsOfRef m d)))) (catE (ef0 (argsOfRef m d)) (ef0 (argsOfRef m d))) := by
  refine (u2_join m d).trans ?_
  rw [show U2 (F := Ideal) m d (Proc.devRef .tc main_v32) = _ from u2_xi m d]
  rw [show U2 (F := Ideal) m d (Proc.devRef .tc main_v39) = _ from u2_xj m d]
  rw [show U2 (F := Ideal) m d (Proc.devRef .tc main_v25) = _ from u2_efc m d]
  -- a three-way join along the columns is the join of the first two followed by the third
  exact cat3_eq _ _ _

/-- The embedded node features are not written by this chunk. -/
theorem u2_nf0 (d : Dev nD) : U2 (F := Ideal) m d (Proc.devRef .tc main_v13) = nf0 (argsOfRef m d) :=
  (by rw [U2_def]; keep_chunk : U2 (F := Ideal) m d (Proc.devRef .tc main_v13) = U1 m d (Proc.devRef .tc main_v13)).trans (u1_nf0 m d)

/-- The embedded edge features are not written by this chunk. -/
theorem u2_ef0 (d : Dev nD) : U2 (F := Ideal) m d (Proc.devRef .tc main_v23) = ef0 (argsOfRef m d) :=
  (by rw [U2_def]; keep_chunk : U2 (F := Ideal) m d (Proc.devRef .tc main_v23) = U1 m d (Proc.devRef .tc main_v23)).trans (u1_ef0 m d)

/-- The target ids are not written by this chunk. -/
theorem u2_tgt (d : Dev nD) : U2 (F := Ideal) m d (Proc.devRef .tc main_v3) = tgt (argsOfRef m d) :=
  (by rw [U2_def]; keep_chunk : U2 (F := Ideal) m d (Proc.devRef .tc main_v3) = U1 m d (Proc.devRef .tc main_v3)).trans (u1_tgt m d)

/-- The source ids are not written by this chunk. -/
theorem u2_src (d : Dev nD) : U2 (F := Ideal) m d (Proc.devRef .tc main_v1) = src (argsOfRef m d) :=
  (by rw [U2_def]; keep_chunk : U2 (F := Ideal) m d (Proc.devRef .tc main_v1) = U1 m d (Proc.devRef .tc main_v1)).trans (u1_src m d)

end Cert.ReferenceIdeal.Hand

end
-- ==== Proof.RefC3.lean ====
/-
  The first step's edge update and messages.
-/
import proofs.«425812_j65979287601856_3_alg».proof.Proof.RefBase
import proofs.«425812_j65979287601856_3_alg».proof.Proof.RefLayers
import proofs.«425812_j65979287601856_3_alg».proof.Proof.RefJoins
import proofs.«425812_j65979287601856_3_alg».proof.Proof.RefC2
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen Cert.ReferenceIdeal.ValueP Cert.Spec
open Cert.KernelIdeal.Hand (Args outEdge outNode gatherRows nf0 ef0 e1 n1 e2 n2 stepE stepM stepN tgt src catN catE aggregate wrapIdx)

variable (m : (ℓ : Loc nD τ sig) → Buf (Elt Ideal) ℓ)

/-- The new edge features: the joined rows through 768 → 512 → 128, the positive part after each layer. -/
theorem u3_e1 (d : Dev nD) : U3 (F := Ideal) m d (Proc.devRef .tc main_v50) = e1 gatherRows (argsOfRef m d) := by
  rw [U3_def]
  simp only [opsC3]
  after_results_simp
  dsimp only [TRef.ofBuf, TRef.toBuf, cast_eq]
  -- the joined rows and the four parameters, as the chunk finds them
  rw [show U2 (F := Ideal) m d (Proc.devRef .tc main_v40) = _ from u2_in m d]
  rw [args_U2 m d main_arg11 (by decide), show m ((d.tc : Thread nD τ).loc main_arg11) = (argsOfRef m d).We1 from rfl]
  rw [args_U2 m d main_arg12 (by decide), show m ((d.tc : Thread nD τ).loc main_arg12) = (argsOfRef m d).be1 from rfl]
  rw [args_U2 m d main_arg13 (by decide), show m ((d.tc : Thread nD τ).loc main_arg13) = (argsOfRef m d).We2 from rfl]
  rw [args_U2 m d main_arg14 (by decide), show m ((d.tc : Thread nD τ).loc main_arg14) = (argsOfRef m d).be2 from rfl]
  generalize argsOfRef m d = a
  -- the two dense layers with the positive part
  rw [denseRelu_200000x768_512, denseRelu_200000x512_128]
  rfl

/-- The messages: the target rows joined with the new edge features, through 384 → 128 with the positive part. -/
theorem u3_m1 (d : Dev nD) : U3 (F := Ideal) m d (Proc.devRef .tc main_v56) = stepM gatherRows (argsOfRef m d) (nf0 (argsOfRef m d)) (ef0 (argsOfRef m d)) := by
  rw [U3_def]
  simp only [opsC3]
  after_results_simp
  -- the join of the target rows and the new edge features, before its two operands are read
  rw [cat2_eq]
  after_results_simp
  dsimp only [TRef.ofBuf, TRef.toBuf, cast_eq]
  -- the joined rows, the target rows and the six parameters, as the chunk finds them
  rw [show U2 (F := Ideal) m d (Proc.devRef .tc main_v40) = _ from u2_in m d, show U2 (F := Ideal) m d (Proc.devRef .tc main_v32) = _ from u2_xi m d]
  rw [args_U2 m d main_arg11 (by decide), show m ((d.tc : Thread nD τ).loc main_arg11) = (argsOfRef m d).We1 from rfl]
  rw [args_U2 m d main_arg12 (by decide), show m ((d.tc : Thread nD τ).loc main_arg12) = (argsOfRef m d).be1 from rfl]
  rw [args_U2 m d main_arg13 (by decide), show m ((d.tc : Thread nD τ).loc main_arg13) = (argsOfRef m d).We2 from rfl]
  rw [args_U2 m d main_arg14 (by decide), show m ((d.tc : Thread nD τ).loc main_arg14) = (argsOfRef m d).be2 from rfl]
  rw [args_U2 m d main_arg15 (by decide), show m ((d.tc : Thread nD τ).loc main_arg15) = (argsOfRef m d).Wn1 from rfl]
  rw [args_U2 m d main_arg16 (by decide), show m ((d.tc : Thread nD τ).loc main_arg16) = (argsOfRef m d).bn1 from rfl]
  generalize argsOfRef m d = a
  -- the three dense layers with the positive part
  rw [denseRelu_200000x768_512, denseRelu_200000x512_128, denseRelu_200000x384_128]
  rfl

/-! The chunk writes none of the embedded features nor the edges' ends: they are as the chunk found them. -/

theorem u3_nf0 (d : Dev nD) : U3 (F := Ideal) m d (Proc.devRef .tc main_v13) = nf0 (argsOfRef m d) :=
  (by rw [U3_def]; keep_chunk : U3 (F := Ideal) m d (Proc.devRef .tc main_v13) = U2 m d (Proc.devRef .tc main_v13)).trans (u2_nf0 m d)

theorem u3_ef0 (d : Dev nD) : U3 (F := Ideal) m d (Proc.devRef .tc main_v23) = ef0 (argsOfRef m d) :=
  (by rw [U3_def]; keep_chunk : U3 (F := Ideal) m d (Proc.devRef .tc main_v23) = U2 m d (Proc.devRef .tc main_v23)).trans (u2_ef0 m d)

theorem u3_tgt (d : Dev nD) : U3 (F := Ideal) m d (Proc.devRef .tc main_v3) = tgt (argsOfRef m d) :=
  (by rw [U3_def]; keep_chunk : U3 (F := Ideal) m d (Proc.devRef .tc main_v3) = U2 m d (Proc.devRef .tc main_v3)).trans (u2_tgt m d)

theorem u3_src (d : Dev nD) : U3 (F := Ideal) m d (Proc.devRef .tc main_v1) = src (argsOfRef m d) :=
  (by rw [U3_def]; keep_chunk : U3 (F := Ideal) m d (Proc.devRef .tc main_v1) = U2 m d (Proc.devRef .tc main_v1)).trans (u2_src m d)

end Cert.ReferenceIdeal.Hand

end
-- ==== Proof.RefC4.lean ====
/-
  The first node update: the scatter-add of the messages and the update layer.
-/
import proofs.«425812_j65979287601856_3_alg».proof.Proof.RefBase
import proofs.«425812_j65979287601856_3_alg».proof.Proof.RefLayers
import proofs.«425812_j65979287601856_3_alg».proof.Proof.RefJoins
import proofs.«425812_j65979287601856_3_alg».proof.Proof.RefC3
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen Cert.ReferenceIdeal.ValueP Cert.Spec
open Cert.KernelIdeal.Hand (Args outEdge outNode gatherRows nf0 ef0 e1 n1 e2 n2 stepE stepM stepN tgt src catN catE aggregate wrapIdx)

variable (m : (ℓ : Loc nD τ sig) → Buf (Elt Ideal) ℓ)

theorem u4_n1 (d : Dev nD) : U4 (F := Ideal) m d (Proc.devRef .tc main_v64) = n1 gatherRows (argsOfRef m d) := by
  rw [U4_def]
  simp only [opsC4]
  after_results
  rw [show U3 (F := Ideal) m d (Proc.devRef .tc main_v56) = _ from u3_m1 m d]
  rw [show U3 (F := Ideal) m d (Proc.devRef .tc main_v3) = _ from u3_tgt m d]
  rw [show U3 (F := Ideal) m d (Proc.devRef .tc main_arg17) = _ from args_U3 m d main_arg17 (by decide)]
  rw [show U3 (F := Ideal) m d (Proc.devRef .tc main_arg18) = _ from args_U3 m d main_arg18 (by decide)]
  simp only [TRef.ofBuf, TRef.toBuf, cast_eq]
  rw [denseRelu_10000x128_128]
  unfold n1 stepN aggregate
  rfl

theorem u4_e1 (d : Dev nD) : U4 (F := Ideal) m d (Proc.devRef .tc main_v50) = e1 gatherRows (argsOfRef m d) :=
  (by rw [U4_def]; keep_chunk : U4 (F := Ideal) m d (Proc.devRef .tc main_v50) = U3 m d (Proc.devRef .tc main_v50)).trans (u3_e1 m d)

theorem u4_nf0 (d : Dev nD) : U4 (F := Ideal) m d (Proc.devRef .tc main_v13) = nf0 (argsOfRef m d) :=
  (by rw [U4_def]; keep_chunk : U4 (F := Ideal) m d (Proc.devRef .tc main_v13) = U3 m d (Proc.devRef .tc main_v13)).trans (u3_nf0 m d)

theorem u4_ef0 (d : Dev nD) : U4 (F := Ideal) m d (Proc.devRef .tc main_v23) = ef0 (argsOfRef m d) :=
  (by rw [U4_def]; keep_chunk : U4 (F := Ideal) m d (Proc.devRef .tc main_v23) = U3 m d (Proc.devRef .tc main_v23)).trans (u3_ef0 m d)

theorem u4_tgt (d : Dev nD) : U4 (F := Ideal) m d (Proc.devRef .tc main_v3) = tgt (argsOfRef m d) :=
  (by rw [U4_def]; keep_chunk : U4 (F := Ideal) m d (Proc.devRef .tc main_v3) = U3 m d (Proc.devRef .tc main_v3)).trans (u3_tgt m d)

theorem u4_src (d : Dev nD) : U4 (F := Ideal) m d (Proc.devRef .tc main_v1) = src (argsOfRef m d) :=
  (by rw [U4_def]; keep_chunk : U4 (F := Ideal) m d (Proc.devRef .tc main_v1) = U3 m d (Proc.devRef .tc main_v1)).trans (u3_src m d)

end Cert.ReferenceIdeal.Hand

end
-- ==== Proof.RefC5.lean ====
/-
  The second step's joins and gathers.
-/
import proofs.«425812_j65979287601856_3_alg».proof.Proof.RefBase
import proofs.«425812_j65979287601856_3_alg».proof.Proof.RefLayers
import proofs.«425812_j65979287601856_3_alg».proof.Proof.RefJoins
import proofs.«425812_j65979287601856_3_alg».proof.Proof.RefC4
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen Cert.ReferenceIdeal.ValueP Cert.Spec
open Cert.KernelIdeal.Hand (Args outEdge outNode gatherRows nf0 ef0 e1 n1 e2 n2 stepE stepM stepN tgt src catN catE aggregate wrapIdx)

variable (m : (ℓ : Loc nD τ sig) → Buf (Elt Ideal) ℓ)

/-- A three-operand operation whose function reads its operands one by one: its result is that function of the three
    operands' contents, each read at its own buffer. -/
private theorem nary3_result_curried {x a b y : Ref sig .tc}
    (g : x.ty.Contents (Elt Ideal) → a.ty.Contents (Elt Ideal) → b.ty.Contents (Elt Ideal) → y.ty.Contents (Elt Ideal)) (hxs hy)
    (V : Valuation τ sig (Elt Ideal)) :
    (nary (τ := τ) ![x, a, b] y (fun u => g (u 0) (u 1) (u 2)) hxs hy).result V (Proc.devRef .tc y)
      = g (V (Proc.devRef .tc x)) (V (Proc.devRef .tc a)) (V (Proc.devRef .tc b)) := by
  rw [nary_result]
  rfl

/-- The rows of the joined node features (embedded, first step) gathered at the wrapped targets. -/
theorem u5_xi (d : Dev nD) : U5 (F := Ideal) m d (Proc.devRef .tc main_v73) = gatherRows (catN (nf0 (argsOfRef m d)) (n1 gatherRows (argsOfRef m d))) (tgt (argsOfRef m d)) := by
  rw [U5_def]
  simp only [opsC5]
  after_results_simp
  rw [show U4 (F := Ideal) m d (Proc.devRef .tc main_v13) = _ from u4_nf0 m d,
    show U4 (F := Ideal) m d (Proc.devRef .tc main_v64) = _ from u4_n1 m d,
    show U4 (F := Ideal) m d (Proc.devRef .tc main_v3) = _ from u4_tgt m d]
  rfl

/-- The second step's edge-layer input: the gathered target rows, the gathered source rows and the joined edge
    features (embedded, first step), joined along the columns. The three-way join is the join of the first two
    followed by the third. -/
theorem u5_in (d : Dev nD) : U5 (F := Ideal) m d (Proc.devRef .tc main_v81) = Cert.Spec.cat2 200000 512 256 768 rfl (Cert.Spec.cat2 200000 256 256 512 rfl (gatherRows (catN (nf0 (argsOfRef m d)) (n1 gatherRows (argsOfRef m d))) (tgt (argsOfRef m d))) (gatherRows (catN (nf0 (argsOfRef m d)) (n1 gatherRows (argsOfRef m d))) (src (argsOfRef m d)))) (catE (ef0 (argsOfRef m d)) (e1 gatherRows (argsOfRef m d))) := by
  rw [U5_def]
  simp only [opsC5]
  simp only [after_cons, after_nil]
  rw [nary3_result_curried (x := main_v73) (a := main_v80) (b := main_v66) (y := main_v81)
    (fun XI XJ EFC => concatenate S200000x768 1 [⟨S200000x256, XI⟩, ⟨S200000x256, XJ⟩, ⟨S200000x256, EFC⟩] concatenates_S200000x256_S200000x256_S200000x256_S200000x768_d1)]
  rw [cat3_eq]
  after_results_simp
  repeat (first | (rw [binary_result_ne]; rotate_left; decide))
  rw [show U4 (F := Ideal) m d (Proc.devRef .tc main_v13) = _ from u4_nf0 m d,
    show U4 (F := Ideal) m d (Proc.devRef .tc main_v64) = _ from u4_n1 m d,
    show U4 (F := Ideal) m d (Proc.devRef .tc main_v3) = _ from u4_tgt m d,
    show U4 (F := Ideal) m d (Proc.devRef .tc main_v1) = _ from u4_src m d,
    show U4 (F := Ideal) m d (Proc.devRef .tc main_v23) = _ from u4_ef0 m d,
    show U4 (F := Ideal) m d (Proc.devRef .tc main_v50) = _ from u4_e1 m d]
  rfl

/-- The targets are carried over these operations: none of them writes that buffer. -/
theorem u5_tgt (d : Dev nD) : U5 (F := Ideal) m d (Proc.devRef .tc main_v3) = tgt (argsOfRef m d) := by
  exact (by rw [U5_def]; keep_chunk : U5 (F := Ideal) m d (Proc.devRef .tc main_v3) = U4 m d (Proc.devRef .tc main_v3)).trans (u4_tgt m d)

end Cert.ReferenceIdeal.Hand

end
-- ==== Proof.RefC6.lean ====
/-
  The second step's edge update and messages.
-/
import proofs.«425812_j65979287601856_3_alg».proof.Proof.RefBase
import proofs.«425812_j65979287601856_3_alg».proof.Proof.RefLayers
import proofs.«425812_j65979287601856_3_alg».proof.Proof.RefJoins
import proofs.«425812_j65979287601856_3_alg».proof.Proof.RefC5
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen Cert.ReferenceIdeal.ValueP Cert.Spec
open Cert.KernelIdeal.Hand (Args outEdge outNode gatherRows nf0 ef0 e1 n1 e2 n2 stepE stepM stepN tgt src catN catE aggregate wrapIdx)

variable (m : (ℓ : Loc nD τ sig) → Buf (Elt Ideal) ℓ)

theorem u6_e2 (d : Dev nD) : U6 (F := Ideal) m d (Proc.devRef .tc main_v91) = e2 gatherRows (argsOfRef m d) := by
  -- the buffer is written by this block: read it as the operations' functions of the block's entry contents
  rw [U6_def]
  simp only [opsC6]
  after_results_simp
  simp only [TRef.ofBuf, TRef.toBuf, cast_eq]
  -- the entry contents: the joined 768 columns of the second step, and the edge update's weights and biases
  rw [show U5 (F := Ideal) m d (Proc.devRef .tc main_v81) = _ from u5_in m d]
  rw [args_U5 m d main_arg11 (by decide), args_U5 m d main_arg12 (by decide),
    args_U5 m d main_arg13 (by decide), args_U5 m d main_arg14 (by decide)]
  rw [show m ((d.tc : Thread nD τ).loc main_arg11) = (argsOfRef m d).We1 from rfl,
    show m ((d.tc : Thread nD τ).loc main_arg12) = (argsOfRef m d).be1 from rfl,
    show m ((d.tc : Thread nD τ).loc main_arg13) = (argsOfRef m d).We2 from rfl,
    show m ((d.tc : Thread nD τ).loc main_arg14) = (argsOfRef m d).be2 from rfl]
  generalize argsOfRef m d = a
  -- two dense layers with the positive part: 768 → 512, then 512 → 128
  rw [denseRelu_200000x768_512]
  rw [denseRelu_200000x512_128]
  -- this is the edge update of the second step, by definition
  unfold e2 stepE Cert.Spec.edgeNew Cert.Spec.mlp2
  rfl

theorem u6_m2 (d : Dev nD) : U6 (F := Ideal) m d (Proc.devRef .tc main_v97) = stepM gatherRows (argsOfRef m d) (n1 gatherRows (argsOfRef m d)) (e1 gatherRows (argsOfRef m d)) := by
  -- the buffer is written by this block: read it as the operations' functions of the block's entry contents;
  -- the operands of the join along columns are read one by one
  rw [U6_def]
  simp only [opsC6]
  after_results_simp
  repeat (first
    | rw [nullary_result] | rw [unary_result] | rw [binary_result]
    | (rw [nullary_result_ne]; rotate_left; decide)
    | (rw [unary_result_ne]; rotate_left; decide)
    | (rw [binary_result_ne]; rotate_left; decide))
  simp only [TRef.ofBuf, TRef.toBuf, cast_eq]
  -- the entry contents: the joined 768 columns, the rows gathered at the targets, and the weights and biases
  rw [show U5 (F := Ideal) m d (Proc.devRef .tc main_v81) = _ from u5_in m d,
    show U5 (F := Ideal) m d (Proc.devRef .tc main_v73) = _ from u5_xi m d]
  rw [args_U5 m d main_arg11 (by decide), args_U5 m d main_arg12 (by decide),
    args_U5 m d main_arg13 (by decide), args_U5 m d main_arg14 (by decide),
    args_U5 m d main_arg15 (by decide), args_U5 m d main_arg16 (by decide)]
  rw [show m ((d.tc : Thread nD τ).loc main_arg11) = (argsOfRef m d).We1 from rfl,
    show m ((d.tc : Thread nD τ).loc main_arg12) = (argsOfRef m d).be1 from rfl,
    show m ((d.tc : Thread nD τ).loc main_arg13) = (argsOfRef m d).We2 from rfl,
    show m ((d.tc : Thread nD τ).loc main_arg14) = (argsOfRef m d).be2 from rfl,
    show m ((d.tc : Thread nD τ).loc main_arg15) = (argsOfRef m d).Wn1 from rfl,
    show m ((d.tc : Thread nD τ).loc main_arg16) = (argsOfRef m d).bn1 from rfl]
  generalize argsOfRef m d = a
  -- the edge update (768 → 512 → 128), its join with the target rows (384 columns), then 384 → 128
  rw [denseRelu_200000x768_512]
  rw [denseRelu_200000x512_128]
  rw [cat2_eq]
  rw [denseRelu_200000x384_128]
  -- this is the message of the second step, by definition
  unfold stepM stepE Cert.Spec.message Cert.Spec.edgeNew Cert.Spec.mlp2
  rfl

theorem u6_tgt (d : Dev nD) : U6 (F := Ideal) m d (Proc.devRef .tc main_v3) = tgt (argsOfRef m d) :=
  -- no operation of this block writes the buffer of the targets: it holds what it held at the block's entry
  (by rw [U6_def]; keep_chunk : U6 (F := Ideal) m d (Proc.devRef .tc main_v3) = U5 m d (Proc.devRef .tc main_v3)).trans (u5_tgt m d)

end Cert.ReferenceIdeal.Hand

end
-- ==== Proof.RefC7.lean ====
/-
  The second node update.
-/
import proofs.«425812_j65979287601856_3_alg».proof.Proof.RefBase
import proofs.«425812_j65979287601856_3_alg».proof.Proof.RefLayers
import proofs.«425812_j65979287601856_3_alg».proof.Proof.RefJoins
import proofs.«425812_j65979287601856_3_alg».proof.Proof.RefC6
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen Cert.ReferenceIdeal.ValueP Cert.Spec
open Cert.KernelIdeal.Hand (Args outEdge outNode gatherRows nf0 ef0 e1 n1 e2 n2 stepE stepM stepN tgt src catN catE aggregate wrapIdx)

variable (m : (ℓ : Loc nD τ sig) → Buf (Elt Ideal) ℓ)

/-- The second step's new node features: the messages of the second step are added into their target nodes' rows from
    zero, and the sums pass through the dense layer of the node update (weights Wu, bias bu) followed by the rectifier.
    Each operand at the entry of this stretch of operations is the corresponding term of the network (the targets, the
    second step's messages, the two parameters); the product, the bias broadcast along the rows, the sum and the maximum
    with zero are together the row-wise dense layer with rectifier; what remains is the definition of the step's node
    update. -/
theorem u7_n2 (d : Dev nD) : U7 (F := Ideal) m d (Proc.devRef .tc main_v105) = n2 gatherRows (argsOfRef m d) := by
  rw [U7_def]
  simp only [opsC7]
  after_results
  simp only [TRef.ofBuf, TRef.toBuf, cast_eq]
  rw [show U6 (F := Ideal) m d (Proc.devRef .tc main_v3) = _ from u6_tgt m d]
  rw [show U6 (F := Ideal) m d (Proc.devRef .tc main_v97) = _ from u6_m2 m d]
  rw [show U6 (F := Ideal) m d (Proc.devRef .tc main_arg17) = _ from args_U6 m d main_arg17 (by decide)]
  rw [show U6 (F := Ideal) m d (Proc.devRef .tc main_arg18) = _ from args_U6 m d main_arg18 (by decide)]
  rw [denseRelu_10000x128_128]
  rfl

/-- The second step's edge features are written by none of these operations, so they are what they were. -/
theorem u7_e2 (d : Dev nD) : U7 (F := Ideal) m d (Proc.devRef .tc main_v91) = e2 gatherRows (argsOfRef m d) :=
  (by rw [U7_def]; keep_chunk : U7 (F := Ideal) m d (Proc.devRef .tc main_v91) = U6 m d (Proc.devRef .tc main_v91)).trans (u6_e2 m d)

end Cert.ReferenceIdeal.Hand

end
-- ==== Proof.RefC8.lean ====
/-
  The two scoring heads and the final reshapes: the reference's two results are the network's over its own gather.
-/
import proofs.«425812_j65979287601856_3_alg».proof.Proof.RefBase
import proofs.«425812_j65979287601856_3_alg».proof.Proof.RefLayers
import proofs.«425812_j65979287601856_3_alg».proof.Proof.RefJoins
import proofs.«425812_j65979287601856_3_alg».proof.Proof.RefC7
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen Cert.ReferenceIdeal.ValueP Cert.Spec
open Cert.KernelIdeal.Hand (Args outEdge outNode gatherRows nf0 ef0 e1 n1 e2 n2 stepE stepM stepN tgt src catN catE aggregate wrapIdx)

variable (m : (ℓ : Loc nD τ sig) → Buf (Elt Ideal) ℓ)

/-- The node scores. -/
theorem u8_node (d : Dev nD) : U8 (F := Ideal) m d (Proc.devRef .tc main_v115) = outNode gatherRows (argsOfRef m d) := by
  -- the last stretch of operations, folded: the result buffer holds the operations' functions composed,
  -- applied to what the final node features' buffer and the four parameter buffers held at the stretch's entry
  rw [U8_def]
  simp only [opsC8]
  after_results_simp
  simp only [TRef.ofBuf, TRef.toBuf, cast_eq]
  -- at the entry: the final node features, and the head's parameters as launched
  rw [show U7 (F := Ideal) m d (Proc.devRef .tc main_v105) = _ from u7_n2 m d]
  rw [args_U7 m d main_arg19 (by decide), args_U7 m d main_arg20 (by decide), args_U7 m d main_arg21 (by decide),
    args_U7 m d main_arg22 (by decide)]
  -- product, bias and positive part are the dense layer 128 → 128; product and bias alone the layer 128 → 1
  rw [denseRelu_10000x128_128, dense_10000x128_1]
  -- what is left is the scoring head of the final node features, its one column read as a vector
  rfl

/-- The edge scores. -/
theorem u8_edge (d : Dev nD) : U8 (F := Ideal) m d (Proc.devRef .tc main_v125) = outEdge gatherRows (argsOfRef m d) := by
  -- the same stretch read at the edge head's result: the composed functions over the final edge features'
  -- buffer, which the node head's operations do not write, and the edge head's four parameter buffers
  rw [U8_def]
  simp only [opsC8]
  after_results_simp
  simp only [TRef.ofBuf, TRef.toBuf, cast_eq]
  -- at the entry: the final edge features, and the head's parameters as launched
  rw [show U7 (F := Ideal) m d (Proc.devRef .tc main_v91) = _ from u7_e2 m d]
  rw [args_U7 m d main_arg23 (by decide), args_U7 m d main_arg24 (by decide), args_U7 m d main_arg25 (by decide),
    args_U7 m d main_arg26 (by decide)]
  -- the dense layer 128 → 128 with the positive part, then the layer 128 → 1 without it
  rw [denseRelu_200000x128_128, dense_200000x128_1]
  -- the scoring head of the final edge features, its one column read as a vector
  rfl

end Cert.ReferenceIdeal.Hand

end
-- ==== Proof.lean ====
/-
  The kernel program and the jnp reference compute the same message-passing network.

  Both embed nodes and edges by two-layer perceptrons, run two message-passing steps (gather the joined node rows at
  every edge's target and source, update the edge features and build the messages edge by edge, add the messages into
  their target rows, update the node features by a dense layer), and score edges and nodes by two-layer heads. Read
  over the extended reals, where a change of float format is the identity and a matrix product is the plain sum over
  the contracted axis, every pallas_call of the kernel program writes, block of rows by block of rows, the same
  row-wise function the reference applies to the whole array. The two programs differ in one place: the kernel's
  gather replaces a row whose node id lies outside the node table by a fill constant, the reference's does not. The
  precondition says every node id lies inside the table, and there the two gathers agree.

  The frames of the two kernel programs are the generated ones; the reference's frame is its run with the results
  dropped; the ideal pass rewrote nothing, so there is nothing to preserve.
-/
import proofs.«425812_j65979287601856_3_alg».proof.Defs
import proofs.«425812_j65979287601856_3_alg».proof.Proof.Gen.Kernel
import proofs.«425812_j65979287601856_3_alg».proof.Proof.Gen.Kernel.Frame
import proofs.«425812_j65979287601856_3_alg».proof.Proof.Gen.KernelIdeal
import proofs.«425812_j65979287601856_3_alg».proof.Proof.Gen.KernelIdeal.Frame
import proofs.«425812_j65979287601856_3_alg».proof.Proof.Gen.ReferenceIdeal
import proofs.«425812_j65979287601856_3_alg».proof.Proof.Gen.Pre_finite_inputs
import proofs.«425812_j65979287601856_3_alg».proof.Proof.RunFinal
import proofs.«425812_j65979287601856_3_alg».proof.Proof.ChainD
import proofs.«425812_j65979287601856_3_alg».proof.Proof.Take
import proofs.«425812_j65979287601856_3_alg».proof.Proof.RefC8
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Hand Cert.ReferenceIdeal.Hand

/-- With every node id inside the node table, the network over the kernel's gather is the network over the
    reference's gather. -/
theorem gathers_agree (m : (ℓ : Loc Cert.KernelIdeal.nD Cert.KernelIdeal.τ Cert.KernelIdeal.sig) → Buf (Elt Ideal) ℓ)
    (hpre : Cert.Pre_KernelIdeal m) (c : Dev Cert.KernelIdeal.nD) :
    outEdge takeRows (argsOf m c) = outEdge gatherRows (argsOf m c)
      ∧ outNode takeRows (argsOf m c) = outNode gatherRows (argsOf m c) :=
  net_congr takeRows gatherRows (argsOf m c)
    (fun T => takeRows_eq_gatherRows T _ (tgt_inRange (argsOf m c) (inRange_of_pre m hpre c)))
    (fun T => takeRows_eq_gatherRows T _ (src_inRange (argsOf m c) (inRange_of_pre m hpre c)))

/-- From memories agreeing on the arguments the two programs end with the network's edge scores and node scores,
    over the reference's gather, in their result buffers. -/
theorem algebraic : Cert.algebraic_KernelIdeal_ReferenceIdeal := by
  intro m ρ m' ρ' hpre hagree
  refine ⟨fun c => outEdge gatherRows (argsOf m c), fun c => outNode gatherRows (argsOf m c), ?_, ?_⟩
  · exact (θ_run Cert.KernelIdeal.defs _ _).mono (fun r h c =>
      ⟨(h c _ (Cert.KernelIdeal.Gen.mem_uc Cert.KernelIdeal.main_v43 (by decide))).trans
          ((final_edge m ρ c).trans (gathers_agree m hpre c).1),
        (h c _ (Cert.KernelIdeal.Gen.mem_uc Cert.KernelIdeal.main_v39 (by decide))).trans
          ((final_node m ρ c).trans (gathers_agree m hpre c).2),
        (h c _ (Cert.KernelIdeal.Gen.mem_uc Cert.KernelIdeal.main_arg0 (by decide))).trans (Cert.KernelIdeal.Gen.W23_main_arg0 m ρ c),
        (h c _ (Cert.KernelIdeal.Gen.mem_uc Cert.KernelIdeal.main_arg1 (by decide))).trans (Cert.KernelIdeal.Gen.W23_main_arg1 m ρ c),
        (h c _ (Cert.KernelIdeal.Gen.mem_uc Cert.KernelIdeal.main_arg2 (by decide))).trans (Cert.KernelIdeal.Gen.W23_main_arg2 m ρ c),
        (h c _ (Cert.KernelIdeal.Gen.mem_uc Cert.KernelIdeal.main_arg3 (by decide))).trans (Cert.KernelIdeal.Gen.W23_main_arg3 m ρ c),
        (h c _ (Cert.KernelIdeal.Gen.mem_uc Cert.KernelIdeal.main_arg4 (by decide))).trans (Cert.KernelIdeal.Gen.W23_main_arg4 m ρ c),
        (h c _ (Cert.KernelIdeal.Gen.mem_uc Cert.KernelIdeal.main_arg5 (by decide))).trans (Cert.KernelIdeal.Gen.W23_main_arg5 m ρ c),
        (h c _ (Cert.KernelIdeal.Gen.mem_uc Cert.KernelIdeal.main_arg6 (by decide))).trans (Cert.KernelIdeal.Gen.W23_main_arg6 m ρ c),
        (h c _ (Cert.KernelIdeal.Gen.mem_uc Cert.KernelIdeal.main_arg7 (by decide))).trans (Cert.KernelIdeal.Gen.W23_main_arg7 m ρ c),
        (h c _ (Cert.KernelIdeal.Gen.mem_uc Cert.KernelIdeal.main_arg8 (by decide))).trans (Cert.KernelIdeal.Gen.W23_main_arg8 m ρ c),
        (h c _ (Cert.KernelIdeal.Gen.mem_uc Cert.KernelIdeal.main_arg9 (by decide))).trans (Cert.KernelIdeal.Gen.W23_main_arg9 m ρ c),
        (h c _ (Cert.KernelIdeal.Gen.mem_uc Cert.KernelIdeal.main_arg10 (by decide))).trans (Cert.KernelIdeal.Gen.W23_main_arg10 m ρ c),
        (h c _ (Cert.KernelIdeal.Gen.mem_uc Cert.KernelIdeal.main_arg11 (by decide))).trans (Cert.KernelIdeal.Gen.W23_main_arg11 m ρ c),
        (h c _ (Cert.KernelIdeal.Gen.mem_uc Cert.KernelIdeal.main_arg12 (by decide))).trans (Cert.KernelIdeal.Gen.W23_main_arg12 m ρ c),
        (h c _ (Cert.KernelIdeal.Gen.mem_uc Cert.KernelIdeal.main_arg13 (by decide))).trans (Cert.KernelIdeal.Gen.W23_main_arg13 m ρ c),
        (h c _ (Cert.KernelIdeal.Gen.mem_uc Cert.KernelIdeal.main_arg14 (by decide))).trans (Cert.KernelIdeal.Gen.W23_main_arg14 m ρ c),
        (h c _ (Cert.KernelIdeal.Gen.mem_uc Cert.KernelIdeal.main_arg15 (by decide))).trans (Cert.KernelIdeal.Gen.W23_main_arg15 m ρ c),
        (h c _ (Cert.KernelIdeal.Gen.mem_uc Cert.KernelIdeal.main_arg16 (by decide))).trans (Cert.KernelIdeal.Gen.W23_main_arg16 m ρ c),
        (h c _ (Cert.KernelIdeal.Gen.mem_uc Cert.KernelIdeal.main_arg17 (by decide))).trans (Cert.KernelIdeal.Gen.W23_main_arg17 m ρ c),
        (h c _ (Cert.KernelIdeal.Gen.mem_uc Cert.KernelIdeal.main_arg18 (by decide))).trans (Cert.KernelIdeal.Gen.W23_main_arg18 m ρ c),
        (h c _ (Cert.KernelIdeal.Gen.mem_uc Cert.KernelIdeal.main_arg19 (by decide))).trans (Cert.KernelIdeal.Gen.W23_main_arg19 m ρ c),
        (h c _ (Cert.KernelIdeal.Gen.mem_uc Cert.KernelIdeal.main_arg20 (by decide))).trans (Cert.KernelIdeal.Gen.W23_main_arg20 m ρ c),
        (h c _ (Cert.KernelIdeal.Gen.mem_uc Cert.KernelIdeal.main_arg21 (by decide))).trans (Cert.KernelIdeal.Gen.W23_main_arg21 m ρ c),
        (h c _ (Cert.KernelIdeal.Gen.mem_uc Cert.KernelIdeal.main_arg22 (by decide))).trans (Cert.KernelIdeal.Gen.W23_main_arg22 m ρ c),
        (h c _ (Cert.KernelIdeal.Gen.mem_uc Cert.KernelIdeal.main_arg23 (by decide))).trans (Cert.KernelIdeal.Gen.W23_main_arg23 m ρ c),
        (h c _ (Cert.KernelIdeal.Gen.mem_uc Cert.KernelIdeal.main_arg24 (by decide))).trans (Cert.KernelIdeal.Gen.W23_main_arg24 m ρ c),
        (h c _ (Cert.KernelIdeal.Gen.mem_uc Cert.KernelIdeal.main_arg25 (by decide))).trans (Cert.KernelIdeal.Gen.W23_main_arg25 m ρ c),
        (h c _ (Cert.KernelIdeal.Gen.mem_uc Cert.KernelIdeal.main_arg26 (by decide))).trans (Cert.KernelIdeal.Gen.W23_main_arg26 m ρ c)⟩)
      (Cert.KernelIdeal.Gen.run_final m ρ)
  · have hargs : ∀ c, argsOfRef m' c = argsOf m c := fun c => by
      obtain ⟨h0, h1, h2, h3, h4, h5, h6, h7, h8, h9, h10, h11, h12, h13, h14, h15, h16, h17, h18, h19, h20, h21, h22, h23, h24, h25, h26⟩ := hagree c
      unfold argsOfRef argsOf
      simp only [h0, h1, h2, h3, h4, h5, h6, h7, h8, h9, h10, h11, h12, h13, h14, h15, h16, h17, h18, h19, h20, h21, h22, h23, h24, h25, h26]
    exact (θ_run Cert.ReferenceIdeal.defs _ _).mono (fun r h c =>
      ⟨(h c Cert.ReferenceIdeal.main_v125).trans ((u8_edge m' c).trans (by rw [hargs c])),
        (h c Cert.ReferenceIdeal.main_v115).trans ((u8_node m' c).trans (by rw [hargs c])),
        (h c Cert.ReferenceIdeal.main_arg0).trans (args_U8 m' c Cert.ReferenceIdeal.main_arg0 (by decide)),
        (h c Cert.ReferenceIdeal.main_arg1).trans (args_U8 m' c Cert.ReferenceIdeal.main_arg1 (by decide)),
        (h c Cert.ReferenceIdeal.main_arg2).trans (args_U8 m' c Cert.ReferenceIdeal.main_arg2 (by decide)),
        (h c Cert.ReferenceIdeal.main_arg3).trans (args_U8 m' c Cert.ReferenceIdeal.main_arg3 (by decide)),
        (h c Cert.ReferenceIdeal.main_arg4).trans (args_U8 m' c Cert.ReferenceIdeal.main_arg4 (by decide)),
        (h c Cert.ReferenceIdeal.main_arg5).trans (args_U8 m' c Cert.ReferenceIdeal.main_arg5 (by decide)),
        (h c Cert.ReferenceIdeal.main_arg6).trans (args_U8 m' c Cert.ReferenceIdeal.main_arg6 (by decide)),
        (h c Cert.ReferenceIdeal.main_arg7).trans (args_U8 m' c Cert.ReferenceIdeal.main_arg7 (by decide)),
        (h c Cert.ReferenceIdeal.main_arg8).trans (args_U8 m' c Cert.ReferenceIdeal.main_arg8 (by decide)),
        (h c Cert.ReferenceIdeal.main_arg9).trans (args_U8 m' c Cert.ReferenceIdeal.main_arg9 (by decide)),
        (h c Cert.ReferenceIdeal.main_arg10).trans (args_U8 m' c Cert.ReferenceIdeal.main_arg10 (by decide)),
        (h c Cert.ReferenceIdeal.main_arg11).trans (args_U8 m' c Cert.ReferenceIdeal.main_arg11 (by decide)),
        (h c Cert.ReferenceIdeal.main_arg12).trans (args_U8 m' c Cert.ReferenceIdeal.main_arg12 (by decide)),
        (h c Cert.ReferenceIdeal.main_arg13).trans (args_U8 m' c Cert.ReferenceIdeal.main_arg13 (by decide)),
        (h c Cert.ReferenceIdeal.main_arg14).trans (args_U8 m' c Cert.ReferenceIdeal.main_arg14 (by decide)),
        (h c Cert.ReferenceIdeal.main_arg15).trans (args_U8 m' c Cert.ReferenceIdeal.main_arg15 (by decide)),
        (h c Cert.ReferenceIdeal.main_arg16).trans (args_U8 m' c Cert.ReferenceIdeal.main_arg16 (by decide)),
        (h c Cert.ReferenceIdeal.main_arg17).trans (args_U8 m' c Cert.ReferenceIdeal.main_arg17 (by decide)),
        (h c Cert.ReferenceIdeal.main_arg18).trans (args_U8 m' c Cert.ReferenceIdeal.main_arg18 (by decide)),
        (h c Cert.ReferenceIdeal.main_arg19).trans (args_U8 m' c Cert.ReferenceIdeal.main_arg19 (by decide)),
        (h c Cert.ReferenceIdeal.main_arg20).trans (args_U8 m' c Cert.ReferenceIdeal.main_arg20 (by decide)),
        (h c Cert.ReferenceIdeal.main_arg21).trans (args_U8 m' c Cert.ReferenceIdeal.main_arg21 (by decide)),
        (h c Cert.ReferenceIdeal.main_arg22).trans (args_U8 m' c Cert.ReferenceIdeal.main_arg22 (by decide)),
        (h c Cert.ReferenceIdeal.main_arg23).trans (args_U8 m' c Cert.ReferenceIdeal.main_arg23 (by decide)),
        (h c Cert.ReferenceIdeal.main_arg24).trans (args_U8 m' c Cert.ReferenceIdeal.main_arg24 (by decide)),
        (h c Cert.ReferenceIdeal.main_arg25).trans (args_U8 m' c Cert.ReferenceIdeal.main_arg25 (by decide)),
        (h c Cert.ReferenceIdeal.main_arg26).trans (args_U8 m' c Cert.ReferenceIdeal.main_arg26 (by decide))⟩)
      (Cert.ReferenceIdeal.ValueP.run_all (F := Ideal) m' ρ')

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c =>
      ⟨(h c Cert.ReferenceIdeal.main_arg0).trans (args_U8 m c Cert.ReferenceIdeal.main_arg0 (by decide)),
      (h c Cert.ReferenceIdeal.main_arg1).trans (args_U8 m c Cert.ReferenceIdeal.main_arg1 (by decide)),
      (h c Cert.ReferenceIdeal.main_arg2).trans (args_U8 m c Cert.ReferenceIdeal.main_arg2 (by decide)),
      (h c Cert.ReferenceIdeal.main_arg3).trans (args_U8 m c Cert.ReferenceIdeal.main_arg3 (by decide)),
      (h c Cert.ReferenceIdeal.main_arg4).trans (args_U8 m c Cert.ReferenceIdeal.main_arg4 (by decide)),
      (h c Cert.ReferenceIdeal.main_arg5).trans (args_U8 m c Cert.ReferenceIdeal.main_arg5 (by decide)),
      (h c Cert.ReferenceIdeal.main_arg6).trans (args_U8 m c Cert.ReferenceIdeal.main_arg6 (by decide)),
      (h c Cert.ReferenceIdeal.main_arg7).trans (args_U8 m c Cert.ReferenceIdeal.main_arg7 (by decide)),
      (h c Cert.ReferenceIdeal.main_arg8).trans (args_U8 m c Cert.ReferenceIdeal.main_arg8 (by decide)),
      (h c Cert.ReferenceIdeal.main_arg9).trans (args_U8 m c Cert.ReferenceIdeal.main_arg9 (by decide)),
      (h c Cert.ReferenceIdeal.main_arg10).trans (args_U8 m c Cert.ReferenceIdeal.main_arg10 (by decide)),
      (h c Cert.ReferenceIdeal.main_arg11).trans (args_U8 m c Cert.ReferenceIdeal.main_arg11 (by decide)),
      (h c Cert.ReferenceIdeal.main_arg12).trans (args_U8 m c Cert.ReferenceIdeal.main_arg12 (by decide)),
      (h c Cert.ReferenceIdeal.main_arg13).trans (args_U8 m c Cert.ReferenceIdeal.main_arg13 (by decide)),
      (h c Cert.ReferenceIdeal.main_arg14).trans (args_U8 m c Cert.ReferenceIdeal.main_arg14 (by decide)),
      (h c Cert.ReferenceIdeal.main_arg15).trans (args_U8 m c Cert.ReferenceIdeal.main_arg15 (by decide)),
      (h c Cert.ReferenceIdeal.main_arg16).trans (args_U8 m c Cert.ReferenceIdeal.main_arg16 (by decide)),
      (h c Cert.ReferenceIdeal.main_arg17).trans (args_U8 m c Cert.ReferenceIdeal.main_arg17 (by decide)),
      (h c Cert.ReferenceIdeal.main_arg18).trans (args_U8 m c Cert.ReferenceIdeal.main_arg18 (by decide)),
      (h c Cert.ReferenceIdeal.main_arg19).trans (args_U8 m c Cert.ReferenceIdeal.main_arg19 (by decide)),
      (h c Cert.ReferenceIdeal.main_arg20).trans (args_U8 m c Cert.ReferenceIdeal.main_arg20 (by decide)),
      (h c Cert.ReferenceIdeal.main_arg21).trans (args_U8 m c Cert.ReferenceIdeal.main_arg21 (by decide)),
      (h c Cert.ReferenceIdeal.main_arg22).trans (args_U8 m c Cert.ReferenceIdeal.main_arg22 (by decide)),
      (h c Cert.ReferenceIdeal.main_arg23).trans (args_U8 m c Cert.ReferenceIdeal.main_arg23 (by decide)),
      (h c Cert.ReferenceIdeal.main_arg24).trans (args_U8 m c Cert.ReferenceIdeal.main_arg24 (by decide)),
      (h c Cert.ReferenceIdeal.main_arg25).trans (args_U8 m c Cert.ReferenceIdeal.main_arg25 (by decide)),
      (h c Cert.ReferenceIdeal.main_arg26).trans (args_U8 m c Cert.ReferenceIdeal.main_arg26 (by decide))⟩)
      (Cert.ReferenceIdeal.ValueP.run_all (F := Ideal) m ρ),
    trivial,
    algebraic⟩

end Cert.Proof

end
